-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v191_0)) (v1 : (c : Dev Cert.KernelIdeal.nD) → Buf (Elt Ideal) ((c.tc : Thread Cert.KernelIdeal.nD Cert.KernelIdeal.τ).loc Cert.KernelIdeal.main_v191_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v191_0) = v0 c
          ∧ r.2.mem ((c.tc : Thread Cert.KernelIdeal.nD Cert.KernelIdeal.τ).loc Cert.KernelIdeal.main_v191_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v302) = v0 c
          ∧ r.2.mem ((c.tc : Thread Cert.ReferenceIdeal.nD Cert.ReferenceIdeal.τ).loc Cert.ReferenceIdeal.main_v304) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x3 : Shape := ⟨2, ![2000000, 3]⟩
abbrev S192x192x192x28 : Shape := ⟨4, ![192, 192, 192, 28]⟩
abbrev S_ : Shape := ⟨0, ![]⟩

class Facts : Prop where
  bcast_S_S2000000x3 : S_.BroadcastsInDim S2000000x3 (![] : Fin 0 → Fin S2000000x3.rank)
  reducesTo_S2000000x3_S_d0_1 : S2000000x3.ReducesTo [0, 1] S_
  h_S_ : 0 < S_.numel
  bcast_S_S192x192x192x28 : S_.BroadcastsInDim S192x192x192x28 (![] : Fin 0 → Fin S192x192x192x28.rank)
  reducesTo_S192x192x192x28_S_d0_1_2_3 : S192x192x192x28.ReducesTo [0, 1, 2, 3] S_

variable [Facts]

def fn {F : FTy → Type} [FloatOps F] (main_arg0 : FVec F S2000000x3 .f32) (main_arg1 : FVec F S192x192x192x28 .f32) : IVec S_ 1 :=
  let main_v0 : FVec F S2000000x3 .f32 := Host.absf main_arg0
  let main_cst : FVec F S_ .f32 := constant S_ .f32 0x7F800000#32
  let main_v1 : FVec F S2000000x3 .f32 := broadcastInDim S2000000x3 ![] bcast_S_S2000000x3 main_cst
  let main_v2 : IVec S2000000x3 1 := cmpf .olt main_v0 main_v1
  let main_c : IVec S_ 1 := constantI S_ 1 1#1
  let main_v3 : IVec S_ 1 := (fun x v => Host.reduce IntOp.andi x v reducesTo_S2000000x3_S_d0_1 h_S_) main_v2 main_c
  let main_v4 : FVec F S192x192x192x28 .f32 := Host.absf main_arg1
  let main_cst_0 : FVec F S_ .f32 := constant S_ .f32 0x7F800000#32
  let main_v5 : FVec F S192x192x192x28 .f32 := broadcastInDim S192x192x192x28 ![] bcast_S_S192x192x192x28 main_cst_0
  let main_v6 : IVec S192x192x192x28 1 := cmpf .olt main_v4 main_v5
  let main_c_1 : IVec S_ 1 := constantI S_ 1 1#1
  let main_v7 : IVec S_ 1 := (fun x v => Host.reduce IntOp.andi x v reducesTo_S192x192x192x28_S_d0_1_2_3 h_S_) main_v6 main_c_1
  let main_v8 : IVec S_ 1 := andi main_v3 main_v7
  main_v8
-- ==== Kernel.lean ====
abbrev S2000000x3 : Shape := ⟨2, ![2000000, 3]⟩
abbrev S192x192x192x28 : Shape := ⟨4, ![192, 192, 192, 28]⟩
abbrev S_ : Shape := ⟨0, ![]⟩
abbrev S2000000x1 : Shape := ⟨2, ![2000000, 1]⟩
abbrev S2000000 : Shape := ⟨1, ![2000000]⟩
abbrev S2000000x28 : Shape := ⟨2, ![2000000, 28]⟩
abbrev S16000x28 : Shape := ⟨2, ![16000, 28]⟩
abbrev S16000x3 : Shape := ⟨2, ![16000, 3]⟩
abbrev S16000x1 : Shape := ⟨2, ![16000, 1]⟩
abbrev S16000 : Shape := ⟨1, ![16000]⟩
abbrev S16000x9 : Shape := ⟨2, ![16000, 9]⟩

abbrev nBuf : Space → Nat
  | .hbm => 260
  | .vmem => 24
  | .smem => 0
  | _ => 0

abbrev hbmTy0_0 (i : Nat) : BufTy := match i % 128 with
  | 0 => ⟨S2000000x3, .f32⟩
  | 1 => ⟨S192x192x192x28, .f32⟩
  | 2 => ⟨S_, .f32⟩
  | 3 => ⟨S2000000x3, .f32⟩
  | 4 => ⟨S2000000x3, .f32⟩
  | 5 => ⟨S_, .f32⟩
  | 6 => ⟨S2000000x3, .f32⟩
  | 7 => ⟨S2000000x3, .f32⟩
  | 8 => ⟨S_, .f32⟩
  | 9 => ⟨S2000000x3, .f32⟩
  | 10 => ⟨S2000000x3, .f32⟩
  | 11 => ⟨S_, .f32⟩
  | 12 => ⟨S2000000x3, .f32⟩
  | 13 => ⟨S2000000x3, .f32⟩
  | 14 => ⟨S_, .f32⟩
  | 15 => ⟨S_, .i32⟩
  | 16 => ⟨S_, .f32⟩
  | 17 => ⟨S2000000x3, .f32⟩
  | 18 => ⟨S2000000x3, .f32⟩
  | 19 => ⟨S_, .f32⟩
  | 20 => ⟨S2000000x3, .f32⟩
  | 21 => ⟨S2000000x3, .f32⟩
  | 22 => ⟨S2000000x3, .f32⟩
  | 23 => ⟨S2000000x3, .f32⟩
  | 24 => ⟨S2000000x3, .i32⟩
  | 25 => ⟨S_, .i32⟩
  | 26 => ⟨S2000000x3, .i32⟩
  | 27 => ⟨S2000000x3, .i32⟩
  | 28 => ⟨S_, .i32⟩
  | 29 => ⟨S2000000x3, .i32⟩
  | 30 => ⟨S2000000x3, .i32⟩
  | 31 => ⟨S2000000x1, .i32⟩
  | 32 => ⟨S2000000, .i32⟩
  | 33 => ⟨S2000000x1, .i32⟩
  | 34 => ⟨S2000000, .i32⟩
  | 35 => ⟨S2000000x1, .i32⟩
  | 36 => ⟨S2000000, .i32⟩
  | 37 => ⟨S2000000x1, .i32⟩
  | 38 => ⟨S2000000, .i32⟩
  | 39 => ⟨S2000000x1, .i32⟩
  | 40 => ⟨S2000000, .i32⟩
  | 41 => ⟨S2000000x1, .i32⟩
  | 42 => ⟨S2000000, .i32⟩
  | 43 => ⟨S_, .i32⟩
  | 44 => ⟨S2000000, .i32⟩
  | 45 => ⟨S2000000, .i1⟩
  | 46 => ⟨S_, .i32⟩
  | 47 => ⟨S2000000, .i32⟩
  | 48 => ⟨S2000000, .i32⟩
  | 49 => ⟨S2000000, .i32⟩
  | 50 => ⟨S_, .i32⟩
  | 51 => ⟨S2000000, .i32⟩
  | 52 => ⟨S2000000, .i1⟩
  | 53 => ⟨S_, .i32⟩
  | 54 => ⟨S2000000, .i32⟩
  | 55 => ⟨S2000000, .i32⟩
  | 56 => ⟨S2000000, .i32⟩
  | 57 => ⟨S_, .i32⟩
  | 58 => ⟨S2000000, .i32⟩
  | 59 => ⟨S2000000, .i1⟩
  | 60 => ⟨S_, .i32⟩
  | 61 => ⟨S2000000, .i32⟩
  | 62 => ⟨S2000000, .i32⟩
  | 63 => ⟨S2000000, .i32⟩
  | 64 => ⟨S2000000x1, .i32⟩
  | 65 => ⟨S2000000x1, .i32⟩
  | 66 => ⟨S2000000x1, .i32⟩
  | 67 => ⟨S2000000x3, .i32⟩
  | 68 => ⟨S2000000x28, .f32⟩
  | 69 => ⟨S_, .i32⟩
  | 70 => ⟨S2000000, .i32⟩
  | 71 => ⟨S2000000, .i1⟩
  | 72 => ⟨S_, .i32⟩
  | 73 => ⟨S2000000, .i32⟩
  | 74 => ⟨S2000000, .i32⟩
  | 75 => ⟨S2000000, .i32⟩
  | 76 => ⟨S_, .i32⟩
  | 77 => ⟨S2000000, .i32⟩
  | 78 => ⟨S2000000, .i1⟩
  | 79 => ⟨S_, .i32⟩
  | 80 => ⟨S2000000, .i32⟩
  | 81 => ⟨S2000000, .i32⟩
  | 82 => ⟨S2000000, .i32⟩
  | 83 => ⟨S_, .i32⟩
  | 84 => ⟨S2000000, .i32⟩
  | 85 => ⟨S2000000, .i1⟩
  | 86 => ⟨S_, .i32⟩
  | 87 => ⟨S2000000, .i32⟩
  | 88 => ⟨S2000000, .i32⟩
  | 89 => ⟨S2000000, .i32⟩
  | 90 => ⟨S2000000x1, .i32⟩
  | 91 => ⟨S2000000x1, .i32⟩
  | 92 => ⟨S2000000x1, .i32⟩
  | 93 => ⟨S2000000x3, .i32⟩
  | 94 => ⟨S2000000x28, .f32⟩
  | 95 => ⟨S_, .i32⟩
  | 96 => ⟨S2000000, .i32⟩
  | 97 => ⟨S2000000, .i1⟩
  | 98 => ⟨S_, .i32⟩
  | 99 => ⟨S2000000, .i32⟩
  | 100 => ⟨S2000000, .i32⟩
  | 101 => ⟨S2000000, .i32⟩
  | 102 => ⟨S_, .i32⟩
  | 103 => ⟨S2000000, .i32⟩
  | 104 => ⟨S2000000, .i1⟩
  | 105 => ⟨S_, .i32⟩
  | 106 => ⟨S2000000, .i32⟩
  | 107 => ⟨S2000000, .i32⟩
  | 108 => ⟨S2000000, .i32⟩
  | 109 => ⟨S_, .i32⟩
  | 110 => ⟨S2000000, .i32⟩
  | 111 => ⟨S2000000, .i1⟩
  | 112 => ⟨S_, .i32⟩
  | 113 => ⟨S2000000, .i32⟩
  | 114 => ⟨S2000000, .i32⟩
  | 115 => ⟨S2000000, .i32⟩
  | 116 => ⟨S2000000x1, .i32⟩
  | 117 => ⟨S2000000x1, .i32⟩
  | 118 => ⟨S2000000x1, .i32⟩
  | 119 => ⟨S2000000x3, .i32⟩
  | 120 => ⟨S2000000x28, .f32⟩
  | 121 => ⟨S_, .i32⟩
  | 122 => ⟨S2000000, .i32⟩
  | 123 => ⟨S2000000, .i1⟩
  | 124 => ⟨S_, .i32⟩
  | 125 => ⟨S2000000, .i32⟩
  | 126 => ⟨S2000000, .i32⟩
  | 127 => ⟨S2000000, .i32⟩
  | _ => ⟨S2000000x3, .f32⟩

abbrev hbmTy0_1 (i : Nat) : BufTy := match i % 128 with
  | 0 => ⟨S_, .i32⟩
  | 1 => ⟨S2000000, .i32⟩
  | 2 => ⟨S2000000, .i1⟩
  | 3 => ⟨S_, .i32⟩
  | 4 => ⟨S2000000, .i32⟩
  | 5 => ⟨S2000000, .i32⟩
  | 6 => ⟨S2000000, .i32⟩
  | 7 => ⟨S_, .i32⟩
  | 8 => ⟨S2000000, .i32⟩
  | 9 => ⟨S2000000, .i1⟩
  | 10 => ⟨S_, .i32⟩
  | 11 => ⟨S2000000, .i32⟩
  | 12 => ⟨S2000000, .i32⟩
  | 13 => ⟨S2000000, .i32⟩
  | 14 => ⟨S2000000x1, .i32⟩
  | 15 => ⟨S2000000x1, .i32⟩
  | 16 => ⟨S2000000x1, .i32⟩
  | 17 => ⟨S2000000x3, .i32⟩
  | 18 => ⟨S2000000x28, .f32⟩
  | 19 => ⟨S_, .i32⟩
  | 20 => ⟨S2000000, .i32⟩
  | 21 => ⟨S2000000, .i1⟩
  | 22 => ⟨S_, .i32⟩
  | 23 => ⟨S2000000, .i32⟩
  | 24 => ⟨S2000000, .i32⟩
  | 25 => ⟨S2000000, .i32⟩
  | 26 => ⟨S_, .i32⟩
  | 27 => ⟨S2000000, .i32⟩
  | 28 => ⟨S2000000, .i1⟩
  | 29 => ⟨S_, .i32⟩
  | 30 => ⟨S2000000, .i32⟩
  | 31 => ⟨S2000000, .i32⟩
  | 32 => ⟨S2000000, .i32⟩
  | 33 => ⟨S_, .i32⟩
  | 34 => ⟨S2000000, .i32⟩
  | 35 => ⟨S2000000, .i1⟩
  | 36 => ⟨S_, .i32⟩
  | 37 => ⟨S2000000, .i32⟩
  | 38 => ⟨S2000000, .i32⟩
  | 39 => ⟨S2000000, .i32⟩
  | 40 => ⟨S2000000x1, .i32⟩
  | 41 => ⟨S2000000x1, .i32⟩
  | 42 => ⟨S2000000x1, .i32⟩
  | 43 => ⟨S2000000x3, .i32⟩
  | 44 => ⟨S2000000x28, .f32⟩
  | 45 => ⟨S_, .i32⟩
  | 46 => ⟨S2000000, .i32⟩
  | 47 => ⟨S2000000, .i1⟩
  | 48 => ⟨S_, .i32⟩
  | 49 => ⟨S2000000, .i32⟩
  | 50 => ⟨S2000000, .i32⟩
  | 51 => ⟨S2000000, .i32⟩
  | 52 => ⟨S_, .i32⟩
  | 53 => ⟨S2000000, .i32⟩
  | 54 => ⟨S2000000, .i1⟩
  | 55 => ⟨S_, .i32⟩
  | 56 => ⟨S2000000, .i32⟩
  | 57 => ⟨S2000000, .i32⟩
  | 58 => ⟨S2000000, .i32⟩
  | 59 => ⟨S_, .i32⟩
  | 60 => ⟨S2000000, .i32⟩
  | 61 => ⟨S2000000, .i1⟩
  | 62 => ⟨S_, .i32⟩
  | 63 => ⟨S2000000, .i32⟩
  | 64 => ⟨S2000000, .i32⟩
  | 65 => ⟨S2000000, .i32⟩
  | 66 => ⟨S2000000x1, .i32⟩
  | 67 => ⟨S2000000x1, .i32⟩
  | 68 => ⟨S2000000x1, .i32⟩
  | 69 => ⟨S2000000x3, .i32⟩
  | 70 => ⟨S2000000x28, .f32⟩
  | 71 => ⟨S_, .i32⟩
  | 72 => ⟨S2000000, .i32⟩
  | 73 => ⟨S2000000, .i1⟩
  | 74 => ⟨S_, .i32⟩
  | 75 => ⟨S2000000, .i32⟩
  | 76 => ⟨S2000000, .i32⟩
  | 77 => ⟨S2000000, .i32⟩
  | 78 => ⟨S_, .i32⟩
  | 79 => ⟨S2000000, .i32⟩
  | 80 => ⟨S2000000, .i1⟩
  | 81 => ⟨S_, .i32⟩
  | 82 => ⟨S2000000, .i32⟩
  | 83 => ⟨S2000000, .i32⟩
  | 84 => ⟨S2000000, .i32⟩
  | 85 => ⟨S_, .i32⟩
  | 86 => ⟨S2000000, .i32⟩
  | 87 => ⟨S2000000, .i1⟩
  | 88 => ⟨S_, .i32⟩
  | 89 => ⟨S2000000, .i32⟩
  | 90 => ⟨S2000000, .i32⟩
  | 91 => ⟨S2000000, .i32⟩
  | 92 => ⟨S2000000x1, .i32⟩
  | 93 => ⟨S2000000x1, .i32⟩
  | 94 => ⟨S2000000x1, .i32⟩
  | 95 => ⟨S2000000x3, .i32⟩
  | 96 => ⟨S2000000x28, .f32⟩
  | 97 => ⟨S_, .i32⟩
  | 98 => ⟨S2000000, .i32⟩
  | 99 => ⟨S2000000, .i1⟩
  | 100 => ⟨S_, .i32⟩
  | 101 => ⟨S2000000, .i32⟩
  | 102 => ⟨S2000000, .i32⟩
  | 103 => ⟨S2000000, .i32⟩
  | 104 => ⟨S_, .i32⟩
  | 105 => ⟨S2000000, .i32⟩
  | 106 => ⟨S2000000, .i1⟩
  | 107 => ⟨S_, .i32⟩
  | 108 => ⟨S2000000, .i32⟩
  | 109 => ⟨S2000000, .i32⟩
  | 110 => ⟨S2000000, .i32⟩
  | 111 => ⟨S_, .i32⟩
  | 112 => ⟨S2000000, .i32⟩
  | 113 => ⟨S2000000, .i1⟩
  | 114 => ⟨S_, .i32⟩
  | 115 => ⟨S2000000, .i32⟩
  | 116 => ⟨S2000000, .i32⟩
  | 117 => ⟨S2000000, .i32⟩
  | 118 => ⟨S2000000x1, .i32⟩
  | 119 => ⟨S2000000x1, .i32⟩
  | 120 => ⟨S2000000x1, .i32⟩
  | 121 => ⟨S2000000x3, .i32⟩
  | 122 => ⟨S2000000x28, .f32⟩
  | 123 => ⟨S2000000x3, .f32⟩
  | 124 => ⟨S_, .f32⟩
  | 125 => ⟨S2000000, .f32⟩
  | 126 => ⟨S2000000x1, .f32⟩
  | 127 => ⟨S2000000x1, .f32⟩
  | _ => ⟨S2000000x3, .f32⟩

abbrev hbmTy0_2 (i : Nat) : BufTy := match i % 128 with
  | 0 => ⟨S2000000x3, .f32⟩
  | 1 => ⟨S2000000x3, .f32⟩
  | 2 => ⟨S2000000x3, .f32⟩
  | 3 => ⟨S2000000x1, .f32⟩
  | _ => ⟨S2000000x3, .f32⟩

abbrev hbmTy (i : Nat) : BufTy := match i / 128 with
  | 0 => hbmTy0_0 i
  | 1 => hbmTy0_1 i
  | 2 => hbmTy0_2 i
  | _ => ⟨S2000000x3, .f32⟩

abbrev bufTy : (tb : Table) → Fin (tcTables nBuf tb) → BufTy
  | .hbm, ⟨i, _⟩ => hbmTy i
  | .local _ .vmem, ⟨0, _⟩ => ⟨S16000x28, .f32⟩
  | .local _ .vmem, ⟨1, _⟩ => ⟨S16000x28, .f32⟩
  | .local _ .vmem, ⟨2, _⟩ => ⟨S16000x28, .f32⟩
  | .local _ .vmem, ⟨3, _⟩ => ⟨S16000x28, .f32⟩
  | .local _ .vmem, ⟨4, _⟩ => ⟨S16000x28, .f32⟩
  | .local _ .vmem, ⟨5, _⟩ => ⟨S16000x28, .f32⟩
  | .local _ .vmem, ⟨6, _⟩ => ⟨S16000x28, .f32⟩
  | .local _ .vmem, ⟨7, _⟩ => ⟨S16000x28, .f32⟩
  | .local _ .vmem, ⟨8, _⟩ => ⟨S16000x28, .f32⟩
  | .local _ .vmem, ⟨9, _⟩ => ⟨S16000x28, .f32⟩
  | .local _ .vmem, ⟨10, _⟩ => ⟨S16000x28, .f32⟩
  | .local _ .vmem, ⟨11, _⟩ => ⟨S16000x28, .f32⟩
  | .local _ .vmem, ⟨12, _⟩ => ⟨S16000x28, .f32⟩
  | .local _ .vmem, ⟨13, _⟩ => ⟨S16000x28, .f32⟩
  | .local _ .vmem, ⟨14, _⟩ => ⟨S16000x28, .f32⟩
  | .local _ .vmem, ⟨15, _⟩ => ⟨S16000x28, .f32⟩
  | .local _ .vmem, ⟨16, _⟩ => ⟨S16000x3, .f32⟩
  | .local _ .vmem, ⟨17, _⟩ => ⟨S16000x3, .f32⟩
  | .local _ .vmem, ⟨18, _⟩ => ⟨S16000x3, .f32⟩
  | .local _ .vmem, ⟨19, _⟩ => ⟨S16000x3, .f32⟩
  | .local _ .vmem, ⟨20, _⟩ => ⟨S16000x3, .f32⟩
  | .local _ .vmem, ⟨21, _⟩ => ⟨S16000x3, .f32⟩
  | .local _ .vmem, ⟨22, _⟩ => ⟨S16000x1, .f32⟩
  | .local _ .vmem, ⟨23, _⟩ => ⟨S16000x1, .f32⟩
  | _, _ => ⟨S2000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_cst_3 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_4 : Ref sig .tc := ⟨.hbm, 25, rfl⟩
abbrev main_v12 : Ref sig .tc := ⟨.hbm, 26, rfl⟩
abbrev main_v13 : Ref sig .tc := ⟨.hbm, 27, rfl⟩
abbrev main_c_5 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_6 : Ref sig .tc := ⟨.hbm, 43, rfl⟩
abbrev main_v28 : Ref sig .tc := ⟨.hbm, 44, rfl⟩
abbrev main_v29 : Ref sig .tc := ⟨.hbm, 45, rfl⟩
abbrev main_c_7 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_8 : Ref sig .tc := ⟨.hbm, 50, rfl⟩
abbrev main_v33 : Ref sig .tc := ⟨.hbm, 51, rfl⟩
abbrev main_v34 : Ref sig .tc := ⟨.hbm, 52, rfl⟩
abbrev main_c_9 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_10 : Ref sig .tc := ⟨.hbm, 57, rfl⟩
abbrev main_v38 : Ref sig .tc := ⟨.hbm, 58, rfl⟩
abbrev main_v39 : Ref sig .tc := ⟨.hbm, 59, rfl⟩
abbrev main_c_11 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_12 : Ref sig .tc := ⟨.hbm, 69, rfl⟩
abbrev main_v48 : Ref sig .tc := ⟨.hbm, 70, rfl⟩
abbrev main_v49 : Ref sig .tc := ⟨.hbm, 71, rfl⟩
abbrev main_c_13 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_14 : Ref sig .tc := ⟨.hbm, 76, rfl⟩
abbrev main_v53 : Ref sig .tc := ⟨.hbm, 77, rfl⟩
abbrev main_v54 : Ref sig .tc := ⟨.hbm, 78, rfl⟩
abbrev main_c_15 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_c_16 : Ref sig .tc := ⟨.hbm, 83, rfl⟩
abbrev main_v58 : Ref sig .tc := ⟨.hbm, 84, rfl⟩
abbrev main_v59 : Ref sig .tc := ⟨.hbm, 85, rfl⟩
abbrev main_c_17 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c_18 : Ref sig .tc := ⟨.hbm, 95, rfl⟩
abbrev main_v68 : Ref sig .tc := ⟨.hbm, 96, rfl⟩
abbrev main_v69 : Ref sig .tc := ⟨.hbm, 97, rfl⟩
abbrev main_c_19 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_c_20 : Ref sig .tc := ⟨.hbm, 102, rfl⟩
abbrev main_v73 : Ref sig .tc := ⟨.hbm, 103, rfl⟩
abbrev main_v74 : Ref sig .tc := ⟨.hbm, 104, rfl⟩
abbrev main_c_21 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_c_22 : Ref sig .tc := ⟨.hbm, 109, rfl⟩
abbrev main_v78 : Ref sig .tc := ⟨.hbm, 110, rfl⟩
abbrev main_v79 : Ref sig .tc := ⟨.hbm, 111, rfl⟩
abbrev main_c_23 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_c_24 : Ref sig .tc := ⟨.hbm, 121, rfl⟩
abbrev main_v88 : Ref sig .tc := ⟨.hbm, 122, rfl⟩
abbrev main_v89 : Ref sig .tc := ⟨.hbm, 123, rfl⟩
abbrev main_c_25 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_c_26 : Ref sig .tc := ⟨.hbm, 128, rfl⟩
abbrev main_v93 : Ref sig .tc := ⟨.hbm, 129, rfl⟩
abbrev main_v94 : Ref sig .tc := ⟨.hbm, 130, rfl⟩
abbrev main_c_27 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_c_28 : Ref sig .tc := ⟨.hbm, 135, rfl⟩
abbrev main_v98 : Ref sig .tc := ⟨.hbm, 136, rfl⟩
abbrev main_v99 : Ref sig .tc := ⟨.hbm, 137, rfl⟩
abbrev main_c_29 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_c_30 : Ref sig .tc := ⟨.hbm, 147, rfl⟩
abbrev main_v108 : Ref sig .tc := ⟨.hbm, 148, rfl⟩
abbrev main_v109 : Ref sig .tc := ⟨.hbm, 149, rfl⟩
abbrev main_c_31 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_c_32 : Ref sig .tc := ⟨.hbm, 154, rfl⟩
abbrev main_v113 : Ref sig .tc := ⟨.hbm, 155, rfl⟩
abbrev main_v114 : Ref sig .tc := ⟨.hbm, 156, rfl⟩
abbrev main_c_33 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_c_34 : Ref sig .tc := ⟨.hbm, 161, rfl⟩
abbrev main_v118 : Ref sig .tc := ⟨.hbm, 162, rfl⟩
abbrev main_v119 : Ref sig .tc := ⟨.hbm, 163, rfl⟩
abbrev main_c_35 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_c_36 : Ref sig .tc := ⟨.hbm, 173, rfl⟩
abbrev main_v128 : Ref sig .tc := ⟨.hbm, 174, rfl⟩
abbrev main_v129 : Ref sig .tc := ⟨.hbm, 175, rfl⟩
abbrev main_c_37 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_c_38 : Ref sig .tc := ⟨.hbm, 180, rfl⟩
abbrev main_v133 : Ref sig .tc := ⟨.hbm, 181, rfl⟩
abbrev main_v134 : Ref sig .tc := ⟨.hbm, 182, rfl⟩
abbrev main_c_39 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_c_40 : Ref sig .tc := ⟨.hbm, 187, rfl⟩
abbrev main_v138 : Ref sig .tc := ⟨.hbm, 188, rfl⟩
abbrev main_v139 : Ref sig .tc := ⟨.hbm, 189, rfl⟩
abbrev main_c_41 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_c_42 : Ref sig .tc := ⟨.hbm, 199, rfl⟩
abbrev main_v148 : Ref sig .tc := ⟨.hbm, 200, rfl⟩
abbrev main_v149 : Ref sig .tc := ⟨.hbm, 201, rfl⟩
abbrev main_c_43 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_c_44 : Ref sig .tc := ⟨.hbm, 206, rfl⟩
abbrev main_v153 : Ref sig .tc := ⟨.hbm, 207, rfl⟩
abbrev main_v154 : Ref sig .tc := ⟨.hbm, 208, rfl⟩
abbrev main_c_45 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_c_46 : Ref sig .tc := ⟨.hbm, 213, rfl⟩
abbrev main_v158 : Ref sig .tc := ⟨.hbm, 214, rfl⟩
abbrev main_v159 : Ref sig .tc := ⟨.hbm, 215, rfl⟩
abbrev main_c_47 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_c_48 : Ref sig .tc := ⟨.hbm, 225, rfl⟩
abbrev main_v168 : Ref sig .tc := ⟨.hbm, 226, rfl⟩
abbrev main_v169 : Ref sig .tc := ⟨.hbm, 227, rfl⟩
abbrev main_c_49 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_c_50 : Ref sig .tc := ⟨.hbm, 232, rfl⟩
abbrev main_v173 : Ref sig .tc := ⟨.hbm, 233, rfl⟩
abbrev main_v174 : Ref sig .tc := ⟨.hbm, 234, rfl⟩
abbrev main_c_51 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩
abbrev main_c_52 : Ref sig .tc := ⟨.hbm, 239, rfl⟩
abbrev main_v178 : Ref sig .tc := ⟨.hbm, 240, rfl⟩
abbrev main_v179 : Ref sig .tc := ⟨.hbm, 241, rfl⟩
abbrev main_c_53 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_call1_v0 : Ref sig .tc := ⟨.hbm, 251, rfl⟩
abbrev main_call1_cst : Ref sig .tc := ⟨.hbm, 252, rfl⟩
abbrev main_call1_v1 : Ref sig .tc := ⟨.hbm, 253, rfl⟩
abbrev main_call1_v2 : Ref sig .tc := ⟨.hbm, 254, rfl⟩
abbrev main_v188 : Ref sig .tc := ⟨.hbm, 255, rfl⟩
abbrev main_v189 : Ref sig .tc := ⟨.hbm, 256, rfl⟩
abbrev main_v190 : Ref sig .tc := ⟨.hbm, 257, rfl⟩
abbrev main_v191_0 : Ref sig .tc := ⟨.hbm, 258, rfl⟩
abbrev main_v191_1 : Ref sig .tc := ⟨.hbm, 259, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x28 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x28 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16000x28 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16000x28 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16000x28 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16000x28 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16000x28 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16000x28 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16000x3 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16000x3 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16000x3 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16000x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bcast_S_S2000000x3 : S_.BroadcastsInDim S2000000x3 (![] : Fin 0 → Fin S2000000x3.rank)
  slices_S2000000x3_S2000000x1_0_0 : S2000000x3.Slices ![0, 0] S2000000x1
  shapeCasts_S2000000x1_S2000000 : S2000000x1.ShapeCasts S2000000
  slices_S2000000x3_S2000000x1_0_1 : S2000000x3.Slices ![0, 1] S2000000x1
  slices_S2000000x3_S2000000x1_0_2 : S2000000x3.Slices ![0, 2] S2000000x1
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x1_S2000000x1_S2000000x1_S2000000x3_d1 : Shape.Concatenates [S2000000x1, S2000000x1, S2000000x1] S2000000x3 1
  reducesTo_S2000000x3_S2000000_d1 : S2000000x3.ReducesTo [1] S2000000
  h_S_ : 0 < S_.numel
  bcast_S2000000x1_S2000000x3_0_1 : S2000000x1.BroadcastsInDim S2000000x3 (![0, 1] : Fin 2 → Fin S2000000x3.rank)
  inb_S16000x28_S16000x28_0_0 : ∀ a, (![0, 0] : Fin 2 → Nat) a + S16000x28.size a ≤ S16000x28.size a
  h_S16000x28 : 0 < S16000x28.numel
  shapeCasts_S16000x28_S16000x28 : S16000x28.ShapeCasts S16000x28
  inb_S16000x3_S16000x3_0_0 : ∀ a, (![0, 0] : Fin 2 → Nat) a + S16000x3.size a ≤ S16000x3.size a
  h_S16000x3 : 0 < S16000x3.numel
  shapeCasts_S16000x3_S16000x3 : S16000x3.ShapeCasts S16000x3
  slices_S16000x3_o0_0_S16000x1 : S16000x3.Slices ![0, 0] S16000x1
  slices_S16000x3_o0_1_S16000x1 : S16000x3.Slices ![0, 1] S16000x1
  slices_S16000x3_o0_2_S16000x1 : S16000x3.Slices ![0, 2] S16000x1
  broadcasts_S16000x1_S16000x28 : S16000x1.Broadcasts S16000x28
  slices_S16000x28_o0_0_S16000x1 : S16000x28.Slices ![0, 0] S16000x1
  shapeCasts_S16000x1_S16000 : S16000x1.ShapeCasts S16000
  slices_S16000x28_o0_1_S16000x9 : S16000x28.Slices ![0, 1] S16000x9
  slices_S16000x28_o0_10_S16000x9 : S16000x28.Slices ![0, 10] S16000x9
  slices_S16000x28_o0_19_S16000x9 : S16000x28.Slices ![0, 19] S16000x9
  shapeCasts_S16000_S16000x1 : S16000.ShapeCasts S16000x1
  concatenates_S16000x1_S16000x1_S16000x1_S16000x1_S16000x1_S16000x1_S16000x1_S16000x1_S16000x1_S16000x9_d1 : Shape.Concatenates [S16000x1, S16000x1, S16000x1, S16000x1, S16000x1, S16000x1, S16000x1, S16000x1, S16000x1] S16000x9 1
  reduces_S16000x9_S16000 : S16000x9.Reduces [1] S16000
  concatenates_S16000x1_S16000x1_S16000x1_S16000x3_d1 : Shape.Concatenates [S16000x1, S16000x1, S16000x1] S16000x3 1
  inb_S16000x1_S16000x1_0_0 : ∀ a, (![0, 0] : Fin 2 → Nat) a + S16000x1.size a ≤ S16000x1.size a
  h_S16000x1 : 0 < S16000x1.numel
  gather_S192x192x192x28_S2000000x3_S2000000x28_1_012_n_n_012_1_11128_wf : GatherDims.WF S192x192x192x28 S2000000x3 S2000000x28 [1] [0, 1, 2] [] [0, 1, 2] [] 1 ![1, 1, 1, 28]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x28.size a ≤ S2000000x28.size a
  hwx0_0 : ∀ i : grid0.Coords, EltTy.bits .f32 = 32 ∨ (Rect.block (s := S2000000x28) S16000x28.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x28.size a ≤ S2000000x28.size a
  hwx0_1 : ∀ i : grid0.Coords, EltTy.bits .f32 = 32 ∨ (Rect.block (s := S2000000x28) S16000x28.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16000x28.size a ≤ S2000000x28.size a
  hwx0_2 : ∀ i : grid0.Coords, EltTy.bits .f32 = 32 ∨ (Rect.block (s := S2000000x28) S16000x28.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16000x28.size a ≤ S2000000x28.size a
  hwx0_3 : ∀ i : grid0.Coords, EltTy.bits .f32 = 32 ∨ (Rect.block (s := S2000000x28) S16000x28.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16000x28.size a ≤ S2000000x28.size a
  hwx0_4 : ∀ i : grid0.Coords, EltTy.bits .f32 = 32 ∨ (Rect.block (s := S2000000x28) S16000x28.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16000x28.size a ≤ S2000000x28.size a
  hwx0_5 : ∀ i : grid0.Coords, EltTy.bits .f32 = 32 ∨ (Rect.block (s := S2000000x28) S16000x28.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16000x28.size a ≤ S2000000x28.size a
  hwx0_6 : ∀ i : grid0.Coords, EltTy.bits .f32 = 32 ∨ (Rect.block (s := S2000000x28) S16000x28.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16000x28.size a ≤ S2000000x28.size a
  hwx0_7 : ∀ i : grid0.Coords, EltTy.bits .f32 = 32 ∨ (Rect.block (s := S2000000x28) S16000x28.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S16000x3.size a ≤ S2000000x3.size a
  hwx0_8 : ∀ i : grid0.Coords, EltTy.bits .f32 = 32 ∨ (Rect.block (s := S2000000x3) S16000x3.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S16000x3.size a ≤ S2000000x3.size a
  hwx0_9 : ∀ i : grid0.Coords, EltTy.bits .f32 = 32 ∨ (Rect.block (s := S2000000x3) S16000x3.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S16000x3.size a ≤ S2000000x3.size a
  hwx0_10 : ∀ i : grid0.Coords, EltTy.bits .f32 = 32 ∨ (Rect.block (s := S2000000x3) S16000x3.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S16000x1.size a ≤ S2000000x1.size a
  hwx0_11 : ∀ i : grid0.Coords, EltTy.bits .f32 = 32 ∨ (Rect.block (s := S2000000x1) S16000x1.size (cc0_transform_11 i) (hinb0_11 i)).WholeWords (EltTy.packing .f32)

variable [Facts₀]

def gather_S192x192x192x28_S2000000x3_S2000000x28_1_012_n_n_012_1_11128 : GatherDims S192x192x192x28 S2000000x3 S2000000x28 where
  offsetDims := [1]
  collapsedSliceDims := [0, 1, 2]
  operandBatchingDims := []
  startIndicesBatchingDims := []
  startIndexMap := [0, 1, 2]
  indexVectorDim := 1
  sliceSizes := ![1, 1, 1, 28]
  wf := gather_S192x192x192x28_S2000000x3_S2000000x28_1_012_n_n_012_1_11128_wf

abbrev win0_0 : Pipeline.Window sig grid0 :=
  Pipeline.Window.ofSpec (Memref.whole main_v47) S16000x28.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v67) S16000x28.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v87) S16000x28.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v107) S16000x28.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v127) S16000x28.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v147) S16000x28.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v167) S16000x28.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v187) S16000x28.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v10) S16000x3.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v190) S16000x3.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v191_0) S16000x3.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v191_1) S16000x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S2000000x3 : Shape := ⟨2, ![2000000, 3]⟩
abbrev S192x192x192x28 : Shape := ⟨4, ![192, 192, 192, 28]⟩
abbrev S_ : Shape := ⟨0, ![]⟩
abbrev S2000000x1 : Shape := ⟨2, ![2000000, 1]⟩
abbrev S2000000 : Shape := ⟨1, ![2000000]⟩
abbrev S2000000x28 : Shape := ⟨2, ![2000000, 28]⟩
abbrev S2000000x27 : Shape := ⟨2, ![2000000, 27]⟩
abbrev S2000000x3x9 : Shape := ⟨3, ![2000000, 3, 9]⟩
abbrev S2000000x9 : Shape := ⟨2, ![2000000, 9]⟩
abbrev S2000000x1x9 : Shape := ⟨3, ![2000000, 1, 9]⟩

abbrev nBuf : Space → Nat
  | .hbm => 407
  | .vmem => 0
  | .smem => 0
  | _ => 0

abbrev hbmTy0_0 (i : Nat) : BufTy := match i % 128 with
  | 0 => ⟨S2000000x3, .f32⟩
  | 1 => ⟨S192x192x192x28, .f32⟩
  | 2 => ⟨S_, .f32⟩
  | 3 => ⟨S2000000x3, .f32⟩
  | 4 => ⟨S2000000x3, .f32⟩
  | 5 => ⟨S_, .f32⟩
  | 6 => ⟨S2000000x3, .f32⟩
  | 7 => ⟨S2000000x3, .f32⟩
  | 8 => ⟨S_, .f32⟩
  | 9 => ⟨S2000000x3, .f32⟩
  | 10 => ⟨S2000000x3, .f32⟩
  | 11 => ⟨S_, .f32⟩
  | 12 => ⟨S2000000x3, .f32⟩
  | 13 => ⟨S2000000x3, .f32⟩
  | 14 => ⟨S_, .f32⟩
  | 15 => ⟨S_, .i32⟩
  | 16 => ⟨S_, .f32⟩
  | 17 => ⟨S2000000x3, .f32⟩
  | 18 => ⟨S2000000x3, .f32⟩
  | 19 => ⟨S_, .f32⟩
  | 20 => ⟨S2000000x3, .f32⟩
  | 21 => ⟨S2000000x3, .f32⟩
  | 22 => ⟨S2000000x3, .f32⟩
  | 23 => ⟨S2000000x3, .f32⟩
  | 24 => ⟨S2000000x3, .i32⟩
  | 25 => ⟨S_, .i32⟩
  | 26 => ⟨S2000000x3, .i32⟩
  | 27 => ⟨S2000000x3, .i32⟩
  | 28 => ⟨S_, .i32⟩
  | 29 => ⟨S2000000x3, .i32⟩
  | 30 => ⟨S2000000x3, .i32⟩
  | 31 => ⟨S2000000x1, .i32⟩
  | 32 => ⟨S2000000, .i32⟩
  | 33 => ⟨S2000000x1, .i32⟩
  | 34 => ⟨S2000000, .i32⟩
  | 35 => ⟨S2000000x1, .i32⟩
  | 36 => ⟨S2000000, .i32⟩
  | 37 => ⟨S2000000x1, .i32⟩
  | 38 => ⟨S2000000, .i32⟩
  | 39 => ⟨S2000000x1, .i32⟩
  | 40 => ⟨S2000000, .i32⟩
  | 41 => ⟨S2000000x1, .i32⟩
  | 42 => ⟨S2000000, .i32⟩
  | 43 => ⟨S2000000x1, .f32⟩
  | 44 => ⟨S2000000x1, .f32⟩
  | 45 => ⟨S2000000x1, .f32⟩
  | 46 => ⟨S_, .i32⟩
  | 47 => ⟨S2000000, .i32⟩
  | 48 => ⟨S2000000, .i1⟩
  | 49 => ⟨S_, .i32⟩
  | 50 => ⟨S2000000, .i32⟩
  | 51 => ⟨S2000000, .i32⟩
  | 52 => ⟨S2000000, .i32⟩
  | 53 => ⟨S_, .i32⟩
  | 54 => ⟨S2000000, .i32⟩
  | 55 => ⟨S2000000, .i1⟩
  | 56 => ⟨S_, .i32⟩
  | 57 => ⟨S2000000, .i32⟩
  | 58 => ⟨S2000000, .i32⟩
  | 59 => ⟨S2000000, .i32⟩
  | 60 => ⟨S_, .i32⟩
  | 61 => ⟨S2000000, .i32⟩
  | 62 => ⟨S2000000, .i1⟩
  | 63 => ⟨S_, .i32⟩
  | 64 => ⟨S2000000, .i32⟩
  | 65 => ⟨S2000000, .i32⟩
  | 66 => ⟨S2000000, .i32⟩
  | 67 => ⟨S2000000x1, .i32⟩
  | 68 => ⟨S2000000x1, .i32⟩
  | 69 => ⟨S2000000x1, .i32⟩
  | 70 => ⟨S2000000x3, .i32⟩
  | 71 => ⟨S2000000x28, .f32⟩
  | 72 => ⟨S_, .f32⟩
  | 73 => ⟨S2000000x1, .f32⟩
  | 74 => ⟨S2000000x1, .f32⟩
  | 75 => ⟨S2000000x28, .f32⟩
  | 76 => ⟨S2000000x28, .f32⟩
  | 77 => ⟨S_, .i32⟩
  | 78 => ⟨S2000000, .i32⟩
  | 79 => ⟨S2000000, .i1⟩
  | 80 => ⟨S_, .i32⟩
  | 81 => ⟨S2000000, .i32⟩
  | 82 => ⟨S2000000, .i32⟩
  | 83 => ⟨S2000000, .i32⟩
  | 84 => ⟨S_, .i32⟩
  | 85 => ⟨S2000000, .i32⟩
  | 86 => ⟨S2000000, .i1⟩
  | 87 => ⟨S_, .i32⟩
  | 88 => ⟨S2000000, .i32⟩
  | 89 => ⟨S2000000, .i32⟩
  | 90 => ⟨S2000000, .i32⟩
  | 91 => ⟨S_, .i32⟩
  | 92 => ⟨S2000000, .i32⟩
  | 93 => ⟨S2000000, .i1⟩
  | 94 => ⟨S_, .i32⟩
  | 95 => ⟨S2000000, .i32⟩
  | 96 => ⟨S2000000, .i32⟩
  | 97 => ⟨S2000000, .i32⟩
  | 98 => ⟨S2000000x1, .i32⟩
  | 99 => ⟨S2000000x1, .i32⟩
  | 100 => ⟨S2000000x1, .i32⟩
  | 101 => ⟨S2000000x3, .i32⟩
  | 102 => ⟨S2000000x28, .f32⟩
  | 103 => ⟨S2000000x28, .f32⟩
  | 104 => ⟨S2000000x28, .f32⟩
  | 105 => ⟨S2000000x28, .f32⟩
  | 106 => ⟨S_, .i32⟩
  | 107 => ⟨S2000000, .i32⟩
  | 108 => ⟨S2000000, .i1⟩
  | 109 => ⟨S_, .i32⟩
  | 110 => ⟨S2000000, .i32⟩
  | 111 => ⟨S2000000, .i32⟩
  | 112 => ⟨S2000000, .i32⟩
  | 113 => ⟨S_, .i32⟩
  | 114 => ⟨S2000000, .i32⟩
  | 115 => ⟨S2000000, .i1⟩
  | 116 => ⟨S_, .i32⟩
  | 117 => ⟨S2000000, .i32⟩
  | 118 => ⟨S2000000, .i32⟩
  | 119 => ⟨S2000000, .i32⟩
  | 120 => ⟨S_, .i32⟩
  | 121 => ⟨S2000000, .i32⟩
  | 122 => ⟨S2000000, .i1⟩
  | 123 => ⟨S_, .i32⟩
  | 124 => ⟨S2000000, .i32⟩
  | 125 => ⟨S2000000, .i32⟩
  | 126 => ⟨S2000000, .i32⟩
  | 127 => ⟨S2000000x1, .i32⟩
  | _ => ⟨S2000000x3, .f32⟩

abbrev hbmTy0_1 (i : Nat) : BufTy := match i % 128 with
  | 0 => ⟨S2000000x1, .i32⟩
  | 1 => ⟨S2000000x1, .i32⟩
  | 2 => ⟨S2000000x3, .i32⟩
  | 3 => ⟨S2000000x28, .f32⟩
  | 4 => ⟨S_, .f32⟩
  | 5 => ⟨S2000000x1, .f32⟩
  | 6 => ⟨S2000000x1, .f32⟩
  | 7 => ⟨S2000000x28, .f32⟩
  | 8 => ⟨S2000000x28, .f32⟩
  | 9 => ⟨S_, .i32⟩
  | 10 => ⟨S2000000, .i32⟩
  | 11 => ⟨S2000000, .i1⟩
  | 12 => ⟨S_, .i32⟩
  | 13 => ⟨S2000000, .i32⟩
  | 14 => ⟨S2000000, .i32⟩
  | 15 => ⟨S2000000, .i32⟩
  | 16 => ⟨S_, .i32⟩
  | 17 => ⟨S2000000, .i32⟩
  | 18 => ⟨S2000000, .i1⟩
  | 19 => ⟨S_, .i32⟩
  | 20 => ⟨S2000000, .i32⟩
  | 21 => ⟨S2000000, .i32⟩
  | 22 => ⟨S2000000, .i32⟩
  | 23 => ⟨S_, .i32⟩
  | 24 => ⟨S2000000, .i32⟩
  | 25 => ⟨S2000000, .i1⟩
  | 26 => ⟨S_, .i32⟩
  | 27 => ⟨S2000000, .i32⟩
  | 28 => ⟨S2000000, .i32⟩
  | 29 => ⟨S2000000, .i32⟩
  | 30 => ⟨S2000000x1, .i32⟩
  | 31 => ⟨S2000000x1, .i32⟩
  | 32 => ⟨S2000000x1, .i32⟩
  | 33 => ⟨S2000000x3, .i32⟩
  | 34 => ⟨S2000000x28, .f32⟩
  | 35 => ⟨S2000000x28, .f32⟩
  | 36 => ⟨S2000000x28, .f32⟩
  | 37 => ⟨S2000000x28, .f32⟩
  | 38 => ⟨S_, .i32⟩
  | 39 => ⟨S2000000, .i32⟩
  | 40 => ⟨S2000000, .i1⟩
  | 41 => ⟨S_, .i32⟩
  | 42 => ⟨S2000000, .i32⟩
  | 43 => ⟨S2000000, .i32⟩
  | 44 => ⟨S2000000, .i32⟩
  | 45 => ⟨S_, .i32⟩
  | 46 => ⟨S2000000, .i32⟩
  | 47 => ⟨S2000000, .i1⟩
  | 48 => ⟨S_, .i32⟩
  | 49 => ⟨S2000000, .i32⟩
  | 50 => ⟨S2000000, .i32⟩
  | 51 => ⟨S2000000, .i32⟩
  | 52 => ⟨S_, .i32⟩
  | 53 => ⟨S2000000, .i32⟩
  | 54 => ⟨S2000000, .i1⟩
  | 55 => ⟨S_, .i32⟩
  | 56 => ⟨S2000000, .i32⟩
  | 57 => ⟨S2000000, .i32⟩
  | 58 => ⟨S2000000, .i32⟩
  | 59 => ⟨S2000000x1, .i32⟩
  | 60 => ⟨S2000000x1, .i32⟩
  | 61 => ⟨S2000000x1, .i32⟩
  | 62 => ⟨S2000000x3, .i32⟩
  | 63 => ⟨S2000000x28, .f32⟩
  | 64 => ⟨S_, .f32⟩
  | 65 => ⟨S2000000x1, .f32⟩
  | 66 => ⟨S2000000x1, .f32⟩
  | 67 => ⟨S2000000x28, .f32⟩
  | 68 => ⟨S2000000x28, .f32⟩
  | 69 => ⟨S_, .i32⟩
  | 70 => ⟨S2000000, .i32⟩
  | 71 => ⟨S2000000, .i1⟩
  | 72 => ⟨S_, .i32⟩
  | 73 => ⟨S2000000, .i32⟩
  | 74 => ⟨S2000000, .i32⟩
  | 75 => ⟨S2000000, .i32⟩
  | 76 => ⟨S_, .i32⟩
  | 77 => ⟨S2000000, .i32⟩
  | 78 => ⟨S2000000, .i1⟩
  | 79 => ⟨S_, .i32⟩
  | 80 => ⟨S2000000, .i32⟩
  | 81 => ⟨S2000000, .i32⟩
  | 82 => ⟨S2000000, .i32⟩
  | 83 => ⟨S_, .i32⟩
  | 84 => ⟨S2000000, .i32⟩
  | 85 => ⟨S2000000, .i1⟩
  | 86 => ⟨S_, .i32⟩
  | 87 => ⟨S2000000, .i32⟩
  | 88 => ⟨S2000000, .i32⟩
  | 89 => ⟨S2000000, .i32⟩
  | 90 => ⟨S2000000x1, .i32⟩
  | 91 => ⟨S2000000x1, .i32⟩
  | 92 => ⟨S2000000x1, .i32⟩
  | 93 => ⟨S2000000x3, .i32⟩
  | 94 => ⟨S2000000x28, .f32⟩
  | 95 => ⟨S2000000x28, .f32⟩
  | 96 => ⟨S2000000x28, .f32⟩
  | 97 => ⟨S2000000x28, .f32⟩
  | 98 => ⟨S_, .i32⟩
  | 99 => ⟨S2000000, .i32⟩
  | 100 => ⟨S2000000, .i1⟩
  | 101 => ⟨S_, .i32⟩
  | 102 => ⟨S2000000, .i32⟩
  | 103 => ⟨S2000000, .i32⟩
  | 104 => ⟨S2000000, .i32⟩
  | 105 => ⟨S_, .i32⟩
  | 106 => ⟨S2000000, .i32⟩
  | 107 => ⟨S2000000, .i1⟩
  | 108 => ⟨S_, .i32⟩
  | 109 => ⟨S2000000, .i32⟩
  | 110 => ⟨S2000000, .i32⟩
  | 111 => ⟨S2000000, .i32⟩
  | 112 => ⟨S_, .i32⟩
  | 113 => ⟨S2000000, .i32⟩
  | 114 => ⟨S2000000, .i1⟩
  | 115 => ⟨S_, .i32⟩
  | 116 => ⟨S2000000, .i32⟩
  | 117 => ⟨S2000000, .i32⟩
  | 118 => ⟨S2000000, .i32⟩
  | 119 => ⟨S2000000x1, .i32⟩
  | 120 => ⟨S2000000x1, .i32⟩
  | 121 => ⟨S2000000x1, .i32⟩
  | 122 => ⟨S2000000x3, .i32⟩
  | 123 => ⟨S2000000x28, .f32⟩
  | 124 => ⟨S_, .f32⟩
  | 125 => ⟨S2000000x1, .f32⟩
  | 126 => ⟨S2000000x1, .f32⟩
  | 127 => ⟨S2000000x28, .f32⟩
  | _ => ⟨S2000000x3, .f32⟩

abbrev hbmTy0_2 (i : Nat) : BufTy := match i % 128 with
  | 0 => ⟨S2000000x28, .f32⟩
  | 1 => ⟨S_, .i32⟩
  | 2 => ⟨S2000000, .i32⟩
  | 3 => ⟨S2000000, .i1⟩
  | 4 => ⟨S_, .i32⟩
  | 5 => ⟨S2000000, .i32⟩
  | 6 => ⟨S2000000, .i32⟩
  | 7 => ⟨S2000000, .i32⟩
  | 8 => ⟨S_, .i32⟩
  | 9 => ⟨S2000000, .i32⟩
  | 10 => ⟨S2000000, .i1⟩
  | 11 => ⟨S_, .i32⟩
  | 12 => ⟨S2000000, .i32⟩
  | 13 => ⟨S2000000, .i32⟩
  | 14 => ⟨S2000000, .i32⟩
  | 15 => ⟨S_, .i32⟩
  | 16 => ⟨S2000000, .i32⟩
  | 17 => ⟨S2000000, .i1⟩
  | 18 => ⟨S_, .i32⟩
  | 19 => ⟨S2000000, .i32⟩
  | 20 => ⟨S2000000, .i32⟩
  | 21 => ⟨S2000000, .i32⟩
  | 22 => ⟨S2000000x1, .i32⟩
  | 23 => ⟨S2000000x1, .i32⟩
  | 24 => ⟨S2000000x1, .i32⟩
  | 25 => ⟨S2000000x3, .i32⟩
  | 26 => ⟨S2000000x28, .f32⟩
  | 27 => ⟨S2000000x28, .f32⟩
  | 28 => ⟨S2000000x28, .f32⟩
  | 29 => ⟨S2000000x28, .f32⟩
  | 30 => ⟨S_, .f32⟩
  | 31 => ⟨S2000000x1, .f32⟩
  | 32 => ⟨S2000000x1, .f32⟩
  | 33 => ⟨S2000000x28, .f32⟩
  | 34 => ⟨S2000000x28, .f32⟩
  | 35 => ⟨S2000000x28, .f32⟩
  | 36 => ⟨S2000000x28, .f32⟩
  | 37 => ⟨S2000000x28, .f32⟩
  | 38 => ⟨S_, .f32⟩
  | 39 => ⟨S2000000x1, .f32⟩
  | 40 => ⟨S2000000x1, .f32⟩
  | 41 => ⟨S2000000x28, .f32⟩
  | 42 => ⟨S2000000x28, .f32⟩
  | 43 => ⟨S2000000x28, .f32⟩
  | 44 => ⟨S2000000x28, .f32⟩
  | 45 => ⟨S2000000x28, .f32⟩
  | 46 => ⟨S_, .f32⟩
  | 47 => ⟨S2000000x1, .f32⟩
  | 48 => ⟨S2000000x1, .f32⟩
  | 49 => ⟨S2000000x28, .f32⟩
  | 50 => ⟨S2000000x28, .f32⟩
  | 51 => ⟨S2000000x28, .f32⟩
  | 52 => ⟨S2000000x28, .f32⟩
  | 53 => ⟨S2000000x28, .f32⟩
  | 54 => ⟨S2000000x1, .f32⟩
  | 55 => ⟨S2000000, .f32⟩
  | 56 => ⟨S2000000x27, .f32⟩
  | 57 => ⟨S2000000x3x9, .f32⟩
  | 58 => ⟨S2000000x3, .f32⟩
  | 59 => ⟨S_, .f32⟩
  | 60 => ⟨S2000000, .f32⟩
  | 61 => ⟨S2000000x1, .f32⟩
  | 62 => ⟨S2000000x1, .f32⟩
  | 63 => ⟨S2000000x3, .f32⟩
  | 64 => ⟨S2000000x3, .f32⟩
  | 65 => ⟨S2000000x1, .f32⟩
  | 66 => ⟨S2000000, .f32⟩
  | 67 => ⟨S2000000x1, .f32⟩
  | 68 => ⟨S2000000, .f32⟩
  | 69 => ⟨S2000000x1, .f32⟩
  | 70 => ⟨S2000000, .f32⟩
  | 71 => ⟨S_, .f32⟩
  | 72 => ⟨S2000000, .f32⟩
  | 73 => ⟨S_, .f32⟩
  | 74 => ⟨S2000000, .f32⟩
  | 75 => ⟨S2000000, .f32⟩
  | 76 => ⟨S_, .f32⟩
  | 77 => ⟨S2000000, .f32⟩
  | 78 => ⟨S2000000, .f32⟩
  | 79 => ⟨S_, .f32⟩
  | 80 => ⟨S2000000, .f32⟩
  | 81 => ⟨S2000000, .f32⟩
  | 82 => ⟨S_, .f32⟩
  | 83 => ⟨S2000000, .f32⟩
  | 84 => ⟨S2000000, .f32⟩
  | 85 => ⟨S_, .f32⟩
  | 86 => ⟨S2000000, .f32⟩
  | 87 => ⟨S2000000, .f32⟩
  | 88 => ⟨S2000000, .f32⟩
  | 89 => ⟨S_, .f32⟩
  | 90 => ⟨S2000000, .f32⟩
  | 91 => ⟨S2000000, .f32⟩
  | 92 => ⟨S2000000, .f32⟩
  | 93 => ⟨S_, .f32⟩
  | 94 => ⟨S2000000, .f32⟩
  | 95 => ⟨S2000000, .f32⟩
  | 96 => ⟨S2000000, .f32⟩
  | 97 => ⟨S_, .f32⟩
  | 98 => ⟨S2000000, .f32⟩
  | 99 => ⟨S2000000, .f32⟩
  | 100 => ⟨S_, .f32⟩
  | 101 => ⟨S2000000, .f32⟩
  | 102 => ⟨S2000000, .f32⟩
  | 103 => ⟨S_, .f32⟩
  | 104 => ⟨S2000000, .f32⟩
  | 105 => ⟨S2000000, .f32⟩
  | 106 => ⟨S2000000, .f32⟩
  | 107 => ⟨S2000000, .f32⟩
  | 108 => ⟨S2000000, .f32⟩
  | 109 => ⟨S2000000, .f32⟩
  | 110 => ⟨S_, .f32⟩
  | 111 => ⟨S2000000, .f32⟩
  | 112 => ⟨S2000000, .f32⟩
  | 113 => ⟨S2000000x1, .f32⟩
  | 114 => ⟨S2000000x1, .f32⟩
  | 115 => ⟨S2000000x1, .f32⟩
  | 116 => ⟨S2000000x1, .f32⟩
  | 117 => ⟨S2000000x1, .f32⟩
  | 118 => ⟨S2000000x1, .f32⟩
  | 119 => ⟨S2000000x1, .f32⟩
  | 120 => ⟨S2000000x1, .f32⟩
  | 121 => ⟨S2000000x1, .f32⟩
  | 122 => ⟨S2000000x9, .f32⟩
  | 123 => ⟨S2000000x1x9, .f32⟩
  | 124 => ⟨S2000000x3x9, .f32⟩
  | 125 => ⟨S2000000x3x9, .f32⟩
  | 126 => ⟨S_, .f32⟩
  | 127 => ⟨S2000000x3, .f32⟩
  | _ => ⟨S2000000x3, .f32⟩

abbrev hbmTy0_3 (i : Nat) : BufTy := match i % 128 with
  | 0 => ⟨S2000000x3, .f32⟩
  | 1 => ⟨S2000000x3, .f32⟩
  | 2 => ⟨S_, .f32⟩
  | 3 => ⟨S2000000x3, .f32⟩
  | 4 => ⟨S2000000x3, .f32⟩
  | 5 => ⟨S_, .f32⟩
  | 6 => ⟨S2000000x3, .f32⟩
  | 7 => ⟨S2000000x3, .f32⟩
  | 8 => ⟨S_, .f32⟩
  | 9 => ⟨S2000000, .f32⟩
  | 10 => ⟨S2000000, .f32⟩
  | 11 => ⟨S2000000, .f32⟩
  | 12 => ⟨S2000000, .f32⟩
  | 13 => ⟨S2000000, .i1⟩
  | 14 => ⟨S2000000, .f32⟩
  | 15 => ⟨S2000000, .f32⟩
  | 16 => ⟨S2000000, .f32⟩
  | 17 => ⟨S2000000, .f32⟩
  | 18 => ⟨S2000000, .f32⟩
  | 19 => ⟨S2000000, .f32⟩
  | 20 => ⟨S2000000, .f32⟩
  | 21 => ⟨S2000000, .f32⟩
  | 22 => ⟨S2000000x1, .f32⟩
  | _ => ⟨S2000000x3, .f32⟩

abbrev hbmTy (i : Nat) : BufTy := match i / 128 with
  | 0 => hbmTy0_0 i
  | 1 => hbmTy0_1 i
  | 2 => hbmTy0_2 i
  | 3 => hbmTy0_3 i
  | _ => ⟨S2000000x3, .f32⟩

abbrev bufTy : (tb : Table) → Fin (tcTables nBuf tb) → BufTy
  | .hbm, ⟨i, _⟩ => hbmTy i
  | _, _ => ⟨S2000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_cst_3 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_4 : Ref sig .tc := ⟨.hbm, 25, rfl⟩
abbrev main_v12 : Ref sig .tc := ⟨.hbm, 26, rfl⟩
abbrev main_v13 : Ref sig .tc := ⟨.hbm, 27, rfl⟩
abbrev main_c_5 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_8 : Ref sig .tc := ⟨.hbm, 53, rfl⟩
abbrev main_v36 : Ref sig .tc := ⟨.hbm, 54, rfl⟩
abbrev main_v37 : Ref sig .tc := ⟨.hbm, 55, rfl⟩
abbrev main_c_9 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_10 : Ref sig .tc := ⟨.hbm, 60, rfl⟩
abbrev main_v41 : Ref sig .tc := ⟨.hbm, 61, rfl⟩
abbrev main_v42 : Ref sig .tc := ⟨.hbm, 62, rfl⟩
abbrev main_c_11 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_12 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_13 : Ref sig .tc := ⟨.hbm, 77, rfl⟩
abbrev main_v55 : Ref sig .tc := ⟨.hbm, 78, rfl⟩
abbrev main_v56 : Ref sig .tc := ⟨.hbm, 79, rfl⟩
abbrev main_c_14 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_15 : Ref sig .tc := ⟨.hbm, 84, rfl⟩
abbrev main_v60 : Ref sig .tc := ⟨.hbm, 85, rfl⟩
abbrev main_v61 : Ref sig .tc := ⟨.hbm, 86, rfl⟩
abbrev main_c_16 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c_17 : Ref sig .tc := ⟨.hbm, 91, rfl⟩
abbrev main_v65 : Ref sig .tc := ⟨.hbm, 92, rfl⟩
abbrev main_v66 : Ref sig .tc := ⟨.hbm, 93, rfl⟩
abbrev main_c_18 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_c_19 : Ref sig .tc := ⟨.hbm, 106, rfl⟩
abbrev main_v78 : Ref sig .tc := ⟨.hbm, 107, rfl⟩
abbrev main_v79 : Ref sig .tc := ⟨.hbm, 108, rfl⟩
abbrev main_c_20 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_c_21 : Ref sig .tc := ⟨.hbm, 113, rfl⟩
abbrev main_v83 : Ref sig .tc := ⟨.hbm, 114, rfl⟩
abbrev main_v84 : Ref sig .tc := ⟨.hbm, 115, rfl⟩
abbrev main_c_22 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_c_23 : Ref sig .tc := ⟨.hbm, 120, rfl⟩
abbrev main_v88 : Ref sig .tc := ⟨.hbm, 121, rfl⟩
abbrev main_v89 : Ref sig .tc := ⟨.hbm, 122, rfl⟩
abbrev main_c_24 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_cst_25 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_c_26 : Ref sig .tc := ⟨.hbm, 137, rfl⟩
abbrev main_v102 : Ref sig .tc := ⟨.hbm, 138, rfl⟩
abbrev main_v103 : Ref sig .tc := ⟨.hbm, 139, rfl⟩
abbrev main_c_27 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_c_28 : Ref sig .tc := ⟨.hbm, 144, rfl⟩
abbrev main_v107 : Ref sig .tc := ⟨.hbm, 145, rfl⟩
abbrev main_v108 : Ref sig .tc := ⟨.hbm, 146, rfl⟩
abbrev main_c_29 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_c_30 : Ref sig .tc := ⟨.hbm, 151, rfl⟩
abbrev main_v112 : Ref sig .tc := ⟨.hbm, 152, rfl⟩
abbrev main_v113 : Ref sig .tc := ⟨.hbm, 153, rfl⟩
abbrev main_c_31 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_c_32 : Ref sig .tc := ⟨.hbm, 166, rfl⟩
abbrev main_v125 : Ref sig .tc := ⟨.hbm, 167, rfl⟩
abbrev main_v126 : Ref sig .tc := ⟨.hbm, 168, rfl⟩
abbrev main_c_33 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_c_34 : Ref sig .tc := ⟨.hbm, 173, rfl⟩
abbrev main_v130 : Ref sig .tc := ⟨.hbm, 174, rfl⟩
abbrev main_v131 : Ref sig .tc := ⟨.hbm, 175, rfl⟩
abbrev main_c_35 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_c_36 : Ref sig .tc := ⟨.hbm, 180, rfl⟩
abbrev main_v135 : Ref sig .tc := ⟨.hbm, 181, rfl⟩
abbrev main_v136 : Ref sig .tc := ⟨.hbm, 182, rfl⟩
abbrev main_c_37 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_cst_38 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_c_39 : Ref sig .tc := ⟨.hbm, 197, rfl⟩
abbrev main_v149 : Ref sig .tc := ⟨.hbm, 198, rfl⟩
abbrev main_v150 : Ref sig .tc := ⟨.hbm, 199, rfl⟩
abbrev main_c_40 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_c_41 : Ref sig .tc := ⟨.hbm, 204, rfl⟩
abbrev main_v154 : Ref sig .tc := ⟨.hbm, 205, rfl⟩
abbrev main_v155 : Ref sig .tc := ⟨.hbm, 206, rfl⟩
abbrev main_c_42 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_c_43 : Ref sig .tc := ⟨.hbm, 211, rfl⟩
abbrev main_v159 : Ref sig .tc := ⟨.hbm, 212, rfl⟩
abbrev main_v160 : Ref sig .tc := ⟨.hbm, 213, rfl⟩
abbrev main_c_44 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_c_45 : Ref sig .tc := ⟨.hbm, 226, rfl⟩
abbrev main_v172 : Ref sig .tc := ⟨.hbm, 227, rfl⟩
abbrev main_v173 : Ref sig .tc := ⟨.hbm, 228, rfl⟩
abbrev main_c_46 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_c_47 : Ref sig .tc := ⟨.hbm, 233, rfl⟩
abbrev main_v177 : Ref sig .tc := ⟨.hbm, 234, rfl⟩
abbrev main_v178 : Ref sig .tc := ⟨.hbm, 235, rfl⟩
abbrev main_c_48 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_c_49 : Ref sig .tc := ⟨.hbm, 240, rfl⟩
abbrev main_v182 : Ref sig .tc := ⟨.hbm, 241, rfl⟩
abbrev main_v183 : Ref sig .tc := ⟨.hbm, 242, rfl⟩
abbrev main_c_50 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_v191 : Ref sig .tc := ⟨.hbm, 251, rfl⟩
abbrev main_cst_51 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_c_52 : Ref sig .tc := ⟨.hbm, 257, rfl⟩
abbrev main_v196 : Ref sig .tc := ⟨.hbm, 258, rfl⟩
abbrev main_v197 : Ref sig .tc := ⟨.hbm, 259, rfl⟩
abbrev main_c_53 : Ref sig .tc := ⟨.hbm, 260, rfl⟩
abbrev main_v198 : Ref sig .tc := ⟨.hbm, 261, rfl⟩
abbrev main_v199 : Ref sig .tc := ⟨.hbm, 262, rfl⟩
abbrev main_v200 : Ref sig .tc := ⟨.hbm, 263, rfl⟩
abbrev main_c_54 : Ref sig .tc := ⟨.hbm, 264, rfl⟩
abbrev main_v201 : Ref sig .tc := ⟨.hbm, 265, rfl⟩
abbrev main_v202 : Ref sig .tc := ⟨.hbm, 266, rfl⟩
abbrev main_c_55 : Ref sig .tc := ⟨.hbm, 267, rfl⟩
abbrev main_v203 : Ref sig .tc := ⟨.hbm, 268, rfl⟩
abbrev main_v204 : Ref sig .tc := ⟨.hbm, 269, rfl⟩
abbrev main_v205 : Ref sig .tc := ⟨.hbm, 270, rfl⟩
abbrev main_c_56 : Ref sig .tc := ⟨.hbm, 271, rfl⟩
abbrev main_v206 : Ref sig .tc := ⟨.hbm, 272, rfl⟩
abbrev main_v207 : Ref sig .tc := ⟨.hbm, 273, rfl⟩
abbrev main_c_57 : Ref sig .tc := ⟨.hbm, 274, rfl⟩
abbrev main_v208 : Ref sig .tc := ⟨.hbm, 275, rfl⟩
abbrev main_v209 : Ref sig .tc := ⟨.hbm, 276, rfl⟩
abbrev main_v210 : Ref sig .tc := ⟨.hbm, 277, rfl⟩
abbrev main_v211 : Ref sig .tc := ⟨.hbm, 278, rfl⟩
abbrev main_v212 : Ref sig .tc := ⟨.hbm, 279, rfl⟩
abbrev main_v213 : Ref sig .tc := ⟨.hbm, 280, rfl⟩
abbrev main_v214 : Ref sig .tc := ⟨.hbm, 281, rfl⟩
abbrev main_v215 : Ref sig .tc := ⟨.hbm, 282, rfl⟩
abbrev main_v216 : Ref sig .tc := ⟨.hbm, 283, rfl⟩
abbrev main_v217 : Ref sig .tc := ⟨.hbm, 284, rfl⟩
abbrev main_v218 : Ref sig .tc := ⟨.hbm, 285, rfl⟩
abbrev main_cst_58 : Ref sig .tc := ⟨.hbm, 286, rfl⟩
abbrev main_v219 : Ref sig .tc := ⟨.hbm, 287, rfl⟩
abbrev main_v220 : Ref sig .tc := ⟨.hbm, 288, rfl⟩
abbrev main_v221 : Ref sig .tc := ⟨.hbm, 289, rfl⟩
abbrev main_v222 : Ref sig .tc := ⟨.hbm, 290, rfl⟩
abbrev main_v223 : Ref sig .tc := ⟨.hbm, 291, rfl⟩
abbrev main_v224 : Ref sig .tc := ⟨.hbm, 292, rfl⟩
abbrev main_v225 : Ref sig .tc := ⟨.hbm, 293, rfl⟩
abbrev main_cst_59 : Ref sig .tc := ⟨.hbm, 294, rfl⟩
abbrev main_v226 : Ref sig .tc := ⟨.hbm, 295, rfl⟩
abbrev main_v227 : Ref sig .tc := ⟨.hbm, 296, rfl⟩
abbrev main_v228 : Ref sig .tc := ⟨.hbm, 297, rfl⟩
abbrev main_v229 : Ref sig .tc := ⟨.hbm, 298, rfl⟩
abbrev main_v230 : Ref sig .tc := ⟨.hbm, 299, rfl⟩
abbrev main_v231 : Ref sig .tc := ⟨.hbm, 300, rfl⟩
abbrev main_v232 : Ref sig .tc := ⟨.hbm, 301, rfl⟩
abbrev main_cst_60 : Ref sig .tc := ⟨.hbm, 302, rfl⟩
abbrev main_v233 : Ref sig .tc := ⟨.hbm, 303, rfl⟩
abbrev main_v234 : Ref sig .tc := ⟨.hbm, 304, rfl⟩
abbrev main_v235 : Ref sig .tc := ⟨.hbm, 305, rfl⟩
abbrev main_v236 : Ref sig .tc := ⟨.hbm, 306, rfl⟩
abbrev main_v237 : Ref sig .tc := ⟨.hbm, 307, rfl⟩
abbrev main_v238 : Ref sig .tc := ⟨.hbm, 308, rfl⟩
abbrev main_v239 : Ref sig .tc := ⟨.hbm, 309, rfl⟩
abbrev main_v240 : Ref sig .tc := ⟨.hbm, 310, rfl⟩
abbrev main_v241 : Ref sig .tc := ⟨.hbm, 311, rfl⟩
abbrev main_v242 : Ref sig .tc := ⟨.hbm, 312, rfl⟩
abbrev main_v243 : Ref sig .tc := ⟨.hbm, 313, rfl⟩
abbrev main_call1_v0 : Ref sig .tc := ⟨.hbm, 314, rfl⟩
abbrev main_call1_cst : Ref sig .tc := ⟨.hbm, 315, rfl⟩
abbrev main_call1_v1 : Ref sig .tc := ⟨.hbm, 316, rfl⟩
abbrev main_call1_v2 : Ref sig .tc := ⟨.hbm, 317, rfl⟩
abbrev main_v244 : Ref sig .tc := ⟨.hbm, 318, rfl⟩
abbrev main_v245 : Ref sig .tc := ⟨.hbm, 319, rfl⟩
abbrev main_v246 : Ref sig .tc := ⟨.hbm, 320, rfl⟩
abbrev main_v247 : Ref sig .tc := ⟨.hbm, 321, rfl⟩
abbrev main_v248 : Ref sig .tc := ⟨.hbm, 322, rfl⟩
abbrev main_v249 : Ref sig .tc := ⟨.hbm, 323, rfl⟩
abbrev main_v250 : Ref sig .tc := ⟨.hbm, 324, rfl⟩
abbrev main_v251 : Ref sig .tc := ⟨.hbm, 325, rfl⟩
abbrev main_v252 : Ref sig .tc := ⟨.hbm, 326, rfl⟩
abbrev main_cst_61 : Ref sig .tc := ⟨.hbm, 327, rfl⟩
abbrev main_v253 : Ref sig .tc := ⟨.hbm, 328, rfl⟩
abbrev main_cst_62 : Ref sig .tc := ⟨.hbm, 329, rfl⟩
abbrev main_v254 : Ref sig .tc := ⟨.hbm, 330, rfl⟩
abbrev main_v255 : Ref sig .tc := ⟨.hbm, 331, rfl⟩
abbrev main_cst_63 : Ref sig .tc := ⟨.hbm, 332, rfl⟩
abbrev main_v256 : Ref sig .tc := ⟨.hbm, 333, rfl⟩
abbrev main_v257 : Ref sig .tc := ⟨.hbm, 334, rfl⟩
abbrev main_cst_64 : Ref sig .tc := ⟨.hbm, 335, rfl⟩
abbrev main_v258 : Ref sig .tc := ⟨.hbm, 336, rfl⟩
abbrev main_v259 : Ref sig .tc := ⟨.hbm, 337, rfl⟩
abbrev main_cst_65 : Ref sig .tc := ⟨.hbm, 338, rfl⟩
abbrev main_v260 : Ref sig .tc := ⟨.hbm, 339, rfl⟩
abbrev main_v261 : Ref sig .tc := ⟨.hbm, 340, rfl⟩
abbrev main_cst_66 : Ref sig .tc := ⟨.hbm, 341, rfl⟩
abbrev main_v262 : Ref sig .tc := ⟨.hbm, 342, rfl⟩
abbrev main_v263 : Ref sig .tc := ⟨.hbm, 343, rfl⟩
abbrev main_v264 : Ref sig .tc := ⟨.hbm, 344, rfl⟩
abbrev main_cst_67 : Ref sig .tc := ⟨.hbm, 345, rfl⟩
abbrev main_v265 : Ref sig .tc := ⟨.hbm, 346, rfl⟩
abbrev main_v266 : Ref sig .tc := ⟨.hbm, 347, rfl⟩
abbrev main_v267 : Ref sig .tc := ⟨.hbm, 348, rfl⟩
abbrev main_cst_68 : Ref sig .tc := ⟨.hbm, 349, rfl⟩
abbrev main_v268 : Ref sig .tc := ⟨.hbm, 350, rfl⟩
abbrev main_v269 : Ref sig .tc := ⟨.hbm, 351, rfl⟩
abbrev main_v270 : Ref sig .tc := ⟨.hbm, 352, rfl⟩
abbrev main_cst_69 : Ref sig .tc := ⟨.hbm, 353, rfl⟩
abbrev main_v271 : Ref sig .tc := ⟨.hbm, 354, rfl⟩
abbrev main_v272 : Ref sig .tc := ⟨.hbm, 355, rfl⟩
abbrev main_cst_70 : Ref sig .tc := ⟨.hbm, 356, rfl⟩
abbrev main_v273 : Ref sig .tc := ⟨.hbm, 357, rfl⟩
abbrev main_v274 : Ref sig .tc := ⟨.hbm, 358, rfl⟩
abbrev main_cst_71 : Ref sig .tc := ⟨.hbm, 359, rfl⟩
abbrev main_v275 : Ref sig .tc := ⟨.hbm, 360, rfl⟩
abbrev main_v276 : Ref sig .tc := ⟨.hbm, 361, rfl⟩
abbrev main_v277 : Ref sig .tc := ⟨.hbm, 362, rfl⟩
abbrev main_v278 : Ref sig .tc := ⟨.hbm, 363, rfl⟩
abbrev main_v279 : Ref sig .tc := ⟨.hbm, 364, rfl⟩
abbrev main_v280 : Ref sig .tc := ⟨.hbm, 365, rfl⟩
abbrev main_cst_72 : Ref sig .tc := ⟨.hbm, 366, rfl⟩
abbrev main_v281 : Ref sig .tc := ⟨.hbm, 367, rfl⟩
abbrev main_v282 : Ref sig .tc := ⟨.hbm, 368, rfl⟩
abbrev main_v283 : Ref sig .tc := ⟨.hbm, 369, rfl⟩
abbrev main_v284 : Ref sig .tc := ⟨.hbm, 370, rfl⟩
abbrev main_v285 : Ref sig .tc := ⟨.hbm, 371, rfl⟩
abbrev main_v286 : Ref sig .tc := ⟨.hbm, 372, rfl⟩
abbrev main_v287 : Ref sig .tc := ⟨.hbm, 373, rfl⟩
abbrev main_v288 : Ref sig .tc := ⟨.hbm, 374, rfl⟩
abbrev main_v289 : Ref sig .tc := ⟨.hbm, 375, rfl⟩
abbrev main_v290 : Ref sig .tc := ⟨.hbm, 376, rfl⟩
abbrev main_v291 : Ref sig .tc := ⟨.hbm, 377, rfl⟩
abbrev main_v292 : Ref sig .tc := ⟨.hbm, 378, rfl⟩
abbrev main_v293 : Ref sig .tc := ⟨.hbm, 379, rfl⟩
abbrev main_v294 : Ref sig .tc := ⟨.hbm, 380, rfl⟩
abbrev main_v295 : Ref sig .tc := ⟨.hbm, 381, rfl⟩
abbrev main_cst_73 : Ref sig .tc := ⟨.hbm, 382, rfl⟩
abbrev main_v296 : Ref sig .tc := ⟨.hbm, 383, rfl⟩
abbrev main_v297 : Ref sig .tc := ⟨.hbm, 384, rfl⟩
abbrev main_v298 : Ref sig .tc := ⟨.hbm, 385, rfl⟩
abbrev main_cst_74 : Ref sig .tc := ⟨.hbm, 386, rfl⟩
abbrev main_v299 : Ref sig .tc := ⟨.hbm, 387, rfl⟩
abbrev main_v300 : Ref sig .tc := ⟨.hbm, 388, rfl⟩
abbrev main_cst_75 : Ref sig .tc := ⟨.hbm, 389, rfl⟩
abbrev main_v301 : Ref sig .tc := ⟨.hbm, 390, rfl⟩
abbrev main_v302 : Ref sig .tc := ⟨.hbm, 391, rfl⟩
abbrev main_call2_cst : Ref sig .tc := ⟨.hbm, 392, rfl⟩
abbrev main_call2_v0 : Ref sig .tc := ⟨.hbm, 393, rfl⟩
abbrev main_call2_v1 : Ref sig .tc := ⟨.hbm, 394, rfl⟩
abbrev main_call2_v2 : Ref sig .tc := ⟨.hbm, 395, rfl⟩
abbrev main_call2_v3 : Ref sig .tc := ⟨.hbm, 396, rfl⟩
abbrev main_call2_v4 : Ref sig .tc := ⟨.hbm, 397, rfl⟩
abbrev main_call2_v5 : Ref sig .tc := ⟨.hbm, 398, rfl⟩
abbrev main_call2_v6 : Ref sig .tc := ⟨.hbm, 399, rfl⟩
abbrev main_call2_v7 : Ref sig .tc := ⟨.hbm, 400, rfl⟩
abbrev main_call2_v8 : Ref sig .tc := ⟨.hbm, 401, rfl⟩
abbrev main_call2_v9 : Ref sig .tc := ⟨.hbm, 402, rfl⟩
abbrev main_call2_v10 : Ref sig .tc := ⟨.hbm, 403, rfl⟩
abbrev main_call2_v11 : Ref sig .tc := ⟨.hbm, 404, rfl⟩
abbrev main_v303 : Ref sig .tc := ⟨.hbm, 405, rfl⟩
abbrev main_v304 : Ref sig .tc := ⟨.hbm, 406, rfl⟩

abbrev nD : Nat := 1
abbrev τ : Topo := Topo.v7x

variable {F : FTy → Type} [FloatOps F]

class Facts₀ : Prop where
  bcast_S_S2000000x3 : S_.BroadcastsInDim S2000000x3 (![] : Fin 0 → Fin S2000000x3.rank)
  slices_S2000000x3_S2000000x1_0_0 : S2000000x3.Slices ![0, 0] S2000000x1
  shapeCasts_S2000000x1_S2000000 : S2000000x1.ShapeCasts S2000000
  slices_S2000000x3_S2000000x1_0_1 : S2000000x3.Slices ![0, 1] S2000000x1
  slices_S2000000x3_S2000000x1_0_2 : S2000000x3.Slices ![0, 2] S2000000x1
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x1_S2000000x1_S2000000x1_S2000000x3_d1 : Shape.Concatenates [S2000000x1, S2000000x1, S2000000x1] S2000000x3 1
  bcast_S_S2000000x1 : S_.BroadcastsInDim S2000000x1 (![] : Fin 0 → Fin S2000000x1.rank)
  bcast_S2000000x1_S2000000x28_0_1 : S2000000x1.BroadcastsInDim S2000000x28 (![0, 1] : Fin 2 → Fin S2000000x28.rank)
  slices_S2000000x28_S2000000x1_0_0 : S2000000x28.Slices ![0, 0] S2000000x1
  slices_S2000000x28_S2000000x27_0_1 : S2000000x28.Slices ![0, 1] S2000000x27
  shapeCasts_S2000000x27_S2000000x3x9 : S2000000x27.ShapeCasts S2000000x3x9
  reducesTo_S2000000x3_S2000000_d1 : S2000000x3.ReducesTo [1] S2000000
  h_S_ : 0 < S_.numel
  bcast_S2000000x1_S2000000x3_0_1 : S2000000x1.BroadcastsInDim S2000000x3 (![0, 1] : Fin 2 → Fin S2000000x3.rank)
  concatenates_S2000000x1_S2000000x1_S2000000x1_S2000000x1_S2000000x1_S2000000x1_S2000000x1_S2000000x1_S2000000x1_S2000000x9_d1 : Shape.Concatenates [S2000000x1, S2000000x1, S2000000x1, S2000000x1, S2000000x1, S2000000x1, S2000000x1, S2000000x1, S2000000x1] S2000000x9 1
  bcast_S2000000x9_S2000000x1x9_0_2 : S2000000x9.BroadcastsInDim S2000000x1x9 (![0, 2] : Fin 2 → Fin S2000000x1x9.rank)
  bcast_S2000000x1x9_S2000000x3x9_0_1_2 : S2000000x1x9.BroadcastsInDim S2000000x3x9 (![0, 1, 2] : Fin 3 → Fin S2000000x3x9.rank)
  reducesTo_S2000000x3x9_S2000000x3_d2 : S2000000x3x9.ReducesTo [2] S2000000x3
  gather_S192x192x192x28_S2000000x3_S2000000x28_1_012_n_n_012_1_11128_wf : GatherDims.WF S192x192x192x28 S2000000x3 S2000000x28 [1] [0, 1, 2] [] [0, 1, 2] [] 1 ![1, 1, 1, 28]

variable [Facts₀]

def gather_S192x192x192x28_S2000000x3_S2000000x28_1_012_n_n_012_1_11128 : GatherDims S192x192x192x28 S2000000x3 S2000000x28 where
  offsetDims := [1]
  collapsedSliceDims := [0, 1, 2]
  operandBatchingDims := []
  startIndicesBatchingDims := []
  startIndexMap := [0, 1, 2]
  indexVectorDim := 1
  sliceSizes := ![1, 1, 1, 28]
  wf := gather_S192x192x192x28_S2000000x3_S2000000x28_1_012_n_n_012_1_11128_wf

class Facts : Prop extends Facts₀ where

variable [Facts]
-- ==== Proof.LibNary3.lean ====
/-
  A host operation over a literal family of THREE references (a concatenation of three operands), read at its result.

  The fold of a line of host operations is computed buffer by buffer: an operation's result at its own result buffer is
  its function applied to its operands' contents. For an operation over a family `![x, a, b]` the general statement
  reads operand `k` at the reference `![x, a, b] k`, under a binder where `k` is a variable, so the computation cannot go
  on into the operands. Here the three operands' contents stand each at its own reference, and the computation goes on.
  The library has the same statement for a family of four.
-/
import Idealize.ShloMosaic.Lib.StableHlo.Run

noncomputable section

namespace Cert.LibNary3

open Idealize.ShloMosaic Idealize.ShloMosaic.StableHlo Idealize.SL.Sem

variable {τ : Topo} {sig : RefSig} {Val : EltTy → Type}
variable {x a b y : Ref sig .tc}

/-- The result of an operation over the literal family `![x, a, b]`, each operand's contents at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, with the result reference un-indexed for `simp`. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Cert.LibNary3

/-- The fold of a line of host operations at one buffer, as one `simp` pass: the library's pass with the three-reference
    statement above added before the general one. -/
macro "after_results_simp3" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Cert.LibNary3.nary3_result', Idealize.ShloMosaic.StableHlo.nary4_result', Idealize.ShloMosaic.StableHlo.nary_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))

end
-- ==== Proof.EntryBits.lean ====
/-
  The program up to its one kernel launch.

  Before the launch the program runs five stretches of host operations: the scaling and clipping of the query points
  to grid coordinates, the eight corner gathers with their index arithmetic, and the direction's normalisation. `V` is
  what every buffer of a core holds when the launch is reached: the fold of those operations over the memory the
  program starts from. No operation writes an argument array, so the launch finds both as they were.
-/
import proofs.«144185_j57191784513782_1_alg».proof.Proof.Gen.Kernel.Launch
import proofs.«144185_j57191784513782_1_alg».proof.Proof.LibNary3
import Idealize.ShloMosaic.Lib.Pipeline.Frame

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

variable (m : (ℓ : Loc nD τ sig) → Buf (Elt F) ℓ)

/-- Core `c`'s buffers when the launch is reached: after the five stretches of host operations. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
set_option maxHeartbeats 4000000 in
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

/-- The program is those five stretches and then the launch, so the launch is reached with the buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

set_option maxHeartbeats 40000000 in
/-- No host operation writes the query points. -/
theorem V_main_arg0 (c : Dev nD) : V m c main_arg0 = m ((c : Thread nD τ).loc main_arg0) := by
  dsimp only [V]
  simp only [hostOps0, hostOps0_1, hostOps0_2, hostOps0_3, hostOps0_4, List.flatten_cons, List.flatten_nil, List.append_nil, List.cons_append, List.nil_append]
  after_results_simp3 <;> rfl

set_option maxHeartbeats 40000000 in
/-- No host operation writes the voxel grid. -/
theorem V_main_arg1 (c : Dev nD) : V m c main_arg1 = m ((c : Thread nD τ).loc main_arg1) := by
  dsimp only [V]
  simp only [hostOps0, hostOps0_1, hostOps0_2, hostOps0_3, hostOps0_4, List.flatten_cons, List.flatten_nil, List.append_nil, List.cons_append, List.nil_append]
  after_results_simp3 <;> rfl

end Cert.Kernel.Hand

end
-- ==== Proof.KernelOutBits.lean ====
/-
  What one launch of the kernel body leaves in its two output blocks, as functions of its ten input blocks.

  The body loads the eight corner blocks (16000 points × 28 features), the block of fractional offsets and the block of
  directions (16000 × 3 each), and stores one whole block of colours (16000 × 3) and one whole block of densities
  (16000 × 1). Each output block is therefore the stored value itself: the canon of that single store.
-/
import proofs.«144185_j57191784513782_1_alg».proof.Proof.Gen.Kernel.Skeleton
import Idealize.ShloMosaic.Lib.Pipeline.FrameBody

set_option maxRecDepth 16384

noncomputable section

namespace Cert.Kernel.Hand

open Cert.Kernel Cert.Kernel.Gen
open Idealize.ShloMosaic Idealize.ShloMosaic.TcCoe Idealize.SL.Sem

variable {F : FTy → Type} [FloatOps F]

/-- The whole block of a corner window, of the offsets' and directions' windows, of the colours' and the densities'. -/
abbrev r28 : Rect S16000x28 := Rect.unit (s := S16000x28) ![0, 0] S16000x28.size inb_S16000x28_S16000x28_0_0
abbrev r3 : Rect S16000x3 := Rect.unit (s := S16000x3) ![0, 0] S16000x3.size inb_S16000x3_S16000x3_0_0
abbrev r1 : Rect S16000x1 := Rect.unit (s := S16000x1) ![0, 0] S16000x1.size inb_S16000x1_S16000x1_0_0

/-- The colours' block after the body: the logistic of each channel's inner product, from the corner blocks `x0 … x7`,
    the offsets `x8` and the directions `x9`. -/
def out10 (x0 x1 x2 x3 x4 x5 x6 x7 : Vec F S16000x28 .f32) (x8 x9 : Vec F S16000x3 .f32) : Vec F S16000x3 .f32 :=
  View.canon [⟨r3, k0_pay23
    (k0_pay15 (k0_pay2 (View.ld x4 r28)) (k0_pay3 (View.ld x5 r28)) (k0_pay4 (View.ld x6 r28)) (k0_pay5 (View.ld x7 r28)) (k0_pay8 (View.ld x8 r3)) (k0_pay9 (View.ld x8 r3)) (k0_pay10 (View.ld x8 r3)) (k0_pay11 (View.ld x0 r28) (View.ld x1 r28) (View.ld x8 r3)) (k0_pay12 (View.ld x2 r28) (View.ld x3 r28) (View.ld x8 r3)))
    (k0_pay16 (k0_pay2 (View.ld x4 r28)) (k0_pay3 (View.ld x5 r28)) (k0_pay4 (View.ld x6 r28)) (k0_pay5 (View.ld x7 r28)) (k0_pay8 (View.ld x8 r3)) (k0_pay9 (View.ld x8 r3)) (k0_pay10 (View.ld x8 r3)) (k0_pay11 (View.ld x0 r28) (View.ld x1 r28) (View.ld x8 r3)) (k0_pay12 (View.ld x2 r28) (View.ld x3 r28) (View.ld x8 r3)))
    (k0_pay17 (k0_pay2 (View.ld x4 r28)) (k0_pay3 (View.ld x5 r28)) (k0_pay4 (View.ld x6 r28)) (k0_pay5 (View.ld x7 r28)) (k0_pay8 (View.ld x8 r3)) (k0_pay9 (View.ld x8 r3)) (k0_pay10 (View.ld x8 r3)) (k0_pay11 (View.ld x0 r28) (View.ld x1 r28) (View.ld x8 r3)) (k0_pay12 (View.ld x2 r28) (View.ld x3 r28) (View.ld x8 r3)))
    (k0_pay18 (k0_pay7 (View.ld x9 r3))) (k0_pay19 (k0_pay7 (View.ld x9 r3))) (k0_pay20 (k0_pay7 (View.ld x9 r3))) (k0_pay21 (F := F)) (k0_pay22 (k0_pay7 (View.ld x9 r3)))
    (Scalar.ofBits .f32 0x3EFA2A1C#32)⟩]

/-- The densities' block after the body: softplus of feature 0 of the blend. -/
def out11 (x0 x1 x2 x3 x4 x5 x6 x7 : Vec F S16000x28 .f32) (x8 : Vec F S16000x3 .f32) : Vec F S16000x1 .f32 :=
  View.canon [⟨r1, k0_pay1
    (k0_pay14 (k0_pay2 (View.ld x4 r28)) (k0_pay3 (View.ld x5 r28)) (k0_pay4 (View.ld x6 r28)) (k0_pay5 (View.ld x7 r28)) (k0_pay8 (View.ld x8 r3)) (k0_pay9 (View.ld x8 r3)) (k0_pay10 (View.ld x8 r3)) (k0_pay11 (View.ld x0 r28) (View.ld x1 r28) (View.ld x8 r3)) (k0_pay12 (View.ld x2 r28) (View.ld x3 r28) (View.ld x8 r3)))⟩]

end Cert.Kernel.Hand

end
-- ==== Proof.FrameBits.lean ====
/-
  The program's frame: it runs to its end, faults nowhere, and leaves its two arguments as they were.

  The kernel is launched once on a grid of 125 points, each staging one block of 16000 query points of each of ten input
  arrays and writing back one block of each of two results. At a point the body only loads its ten input blocks whole,
  computes, and stores each output block whole, so after the body an input's staging buffer holds what it held and an
  output's holds the stored value, a function of the input blocks (`out10`, `out11`). With the arrays as the launch
  finds them (`V`) that is all the launch theorem asks for. Neither argument is one of the staged arrays and no host
  operation writes one, so both end as they began.
-/
import proofs.«144185_j57191784513782_1_alg».proof.Proof.EntryBits
import proofs.«144185_j57191784513782_1_alg».proof.Proof.KernelOutBits
import proofs.«144185_j57191784513782_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block of the array at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block of the array at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block of the array at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block of the array at every point, fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block of the array at every point, fetched there or not. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block of the array at every point, fetched there or not. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block of the array at every point, fetched there or not. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block of the array at every point, fetched there or not. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block of the array at every point, fetched there or not. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's staging buffer holds its block of the array at every point, fetched there or not. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The arguments end as they began -/

/-- From a run that ends with every buffer no window stages at its launch-time contents, the frame claim: the two
    arguments are such buffers, and no host operation wrote them. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 rfl (by decide))).trans (V_main_arg0 m c),
      ((h c).2 main_arg1 (Pipeline.mem_restRefs_of main_arg1 rfl (by decide))).trans (V_main_arg1 m c)⟩) h

/-! ## The body -/

/-- One store of the whole block covers the block. -/
theorem cover10 (p0 : Vec F S16000x3 .f32) (y : S16000x3.Idx) :
    ∃ pc ∈ ([⟨r3, p0⟩] : List (View.Piece (Elt F) S16000x3 .f32)), y ∈ pc.1.set :=
  View.cover_of_tiled [⟨r3, p0⟩] S16000x3.size (by rfl) y
theorem cover11 (p0 : Vec F S16000x1 .f32) (y : S16000x1.Idx) :
    ∃ pc ∈ ([⟨r1, p0⟩] : List (View.Piece (Elt F) S16000x1 .f32)), y ∈ pc.1.set :=
  View.cover_of_tiled [⟨r1, p0⟩] S16000x1.size (by rfl) y

set_option maxHeartbeats 4000000 in
/-- The body on whole staging buffers, the inputs' at contents `x0 … x9` and the outputs' at anything, runs to the end
    with the inputs' as they were and the outputs' at `out10` and `out11` of the inputs'. -/
theorem sound_kernel (c : Dev nD) (E : Set ℕ) (i : grid0.Coords) (arg1 : Memref sig .tc .vmem S16000x28 .f32) (harg1 : arg1.IsWhole) (arg2 : Memref sig .tc .vmem S16000x28 .f32) (harg2 : arg2.IsWhole) (arg3 : Memref sig .tc .vmem S16000x28 .f32) (harg3 : arg3.IsWhole) (arg4 : Memref sig .tc .vmem S16000x28 .f32) (harg4 : arg4.IsWhole) (arg5 : Memref sig .tc .vmem S16000x28 .f32) (harg5 : arg5.IsWhole) (arg6 : Memref sig .tc .vmem S16000x28 .f32) (harg6 : arg6.IsWhole) (arg7 : Memref sig .tc .vmem S16000x28 .f32) (harg7 : arg7.IsWhole) (arg8 : Memref sig .tc .vmem S16000x28 .f32) (harg8 : arg8.IsWhole) (arg9 : Memref sig .tc .vmem S16000x3 .f32) (harg9 : arg9.IsWhole) (arg10 : Memref sig .tc .vmem S16000x3 .f32) (harg10 : arg10.IsWhole) (arg11 : Memref sig .tc .vmem S16000x3 .f32) (harg11 : arg11.IsWhole) (arg12 : Memref sig .tc .vmem S16000x1 .f32) (harg12 : arg12.IsWhole)
    (x0 : Vec F S16000x28 .f32) (x1 : Vec F S16000x28 .f32) (x2 : Vec F S16000x28 .f32) (x3 : Vec F S16000x28 .f32) (x4 : Vec F S16000x28 .f32) (x5 : Vec F S16000x28 .f32) (x6 : Vec F S16000x28 .f32) (x7 : Vec F S16000x28 .f32) (x8 : Vec F S16000x3 .f32) (x9 : Vec F S16000x3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out10 x0 x1 x2 x3 x4 x5 x6 x7 x8 x9) ∗ owns (c : Thread nD τ) arg12 fullShare (out11 x0 x1 x2 x3 x4 x5 x6 x7 x8)) -∗ K ⟨⟩))
      ⊢ wp frame (wpE (defs₀ (F := F)) Variants.none c none) E (cc0__plenoxel_kernel i arg1 harg1 arg2 harg2 arg3 harg3 arg4 harg4 arg5 harg5 arg6 harg6 arg7 harg7 arg8 harg8 arg9 harg9 arg10 harg10 arg11 harg11 arg12 harg12) K := by
  simp only [cc0__plenoxel_kernel_eq_skeleton]; unfold cc0__plenoxel_kernel_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (cover10 _)
  iexists _; isplitr
  swap; · iexact H11
  ipureintro
  exact View.read_writes_eq_canon _ _ _ (cover11 _)

/-! ## The launch's proof data -/

/-- The arrays as the launch finds them; after the body at point `t` each input's buffer at its block and each
    output's at the body's function of the input blocks; nothing carried between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out10 (iblk m c 0 t) (iblk m c 1 t) (iblk m c 2 t) (iblk m c 3 t) (iblk m c 4 t) (iblk m c 5 t) (iblk m c 6 t) (iblk m c 7 t) (iblk m c 8 t) (iblk m c 9 t)
    | ⟨11, _⟩ => out11 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = out10 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after11 (c : Dev nD) (t : Fin cfg0.N) : (dats m 0 c).after 11 t = out11 (iblk m c 0 t) (iblk m c 1 t) (iblk m c 2 t) (iblk m c 3 t) (iblk m c 4 t) (iblk m c 5 t) (iblk m c 6 t) (iblk m c 7 t) (iblk m c 8 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 4000000 in
/-- The body at any point: the inputs' buffers hold their blocks, so `sound_kernel` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has every staged array at what the
    library computes from the proof data and every other buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim, at any float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.Kernel.Hand

end
-- ==== Proof.EntryIdeal.lean ====
/-
  The program up to its one kernel launch.

  Before the launch the program runs five stretches of host operations: the scaling and clipping of the query points
  to grid coordinates, the eight corner gathers with their index arithmetic, and the direction's normalisation. `V` is
  what every buffer of a core holds when the launch is reached: the fold of those operations over the memory the
  program starts from. No operation writes an argument array, so the launch finds both as they were.
-/
import proofs.«144185_j57191784513782_1_alg».proof.Proof.Gen.KernelIdeal.Launch
import proofs.«144185_j57191784513782_1_alg».proof.Proof.LibNary3
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

variable (m : (ℓ : Loc nD τ sig) → Buf (Elt F) ℓ)

/-- Core `c`'s buffers when the launch is reached: after the five stretches of host operations. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
set_option maxHeartbeats 4000000 in
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

/-- The program is those five stretches and then the launch, so the launch is reached with the buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

set_option maxHeartbeats 40000000 in
/-- No host operation writes the query points. -/
theorem V_main_arg0 (c : Dev nD) : V m c main_arg0 = m ((c : Thread nD τ).loc main_arg0) := by
  dsimp only [V]
  simp only [hostOps0, hostOps0_1, hostOps0_2, hostOps0_3, hostOps0_4, List.flatten_cons, List.flatten_nil, List.append_nil, List.cons_append, List.nil_append]
  after_results_simp3 <;> rfl

set_option maxHeartbeats 40000000 in
/-- No host operation writes the voxel grid. -/
theorem V_main_arg1 (c : Dev nD) : V m c main_arg1 = m ((c : Thread nD τ).loc main_arg1) := by
  dsimp only [V]
  simp only [hostOps0, hostOps0_1, hostOps0_2, hostOps0_3, hostOps0_4, List.flatten_cons, List.flatten_nil, List.append_nil, List.cons_append, List.nil_append]
  after_results_simp3 <;> rfl

end Cert.KernelIdeal.Hand

end
-- ==== Proof.KernelOut.lean ====
/-
  What one launch of the kernel body leaves in its two output blocks, as functions of its ten input blocks.

  The body loads the eight corner blocks (16000 points × 28 features), the block of fractional offsets and the block of
  directions (16000 × 3 each), and stores one whole block of colours (16000 × 3) and one whole block of densities
  (16000 × 1). Each output block is therefore the stored value itself: the canon of that single store.
-/
import proofs.«144185_j57191784513782_1_alg».proof.Proof.Gen.KernelIdeal.Skeleton
import Idealize.ShloMosaic.Lib.Pipeline.FrameBody

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]

/-- The whole block of a corner window, of the offsets' and directions' windows, of the colours' and the densities'. -/
abbrev r28 : Rect S16000x28 := Rect.unit (s := S16000x28) ![0, 0] S16000x28.size inb_S16000x28_S16000x28_0_0
abbrev r3 : Rect S16000x3 := Rect.unit (s := S16000x3) ![0, 0] S16000x3.size inb_S16000x3_S16000x3_0_0
abbrev r1 : Rect S16000x1 := Rect.unit (s := S16000x1) ![0, 0] S16000x1.size inb_S16000x1_S16000x1_0_0

/-- The colours' block after the body: the logistic of each channel's inner product, from the corner blocks `x0 … x7`,
    the offsets `x8` and the directions `x9`. -/
def out10 (x0 x1 x2 x3 x4 x5 x6 x7 : Vec F S16000x28 .f32) (x8 x9 : Vec F S16000x3 .f32) : Vec F S16000x3 .f32 :=
  View.canon [⟨r3, k0_pay23
    (k0_pay15 (k0_pay2 (View.ld x4 r28)) (k0_pay3 (View.ld x5 r28)) (k0_pay4 (View.ld x6 r28)) (k0_pay5 (View.ld x7 r28)) (k0_pay8 (View.ld x8 r3)) (k0_pay9 (View.ld x8 r3)) (k0_pay10 (View.ld x8 r3)) (k0_pay11 (View.ld x0 r28) (View.ld x1 r28) (View.ld x8 r3)) (k0_pay12 (View.ld x2 r28) (View.ld x3 r28) (View.ld x8 r3)))
    (k0_pay16 (k0_pay2 (View.ld x4 r28)) (k0_pay3 (View.ld x5 r28)) (k0_pay4 (View.ld x6 r28)) (k0_pay5 (View.ld x7 r28)) (k0_pay8 (View.ld x8 r3)) (k0_pay9 (View.ld x8 r3)) (k0_pay10 (View.ld x8 r3)) (k0_pay11 (View.ld x0 r28) (View.ld x1 r28) (View.ld x8 r3)) (k0_pay12 (View.ld x2 r28) (View.ld x3 r28) (View.ld x8 r3)))
    (k0_pay17 (k0_pay2 (View.ld x4 r28)) (k0_pay3 (View.ld x5 r28)) (k0_pay4 (View.ld x6 r28)) (k0_pay5 (View.ld x7 r28)) (k0_pay8 (View.ld x8 r3)) (k0_pay9 (View.ld x8 r3)) (k0_pay10 (View.ld x8 r3)) (k0_pay11 (View.ld x0 r28) (View.ld x1 r28) (View.ld x8 r3)) (k0_pay12 (View.ld x2 r28) (View.ld x3 r28) (View.ld x8 r3)))
    (k0_pay18 (k0_pay7 (View.ld x9 r3))) (k0_pay19 (k0_pay7 (View.ld x9 r3))) (k0_pay20 (k0_pay7 (View.ld x9 r3))) (k0_pay21 (F := F)) (k0_pay22 (k0_pay7 (View.ld x9 r3)))
    (Scalar.ofBits .f32 0x3EFA2A1C#32)⟩]

/-- The densities' block after the body: softplus of feature 0 of the blend. -/
def out11 (x0 x1 x2 x3 x4 x5 x6 x7 : Vec F S16000x28 .f32) (x8 : Vec F S16000x3 .f32) : Vec F S16000x1 .f32 :=
  View.canon [⟨r1, k0_pay1
    (k0_pay14 (k0_pay2 (View.ld x4 r28)) (k0_pay3 (View.ld x5 r28)) (k0_pay4 (View.ld x6 r28)) (k0_pay5 (View.ld x7 r28)) (k0_pay8 (View.ld x8 r3)) (k0_pay9 (View.ld x8 r3)) (k0_pay10 (View.ld x8 r3)) (k0_pay11 (View.ld x0 r28) (View.ld x1 r28) (View.ld x8 r3)) (k0_pay12 (View.ld x2 r28) (View.ld x3 r28) (View.ld x8 r3)))⟩]

end Cert.KernelIdeal.Hand

end
-- ==== Proof.FrameIdeal.lean ====
/-
  The program's frame: it runs to its end, faults nowhere, and leaves its two arguments as they were.

  The kernel is launched once on a grid of 125 points, each staging one block of 16000 query points of each of ten input
  arrays and writing back one block of each of two results. At a point the body only loads its ten input blocks whole,
  computes, and stores each output block whole, so after the body an input's staging buffer holds what it held and an
  output's holds the stored value, a function of the input blocks (`out10`, `out11`). With the arrays as the launch
  finds them (`V`) that is all the launch theorem asks for. Neither argument is one of the staged arrays and no host
  operation writes one, so both end as they began.
-/
import proofs.«144185_j57191784513782_1_alg».proof.Proof.EntryIdeal
import proofs.«144185_j57191784513782_1_alg».proof.Proof.KernelOut
import proofs.«144185_j57191784513782_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block of the array at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block of the array at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block of the array at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block of the array at every point, fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block of the array at every point, fetched there or not. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block of the array at every point, fetched there or not. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block of the array at every point, fetched there or not. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block of the array at every point, fetched there or not. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block of the array at every point, fetched there or not. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's staging buffer holds its block of the array at every point, fetched there or not. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The arguments end as they began -/

/-- From a run that ends with every buffer no window stages at its launch-time contents, the frame claim: the two
    arguments are such buffers, and no host operation wrote them. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 rfl (by decide))).trans (V_main_arg0 m c),
      ((h c).2 main_arg1 (Pipeline.mem_restRefs_of main_arg1 rfl (by decide))).trans (V_main_arg1 m c)⟩) h

/-! ## The body -/

/-- One store of the whole block covers the block. -/
theorem cover10 (p0 : Vec F S16000x3 .f32) (y : S16000x3.Idx) :
    ∃ pc ∈ ([⟨r3, p0⟩] : List (View.Piece (Elt F) S16000x3 .f32)), y ∈ pc.1.set :=
  View.cover_of_tiled [⟨r3, p0⟩] S16000x3.size (by rfl) y
theorem cover11 (p0 : Vec F S16000x1 .f32) (y : S16000x1.Idx) :
    ∃ pc ∈ ([⟨r1, p0⟩] : List (View.Piece (Elt F) S16000x1 .f32)), y ∈ pc.1.set :=
  View.cover_of_tiled [⟨r1, p0⟩] S16000x1.size (by rfl) y

set_option maxHeartbeats 4000000 in
/-- The body on whole staging buffers, the inputs' at contents `x0 … x9` and the outputs' at anything, runs to the end
    with the inputs' as they were and the outputs' at `out10` and `out11` of the inputs'. -/
theorem sound_kernel (c : Dev nD) (E : Set ℕ) (i : grid0.Coords) (arg1 : Memref sig .tc .vmem S16000x28 .f32) (harg1 : arg1.IsWhole) (arg2 : Memref sig .tc .vmem S16000x28 .f32) (harg2 : arg2.IsWhole) (arg3 : Memref sig .tc .vmem S16000x28 .f32) (harg3 : arg3.IsWhole) (arg4 : Memref sig .tc .vmem S16000x28 .f32) (harg4 : arg4.IsWhole) (arg5 : Memref sig .tc .vmem S16000x28 .f32) (harg5 : arg5.IsWhole) (arg6 : Memref sig .tc .vmem S16000x28 .f32) (harg6 : arg6.IsWhole) (arg7 : Memref sig .tc .vmem S16000x28 .f32) (harg7 : arg7.IsWhole) (arg8 : Memref sig .tc .vmem S16000x28 .f32) (harg8 : arg8.IsWhole) (arg9 : Memref sig .tc .vmem S16000x3 .f32) (harg9 : arg9.IsWhole) (arg10 : Memref sig .tc .vmem S16000x3 .f32) (harg10 : arg10.IsWhole) (arg11 : Memref sig .tc .vmem S16000x3 .f32) (harg11 : arg11.IsWhole) (arg12 : Memref sig .tc .vmem S16000x1 .f32) (harg12 : arg12.IsWhole)
    (x0 : Vec F S16000x28 .f32) (x1 : Vec F S16000x28 .f32) (x2 : Vec F S16000x28 .f32) (x3 : Vec F S16000x28 .f32) (x4 : Vec F S16000x28 .f32) (x5 : Vec F S16000x28 .f32) (x6 : Vec F S16000x28 .f32) (x7 : Vec F S16000x28 .f32) (x8 : Vec F S16000x3 .f32) (x9 : Vec F S16000x3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out10 x0 x1 x2 x3 x4 x5 x6 x7 x8 x9) ∗ owns (c : Thread nD τ) arg12 fullShare (out11 x0 x1 x2 x3 x4 x5 x6 x7 x8)) -∗ K ⟨⟩))
      ⊢ wp frame (wpE (defs₀ (F := F)) Variants.none c none) E (cc0__plenoxel_kernel i arg1 harg1 arg2 harg2 arg3 harg3 arg4 harg4 arg5 harg5 arg6 harg6 arg7 harg7 arg8 harg8 arg9 harg9 arg10 harg10 arg11 harg11 arg12 harg12) K := by
  simp only [cc0__plenoxel_kernel_eq_skeleton]; unfold cc0__plenoxel_kernel_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (cover10 _)
  iexists _; isplitr
  swap; · iexact H11
  ipureintro
  exact View.read_writes_eq_canon _ _ _ (cover11 _)

/-! ## The launch's proof data -/

/-- The arrays as the launch finds them; after the body at point `t` each input's buffer at its block and each
    output's at the body's function of the input blocks; nothing carried between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out10 (iblk m c 0 t) (iblk m c 1 t) (iblk m c 2 t) (iblk m c 3 t) (iblk m c 4 t) (iblk m c 5 t) (iblk m c 6 t) (iblk m c 7 t) (iblk m c 8 t) (iblk m c 9 t)
    | ⟨11, _⟩ => out11 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = out10 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after11 (c : Dev nD) (t : Fin cfg0.N) : (dats m 0 c).after 11 t = out11 (iblk m c 0 t) (iblk m c 1 t) (iblk m c 2 t) (iblk m c 3 t) (iblk m c 4 t) (iblk m c 5 t) (iblk m c 6 t) (iblk m c 7 t) (iblk m c 8 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 4000000 in
/-- The body at any point: the inputs' buffers hold their blocks, so `sound_kernel` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has every staged array at what the
    library computes from the proof data and every other buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim, at any float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.KernelIdeal.Hand

end
-- ==== Proof.Spec.lean ====
/-
  Trilinear sampling of a voxel grid followed by a degree-2 spherical-harmonics colour model, one query point at a
  time.

  A query point comes with the feature vectors (28 numbers each) of the eight corners of the grid cell it falls in, its
  three fractional offsets inside the cell, and a direction. The sampled feature is the trilinear blend of the corners:
  first along x (four blends), then along y (two), then along z (one), each blend `a * (1 - t) + b * t`. Feature 0 is a
  density, read through `softplus`; features 1 … 27 are three groups of nine harmonic coefficients, one group a colour
  channel, and a channel's value is the logistic function of the group's inner product with the nine basis values of the
  direction. Everything is over the extended reals, the float literals at their binary values.
-/
import Idealize.ShloMosaic.PureOps.Ideal.Laws

noncomputable section

namespace Cert.Spec

open Idealize.ShloMosaic
open scoped BigOperators

/-- The float `1.0`. -/
abbrev one : EReal := Ideal.ofBits .f32 0x3F800000#32
/-- The float `0.0`. -/
abbrev zero : EReal := Ideal.ofBits .f32 0x00000000#32
/-- The float `3.0`. -/
abbrev three : EReal := Ideal.ofBits .f32 0x40400000#32
/-- The harmonic constants, as the floats the programs carry. -/
abbrev k0 : EReal := Ideal.ofBits .f32 0x3E906EBB#32
abbrev k1 : EReal := Ideal.ofBits .f32 0x3EFA2A1C#32
abbrev k2 : EReal := Ideal.ofBits .f32 0x3F0BD8A1#32
abbrev k20 : EReal := Ideal.ofBits .f32 0x3E217B01#32
abbrev k22 : EReal := Ideal.ofBits .f32 0x3E8BD8A1#32

/-- One linear blend: `a` at `t = 0`, `b` at `t = 1`. -/
def lerp (a b t : EReal) : EReal := a * (one - t) + b * t

/-- The trilinear blend of eight corner values `c 0 … c 7` (the corner's bits are z, y, x from the most significant)
    at the offsets `f 0, f 1, f 2` along x, y, z. -/
def feat (c : Fin 8 → EReal) (f : Fin 3 → EReal) : EReal :=
  lerp (lerp (lerp (c 0) (c 1) (f 0)) (lerp (c 2) (c 3) (f 0)) (f 1))
       (lerp (lerp (c 4) (c 5) (f 0)) (lerp (c 6) (c 7) (f 0)) (f 1)) (f 2)

/-- The nine real spherical harmonics of degree at most two at the direction `d = (x, y, z)`. -/
def basis (d : Fin 3 → EReal) : Fin 9 → EReal :=
  ![k0 * one, k1 * d 1, k1 * d 2, k1 * d 0, k2 * d 0 * d 1, k2 * d 1 * d 2,
    k20 * (three * d 2 * d 2 - one), k2 * d 0 * d 2, k22 * (d 0 * d 0 - d 1 * d 1)]

/-- Column `1 + 9 q + k` of the 28 features: coefficient `k` of colour channel `q`. -/
abbrev coef (q : Fin 3) (k : Fin 9) : Fin 28 := ⟨1 + 9 * q.val + k.val, by omega⟩

/-- The inner product of channel `q`'s nine sampled coefficients with the basis values. -/
def dot (c : Fin 8 → Fin 28 → EReal) (f d : Fin 3 → EReal) (q : Fin 3) : EReal :=
  ∑ k : Fin 9, feat (fun a => c a (coef q k)) f * basis d k

/-- Colour channel `q`. -/
def rgb (c : Fin 8 → Fin 28 → EReal) (f d : Fin 3 → EReal) (q : Fin 3) : EReal :=
  Ideal.logistic (dot c f d q)

/-- `log (1 + e^x)` in its overflow-free form `max x 0 + log1p (e^(-|x|))`. -/
def softplus (x : EReal) : EReal := max x 0 + Ideal.log1p (Ideal.exp (-(max x (-x))))

/-- The density. -/
def sigma (c : Fin 8 → Fin 28 → EReal) (f : Fin 3 → EReal) : EReal :=
  softplus (feat (fun a => c a 0) f)

end Cert.Spec

end
-- ==== Proof.LibRowOps.lean ====
/-
  Row operations read at an index, for arrays of any number of rows.

  The arrays here are rank-2, `[n, k]`, and every operation acts on each row by itself, so each lemma reads an
  operation at the index `(p, q)` from its operands at row `p`:
  * a concatenation along the columns reads the piece whose column span holds `q` — for unit-width pieces, piece
    `q` at column `0`; for a `[n, 3]` piece beside a `[n, 2]` piece, the first at `q` when `q < 3`, else the
    second at `q - 3`;
  * a matrix product `[n, K] × [K, N]` into a zero accumulator is `∑ k, l (p, k) * r (k, j)`.
  Nothing depends on `n`: the same statements serve a block of rows and the whole array.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibRowOps

open Idealize.ShloMosaic Idealize.ShloMosaic.ValueIdx
open scoped BigOperators

variable {α : Type}

/-! ## Concatenation along the columns -/

/-- A `[n, 3]` piece beside a `[n, 2]` piece: column `q` comes from the first piece when `q < 3`, else from the
    second at `q - 3`. -/
theorem cat32_apply {n : ℕ} (a : (⟨2, ![n, 3]⟩ : Shape).Idx → α) (b : (⟨2, ![n, 2]⟩ : Shape).Idx → α)
    (h : Shape.Concatenates [(⟨2, ![n, 3]⟩ : Shape), ⟨2, ![n, 2]⟩] ⟨2, ![n, 5]⟩ 1) (p : Fin n) (q : Fin 5) :
    concatenate ⟨2, ![n, 5]⟩ 1 [⟨⟨2, ![n, 3]⟩, a⟩, ⟨⟨2, ![n, 2]⟩, b⟩] h (ix2 p q)
      = if hq : q.val < 3 then a (ix2 p ⟨q.val, hq⟩) else b (ix2 p ⟨q.val - 3, by omega⟩) := by
  split
  · next hq =>
    exact concatenate_pair_apply_left 1 a b h (ix2 p q) rfl (ix2 p ⟨q.val, hq⟩)
      (fun bb => by match bb with | ⟨0, _⟩ => rfl | ⟨1, _⟩ => rfl)
  · next hq =>
    exact concatenate_pair_apply_right 1 a b h (ix2 p q) rfl rfl (ix2 p ⟨q.val - 3, by omega⟩)
      (fun bb hb => by match bb with | ⟨0, _⟩ => rfl | ⟨1, _⟩ => exact absurd rfl hb)
      (by show (q.val - 3) + 3 = q.val; omega)

/-- Unit-width pieces: column `q` of the concatenation is piece `q`, read at column `0`. The hypothesis `hpre`
    says the pieces before piece `q` span `q` columns; for a literal list it holds by evaluation. -/
theorem catUnits_apply {n K : ℕ} {xs : List ((s : Shape) × (s.Idx → α))}
    {h : Shape.Concatenates (xs.map (·.1)) ⟨2, ![n, K]⟩ 1} (p : Fin n) (q : Fin K)
    (hq : q.val < xs.length) (x : (⟨2, ![n, 1]⟩ : Shape).Idx → α) (hx : xs[q.val] = ⟨⟨2, ![n, 1]⟩, x⟩)
    (hpre : (((xs.take q.val).map (·.1)).map fun s : Shape =>
      if h : s.rank = (⟨2, ![n, K]⟩ : Shape).rank then s.size ((1 : Fin (⟨2, ![n, K]⟩ : Shape).rank).cast h.symm) else 0).sum = q.val) :
    concatenate ⟨2, ![n, K]⟩ 1 xs h (ix2 p q) = x (ix2 p 0) :=
  concatenate_apply_piece 1 xs h (ix2 p q) q.val hq _ x hx rfl q.val hpre (ix2 p 0)
    (fun b hb => by match b with | ⟨0, _⟩ => rfl | ⟨1, _⟩ => exact absurd rfl hb)
    (by show q.val + 0 = q.val; omega)

/-- Two unit-width pieces. -/
theorem cat2_apply {n : ℕ} (x0 x1 : (⟨2, ![n, 1]⟩ : Shape).Idx → α)
    (h : Shape.Concatenates [(⟨2, ![n, 1]⟩ : Shape), ⟨2, ![n, 1]⟩] ⟨2, ![n, 2]⟩ 1) (p : Fin n) (q : Fin 2) :
    concatenate ⟨2, ![n, 2]⟩ 1 [⟨⟨2, ![n, 1]⟩, x0⟩, ⟨⟨2, ![n, 1]⟩, x1⟩] h (ix2 p q)
      = ![x0 (ix2 p 0), x1 (ix2 p 0)] q := by
  match q with
  | ⟨0, _⟩ => exact catUnits_apply p ⟨0, by omega⟩ (by simp) x0 rfl rfl
  | ⟨1, _⟩ => exact catUnits_apply p ⟨1, by omega⟩ (by simp) x1 rfl rfl

/-- Five unit-width pieces. -/
theorem cat5_apply {n : ℕ} (x0 x1 x2 x3 x4 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩] ⟨2, ![n, 5]⟩ 1)
    (p : Fin n) (q : Fin 5) :
    concatenate ⟨2, ![n, 5]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩] h (ix2 p q)
      = ![x0 (ix2 p 0), x1 (ix2 p 0), x2 (ix2 p 0), x3 (ix2 p 0), x4 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl

/-- Six unit-width pieces. -/
theorem cat6_apply {n : ℕ} (x0 x1 x2 x3 x4 x5 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩, ⟨2, ![n, 1]⟩] ⟨2, ![n, 6]⟩ 1)
    (p : Fin n) (q : Fin 6) :
    concatenate ⟨2, ![n, 6]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩] h (ix2 p q)
      = ![x0 (ix2 p 0), x1 (ix2 p 0), x2 (ix2 p 0), x3 (ix2 p 0), x4 (ix2 p 0), x5 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl
  | ⟨5, _⟩ => exact catUnits_apply p ⟨5, by omega⟩ (by simp) x5 rfl rfl

/-- Seven unit-width pieces. -/
theorem cat7_apply {n : ℕ} (x0 x1 x2 x3 x4 x5 x6 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩, ⟨2, ![n, 1]⟩, ⟨2, ![n, 1]⟩] ⟨2, ![n, 7]⟩ 1)
    (p : Fin n) (q : Fin 7) :
    concatenate ⟨2, ![n, 7]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩, ⟨⟨2, ![n, 1]⟩, x6⟩] h (ix2 p q)
      = ![x0 (ix2 p 0), x1 (ix2 p 0), x2 (ix2 p 0), x3 (ix2 p 0), x4 (ix2 p 0), x5 (ix2 p 0), x6 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl
  | ⟨5, _⟩ => exact catUnits_apply p ⟨5, by omega⟩ (by simp) x5 rfl rfl
  | ⟨6, _⟩ => exact catUnits_apply p ⟨6, by omega⟩ (by simp) x6 rfl rfl

/-! ## A matrix product, `[M, K] × [K, N]`, as a sum over `Fin K` -/

section Plain
variable {M K N : ℕ}

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction of a plain product, at `(p, j)`: the sum over `k : Fin K` of `l (p, k) * r (k, j)`. -/
theorem plain_sum (l : (⟨2, ![M, K]⟩ : Shape).Idx → EReal) (r : (⟨2, ![K, N]⟩ : Shape).Idx → EReal) (p : Fin M) (j : Fin N) :
    ∑ k : (DotDims.plain M K N).contr.Idx, l ((DotDims.plain M K N).lhsIdx (ix2 p j) k) * r ((DotDims.plain M K N).rhsIdx (ix2 p j) k)
      = ∑ k : Fin K, l (ix2 p k) * r (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plain_lhs_0 _ _
      | ⟨1, _⟩ => exact (plain_lhs_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plain_rhs_0 _ _).trans hk
      | ⟨1, _⟩ => exact plain_rhs_1 _ _)
  rw [el, er]

/-- A kernel's matrix product into the zero accumulator, for any dimension record that is the plain one. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    matmul d prec l r (constant ⟨2, ![M, N]⟩ .f32 0x00000000#32) (ix2 p j) = ∑ k : Fin K, l (ix2 p k) * r (ix2 k j) := by
  subst hd
  simp only [matmul]
  rw [Ideal.matmul_constant_zero_apply]
  exact plain_sum l r p j

/-- The host's product of the same operands is the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    Host.dotGeneral d prec l r (ix2 p j) = ∑ k : Fin K, l (ix2 p k) * r (ix2 k j) := by
  subst hd
  simp only [Host.dotGeneral]
  rw [Ideal.dotGeneral_apply]
  exact plain_sum l r p j

end Plain

/-! ## Slices, a row broadcast, a bias row -/

/-- One column cut out of `[n, k]`: at `(p, 0)` it reads column `o`. -/
theorem col_apply {n k : ℕ} (o : ℕ) (X : (⟨2, ![n, k]⟩ : Shape).Idx → α)
    (h : (⟨2, ![n, k]⟩ : Shape).Slices ![0, o] ⟨2, ![n, 1]⟩) (p : Fin n) (c : Fin k) (hc : c.val = o) :
    extractStridedSlice ⟨2, ![n, 1]⟩ ![0, o] X h (ix2 p 0) = X (ix2 p c) :=
  slice2_axis1_apply o X h p 0 c (by rw [hc]; rfl)

/-- A rank-1 array `[k]` cast to `[1, k]` and broadcast down `n` rows reads, at `(p, q)`, entry `q`. -/
theorem rowBcast_apply {n k : ℕ} (v : (⟨1, ![k]⟩ : Shape).Idx → α) (hc : (⟨1, ![k]⟩ : Shape).ShapeCasts ⟨2, ![1, k]⟩)
    (hb : (⟨2, ![1, k]⟩ : Shape).Broadcasts ⟨2, ![n, k]⟩) (p : Fin n) (q : Fin k) :
    broadcastTo ⟨2, ![n, k]⟩ (shapeCast ⟨2, ![1, k]⟩ v hc) hb (ix2 p q) = v (ix1 q) :=
  (broadcastTo_1b_ab_apply _ hb p q).trans (shapeCast_a_1a_apply v hc 0 q)

/-- One affine layer as the kernel spells it — a product into the zero accumulator plus a bias row broadcast down the
    rows — at `(p, j)`: `(∑ k, x k * W (k, j)) + b j`, where `x` is row `p` of the left operand. -/
theorem layer_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (b : FVec Ideal ⟨1, ![N]⟩ .f32)
    (hc : (⟨1, ![N]⟩ : Shape).ShapeCasts ⟨2, ![1, N]⟩) (hb : (⟨2, ![1, N]⟩ : Shape).Broadcasts ⟨2, ![n, N]⟩)
    (p : Fin n) (j : Fin N) (x : Fin K → EReal) (hx : ∀ k, A (ix2 p k) = x k) :
    addf (matmul d none A W (constant ⟨2, ![n, N]⟩ .f32 0x00000000#32)) (broadcastTo ⟨2, ![n, N]⟩ (shapeCast ⟨2, ![1, N]⟩ b hc) hb) (ix2 p j)
      = (∑ k : Fin K, x k * W (ix2 k j)) + b (ix1 j) := by
  show matmul d none A W (constant ⟨2, ![n, N]⟩ .f32 0x00000000#32) (ix2 p j) + broadcastTo ⟨2, ![n, N]⟩ (shapeCast ⟨2, ![1, N]⟩ b hc) hb (ix2 p j) = _
  rw [matmul_plain_apply d hd, rowBcast_apply]
  exact congrArg (· + b (ix1 j)) (Finset.sum_congr rfl fun k _ => by rw [hx k])

/-- The product alone, at `(p, j)`, from row `p` of the left operand. -/
theorem prod_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (p : Fin n) (j : Fin N) (x : Fin K → EReal)
    (hx : ∀ k, A (ix2 p k) = x k) :
    matmul d none A W (constant ⟨2, ![n, N]⟩ .f32 0x00000000#32) (ix2 p j) = ∑ k : Fin K, x k * W (ix2 k j) := by
  rw [matmul_plain_apply d hd]
  exact Finset.sum_congr rfl fun k _ => by rw [hx k]

end Cert.LibRowOps

end
-- ==== Proof.KernelRows.lean ====
/-
  One point of a block: the kernel body's two output blocks read at a point are the colour and density model of that
  point's rows of the ten input blocks.
-/
import proofs.«144185_j57191784513782_1_alg».proof.Proof.KernelOut
import proofs.«144185_j57191784513782_1_alg».proof.Proof.Spec
import proofs.«144185_j57191784513782_1_alg».proof.Proof.LibRowOps
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx

open scoped BigOperators

/-- Row `p` of eight corner blocks: corner `a`'s feature `j`. -/
abbrev cornerRows (x0 x1 x2 x3 x4 x5 x6 x7 : Vec Ideal S16000x28 .f32) (p : Fin 16000) : Fin 8 → Fin 28 → EReal :=
  fun a j => (![x0, x1, x2, x3, x4, x5, x6, x7] a) (ix2 p j)

section Layout
variable {α : Type}

/-- A column `[n, 1]` broadcast across `b` columns reads, at `(p, c)`, the column at row `p`. -/
theorem bcastCol_apply {n b : ℕ} (v : (⟨2, ![n, 1]⟩ : Shape).Idx → α) (h : (⟨2, ![n, 1]⟩ : Shape).Broadcasts ⟨2, ![n, b]⟩)
    (p : Fin n) (c : Fin b) : broadcastTo ⟨2, ![n, b]⟩ v h (ix2 p c) = v (ix2 p (0 : Fin 1)) := by
  refine broadcastTo_apply v h (ix2 p c) (ix2 p (0 : Fin 1)) fun ax => ?_
  match ax with
  | ⟨0, _⟩ =>
    show p.val = if n = 1 then 0 else p.val
    split
    · have := p.isLt; omega
    · rfl
  | ⟨1, _⟩ => rfl

/-- A vector `[n]` cast to a column `[n, 1]` reads, at `(p, u)`, entry `p`. -/
theorem castCol_apply {n : ℕ} (v : (⟨1, ![n]⟩ : Shape).Idx → α) (h : (⟨1, ![n]⟩ : Shape).ShapeCasts ⟨2, ![n, 1]⟩)
    (p : Fin n) (u : Fin 1) : shapeCast ⟨2, ![n, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- A column `[n, 1]` cast to a vector `[n]` reads, at `p`, the column at row `p`. -/
theorem castVec_apply {n : ℕ} (v : (⟨2, ![n, 1]⟩ : Shape).Idx → α) (h : (⟨2, ![n, 1]⟩ : Shape).ShapeCasts ⟨1, ![n]⟩)
    (p : Fin n) : shapeCast ⟨1, ![n]⟩ v h (ix1 p) = v (ix2 p (0 : Fin 1)) :=
  shapeCast_apply v h _ _ (by
    rw [Shape.rowMajor_val_two, Shape.rowMajor_val_one]
    show p.val * 1 + 0 = p.val
    rw [Nat.mul_one, Nat.add_zero])

end Layout

theorem pay2_eq (v : Vec Ideal S16000x28 .f32) : k0_pay2 v = v := shapeCast_self _ _
theorem pay3_eq (v : Vec Ideal S16000x28 .f32) : k0_pay3 v = v := shapeCast_self _ _
theorem pay4_eq (v : Vec Ideal S16000x28 .f32) : k0_pay4 v = v := shapeCast_self _ _
theorem pay5_eq (v : Vec Ideal S16000x28 .f32) : k0_pay5 v = v := shapeCast_self _ _
theorem pay6_eq (v : Vec Ideal S16000x3 .f32) : k0_pay6 v = v := shapeCast_self _ _
theorem pay7_eq (v : Vec Ideal S16000x3 .f32) : k0_pay7 v = v := shapeCast_self _ _

theorem pay8_apply (v : Vec Ideal S16000x3 .f32) (p : Fin 16000) : k0_pay8 v (ix2 p (0 : Fin 1)) = v (ix2 p (0 : Fin 3)) := by
  unfold k0_pay8
  rw [pay6_eq]
  exact Cert.LibRowOps.col_apply 0 v _ p 0 rfl

theorem pay9_apply (v : Vec Ideal S16000x3 .f32) (p : Fin 16000) : k0_pay9 v (ix2 p (0 : Fin 1)) = v (ix2 p (1 : Fin 3)) := by
  unfold k0_pay9
  rw [pay6_eq]
  exact Cert.LibRowOps.col_apply 1 v _ p 1 rfl

theorem pay10_apply (v : Vec Ideal S16000x3 .f32) (p : Fin 16000) : k0_pay10 v (ix2 p (0 : Fin 1)) = v (ix2 p (2 : Fin 3)) := by
  unfold k0_pay10
  rw [pay6_eq]
  exact Cert.LibRowOps.col_apply 2 v _ p 2 rfl

/-- One blend of two blocks by a column of offsets, at `(p, j)`. -/
theorem lerpVec_apply (a b : FVec Ideal S16000x28 .f32) (t : FVec Ideal S16000x1 .f32) (p : Fin 16000) (j : Fin 28) :
    addf (mulf a (broadcastTo S16000x28 (subf (broadcast S16000x1 (Scalar.ofBits .f32 0x3F800000#32)) t) broadcasts_S16000x1_S16000x28))
        (mulf b (broadcastTo S16000x28 t broadcasts_S16000x1_S16000x28)) (ix2 p j)
      = Cert.Spec.lerp (a (ix2 p j)) (b (ix2 p j)) (t (ix2 p (0 : Fin 1))) := by
  show a (ix2 p j) * broadcastTo S16000x28 (subf (broadcast S16000x1 (Scalar.ofBits .f32 0x3F800000#32)) t) broadcasts_S16000x1_S16000x28 (ix2 p j)
      + b (ix2 p j) * broadcastTo S16000x28 t broadcasts_S16000x1_S16000x28 (ix2 p j) = _
  rw [bcastCol_apply, bcastCol_apply]
  rfl

theorem pay11_apply (v0 v2 : Vec Ideal S16000x28 .f32) (v16 : Vec Ideal S16000x3 .f32) (p : Fin 16000) (j : Fin 28) :
    k0_pay11 v0 v2 v16 (ix2 p j) = Cert.Spec.lerp (v0 (ix2 p j)) (v2 (ix2 p j)) (v16 (ix2 p (0 : Fin 3))) := by
  unfold k0_pay11
  rw [shapeCast_self, shapeCast_self]
  refine (lerpVec_apply _ _ _ p j).trans ?_
  rw [pay8_apply]

theorem pay12_apply (v4 v6 : Vec Ideal S16000x28 .f32) (v16 : Vec Ideal S16000x3 .f32) (p : Fin 16000) (j : Fin 28) :
    k0_pay12 v4 v6 v16 (ix2 p j) = Cert.Spec.lerp (v4 (ix2 p j)) (v6 (ix2 p j)) (v16 (ix2 p (0 : Fin 3))) := by
  unfold k0_pay12
  rw [shapeCast_self, shapeCast_self]
  refine (lerpVec_apply _ _ _ p j).trans ?_
  rw [pay8_apply]

/-- The blend of the upper four corners along x, then everything along y and z, at `(p, j)`. -/
theorem pay13_apply (v9 v11 v13 v15 : FVec Ideal S16000x28 .f32) (v20 v21 v22 : FVec Ideal S16000x1 .f32) (v29 v36 : FVec Ideal S16000x28 .f32)
    (p : Fin 16000) (j : Fin 28) :
    k0_pay13 v9 v11 v13 v15 v20 v21 v22 v29 v36 (ix2 p j)
      = Cert.Spec.lerp
          (Cert.Spec.lerp (v29 (ix2 p j)) (v36 (ix2 p j)) (v21 (ix2 p (0 : Fin 1))))
          (Cert.Spec.lerp (Cert.Spec.lerp (v9 (ix2 p j)) (v11 (ix2 p j)) (v20 (ix2 p (0 : Fin 1))))
                          (Cert.Spec.lerp (v13 (ix2 p j)) (v15 (ix2 p j)) (v20 (ix2 p (0 : Fin 1)))) (v21 (ix2 p (0 : Fin 1))))
          (v22 (ix2 p (0 : Fin 1))) := by
  unfold k0_pay13
  refine (lerpVec_apply _ _ _ p j).trans ?_
  rw [lerpVec_apply, lerpVec_apply, lerpVec_apply, lerpVec_apply]

theorem pay14_apply (v9 v11 v13 v15 : FVec Ideal S16000x28 .f32) (v20 v21 v22 : FVec Ideal S16000x1 .f32) (v29 v36 : FVec Ideal S16000x28 .f32)
    (p : Fin 16000) :
    k0_pay14 v9 v11 v13 v15 v20 v21 v22 v29 v36 (ix1 p) = k0_pay13 v9 v11 v13 v15 v20 v21 v22 v29 v36 (ix2 p (0 : Fin 28)) := by
  unfold k0_pay14
  refine (castVec_apply _ _ p).trans ?_
  exact Cert.LibRowOps.col_apply 0 _ _ p 0 rfl

theorem pay15_apply (v9 v11 v13 v15 : FVec Ideal S16000x28 .f32) (v20 v21 v22 : FVec Ideal S16000x1 .f32) (v29 v36 : FVec Ideal S16000x28 .f32)
    (p : Fin 16000) (k : Fin 9) :
    k0_pay15 v9 v11 v13 v15 v20 v21 v22 v29 v36 (ix2 p k) = k0_pay13 v9 v11 v13 v15 v20 v21 v22 v29 v36 (ix2 p (Cert.Spec.coef 0 k)) := by
  unfold k0_pay15
  exact slice2_axis1_apply 1 _ _ p k (Cert.Spec.coef 0 k) (by show 1 + 9 * 0 + k.val = 1 + k.val; omega)

theorem pay16_apply (v9 v11 v13 v15 : FVec Ideal S16000x28 .f32) (v20 v21 v22 : FVec Ideal S16000x1 .f32) (v29 v36 : FVec Ideal S16000x28 .f32)
    (p : Fin 16000) (k : Fin 9) :
    k0_pay16 v9 v11 v13 v15 v20 v21 v22 v29 v36 (ix2 p k) = k0_pay13 v9 v11 v13 v15 v20 v21 v22 v29 v36 (ix2 p (Cert.Spec.coef 1 k)) := by
  unfold k0_pay16
  exact slice2_axis1_apply 10 _ _ p k (Cert.Spec.coef 1 k) (by show 1 + 9 * 1 + k.val = 10 + k.val; omega)

theorem pay17_apply (v9 v11 v13 v15 : FVec Ideal S16000x28 .f32) (v20 v21 v22 : FVec Ideal S16000x1 .f32) (v29 v36 : FVec Ideal S16000x28 .f32)
    (p : Fin 16000) (k : Fin 9) :
    k0_pay17 v9 v11 v13 v15 v20 v21 v22 v29 v36 (ix2 p k) = k0_pay13 v9 v11 v13 v15 v20 v21 v22 v29 v36 (ix2 p (Cert.Spec.coef 2 k)) := by
  unfold k0_pay17
  exact slice2_axis1_apply 19 _ _ p k (Cert.Spec.coef 2 k) (by show 1 + 9 * 2 + k.val = 19 + k.val; omega)

theorem pay18_apply (v : FVec Ideal S16000x3 .f32) (p : Fin 16000) : k0_pay18 v (ix1 p) = v (ix2 p (0 : Fin 3)) := by
  unfold k0_pay18
  refine (castVec_apply _ _ p).trans ?_
  exact Cert.LibRowOps.col_apply 0 _ _ p 0 rfl

theorem pay19_apply (v : FVec Ideal S16000x3 .f32) (p : Fin 16000) : k0_pay19 v (ix1 p) = v (ix2 p (1 : Fin 3)) := by
  unfold k0_pay19
  refine (castVec_apply _ _ p).trans ?_
  exact Cert.LibRowOps.col_apply 1 _ _ p 1 rfl

theorem pay20_apply (v : FVec Ideal S16000x3 .f32) (p : Fin 16000) : k0_pay20 v (ix1 p) = v (ix2 p (2 : Fin 3)) := by
  unfold k0_pay20
  refine (castVec_apply _ _ p).trans ?_
  exact Cert.LibRowOps.col_apply 2 _ _ p 2 rfl

theorem pay21_apply (p : Fin 16000) : k0_pay21 (F := Ideal) (ix1 p) = Cert.Spec.k0 * Cert.Spec.one := rfl

theorem pay22_apply (v : FVec Ideal S16000x3 .f32) (p : Fin 16000) : k0_pay22 v (ix1 p) = Cert.Spec.k1 * v (ix2 p (1 : Fin 3)) := by
  unfold k0_pay22
  show Cert.Spec.k1 * k0_pay19 v (ix1 p) = _
  rw [pay19_apply]

/-- Nine vectors cast to columns and set side by side: column `k` at row `p` is vector `k` at `p`. -/
theorem cat9_apply (x0 x1 x2 x3 x4 x5 x6 x7 x8 : FVec Ideal S16000 .f32) (p : Fin 16000) (k : Fin 9) :
    concatenate S16000x9 1 [⟨S16000x1, shapeCast S16000x1 x0 shapeCasts_S16000_S16000x1⟩, ⟨S16000x1, shapeCast S16000x1 x1 shapeCasts_S16000_S16000x1⟩,
        ⟨S16000x1, shapeCast S16000x1 x2 shapeCasts_S16000_S16000x1⟩, ⟨S16000x1, shapeCast S16000x1 x3 shapeCasts_S16000_S16000x1⟩,
        ⟨S16000x1, shapeCast S16000x1 x4 shapeCasts_S16000_S16000x1⟩, ⟨S16000x1, shapeCast S16000x1 x5 shapeCasts_S16000_S16000x1⟩,
        ⟨S16000x1, shapeCast S16000x1 x6 shapeCasts_S16000_S16000x1⟩, ⟨S16000x1, shapeCast S16000x1 x7 shapeCasts_S16000_S16000x1⟩,
        ⟨S16000x1, shapeCast S16000x1 x8 shapeCasts_S16000_S16000x1⟩]
        concatenates_S16000x1_S16000x1_S16000x1_S16000x1_S16000x1_S16000x1_S16000x1_S16000x1_S16000x1_S16000x9_d1 (ix2 p k)
      = ![x0 (ix1 p), x1 (ix1 p), x2 (ix1 p), x3 (ix1 p), x4 (ix1 p), x5 (ix1 p), x6 (ix1 p), x7 (ix1 p), x8 (ix1 p)] k := by
  match k with
  | ⟨0, _⟩ => exact (Cert.LibRowOps.catUnits_apply p ⟨0, by omega⟩ (by simp) _ rfl rfl).trans (castCol_apply _ _ p 0)
  | ⟨1, _⟩ => exact (Cert.LibRowOps.catUnits_apply p ⟨1, by omega⟩ (by simp) _ rfl rfl).trans (castCol_apply _ _ p 0)
  | ⟨2, _⟩ => exact (Cert.LibRowOps.catUnits_apply p ⟨2, by omega⟩ (by simp) _ rfl rfl).trans (castCol_apply _ _ p 0)
  | ⟨3, _⟩ => exact (Cert.LibRowOps.catUnits_apply p ⟨3, by omega⟩ (by simp) _ rfl rfl).trans (castCol_apply _ _ p 0)
  | ⟨4, _⟩ => exact (Cert.LibRowOps.catUnits_apply p ⟨4, by omega⟩ (by simp) _ rfl rfl).trans (castCol_apply _ _ p 0)
  | ⟨5, _⟩ => exact (Cert.LibRowOps.catUnits_apply p ⟨5, by omega⟩ (by simp) _ rfl rfl).trans (castCol_apply _ _ p 0)
  | ⟨6, _⟩ => exact (Cert.LibRowOps.catUnits_apply p ⟨6, by omega⟩ (by simp) _ rfl rfl).trans (castCol_apply _ _ p 0)
  | ⟨7, _⟩ => exact (Cert.LibRowOps.catUnits_apply p ⟨7, by omega⟩ (by simp) _ rfl rfl).trans (castCol_apply _ _ p 0)
  | ⟨8, _⟩ => exact (Cert.LibRowOps.catUnits_apply p ⟨8, by omega⟩ (by simp) _ rfl rfl).trans (castCol_apply _ _ p 0)

/-- One channel: the logistic of the lane sum of a product, cast to a column, at row `p`. -/
theorem chan_apply (c B : FVec Ideal S16000x9 .f32) (p : Fin 16000) (u : Fin 1) :
    shapeCast S16000x1 (logistic (multiReduction .add [1] S16000 (mulf c B) 0x00000000#32 reduces_S16000x9_S16000 (.inl rfl) rfl))
        shapeCasts_S16000_S16000x1 (ix2 p u)
      = Ideal.logistic (∑ k : Fin 9, c (ix2 p k) * B (ix2 p k)) := by
  refine (castCol_apply _ _ p u).trans ?_
  show Ideal.logistic (multiReduction .add [1] S16000 (mulf c B) 0x00000000#32 reduces_S16000x9_S16000 (.inl rfl) rfl (ix1 p)) = _
  refine congrArg Ideal.logistic ?_
  refine (Ideal.multiReduction_add_single (mulf c B) 0x00000000#32 reduces_S16000x9_S16000 (.inl rfl) rfl (ix1 p)).trans ?_
  show ∑ k : Fin 9, (mulf c B) (reduces_S16000x9_S16000.lift (ix1 p) k) = _
  refine Finset.sum_congr rfl fun k _ => ?_
  have hl : reduces_S16000x9_S16000.lift (ix1 p) k = ix2 p k :=
    funext fun a => Fin.ext (by match a with | ⟨0, _⟩ => rfl | ⟨1, _⟩ => rfl)
  rw [hl]
  rfl

/-- The nine basis values from the direction's three coordinates. -/
theorem basis_eq (d : Fin 3 → EReal) (x y z a b : EReal) (hx : x = d 0) (hy : y = d 1) (hz : z = d 2)
    (ha : a = Cert.Spec.k0 * Cert.Spec.one) (hb : b = Cert.Spec.k1 * d 1) :
    ![a, b, Cert.Spec.k1 * z, Cert.Spec.k1 * x, Cert.Spec.k2 * x * y, Cert.Spec.k2 * y * z,
      Cert.Spec.k20 * (Cert.Spec.three * z * z - Cert.Spec.one), Cert.Spec.k2 * x * z, Cert.Spec.k22 * (x * x - y * y)] = Cert.Spec.basis d := by
  subst hx hy hz ha hb; rfl

theorem cmp_one_self (x : EReal) : Ideal.cmp .one x x = 0#1 := by simp [Ideal.cmp]

theorem pay1_apply (v73 : FVec Ideal S16000 .f32) (p : Fin 16000) (u : Fin 1) :
    k0_pay1 v73 (ix2 p u) = Cert.Spec.softplus (v73 (ix1 p)) := by
  unfold k0_pay1
  refine (castCol_apply _ _ p u).trans ?_
  show Scalar.select (Ideal.cmp .one (v73 (ix1 p) - Ideal.ofBits .f32 0x00000000#32) (v73 (ix1 p) - Ideal.ofBits .f32 0x00000000#32))
      (v73 (ix1 p) + Ideal.ofBits .f32 0x00000000#32)
      (max (v73 (ix1 p)) (Ideal.ofBits .f32 0x00000000#32)
        + Ideal.log1p (Ideal.exp (Ideal.ofBits .f32 0x00000000#32
            - max (v73 (ix1 p) - Ideal.ofBits .f32 0x00000000#32) (-(v73 (ix1 p) - Ideal.ofBits .f32 0x00000000#32))))) = _
  rw [cmp_one_self, select_zero, Ideal.ofBits_zero_f32, sub_zero, zero_sub]
  rfl

/-- The colours' payload at `(p, q)`: the logistic of channel `q`'s coefficients against the basis of the direction `d`. -/
theorem pay23_apply (v74 v75 v76 : FVec Ideal S16000x9 .f32) (v78 v80 v82 v85 v87 : FVec Ideal S16000 .f32) (p : Fin 16000) (q : Fin 3)
    (d : Fin 3 → EReal) (hd0 : v78 (ix1 p) = d 0) (hd1 : v80 (ix1 p) = d 1) (hd2 : v82 (ix1 p) = d 2)
    (h85 : v85 (ix1 p) = Cert.Spec.k0 * Cert.Spec.one) (h87 : v87 (ix1 p) = Cert.Spec.k1 * d 1) :
    k0_pay23 v74 v75 v76 v78 v80 v82 v85 v87 (Scalar.ofBits .f32 0x3EFA2A1C#32) (ix2 p q)
      = Ideal.logistic (∑ k : Fin 9, (![v74, v75, v76] q) (ix2 p k) * Cert.Spec.basis d k) := by
  unfold k0_pay23
  match q with
  | ⟨0, _⟩ =>
    refine (Cert.LibRowOps.catUnits_apply p ⟨0, by omega⟩ (by simp) _ rfl rfl).trans ?_
    refine (chan_apply _ _ p 0).trans ?_
    refine congrArg Ideal.logistic (Finset.sum_congr rfl fun k _ => ?_)
    refine congrArg (v74 (ix2 p k) * ·) ?_
    refine (cat9_apply _ _ _ _ _ _ _ _ _ p k).trans ?_
    exact congrFun (basis_eq d _ _ _ _ _ hd0 hd1 hd2 h85 h87) k
  | ⟨1, _⟩ =>
    refine (Cert.LibRowOps.catUnits_apply p ⟨1, by omega⟩ (by simp) _ rfl rfl).trans ?_
    refine (chan_apply _ _ p 0).trans ?_
    refine congrArg Ideal.logistic (Finset.sum_congr rfl fun k _ => ?_)
    refine congrArg (v75 (ix2 p k) * ·) ?_
    refine (cat9_apply _ _ _ _ _ _ _ _ _ p k).trans ?_
    exact congrFun (basis_eq d _ _ _ _ _ hd0 hd1 hd2 h85 h87) k
  | ⟨2, _⟩ =>
    refine (Cert.LibRowOps.catUnits_apply p ⟨2, by omega⟩ (by simp) _ rfl rfl).trans ?_
    refine (chan_apply _ _ p 0).trans ?_
    refine congrArg Ideal.logistic (Finset.sum_congr rfl fun k _ => ?_)
    refine congrArg (v76 (ix2 p k) * ·) ?_
    refine (cat9_apply _ _ _ _ _ _ _ _ _ p k).trans ?_
    exact congrFun (basis_eq d _ _ _ _ _ hd0 hd1 hd2 h85 h87) k

/-- The zero offsets of a whole block. -/
theorem zeros2 : (![0, 0] : Fin 2 → Nat) = fun _ => 0 := funext fun a => by
  match a with
  | ⟨0, _⟩ => rfl
  | ⟨1, _⟩ => rfl

theorem ld28 (X : Vec Ideal S16000x28 .f32) : View.ld X r28 = X :=
  View.ld_unit_zero (S := S16000x28) zeros2 inb_S16000x28_S16000x28_0_0 X

theorem ld3 (X : Vec Ideal S16000x3 .f32) : View.ld X r3 = X :=
  View.ld_unit_zero (S := S16000x3) zeros2 inb_S16000x3_S16000x3_0_0 X

/-- The trilinear blend of the eight corner blocks at `(p, j)`. -/
theorem blend_apply (x0 x1 x2 x3 x4 x5 x6 x7 : Vec Ideal S16000x28 .f32) (x8 : Vec Ideal S16000x3 .f32) (p : Fin 16000) (j : Fin 28) :
    k0_pay13 (k0_pay2 x4) (k0_pay3 x5) (k0_pay4 x6) (k0_pay5 x7) (k0_pay8 x8) (k0_pay9 x8) (k0_pay10 x8) (k0_pay11 x0 x1 x8) (k0_pay12 x2 x3 x8) (ix2 p j)
      = Cert.Spec.feat (fun a => cornerRows x0 x1 x2 x3 x4 x5 x6 x7 p a j) (fun k => x8 (ix2 p k)) := by
  rw [pay13_apply, pay11_apply, pay12_apply, pay8_apply, pay9_apply, pay10_apply, pay2_eq, pay3_eq, pay4_eq, pay5_eq]
  rfl

/-- The colours' block at point `p`, channel `q`. -/
theorem out10_apply (x0 x1 x2 x3 x4 x5 x6 x7 : Vec Ideal S16000x28 .f32) (x8 x9 : Vec Ideal S16000x3 .f32) (p : Fin 16000) (q : Fin 3) :
    out10 (F := Ideal) x0 x1 x2 x3 x4 x5 x6 x7 x8 x9 (ix2 p q)
      = Cert.Spec.rgb (cornerRows x0 x1 x2 x3 x4 x5 x6 x7 p) (fun k => x8 (ix2 p k)) (fun k => x9 (ix2 p k)) q := by
  unfold out10
  rw [View.canon_unit_zero (S := S16000x3) zeros2 inb_S16000x3_S16000x3_0_0]
  simp only [ld28, ld3]
  refine (pay23_apply _ _ _ _ _ _ _ _ p q (fun k => x9 (ix2 p k)) ?_ ?_ ?_ (pay21_apply p) ?_).trans ?_
  · rw [pay18_apply, pay7_eq]
  · rw [pay19_apply, pay7_eq]
  · rw [pay20_apply, pay7_eq]
  · rw [pay22_apply, pay7_eq]
  · unfold Cert.Spec.rgb Cert.Spec.dot
    refine congrArg Ideal.logistic (Finset.sum_congr rfl fun k _ => ?_)
    refine congrArg (· * Cert.Spec.basis _ k) ?_
    match q with
    | ⟨0, _⟩ => exact (pay15_apply _ _ _ _ _ _ _ _ _ p k).trans (blend_apply x0 x1 x2 x3 x4 x5 x6 x7 x8 p _)
    | ⟨1, _⟩ => exact (pay16_apply _ _ _ _ _ _ _ _ _ p k).trans (blend_apply x0 x1 x2 x3 x4 x5 x6 x7 x8 p _)
    | ⟨2, _⟩ => exact (pay17_apply _ _ _ _ _ _ _ _ _ p k).trans (blend_apply x0 x1 x2 x3 x4 x5 x6 x7 x8 p _)

/-- The densities' block at point `p`. -/
theorem out11_apply (x0 x1 x2 x3 x4 x5 x6 x7 : Vec Ideal S16000x28 .f32) (x8 : Vec Ideal S16000x3 .f32) (p : Fin 16000) :
    out11 (F := Ideal) x0 x1 x2 x3 x4 x5 x6 x7 x8 (ix2 p 0)
      = Cert.Spec.sigma (cornerRows x0 x1 x2 x3 x4 x5 x6 x7 p) (fun k => x8 (ix2 p k)) := by
  unfold out11
  rw [View.canon_unit_zero (S := S16000x1) zeros2 inb_S16000x1_S16000x1_0_0]
  simp only [ld28, ld3]
  refine (pay1_apply _ p 0).trans ?_
  rw [pay14_apply, blend_apply]
  rfl

end Cert.KernelIdeal.Hand

end
-- ==== Proof.KernelValue.lean ====
/-
  The kernel program's two results as whole arrays.

  Point `t` of the grid stages rows `16000 t … 16000 t + 15999` of each of the ten input arrays and writes back the same
  rows of the two results, and the body's value at a row depends on that row of the inputs only. So the colours' array
  ends as one function `Grgb` of the ten arrays, row by row, and the densities' array as `Gsigma`: each block written
  back is that function's block, and the 125 blocks tile the arrays.
-/
import proofs.«144185_j57191784513782_1_alg».proof.Proof.FrameIdeal
import proofs.«144185_j57191784513782_1_alg».proof.Proof.KernelRows
import proofs.«144185_j57191784513782_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-! ## The two results as functions of the ten staged arrays -/

/-- Row `n` of eight whole corner arrays: corner `a`'s feature `j`. -/
abbrev rows8 (C0 C1 C2 C3 C4 C5 C6 C7 : Vec Ideal S2000000x28 .f32) (n : Fin 2000000) : Fin 8 → Fin 28 → EReal :=
  fun a j => (![C0, C1, C2, C3, C4, C5, C6, C7] a) (ix2 n j)

/-- The colours: at `(n, q)`, channel `q` of point `n`. -/
def Grgb (C0 C1 C2 C3 C4 C5 C6 C7 : Vec Ideal S2000000x28 .f32) (Fr D : Vec Ideal S2000000x3 .f32) : Vec Ideal S2000000x3 .f32 :=
  fun i => Cert.Spec.rgb (rows8 C0 C1 C2 C3 C4 C5 C6 C7 ⟨(i 0).val, idx2_lt0 i⟩) (fun k => Fr (ix2 ⟨(i 0).val, idx2_lt0 i⟩ k))
    (fun k => D (ix2 ⟨(i 0).val, idx2_lt0 i⟩ k)) ⟨(i 1).val, idx2_lt1 i⟩

/-- The densities: at `(n, 0)`, the density of point `n`. -/
def Gsigma (C0 C1 C2 C3 C4 C5 C6 C7 : Vec Ideal S2000000x28 .f32) (Fr : Vec Ideal S2000000x3 .f32) : Vec Ideal S2000000x1 .f32 :=
  fun i => Cert.Spec.sigma (rows8 C0 C1 C2 C3 C4 C5 C6 C7 ⟨(i 0).val, idx2_lt0 i⟩) (fun k => Fr (ix2 ⟨(i 0).val, idx2_lt0 i⟩ k))

/-- Row `p` of block `b` is row `16000 b + p` of the array. -/
abbrev grow (b : Fin 125) (p : Fin 16000) : Fin 2000000 := ⟨b.val * 16000 + p.val, by have := b.isLt; have := p.isLt; omega⟩

/-- The colours' block from input blocks that are block `b` of ten arrays is block `b` of `Grgb` of the arrays. -/
theorem out10_at (x0 x1 x2 x3 x4 x5 x6 x7 : Vec Ideal S16000x28 .f32) (x8 x9 : Vec Ideal S16000x3 .f32)
    (C0 C1 C2 C3 C4 C5 C6 C7 : Vec Ideal S2000000x28 .f32) (Fr D : Vec Ideal S2000000x3 .f32) (b : Fin 125)
    (h0 : ∀ (p : Fin 16000) (j : Fin 28), x0 (ix2 p j) = C0 (ix2 (grow b p) j))
    (h1 : ∀ (p : Fin 16000) (j : Fin 28), x1 (ix2 p j) = C1 (ix2 (grow b p) j))
    (h2 : ∀ (p : Fin 16000) (j : Fin 28), x2 (ix2 p j) = C2 (ix2 (grow b p) j))
    (h3 : ∀ (p : Fin 16000) (j : Fin 28), x3 (ix2 p j) = C3 (ix2 (grow b p) j))
    (h4 : ∀ (p : Fin 16000) (j : Fin 28), x4 (ix2 p j) = C4 (ix2 (grow b p) j))
    (h5 : ∀ (p : Fin 16000) (j : Fin 28), x5 (ix2 p j) = C5 (ix2 (grow b p) j))
    (h6 : ∀ (p : Fin 16000) (j : Fin 28), x6 (ix2 p j) = C6 (ix2 (grow b p) j))
    (h7 : ∀ (p : Fin 16000) (j : Fin 28), x7 (ix2 p j) = C7 (ix2 (grow b p) j))
    (h8 : ∀ (p : Fin 16000) (k : Fin 3), x8 (ix2 p k) = Fr (ix2 (grow b p) k))
    (h9 : ∀ (p : Fin 16000) (k : Fin 3), x9 (ix2 p k) = D (ix2 (grow b p) k))
    (y : S16000x3.Idx) (i : S2000000x3.Idx) (hi0 : (i 0).val = b.val * 16000 + (y 0).val) (hi1 : (i 1).val = (y 1).val) :
    out10 (F := Ideal) x0 x1 x2 x3 x4 x5 x6 x7 x8 x9 y = Grgb C0 C1 C2 C3 C4 C5 C6 C7 Fr D i := by
  obtain ⟨p, q, rfl⟩ : ∃ (p : Fin 16000) (q : Fin 3), y = ix2 p q := ⟨y 0, y 1, eq_ix2 y⟩
  rw [out10_apply]
  unfold Grgb
  have e0 : (⟨(i 0).val, idx2_lt0 i⟩ : Fin 2000000) = grow b p := Fin.ext hi0
  have e1 : (⟨(i 1).val, idx2_lt1 i⟩ : Fin 3) = q := Fin.ext hi1
  rw [e0, e1]
  have hc : cornerRows x0 x1 x2 x3 x4 x5 x6 x7 p = rows8 C0 C1 C2 C3 C4 C5 C6 C7 (grow b p) := by
    funext a j
    match a with
    | ⟨0, _⟩ => exact h0 p j
    | ⟨1, _⟩ => exact h1 p j
    | ⟨2, _⟩ => exact h2 p j
    | ⟨3, _⟩ => exact h3 p j
    | ⟨4, _⟩ => exact h4 p j
    | ⟨5, _⟩ => exact h5 p j
    | ⟨6, _⟩ => exact h6 p j
    | ⟨7, _⟩ => exact h7 p j
  rw [hc, funext (h8 p), funext (h9 p)]

/-- The densities' block likewise. -/
theorem out11_at (x0 x1 x2 x3 x4 x5 x6 x7 : Vec Ideal S16000x28 .f32) (x8 : Vec Ideal S16000x3 .f32)
    (C0 C1 C2 C3 C4 C5 C6 C7 : Vec Ideal S2000000x28 .f32) (Fr : Vec Ideal S2000000x3 .f32) (b : Fin 125)
    (h0 : ∀ (p : Fin 16000) (j : Fin 28), x0 (ix2 p j) = C0 (ix2 (grow b p) j))
    (h1 : ∀ (p : Fin 16000) (j : Fin 28), x1 (ix2 p j) = C1 (ix2 (grow b p) j))
    (h2 : ∀ (p : Fin 16000) (j : Fin 28), x2 (ix2 p j) = C2 (ix2 (grow b p) j))
    (h3 : ∀ (p : Fin 16000) (j : Fin 28), x3 (ix2 p j) = C3 (ix2 (grow b p) j))
    (h4 : ∀ (p : Fin 16000) (j : Fin 28), x4 (ix2 p j) = C4 (ix2 (grow b p) j))
    (h5 : ∀ (p : Fin 16000) (j : Fin 28), x5 (ix2 p j) = C5 (ix2 (grow b p) j))
    (h6 : ∀ (p : Fin 16000) (j : Fin 28), x6 (ix2 p j) = C6 (ix2 (grow b p) j))
    (h7 : ∀ (p : Fin 16000) (j : Fin 28), x7 (ix2 p j) = C7 (ix2 (grow b p) j))
    (h8 : ∀ (p : Fin 16000) (k : Fin 3), x8 (ix2 p k) = Fr (ix2 (grow b p) k))
    (y : S16000x1.Idx) (i : S2000000x1.Idx) (hi0 : (i 0).val = b.val * 16000 + (y 0).val) :
    out11 (F := Ideal) x0 x1 x2 x3 x4 x5 x6 x7 x8 y = Gsigma C0 C1 C2 C3 C4 C5 C6 C7 Fr i := by
  obtain ⟨p, q, rfl⟩ : ∃ (p : Fin 16000) (q : Fin 1), y = ix2 p q := ⟨y 0, y 1, eq_ix2 y⟩
  obtain rfl : q = 0 := Subsingleton.elim _ _
  rw [out11_apply]
  unfold Gsigma
  have e0 : (⟨(i 0).val, idx2_lt0 i⟩ : Fin 2000000) = grow b p := Fin.ext hi0
  rw [e0]
  have hc : cornerRows x0 x1 x2 x3 x4 x5 x6 x7 p = rows8 C0 C1 C2 C3 C4 C5 C6 C7 (grow b p) := by
    funext a j
    match a with
    | ⟨0, _⟩ => exact h0 p j
    | ⟨1, _⟩ => exact h1 p j
    | ⟨2, _⟩ => exact h2 p j
    | ⟨3, _⟩ => exact h3 p j
    | ⟨4, _⟩ => exact h4 p j
    | ⟨5, _⟩ => exact h5 p j
    | ⟨6, _⟩ => exact h6 p j
    | ⟨7, _⟩ => exact h7 p j
  rw [hc, funext (h8 p)]

/-! ## The blocks of the grid -/

variable (m : (ℓ : Loc nD τ sig) → Buf (Elt Ideal) ℓ) (ρ : Dev nD → PrngReg)

/-- Every window's block index at point `t` is `(t, 0)`. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0) :=
  (by decide +kernel : ∀ t : Fin grid0.N, _)

/-- A grid point as a block number. -/
abbrev bnum (t : Fin cfg0.N) : Fin 125 := ⟨t.val, t.isLt.trans_eq N_0⟩

/-- Input window 0's block at point `t`, read off any array, is rows `16000 t …` of the array. -/
theorem read_blk0 (X : Vec Ideal S2000000x28 .f32) (t : Fin cfg0.N) (p : Fin 16000) (j : Fin 28) :
    ((cfg0.win 0).blk t).view.read (Elt Ideal) X (ix2 p j) = X (ix2 (grow (bnum t) p) j) := by
  show X (((cfg0.win 0).blk t).view.emb (ix2 p j)) = X (ix2 (grow (bnum t) p) j)
  refine congrArg X ?_
  funext a; apply Fin.ext
  have hf := (idx_facts t).1
  match a with
  | ⟨0, _⟩ => show win0_0.index t (0 : Fin 2) * 16000 + 1 * p.val = t.val * 16000 + p.val; rw [hf.1]; omega
  | ⟨1, _⟩ => show win0_0.index t (1 : Fin 2) * 28 + 1 * j.val = j.val; rw [hf.2]; omega
theorem blk_read0 (c : Dev nD) (t : Fin cfg0.N) (p : Fin 16000) (j : Fin 28) :
    iblk m c 0 t (ix2 p j) = (V m c main_v47 : Vec Ideal S2000000x28 .f32) (ix2 (grow (bnum t) p) j) :=
  read_blk0 (V m c main_v47) t p j
/-- Input window 1's block at point `t`, read off any array, is rows `16000 t …` of the array. -/
theorem read_blk1 (X : Vec Ideal S2000000x28 .f32) (t : Fin cfg0.N) (p : Fin 16000) (j : Fin 28) :
    ((cfg0.win 1).blk t).view.read (Elt Ideal) X (ix2 p j) = X (ix2 (grow (bnum t) p) j) := by
  show X (((cfg0.win 1).blk t).view.emb (ix2 p j)) = X (ix2 (grow (bnum t) p) j)
  refine congrArg X ?_
  funext a; apply Fin.ext
  have hf := (idx_facts t).2.1
  match a with
  | ⟨0, _⟩ => show win0_1.index t (0 : Fin 2) * 16000 + 1 * p.val = t.val * 16000 + p.val; rw [hf.1]; omega
  | ⟨1, _⟩ => show win0_1.index t (1 : Fin 2) * 28 + 1 * j.val = j.val; rw [hf.2]; omega
theorem blk_read1 (c : Dev nD) (t : Fin cfg0.N) (p : Fin 16000) (j : Fin 28) :
    iblk m c 1 t (ix2 p j) = (V m c main_v67 : Vec Ideal S2000000x28 .f32) (ix2 (grow (bnum t) p) j) :=
  read_blk1 (V m c main_v67) t p j
/-- Input window 2's block at point `t`, read off any array, is rows `16000 t …` of the array. -/
theorem read_blk2 (X : Vec Ideal S2000000x28 .f32) (t : Fin cfg0.N) (p : Fin 16000) (j : Fin 28) :
    ((cfg0.win 2).blk t).view.read (Elt Ideal) X (ix2 p j) = X (ix2 (grow (bnum t) p) j) := by
  show X (((cfg0.win 2).blk t).view.emb (ix2 p j)) = X (ix2 (grow (bnum t) p) j)
  refine congrArg X ?_
  funext a; apply Fin.ext
  have hf := (idx_facts t).2.2.1
  match a with
  | ⟨0, _⟩ => show win0_2.index t (0 : Fin 2) * 16000 + 1 * p.val = t.val * 16000 + p.val; rw [hf.1]; omega
  | ⟨1, _⟩ => show win0_2.index t (1 : Fin 2) * 28 + 1 * j.val = j.val; rw [hf.2]; omega
theorem blk_read2 (c : Dev nD) (t : Fin cfg0.N) (p : Fin 16000) (j : Fin 28) :
    iblk m c 2 t (ix2 p j) = (V m c main_v87 : Vec Ideal S2000000x28 .f32) (ix2 (grow (bnum t) p) j) :=
  read_blk2 (V m c main_v87) t p j
/-- Input window 3's block at point `t`, read off any array, is rows `16000 t …` of the array. -/
theorem read_blk3 (X : Vec Ideal S2000000x28 .f32) (t : Fin cfg0.N) (p : Fin 16000) (j : Fin 28) :
    ((cfg0.win 3).blk t).view.read (Elt Ideal) X (ix2 p j) = X (ix2 (grow (bnum t) p) j) := by
  show X (((cfg0.win 3).blk t).view.emb (ix2 p j)) = X (ix2 (grow (bnum t) p) j)
  refine congrArg X ?_
  funext a; apply Fin.ext
  have hf := (idx_facts t).2.2.2.1
  match a with
  | ⟨0, _⟩ => show win0_3.index t (0 : Fin 2) * 16000 + 1 * p.val = t.val * 16000 + p.val; rw [hf.1]; omega
  | ⟨1, _⟩ => show win0_3.index t (1 : Fin 2) * 28 + 1 * j.val = j.val; rw [hf.2]; omega
theorem blk_read3 (c : Dev nD) (t : Fin cfg0.N) (p : Fin 16000) (j : Fin 28) :
    iblk m c 3 t (ix2 p j) = (V m c main_v107 : Vec Ideal S2000000x28 .f32) (ix2 (grow (bnum t) p) j) :=
  read_blk3 (V m c main_v107) t p j
/-- Input window 4's block at point `t`, read off any array, is rows `16000 t …` of the array. -/
theorem read_blk4 (X : Vec Ideal S2000000x28 .f32) (t : Fin cfg0.N) (p : Fin 16000) (j : Fin 28) :
    ((cfg0.win 4).blk t).view.read (Elt Ideal) X (ix2 p j) = X (ix2 (grow (bnum t) p) j) := by
  show X (((cfg0.win 4).blk t).view.emb (ix2 p j)) = X (ix2 (grow (bnum t) p) j)
  refine congrArg X ?_
  funext a; apply Fin.ext
  have hf := (idx_facts t).2.2.2.2.1
  match a with
  | ⟨0, _⟩ => show win0_4.index t (0 : Fin 2) * 16000 + 1 * p.val = t.val * 16000 + p.val; rw [hf.1]; omega
  | ⟨1, _⟩ => show win0_4.index t (1 : Fin 2) * 28 + 1 * j.val = j.val; rw [hf.2]; omega
theorem blk_read4 (c : Dev nD) (t : Fin cfg0.N) (p : Fin 16000) (j : Fin 28) :
    iblk m c 4 t (ix2 p j) = (V m c main_v127 : Vec Ideal S2000000x28 .f32) (ix2 (grow (bnum t) p) j) :=
  read_blk4 (V m c main_v127) t p j
/-- Input window 5's block at point `t`, read off any array, is rows `16000 t …` of the array. -/
theorem read_blk5 (X : Vec Ideal S2000000x28 .f32) (t : Fin cfg0.N) (p : Fin 16000) (j : Fin 28) :
    ((cfg0.win 5).blk t).view.read (Elt Ideal) X (ix2 p j) = X (ix2 (grow (bnum t) p) j) := by
  show X (((cfg0.win 5).blk t).view.emb (ix2 p j)) = X (ix2 (grow (bnum t) p) j)
  refine congrArg X ?_
  funext a; apply Fin.ext
  have hf := (idx_facts t).2.2.2.2.2.1
  match a with
  | ⟨0, _⟩ => show win0_5.index t (0 : Fin 2) * 16000 + 1 * p.val = t.val * 16000 + p.val; rw [hf.1]; omega
  | ⟨1, _⟩ => show win0_5.index t (1 : Fin 2) * 28 + 1 * j.val = j.val; rw [hf.2]; omega
theorem blk_read5 (c : Dev nD) (t : Fin cfg0.N) (p : Fin 16000) (j : Fin 28) :
    iblk m c 5 t (ix2 p j) = (V m c main_v147 : Vec Ideal S2000000x28 .f32) (ix2 (grow (bnum t) p) j) :=
  read_blk5 (V m c main_v147) t p j
/-- Input window 6's block at point `t`, read off any array, is rows `16000 t …` of the array. -/
theorem read_blk6 (X : Vec Ideal S2000000x28 .f32) (t : Fin cfg0.N) (p : Fin 16000) (j : Fin 28) :
    ((cfg0.win 6).blk t).view.read (Elt Ideal) X (ix2 p j) = X (ix2 (grow (bnum t) p) j) := by
  show X (((cfg0.win 6).blk t).view.emb (ix2 p j)) = X (ix2 (grow (bnum t) p) j)
  refine congrArg X ?_
  funext a; apply Fin.ext
  have hf := (idx_facts t).2.2.2.2.2.2.1
  match a with
  | ⟨0, _⟩ => show win0_6.index t (0 : Fin 2) * 16000 + 1 * p.val = t.val * 16000 + p.val; rw [hf.1]; omega
  | ⟨1, _⟩ => show win0_6.index t (1 : Fin 2) * 28 + 1 * j.val = j.val; rw [hf.2]; omega
theorem blk_read6 (c : Dev nD) (t : Fin cfg0.N) (p : Fin 16000) (j : Fin 28) :
    iblk m c 6 t (ix2 p j) = (V m c main_v167 : Vec Ideal S2000000x28 .f32) (ix2 (grow (bnum t) p) j) :=
  read_blk6 (V m c main_v167) t p j
/-- Input window 7's block at point `t`, read off any array, is rows `16000 t …` of the array. -/
theorem read_blk7 (X : Vec Ideal S2000000x28 .f32) (t : Fin cfg0.N) (p : Fin 16000) (j : Fin 28) :
    ((cfg0.win 7).blk t).view.read (Elt Ideal) X (ix2 p j) = X (ix2 (grow (bnum t) p) j) := by
  show X (((cfg0.win 7).blk t).view.emb (ix2 p j)) = X (ix2 (grow (bnum t) p) j)
  refine congrArg X ?_
  funext a; apply Fin.ext
  have hf := (idx_facts t).2.2.2.2.2.2.2.1
  match a with
  | ⟨0, _⟩ => show win0_7.index t (0 : Fin 2) * 16000 + 1 * p.val = t.val * 16000 + p.val; rw [hf.1]; omega
  | ⟨1, _⟩ => show win0_7.index t (1 : Fin 2) * 28 + 1 * j.val = j.val; rw [hf.2]; omega
theorem blk_read7 (c : Dev nD) (t : Fin cfg0.N) (p : Fin 16000) (j : Fin 28) :
    iblk m c 7 t (ix2 p j) = (V m c main_v187 : Vec Ideal S2000000x28 .f32) (ix2 (grow (bnum t) p) j) :=
  read_blk7 (V m c main_v187) t p j
/-- Input window 8's block at point `t`, read off any array, is rows `16000 t …` of the array. -/
theorem read_blk8 (X : Vec Ideal S2000000x3 .f32) (t : Fin cfg0.N) (p : Fin 16000) (j : Fin 3) :
    ((cfg0.win 8).blk t).view.read (Elt Ideal) X (ix2 p j) = X (ix2 (grow (bnum t) p) j) := by
  show X (((cfg0.win 8).blk t).view.emb (ix2 p j)) = X (ix2 (grow (bnum t) p) j)
  refine congrArg X ?_
  funext a; apply Fin.ext
  have hf := (idx_facts t).2.2.2.2.2.2.2.2.1
  match a with
  | ⟨0, _⟩ => show win0_8.index t (0 : Fin 2) * 16000 + 1 * p.val = t.val * 16000 + p.val; rw [hf.1]; omega
  | ⟨1, _⟩ => show win0_8.index t (1 : Fin 2) * 3 + 1 * j.val = j.val; rw [hf.2]; omega
theorem blk_read8 (c : Dev nD) (t : Fin cfg0.N) (p : Fin 16000) (j : Fin 3) :
    iblk m c 8 t (ix2 p j) = (V m c main_v10 : Vec Ideal S2000000x3 .f32) (ix2 (grow (bnum t) p) j) :=
  read_blk8 (V m c main_v10) t p j
/-- Input window 9's block at point `t`, read off any array, is rows `16000 t …` of the array. -/
theorem read_blk9 (X : Vec Ideal S2000000x3 .f32) (t : Fin cfg0.N) (p : Fin 16000) (j : Fin 3) :
    ((cfg0.win 9).blk t).view.read (Elt Ideal) X (ix2 p j) = X (ix2 (grow (bnum t) p) j) := by
  show X (((cfg0.win 9).blk t).view.emb (ix2 p j)) = X (ix2 (grow (bnum t) p) j)
  refine congrArg X ?_
  funext a; apply Fin.ext
  have hf := (idx_facts t).2.2.2.2.2.2.2.2.2.1
  match a with
  | ⟨0, _⟩ => show win0_9.index t (0 : Fin 2) * 16000 + 1 * p.val = t.val * 16000 + p.val; rw [hf.1]; omega
  | ⟨1, _⟩ => show win0_9.index t (1 : Fin 2) * 3 + 1 * j.val = j.val; rw [hf.2]; omega
theorem blk_read9 (c : Dev nD) (t : Fin cfg0.N) (p : Fin 16000) (j : Fin 3) :
    iblk m c 9 t (ix2 p j) = (V m c main_v190 : Vec Ideal S2000000x3 .f32) (ix2 (grow (bnum t) p) j) :=
  read_blk9 (V m c main_v190) t p j

set_option maxHeartbeats 4000000 in
/-- From ANY ten arrays: the colours' block the body computes from their blocks at point `t`, cut to the window, is
    block `t` of `Grgb` of the arrays. -/
theorem flushed10_gen (X0 X1 X2 X3 X4 X5 X6 X7 : Vec Ideal S2000000x28 .f32) (X8 X9 : Vec Ideal S2000000x3 .f32) (t : Fin cfg0.N) :
    (cfg0.win 10).cut (grid0.coords t) (out10 (F := Ideal) (((cfg0.win 0).blk t).view.read (Elt Ideal) X0) (((cfg0.win 1).blk t).view.read (Elt Ideal) X1) (((cfg0.win 2).blk t).view.read (Elt Ideal) X2) (((cfg0.win 3).blk t).view.read (Elt Ideal) X3) (((cfg0.win 4).blk t).view.read (Elt Ideal) X4) (((cfg0.win 5).blk t).view.read (Elt Ideal) X5) (((cfg0.win 6).blk t).view.read (Elt Ideal) X6) (((cfg0.win 7).blk t).view.read (Elt Ideal) X7) (((cfg0.win 8).blk t).view.read (Elt Ideal) X8) (((cfg0.win 9).blk t).view.read (Elt Ideal) X9))
      = ((cfg0.win 10).blk t).view.read (Elt Ideal) (Grgb X0 X1 X2 X3 X4 X5 X6 X7 X8 X9) := by
  funext j
  have hf := (idx_facts t).2.2.2.2.2.2.2.2.2.2.1
  show out10 (F := Ideal) (((cfg0.win 0).blk t).view.read (Elt Ideal) X0) (((cfg0.win 1).blk t).view.read (Elt Ideal) X1) (((cfg0.win 2).blk t).view.read (Elt Ideal) X2) (((cfg0.win 3).blk t).view.read (Elt Ideal) X3) (((cfg0.win 4).blk t).view.read (Elt Ideal) X4) (((cfg0.win 5).blk t).view.read (Elt Ideal) X5) (((cfg0.win 6).blk t).view.read (Elt Ideal) X6) (((cfg0.win 7).blk t).view.read (Elt Ideal) X7) (((cfg0.win 8).blk t).view.read (Elt Ideal) X8) (((cfg0.win 9).blk t).view.read (Elt Ideal) X9) j = Grgb X0 X1 X2 X3 X4 X5 X6 X7 X8 X9 (((cfg0.win 10).blk t).view.emb j)
  exact out10_at _ _ _ _ _ _ _ _ _ _ X0 X1 X2 X3 X4 X5 X6 X7 X8 X9 (bnum t)
    (read_blk0 X0 t) (read_blk1 X1 t) (read_blk2 X2 t) (read_blk3 X3 t) (read_blk4 X4 t) (read_blk5 X5 t) (read_blk6 X6 t) (read_blk7 X7 t) (read_blk8 X8 t) (read_blk9 X9 t) j (((cfg0.win 10).blk t).view.emb j)
    (by show win0_10.index t (0 : Fin 2) * 16000 + 1 * (j 0).val = t.val * 16000 + (j 0).val; rw [hf.1]; omega)
    (by show win0_10.index t (1 : Fin 2) * 3 + 1 * (j 1).val = (j 1).val; rw [hf.2]; omega)

set_option maxHeartbeats 4000000 in
/-- The same for the densities' block. -/
theorem flushed11_gen (X0 X1 X2 X3 X4 X5 X6 X7 : Vec Ideal S2000000x28 .f32) (X8 : Vec Ideal S2000000x3 .f32) (t : Fin cfg0.N) :
    (cfg0.win 11).cut (grid0.coords t) (out11 (F := Ideal) (((cfg0.win 0).blk t).view.read (Elt Ideal) X0) (((cfg0.win 1).blk t).view.read (Elt Ideal) X1) (((cfg0.win 2).blk t).view.read (Elt Ideal) X2) (((cfg0.win 3).blk t).view.read (Elt Ideal) X3) (((cfg0.win 4).blk t).view.read (Elt Ideal) X4) (((cfg0.win 5).blk t).view.read (Elt Ideal) X5) (((cfg0.win 6).blk t).view.read (Elt Ideal) X6) (((cfg0.win 7).blk t).view.read (Elt Ideal) X7) (((cfg0.win 8).blk t).view.read (Elt Ideal) X8))
      = ((cfg0.win 11).blk t).view.read (Elt Ideal) (Gsigma X0 X1 X2 X3 X4 X5 X6 X7 X8) := by
  funext j
  have hf := (idx_facts t).2.2.2.2.2.2.2.2.2.2.2
  show out11 (F := Ideal) (((cfg0.win 0).blk t).view.read (Elt Ideal) X0) (((cfg0.win 1).blk t).view.read (Elt Ideal) X1) (((cfg0.win 2).blk t).view.read (Elt Ideal) X2) (((cfg0.win 3).blk t).view.read (Elt Ideal) X3) (((cfg0.win 4).blk t).view.read (Elt Ideal) X4) (((cfg0.win 5).blk t).view.read (Elt Ideal) X5) (((cfg0.win 6).blk t).view.read (Elt Ideal) X6) (((cfg0.win 7).blk t).view.read (Elt Ideal) X7) (((cfg0.win 8).blk t).view.read (Elt Ideal) X8) j = Gsigma X0 X1 X2 X3 X4 X5 X6 X7 X8 (((cfg0.win 11).blk t).view.emb j)
  exact out11_at _ _ _ _ _ _ _ _ _ X0 X1 X2 X3 X4 X5 X6 X7 X8 (bnum t)
    (read_blk0 X0 t) (read_blk1 X1 t) (read_blk2 X2 t) (read_blk3 X3 t) (read_blk4 X4 t) (read_blk5 X5 t) (read_blk6 X6 t) (read_blk7 X7 t) (read_blk8 X8 t) j (((cfg0.win 11).blk t).view.emb j)
    (by show win0_11.index t (0 : Fin 2) * 16000 + 1 * (j 0).val = t.val * 16000 + (j 0).val; rw [hf.1]; omega)

/-- What point `t` writes back to the colours' array is block `t` of `Grgb` of the arrays as the launch finds them. -/
theorem flushed10_eq (c : Dev nD) (t : Fin cfg0.N) :
    (dats m 0 c).flushed 10 t = ((cfg0.win 10).blk t).view.read (Elt Ideal) (Grgb (V m c main_v47) (V m c main_v67) (V m c main_v87) (V m c main_v107) (V m c main_v127) (V m c main_v147) (V m c main_v167) (V m c main_v187) (V m c main_v10) (V m c main_v190)) := by
  show (cfg0.win 10).cut (grid0.coords t) ((dats m 0 c).after 10 t) = _
  rw [after10]
  exact flushed10_gen (V m c main_v47) (V m c main_v67) (V m c main_v87) (V m c main_v107) (V m c main_v127) (V m c main_v147) (V m c main_v167) (V m c main_v187) (V m c main_v10) (V m c main_v190) t

/-- The same for the densities' array. -/
theorem flushed11_eq (c : Dev nD) (t : Fin cfg0.N) :
    (dats m 0 c).flushed 11 t = ((cfg0.win 11).blk t).view.read (Elt Ideal) (Gsigma (V m c main_v47) (V m c main_v67) (V m c main_v87) (V m c main_v107) (V m c main_v127) (V m c main_v147) (V m c main_v167) (V m c main_v187) (V m c main_v10)) := by
  show (cfg0.win 11).cut (grid0.coords t) ((dats m 0 c).after 11 t) = _
  rw [after11]
  exact flushed11_gen (V m c main_v47) (V m c main_v67) (V m c main_v87) (V m c main_v107) (V m c main_v127) (V m c main_v147) (V m c main_v167) (V m c main_v187) (V m c main_v10) t

/-! ## The blocks tile the arrays -/

theorem mem_blk10 (t : Fin cfg0.N) (i : S2000000x3.Idx) :
    i ∈ ((cfg0.win 10).blk t).view.set ↔ ∀ a : Fin 2, win0_10.index t a * S16000x3.size a ≤ (i a).val ∧ (i a).val < win0_10.index t a * S16000x3.size a + S16000x3.size a := by
  show i ∈ ((View.whole main_v191_0).slice (win0_10.rect t)).set ↔ _
  rw [View.set_slice_whole, Rect.mem_set_unit]
  exact Iff.rfl

theorem mem_blk11 (t : Fin cfg0.N) (i : S2000000x1.Idx) :
    i ∈ ((cfg0.win 11).blk t).view.set ↔ ∀ a : Fin 2, win0_11.index t a * S16000x1.size a ≤ (i a).val ∧ (i a).val < win0_11.index t a * S16000x1.size a + S16000x1.size a := by
  show i ∈ ((View.whole main_v191_1).slice (win0_11.rect t)).set ↔ _
  rw [View.set_slice_whole, Rect.mem_set_unit]
  exact Iff.rfl

/-- Row `r` lies in the block of point `r / 16000`. -/
theorem tile10 (i : S2000000x3.Idx) : ∃ t : Fin cfg0.N, (cfg0.win 10).flush t = true ∧ i ∈ ((cfg0.win 10).blk t).view.set := by
  have hi0 : (i 0).val < 2000000 := idx2_lt0 i
  have hi1 : (i 1).val < 3 := idx2_lt1 i
  let t : Fin cfg0.N := ⟨(i 0).val / 16000, by show _ < grid0.N; rw [N_0]; omega⟩
  have ht : t.val = (i 0).val / 16000 := rfl
  have hf := (idx_facts t).2.2.2.2.2.2.2.2.2.2.1
  refine ⟨t, flush0_10 t, ?_⟩
  rw [mem_blk10]
  intro a
  match a with
  | ⟨0, _⟩ => show win0_10.index t (0 : Fin 2) * 16000 ≤ (i 0).val ∧ (i 0).val < win0_10.index t (0 : Fin 2) * 16000 + 16000; rw [hf.1]; omega
  | ⟨1, _⟩ => show win0_10.index t (1 : Fin 2) * 3 ≤ (i 1).val ∧ (i 1).val < win0_10.index t (1 : Fin 2) * 3 + 3; rw [hf.2]; omega

theorem tile11 (i : S2000000x1.Idx) : ∃ t : Fin cfg0.N, (cfg0.win 11).flush t = true ∧ i ∈ ((cfg0.win 11).blk t).view.set := by
  have hi0 : (i 0).val < 2000000 := idx2_lt0 i
  have hi1 : (i 1).val < 1 := idx2_lt1 i
  let t : Fin cfg0.N := ⟨(i 0).val / 16000, by show _ < grid0.N; rw [N_0]; omega⟩
  have ht : t.val = (i 0).val / 16000 := rfl
  have hf := (idx_facts t).2.2.2.2.2.2.2.2.2.2.2
  refine ⟨t, flush0_11 t, ?_⟩
  rw [mem_blk11]
  intro a
  match a with
  | ⟨0, _⟩ => show win0_11.index t (0 : Fin 2) * 16000 ≤ (i 0).val ∧ (i 0).val < win0_11.index t (0 : Fin 2) * 16000 + 16000; rw [hf.1]; omega
  | ⟨1, _⟩ => show win0_11.index t (1 : Fin 2) * 1 ≤ (i 1).val ∧ (i 1).val < win0_11.index t (1 : Fin 2) * 1 + 1; rw [hf.2]; omega

/-- The colours' array after the run. -/
theorem final10 (c : Dev nD) : (dats m 0 c).arrAt 10 cfg0.N = Grgb (V m c main_v47) (V m c main_v67) (V m c main_v87) (V m c main_v107) (V m c main_v127) (V m c main_v147) (V m c main_v167) (V m c main_v187) (V m c main_v10) (V m c main_v190) :=
  (dats m 0 c).arrAt_eq_of_cover 10 (Grgb (V m c main_v47) (V m c main_v67) (V m c main_v87) (V m c main_v107) (V m c main_v127) (V m c main_v147) (V m c main_v167) (V m c main_v187) (V m c main_v10) (V m c main_v190)) (fun t _ => flushed10_eq m c t) tile10

/-- The densities' array after the run. -/
theorem final11 (c : Dev nD) : (dats m 0 c).arrAt 11 cfg0.N = Gsigma (V m c main_v47) (V m c main_v67) (V m c main_v87) (V m c main_v107) (V m c main_v127) (V m c main_v147) (V m c main_v167) (V m c main_v187) (V m c main_v10) :=
  (dats m 0 c).arrAt_eq_of_cover 11 (Gsigma (V m c main_v47) (V m c main_v67) (V m c main_v87) (V m c main_v107) (V m c main_v127) (V m c main_v147) (V m c main_v167) (V m c main_v187) (V m c main_v10)) (fun t _ => flushed11_eq m c t) tile11

/-! ## The run, read -/

/-- Every weakly fair execution of the program terminates with the colours at `Grgb` and the densities at `Gsigma` of
    the ten arrays as the launch finds them, the two arguments unchanged. -/
theorem run_value : θ_run defs (onTc (τ := τ) (main (F := Ideal))) ⟨m, fun _ => 0, ρ⟩ fun r => ∀ c : Dev nD,
      r.2.mem ((c.tc : Thread nD τ).loc main_v191_0) = Grgb (V m c main_v47) (V m c main_v67) (V m c main_v87) (V m c main_v107) (V m c main_v127) (V m c main_v147) (V m c main_v167) (V m c main_v187) (V m c main_v10) (V m c main_v190)
      ∧ r.2.mem ((c.tc : Thread nD τ).loc main_v191_1) = Gsigma (V m c main_v47) (V m c main_v67) (V m c main_v87) (V m c main_v107) (V m c main_v127) (V m c main_v147) (V m c main_v167) (V m c main_v187) (V m c main_v10)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 10).trans (final10 m c), ((h c).1 11).trans (final11 m c),
      ((h c).2 main_arg0 (Pipeline.mem_restRefs_of main_arg0 rfl (by decide))).trans (V_main_arg0 m c),
      ((h c).2 main_arg1 (Pipeline.mem_restRefs_of main_arg1 rfl (by decide))).trans (V_main_arg1 m c)⟩)
    (run_main m ρ)

end Cert.KernelIdeal.Hand

end
-- ==== Proof.KernelPrefix.lean ====
/-
  The arrays the launch stages, as functions of the program's two arguments.

  The ten arrays the kernel's input windows read — eight gathered corner arrays, the fractional offsets, the
  normalised directions — are written by the host operations before the launch. Each is the same composition of
  operations, of the same two arguments, as the reference's stage of the same name computes.
-/
import proofs.«144185_j57191784513782_1_alg».proof.Proof.EntryIdeal
import proofs.«144185_j57191784513782_1_alg».proof.Proof.RefRead

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The two arguments as the program is started with them. -/
abbrev arg0 (c : Dev nD) : (⟨S2000000x3, .f32⟩ : BufTy).Contents (Elt F) := m ((c : Thread nD τ).loc main_arg0)
abbrev arg1 (c : Dev nD) : (⟨S192x192x192x28, .f32⟩ : BufTy).Contents (Elt F) := m ((c : Thread nD τ).loc main_arg1)

/-- The launch's buffers computed: the five stretches laid end to end, and the fold of their operations read at one
    buffer — an operation's result at its own buffer is its function of its operands' contents, and every other
    operation leaves that buffer as it was. What is left is one composed term of the two arguments. -/
macro "launch_fold" : tactic =>
  `(tactic| (dsimp only [V]; simp only [hostOps0, hostOps0_1, hostOps0_2, hostOps0_3, hostOps0_4, List.flatten_cons, List.flatten_nil, List.append_nil, List.cons_append, List.nil_append]; after_results_simp3))

/-! Each array below is reached the same way. The fold leaves the composition of the host operations that lead to the
    array; the reference's stage is, by its definition, the composition of the same operations in the same order, one
    definition per operation. With the stages on the chain replaced by their definitions the two sides are the same
    term: the two programs' shape records are the same literals, and the side conditions are proofs. -/

open Cert.ReferenceIdeal.ReadP in
set_option maxHeartbeats 40000000 in
/-- Corner 0 (z, y, x all at the floor index): the grid gathered at the three floor coordinates, each wrapped into range. -/
theorem V_corner0 (c : Dev nD) : (V m c main_v47 : (⟨S2000000x28, .f32⟩ : BufTy).Contents (Elt F)) = Cert.ReferenceIdeal.ReadP.val_main_v50 (F := F) (arg0 m c) (arg1 m c) := by
  launch_fold
  simp only [val_main_v50, val_main_v49, val_main_v46, val_main_v35, val_main_v32, val_main_v21, val_main_v20, val_main_v11,
    val_main_v9, val_main_v8, val_main_call0_v4, val_main_call0_v3, val_main_c, val_main_call0_v2, val_main_call0_v1,
    val_main_call0_v0, val_main_cst_3, val_main_v7, val_main_v5, val_main_v3, val_main_v1, val_main_v0, val_main_cst,
    val_main_v2, val_main_cst_0, val_main_v4, val_main_cst_1, val_main_v6, val_main_cst_2, val_main_v31, val_main_c_6,
    val_main_v34, val_main_v33, val_main_c_7, val_main_v47, val_main_v40, val_main_v37, val_main_v19, val_main_v18,
    val_main_v36, val_main_c_8, val_main_v39, val_main_v38, val_main_c_9, val_main_v48, val_main_v45, val_main_v42,
    val_main_v17, val_main_v16, val_main_v41, val_main_c_10, val_main_v44, val_main_v43, val_main_c_11]
  rfl
open Cert.ReferenceIdeal.ReadP in
set_option maxHeartbeats 40000000 in
/-- Corner 1: as corner 0 with the x coordinate one cell up (capped at the last cell). -/
theorem V_corner1 (c : Dev nD) : (V m c main_v67 : (⟨S2000000x28, .f32⟩ : BufTy).Contents (Elt F)) = Cert.ReferenceIdeal.ReadP.val_main_v74 (F := F) (arg0 m c) (arg1 m c) := by
  launch_fold
  simp only [val_main_v74, val_main_v73, val_main_v70, val_main_v59, val_main_v56, val_main_v21, val_main_v20, val_main_v11,
    val_main_v9, val_main_v8, val_main_call0_v4, val_main_call0_v3, val_main_c, val_main_call0_v2, val_main_call0_v1,
    val_main_call0_v0, val_main_cst_3, val_main_v7, val_main_v5, val_main_v3, val_main_v1, val_main_v0, val_main_cst,
    val_main_v2, val_main_cst_0, val_main_v4, val_main_cst_1, val_main_v6, val_main_cst_2, val_main_v55, val_main_c_13,
    val_main_v58, val_main_v57, val_main_c_14, val_main_v71, val_main_v64, val_main_v61, val_main_v19, val_main_v18,
    val_main_v60, val_main_c_15, val_main_v63, val_main_v62, val_main_c_16, val_main_v72, val_main_v69, val_main_v66,
    val_main_v23, val_main_v22, val_main_v15, val_main_v13, val_main_v12, val_main_c_4, val_main_v14, val_main_c_5,
    val_main_v65, val_main_c_17, val_main_v68, val_main_v67, val_main_c_18]
  rfl
open Cert.ReferenceIdeal.ReadP in
set_option maxHeartbeats 40000000 in
/-- Corner 2: the y coordinate one cell up. -/
theorem V_corner2 (c : Dev nD) : (V m c main_v87 : (⟨S2000000x28, .f32⟩ : BufTy).Contents (Elt F)) = Cert.ReferenceIdeal.ReadP.val_main_v97 (F := F) (arg0 m c) (arg1 m c) := by
  launch_fold
  simp only [val_main_v97, val_main_v96, val_main_v93, val_main_v82, val_main_v79, val_main_v21, val_main_v20, val_main_v11,
    val_main_v9, val_main_v8, val_main_call0_v4, val_main_call0_v3, val_main_c, val_main_call0_v2, val_main_call0_v1,
    val_main_call0_v0, val_main_cst_3, val_main_v7, val_main_v5, val_main_v3, val_main_v1, val_main_v0, val_main_cst,
    val_main_v2, val_main_cst_0, val_main_v4, val_main_cst_1, val_main_v6, val_main_cst_2, val_main_v78, val_main_c_19,
    val_main_v81, val_main_v80, val_main_c_20, val_main_v94, val_main_v87, val_main_v84, val_main_v25, val_main_v24,
    val_main_v15, val_main_v13, val_main_v12, val_main_c_4, val_main_v14, val_main_c_5, val_main_v83, val_main_c_21,
    val_main_v86, val_main_v85, val_main_c_22, val_main_v95, val_main_v92, val_main_v89, val_main_v17, val_main_v16,
    val_main_v88, val_main_c_23, val_main_v91, val_main_v90, val_main_c_24]
  rfl
open Cert.ReferenceIdeal.ReadP in
set_option maxHeartbeats 40000000 in
/-- Corner 3: the y and x coordinates one cell up. -/
theorem V_corner3 (c : Dev nD) : (V m c main_v107 : (⟨S2000000x28, .f32⟩ : BufTy).Contents (Elt F)) = Cert.ReferenceIdeal.ReadP.val_main_v121 (F := F) (arg0 m c) (arg1 m c) := by
  launch_fold
  simp only [val_main_v121, val_main_v120, val_main_v117, val_main_v106, val_main_v103, val_main_v21, val_main_v20,
    val_main_v11, val_main_v9, val_main_v8, val_main_call0_v4, val_main_call0_v3, val_main_c, val_main_call0_v2,
    val_main_call0_v1, val_main_call0_v0, val_main_cst_3, val_main_v7, val_main_v5, val_main_v3, val_main_v1,
    val_main_v0, val_main_cst, val_main_v2, val_main_cst_0, val_main_v4, val_main_cst_1, val_main_v6, val_main_cst_2,
    val_main_v102, val_main_c_26, val_main_v105, val_main_v104, val_main_c_27, val_main_v118, val_main_v111,
    val_main_v108, val_main_v25, val_main_v24, val_main_v15, val_main_v13, val_main_v12, val_main_c_4, val_main_v14,
    val_main_c_5, val_main_v107, val_main_c_28, val_main_v110, val_main_v109, val_main_c_29, val_main_v119,
    val_main_v116, val_main_v113, val_main_v23, val_main_v22, val_main_v112, val_main_c_30, val_main_v115,
    val_main_v114, val_main_c_31]
  rfl
open Cert.ReferenceIdeal.ReadP in
set_option maxHeartbeats 40000000 in
/-- Corner 4: the z coordinate one cell up. -/
theorem V_corner4 (c : Dev nD) : (V m c main_v127 : (⟨S2000000x28, .f32⟩ : BufTy).Contents (Elt F)) = Cert.ReferenceIdeal.ReadP.val_main_v144 (F := F) (arg0 m c) (arg1 m c) := by
  launch_fold
  simp only [val_main_v144, val_main_v143, val_main_v140, val_main_v129, val_main_v126, val_main_v27, val_main_v26,
    val_main_v15, val_main_v13, val_main_v11, val_main_v9, val_main_v8, val_main_call0_v4, val_main_call0_v3,
    val_main_c, val_main_call0_v2, val_main_call0_v1, val_main_call0_v0, val_main_cst_3, val_main_v7, val_main_v5,
    val_main_v3, val_main_v1, val_main_v0, val_main_cst, val_main_v2, val_main_cst_0, val_main_v4, val_main_cst_1,
    val_main_v6, val_main_cst_2, val_main_v12, val_main_c_4, val_main_v14, val_main_c_5, val_main_v125, val_main_c_32,
    val_main_v128, val_main_v127, val_main_c_33, val_main_v141, val_main_v134, val_main_v131, val_main_v19,
    val_main_v18, val_main_v130, val_main_c_34, val_main_v133, val_main_v132, val_main_c_35, val_main_v142,
    val_main_v139, val_main_v136, val_main_v17, val_main_v16, val_main_v135, val_main_c_36, val_main_v138,
    val_main_v137, val_main_c_37]
  rfl
open Cert.ReferenceIdeal.ReadP in
set_option maxHeartbeats 40000000 in
/-- Corner 5: the z and x coordinates one cell up. -/
theorem V_corner5 (c : Dev nD) : (V m c main_v147 : (⟨S2000000x28, .f32⟩ : BufTy).Contents (Elt F)) = Cert.ReferenceIdeal.ReadP.val_main_v168 (F := F) (arg0 m c) (arg1 m c) := by
  launch_fold
  simp only [val_main_v168, val_main_v167, val_main_v164, val_main_v153, val_main_v150, val_main_v27, val_main_v26,
    val_main_v15, val_main_v13, val_main_v11, val_main_v9, val_main_v8, val_main_call0_v4, val_main_call0_v3,
    val_main_c, val_main_call0_v2, val_main_call0_v1, val_main_call0_v0, val_main_cst_3, val_main_v7, val_main_v5,
    val_main_v3, val_main_v1, val_main_v0, val_main_cst, val_main_v2, val_main_cst_0, val_main_v4, val_main_cst_1,
    val_main_v6, val_main_cst_2, val_main_v12, val_main_c_4, val_main_v14, val_main_c_5, val_main_v149, val_main_c_39,
    val_main_v152, val_main_v151, val_main_c_40, val_main_v165, val_main_v158, val_main_v155, val_main_v19,
    val_main_v18, val_main_v154, val_main_c_41, val_main_v157, val_main_v156, val_main_c_42, val_main_v166,
    val_main_v163, val_main_v160, val_main_v23, val_main_v22, val_main_v159, val_main_c_43, val_main_v162,
    val_main_v161, val_main_c_44]
  rfl
open Cert.ReferenceIdeal.ReadP in
set_option maxHeartbeats 40000000 in
/-- Corner 6: the z and y coordinates one cell up. -/
theorem V_corner6 (c : Dev nD) : (V m c main_v167 : (⟨S2000000x28, .f32⟩ : BufTy).Contents (Elt F)) = Cert.ReferenceIdeal.ReadP.val_main_v191 (F := F) (arg0 m c) (arg1 m c) := by
  launch_fold
  simp only [val_main_v191, val_main_v190, val_main_v187, val_main_v176, val_main_v173, val_main_v27, val_main_v26,
    val_main_v15, val_main_v13, val_main_v11, val_main_v9, val_main_v8, val_main_call0_v4, val_main_call0_v3,
    val_main_c, val_main_call0_v2, val_main_call0_v1, val_main_call0_v0, val_main_cst_3, val_main_v7, val_main_v5,
    val_main_v3, val_main_v1, val_main_v0, val_main_cst, val_main_v2, val_main_cst_0, val_main_v4, val_main_cst_1,
    val_main_v6, val_main_cst_2, val_main_v12, val_main_c_4, val_main_v14, val_main_c_5, val_main_v172, val_main_c_45,
    val_main_v175, val_main_v174, val_main_c_46, val_main_v188, val_main_v181, val_main_v178, val_main_v25,
    val_main_v24, val_main_v177, val_main_c_47, val_main_v180, val_main_v179, val_main_c_48, val_main_v189,
    val_main_v186, val_main_v183, val_main_v17, val_main_v16, val_main_v182, val_main_c_49, val_main_v185,
    val_main_v184, val_main_c_50]
  rfl
open Cert.ReferenceIdeal.ReadP in
set_option maxHeartbeats 40000000 in
/-- Corner 7: all three coordinates one cell up. -/
theorem V_corner7 (c : Dev nD) : (V m c main_v187 : (⟨S2000000x28, .f32⟩ : BufTy).Contents (Elt F)) = Cert.ReferenceIdeal.ReadP.val_main_v215 (F := F) (arg0 m c) (arg1 m c) := by
  launch_fold
  simp only [val_main_v215, val_main_v214, val_main_v211, val_main_v200, val_main_v197, val_main_v27, val_main_v26,
    val_main_v15, val_main_v13, val_main_v11, val_main_v9, val_main_v8, val_main_call0_v4, val_main_call0_v3,
    val_main_c, val_main_call0_v2, val_main_call0_v1, val_main_call0_v0, val_main_cst_3, val_main_v7, val_main_v5,
    val_main_v3, val_main_v1, val_main_v0, val_main_cst, val_main_v2, val_main_cst_0, val_main_v4, val_main_cst_1,
    val_main_v6, val_main_cst_2, val_main_v12, val_main_c_4, val_main_v14, val_main_c_5, val_main_v196, val_main_c_52,
    val_main_v199, val_main_v198, val_main_c_53, val_main_v212, val_main_v205, val_main_v202, val_main_v25,
    val_main_v24, val_main_v201, val_main_c_54, val_main_v204, val_main_v203, val_main_c_55, val_main_v213,
    val_main_v210, val_main_v207, val_main_v23, val_main_v22, val_main_v206, val_main_c_56, val_main_v209,
    val_main_v208, val_main_c_57]
  rfl
open Cert.ReferenceIdeal.ReadP in
set_option maxHeartbeats 40000000 in
/-- The fractional offsets: the clipped grid coordinate minus its floor. -/
theorem V_frac (c : Dev nD) : (V m c main_v10 : (⟨S2000000x3, .f32⟩ : BufTy).Contents (Elt F)) = Cert.ReferenceIdeal.ReadP.val_main_v10 (F := F) (arg0 m c) := by
  launch_fold
  simp only [val_main_v10, val_main_v8, val_main_call0_v4, val_main_call0_v3, val_main_c, val_main_call0_v2, val_main_call0_v1,
    val_main_call0_v0, val_main_cst_3, val_main_v7, val_main_v5, val_main_v3, val_main_v1, val_main_v0, val_main_cst,
    val_main_v2, val_main_cst_0, val_main_v4, val_main_cst_1, val_main_v6, val_main_cst_2, val_main_v9]
  rfl
open Cert.ReferenceIdeal.ReadP in
set_option maxHeartbeats 40000000 in
/-- The directions: each point divided by its Euclidean norm (the square root of the sum of its squared coordinates). -/
theorem V_dir (c : Dev nD) : (V m c main_v190 : (⟨S2000000x3, .f32⟩ : BufTy).Contents (Elt F)) = Cert.ReferenceIdeal.ReadP.val_main_v246 (F := F) (arg0 m c) := by
  launch_fold
  simp only [val_main_v246, val_main_v245, val_main_v244, val_main_call1_v2, val_main_call1_v1, val_main_call1_v0,
    val_main_call1_cst]
  rfl

end Cert.KernelIdeal.Hand

end
-- ==== Proof.RefRunOps.lean ====
/-
  The reference program as a line of host operations, cut into stretches, and its run.

  The program is a straight line of 405 host operations: the scaling and clipping of the query points to grid
  coordinates, the eight corner gathers with their index arithmetic and the seven linear blends, the direction's
  normalisation and its nine harmonic basis values, the three inner products with the logistic function, and the density
  through softplus. The line is cut into sixteen stretches, a cut before every concatenation and at every boundary of the
  program's own seven parts. Every weakly fair execution terminates, and every buffer of a core then holds the fold of
  the whole line's operations over what the core's buffers held at the start.
-/
import proofs.«144185_j57191784513782_1_alg».proof.Proof.Gen.ReferenceIdeal
import proofs.«144185_j57191784513782_1_alg».proof.Proof.LibNary3
import Idealize.ShloMosaic.Lib.StableHlo.Run
import Idealize.ShloMosaic.Lib.Pipeline.Frame

set_option maxRecDepth 16384

noncomputable section

namespace Cert.LibNary9

open Idealize.ShloMosaic Idealize.ShloMosaic.StableHlo Idealize.SL.Sem

variable {τ : Topo} {sig : RefSig} {Val : EltTy → Type}
variable {x0 x1 x2 x3 x4 x5 x6 x7 x8 y : Ref sig .tc}

/-- The result of an operation over a literal family of nine references, each operand's contents at its own
    reference (the general statement reads operand `k` at the `k`-th reference under a binder). -/
theorem nary9_result
    (f : ((k : Fin 9) → ((![x0, x1, x2, x3, x4, x5, x6, x7, x8] : Fin 9 → Ref sig .tc) k).ty.Contents Val) → y.ty.Contents Val) (hxs hy)
    (F : Valuation τ sig Val) :
    (nary (τ := τ) ![x0, x1, x2, x3, x4, x5, x6, x7, x8] y f hxs hy).result F (Proc.devRef .tc y)
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
          (Fin.cons (F (Proc.devRef .tc x6)) (Fin.cons (F (Proc.devRef .tc x7)) (Fin.cons (F (Proc.devRef .tc x8)) (fun i => i.elim0)))))))))) := by
  rw [nary_result]; congr 1; funext k; fin_cases k <;> rfl

/-- The same, with the result reference un-indexed for `simp`. -/
theorem nary9_result'
    (f : ((k : Fin 9) → ((![x0, x1, x2, x3, x4, x5, x6, x7, x8] : Fin 9 → Ref sig .tc) k).ty.Contents Val) → y.ty.Contents Val) (hxs hy)
    (F : Valuation τ sig Val) :
    (nary (τ := τ) ![x0, x1, x2, x3, x4, x5, x6, x7, x8] y f hxs hy).result F (no_index (Proc.devRef .tc y))
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
          (Fin.cons (F (Proc.devRef .tc x6)) (Fin.cons (F (Proc.devRef .tc x7)) (Fin.cons (F (Proc.devRef .tc x8)) (fun i => i.elim0)))))))))) :=
  nary9_result f hxs hy F

/-- A property of every element of two lists holds of every element of their concatenation. -/
theorem forall_app {α : Type _} {p : α → Prop} {l₁ l₂ : List α} (h₁ : l₁.Forall p) (h₂ : l₂.Forall p) : (l₁ ++ l₂).Forall p :=
  List.forall_iff_forall_mem.2 fun x hx =>
    (List.mem_append.1 hx).elim (List.forall_iff_forall_mem.1 h₁ x) (List.forall_iff_forall_mem.1 h₂ x)

end Cert.LibNary9

/-- The fold of a line of host operations at one buffer, as one `simp` pass: the pass for families of three references
    with the nine-reference statement above added before the general one. -/
macro "after_results_simp9" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Cert.LibNary3.nary3_result', Cert.LibNary9.nary9_result', Idealize.ShloMosaic.StableHlo.nary4_result', Idealize.ShloMosaic.StableHlo.nary_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))

namespace Cert.ReferenceIdeal.HandRun

open Cert.ReferenceIdeal Cert.ReferenceIdeal.Gen Idealize.ShloMosaic Idealize.ShloMosaic.TcCoe Idealize.SL.Sem Idealize.ShloMosaic.StableHlo
open Cert.LibNary9 (forall_app)

variable {F : FTy → Type} [FloatOps F]

set_option maxHeartbeats 4000000 in
/-- Operations 1 … 65 of the line. -/
abbrev ops1 : List (HloOp τ sig (Elt F)) :=
  [ nullary main_cst (constant S_ .f32 0x40800000#32),
    unary main_cst main_v0 (broadcastInDim S2000000x3 ![] bcast_S_S2000000x3 : (⟨S_, .f32⟩ : BufTy).Contents (Elt F) → (⟨S2000000x3, .f32⟩ : BufTy).Contents (Elt F)),
    binary main_arg0 main_v0 main_v1 (Host.divf : (⟨S2000000x3, .f32⟩ : BufTy).Contents (Elt F) → (⟨S2000000x3, .f32⟩ : BufTy).Contents (Elt F) → (⟨S2000000x3, .f32⟩ : BufTy).Contents (Elt F)),
    nullary main_cst_0 (constant S_ .f32 0x3F800000#32),
    unary main_cst_0 main_v2 (broadcastInDim S2000000x3 ![] bcast_S_S2000000x3 : (⟨S_, .f32⟩ : BufTy).Contents (Elt F) → (⟨S2000000x3, .f32⟩ : BufTy).Contents (Elt F)),
    binary main_v1 main_v2 main_v3 (addf : (⟨S2000000x3, .f32⟩ : BufTy).Contents (Elt F) → (⟨S2000000x3, .f32⟩ : BufTy).Contents (Elt F) → (⟨S2000000x3, .f32⟩ : BufTy).Contents (Elt F)),
    nullary main_cst_1 (constant S_ .f32 0x3F000000#32),
    unary main_cst_1 main_v4 (broadcastInDim S2000000x3 ![] bcast_S_S2000000x3 : (⟨S_, .f32⟩ : BufTy).Contents (Elt F) → (⟨S2000000x3, .f32⟩ : BufTy).Contents (Elt F)),
    binary main_v3 main_v4 main_v5 (mulf : (⟨S2000000x3, .f32⟩ : BufTy).Contents (Elt F) → (⟨S2000000x3, .f32⟩ : BufTy).Contents (Elt F) → (⟨S2000000x3, .f32⟩ : BufTy).Contents (Elt F)),
    nullary main_cst_2 (constant S_ .f32 0x433F0000#32),
    unary main_cst_2 main_v6 (broadcastInDim S2000000x3 ![] bcast_S_S2000000x3 : (⟨S_, .f32⟩ : BufTy).Contents (Elt F) → (⟨S2000000x3, .f32⟩ : BufTy).Contents (Elt F)),
    binary main_v5 main_v6 main_v7 (mulf : (⟨S2000000x3, .f32⟩ : BufTy).Contents (Elt F) → (⟨S2000000x3, .f32⟩ : BufTy).Contents (Elt F) → (⟨S2000000x3, .f32⟩ : BufTy).Contents (Elt F)),
    nullary main_cst_3 (constant S_ .f32 0x00000000#32),
    nullary main_c (constantI S_ 32 191#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S2000000x3, .f32⟩) main_call0_v1) (broadcastInDim S2000000x3 ![] bcast_S_S2000000x3),
    TRef.binary (TRef.of (T := ⟨S2000000x3, .f32⟩) main_call0_v1) (TRef.of (T := ⟨S2000000x3, .f32⟩) main_v7) (TRef.of (T := ⟨S2000000x3, .f32⟩) main_call0_v2) maximumf,
    TRef.unary (TRef.of (T := ⟨S_, .i32⟩) main_c) (TRef.of (T := ⟨S_, .f32⟩) main_call0_v3) (sitofp .f32),
    TRef.unary (TRef.of (T := ⟨S_, .f32⟩) main_call0_v3) (TRef.of (T := ⟨S2000000x3, .f32⟩) main_call0_v4) (broadcastInDim S2000000x3 ![] bcast_S_S2000000x3),
    TRef.binary (TRef.of (T := ⟨S2000000x3, .f32⟩) main_call0_v4) (TRef.of (T := ⟨S2000000x3, .f32⟩) main_call0_v2) (TRef.of (T := ⟨S2000000x3, .f32⟩) main_v8) minimumf,
    unary main_v8 main_v9 (Host.floor : (⟨S2000000x3, .f32⟩ : BufTy).Contents (Elt F) → (⟨S2000000x3, .f32⟩ : BufTy).Contents (Elt F)),
    binary main_v8 main_v9 main_v10 (subf : (⟨S2000000x3, .f32⟩ : BufTy).Contents (Elt F) → (⟨S2000000x3, .f32⟩ : BufTy).Contents (Elt F) → (⟨S2000000x3, .f32⟩ : BufTy).Contents (Elt F)),
    unary main_v9 main_v11 (fptosi 32 : (⟨S2000000x3, .f32⟩ : BufTy).Contents (Elt F) → (⟨S2000000x3, .i32⟩ : BufTy).Contents (Elt F)),
    nullary main_c_4 (constantI S_ 32 1#32),
    unary main_c_4 main_v12 (broadcastInDim S2000000x3 ![] bcast_S_S2000000x3 : (⟨S_, .i32⟩ : BufTy).Contents (Elt F) → (⟨S2000000x3, .i32⟩ : BufTy).Contents (Elt F)),
    binary main_v11 main_v12 main_v13 (addi : (⟨S2000000x3, .i32⟩ : BufTy).Contents (Elt F) → (⟨S2000000x3, .i32⟩ : BufTy).Contents (Elt F) → (⟨S2000000x3, .i32⟩ : BufTy).Contents (Elt F)),
    nullary main_c_5 (constantI S_ 32 191#32),
    unary main_c_5 main_v14 (broadcastInDim S2000000x3 ![] bcast_S_S2000000x3 : (⟨S_, .i32⟩ : BufTy).Contents (Elt F) → (⟨S2000000x3, .i32⟩ : BufTy).Contents (Elt F)),
    binary main_v13 main_v14 main_v15 (minsi : (⟨S2000000x3, .i32⟩ : BufTy).Contents (Elt F) → (⟨S2000000x3, .i32⟩ : BufTy).Contents (Elt F) → (⟨S2000000x3, .i32⟩ : BufTy).Contents (Elt F)),
    unary main_v11 main_v16 ((extractStridedSlice S2000000x1 ![0, 0] · slices_S2000000x3_S2000000x1_0_0) : (⟨S2000000x3, .i32⟩ : BufTy).Contents (Elt F) → (⟨S2000000x1, .i32⟩ : BufTy).Contents (Elt F)),
    reshape main_v16 main_v17 rfl shapeCasts_S2000000x1_S2000000,
    unary main_v11 main_v18 ((extractStridedSlice S2000000x1 ![0, 1] · slices_S2000000x3_S2000000x1_0_1) : (⟨S2000000x3, .i32⟩ : BufTy).Contents (Elt F) → (⟨S2000000x1, .i32⟩ : BufTy).Contents (Elt F)),
    reshape main_v18 main_v19 rfl shapeCasts_S2000000x1_S2000000,
    unary main_v11 main_v20 ((extractStridedSlice S2000000x1 ![0, 2] · slices_S2000000x3_S2000000x1_0_2) : (⟨S2000000x3, .i32⟩ : BufTy).Contents (Elt F) → (⟨S2000000x1, .i32⟩ : BufTy).Contents (Elt F)),
    reshape main_v20 main_v21 rfl shapeCasts_S2000000x1_S2000000,
    unary main_v15 main_v22 ((extractStridedSlice S2000000x1 ![0, 0] · slices_S2000000x3_S2000000x1_0_0) : (⟨S2000000x3, .i32⟩ : BufTy).Contents (Elt F) → (⟨S2000000x1, .i32⟩ : BufTy).Contents (Elt F)),
    reshape main_v22 main_v23 rfl shapeCasts_S2000000x1_S2000000,
    unary main_v15 main_v24 ((extractStridedSlice S2000000x1 ![0, 1] · slices_S2000000x3_S2000000x1_0_1) : (⟨S2000000x3, .i32⟩ : BufTy).Contents (Elt F) → (⟨S2000000x1, .i32⟩ : BufTy).Contents (Elt F)),
    reshape main_v24 main_v25 rfl shapeCasts_S2000000x1_S2000000,
    unary main_v15 main_v26 ((extractStridedSlice S2000000x1 ![0, 2] · slices_S2000000x3_S2000000x1_0_2) : (⟨S2000000x3, .i32⟩ : BufTy).Contents (Elt F) → (⟨S2000000x1, .i32⟩ : BufTy).Contents (Elt F)),
    reshape main_v26 main_v27 rfl shapeCasts_S2000000x1_S2000000,
    unary main_v10 main_v28 ((extractStridedSlice S2000000x1 ![0, 0] · slices_S2000000x3_S2000000x1_0_0) : (⟨S2000000x3, .f32⟩ : BufTy).Contents (Elt F) → (⟨S2000000x1, .f32⟩ : BufTy).Contents (Elt F)),
    unary main_v10 main_v29 ((extractStridedSlice S2000000x1 ![0, 1] · slices_S2000000x3_S2000000x1_0_1) : (⟨S2000000x3, .f32⟩ : BufTy).Contents (Elt F) → (⟨S2000000x1, .f32⟩ : BufTy).Contents (Elt F)),
    unary main_v10 main_v30 ((extractStridedSlice S2000000x1 ![0, 2] · slices_S2000000x3_S2000000x1_0_2) : (⟨S2000000x3, .f32⟩ : BufTy).Contents (Elt F) → (⟨S2000000x1, .f32⟩ : BufTy).Contents (Elt F)),
    nullary main_c_6 (constantI S_ 32 0#32),
    unary main_c_6 main_v31 (broadcastInDim S2000000 ![] bcast_S_S2000000 : (⟨S_, .i32⟩ : BufTy).Contents (Elt F) → (⟨S2000000, .i32⟩ : BufTy).Contents (Elt F)),
    binary main_v21 main_v31 main_v32 (cmpi .slt : (⟨S2000000, .i32⟩ : BufTy).Contents (Elt F) → (⟨S2000000, .i32⟩ : BufTy).Contents (Elt F) → (⟨S2000000, .i1⟩ : BufTy).Contents (Elt F)),
    nullary main_c_7 (constantI S_ 32 192#32),
    unary main_c_7 main_v33 (broadcastInDim S2000000 ![] bcast_S_S2000000 : (⟨S_, .i32⟩ : BufTy).Contents (Elt F) → (⟨S2000000, .i32⟩ : BufTy).Contents (Elt F)),
    binary main_v21 main_v33 main_v34 (addi : (⟨S2000000, .i32⟩ : BufTy).Contents (Elt F) → (⟨S2000000, .i32⟩ : BufTy).Contents (Elt F) → (⟨S2000000, .i32⟩ : BufTy).Contents (Elt F)),
    ternary main_v32 main_v34 main_v21 main_v35 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_8 (constantI S_ 32 0#32),
    unary main_c_8 main_v36 (broadcastInDim S2000000 ![] bcast_S_S2000000 : (⟨S_, .i32⟩ : BufTy).Contents (Elt F) → (⟨S2000000, .i32⟩ : BufTy).Contents (Elt F)),
    binary main_v19 main_v36 main_v37 (cmpi .slt : (⟨S2000000, .i32⟩ : BufTy).Contents (Elt F) → (⟨S2000000, .i32⟩ : BufTy).Contents (Elt F) → (⟨S2000000, .i1⟩ : BufTy).Contents (Elt F)),
    nullary main_c_9 (constantI S_ 32 192#32),
    unary main_c_9 main_v38 (broadcastInDim S2000000 ![] bcast_S_S2000000 : (⟨S_, .i32⟩ : BufTy).Contents (Elt F) → (⟨S2000000, .i32⟩ : BufTy).Contents (Elt F)),
    binary main_v19 main_v38 main_v39 (addi : (⟨S2000000, .i32⟩ : BufTy).Contents (Elt F) → (⟨S2000000, .i32⟩ : BufTy).Contents (Elt F) → (⟨S2000000, .i32⟩ : BufTy).Contents (Elt F)),
    ternary main_v37 main_v39 main_v19 main_v40 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_10 (constantI S_ 32 0#32),
    unary main_c_10 main_v41 (broadcastInDim S2000000 ![] bcast_S_S2000000 : (⟨S_, .i32⟩ : BufTy).Contents (Elt F) → (⟨S2000000, .i32⟩ : BufTy).Contents (Elt F)),
    binary main_v17 main_v41 main_v42 (cmpi .slt : (⟨S2000000, .i32⟩ : BufTy).Contents (Elt F) → (⟨S2000000, .i32⟩ : BufTy).Contents (Elt F) → (⟨S2000000, .i1⟩ : BufTy).Contents (Elt F)),
    nullary main_c_11 (constantI S_ 32 192#32),
    unary main_c_11 main_v43 (broadcastInDim S2000000 ![] bcast_S_S2000000 : (⟨S_, .i32⟩ : BufTy).Contents (Elt F) → (⟨S2000000, .i32⟩ : BufTy).Contents (Elt F)),
    binary main_v17 main_v43 main_v44 (addi : (⟨S2000000, .i32⟩ : BufTy).Contents (Elt F) → (⟨S2000000, .i32⟩ : BufTy).Contents (Elt F) → (⟨S2000000, .i32⟩ : BufTy).Contents (Elt F)),
    ternary main_v42 main_v44 main_v17 main_v45 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)) ]

set_option maxHeartbeats 4000000 in
/-- Operations 66 … 68 of the line. -/
abbrev ops2 : List (HloOp τ sig (Elt F)) :=
  [ unary main_v35 main_v46 (broadcastInDim S2000000x1 ![0] bcast_S2000000_S2000000x1_0 : (⟨S2000000, .i32⟩ : BufTy).Contents (Elt F) → (⟨S2000000x1, .i32⟩ : BufTy).Contents (Elt F)),
    unary main_v40 main_v47 (broadcastInDim S2000000x1 ![0] bcast_S2000000_S2000000x1_0 : (⟨S2000000, .i32⟩ : BufTy).Contents (Elt F) → (⟨S2000000x1, .i32⟩ : BufTy).Contents (Elt F)),
    unary main_v45 main_v48 (broadcastInDim S2000000x1 ![0] bcast_S2000000_S2000000x1_0 : (⟨S2000000, .i32⟩ : BufTy).Contents (Elt F) → (⟨S2000000x1, .i32⟩ : BufTy).Contents (Elt F)) ]

set_option maxHeartbeats 4000000 in
/-- Operations 69 … 99 of the line. -/
abbrev ops3 : List (HloOp τ sig (Elt F)) :=
  [ nary ![main_v46, main_v47, main_v48] main_v49 (fun u => concatenate S2000000x3 1 [⟨S2000000x1, u 0⟩, ⟨S2000000x1, u 1⟩, ⟨S2000000x1, u 2⟩] concatenates_S2000000x1_S2000000x1_S2000000x1_S2000000x3_d1),
    binary main_arg1 main_v49 main_v50 ((fun x i => Host.gather gather_S192x192x192x28_S2000000x3_S2000000x28_1_012_n_n_012_1_11128 x i) : (⟨S192x192x192x28, .f32⟩ : BufTy).Contents (Elt F) → (⟨S2000000x3, .i32⟩ : BufTy).Contents (Elt F) → (⟨S2000000x28, .f32⟩ : BufTy).Contents (Elt F)),
    nullary main_cst_12 (constant S_ .f32 0x3F800000#32),
    unary main_cst_12 main_v51 (broadcastInDim S2000000x1 ![] bcast_S_S2000000x1 : (⟨S_, .f32⟩ : BufTy).Contents (Elt F) → (⟨S2000000x1, .f32⟩ : BufTy).Contents (Elt F)),
    binary main_v51 main_v28 main_v52 (subf : (⟨S2000000x1, .f32⟩ : BufTy).Contents (Elt F) → (⟨S2000000x1, .f32⟩ : BufTy).Contents (Elt F) → (⟨S2000000x1, .f32⟩ : BufTy).Contents (Elt F)),
    unary main_v52 main_v53 (broadcastInDim S2000000x28 ![0, 1] bcast_S2000000x1_S2000000x28_0_1 : (⟨S2000000x1, .f32⟩ : BufTy).Contents (Elt F) → (⟨S2000000x28, .f32⟩ : BufTy).Contents (Elt F)),
    binary main_v50 main_v53 main_v54 (mulf : (⟨S2000000x28, .f32⟩ : BufTy).Contents (Elt F) → (⟨S2000000x28, .f32⟩ : BufTy).Contents (Elt F) → (⟨S2000000x28, .f32⟩ : BufTy).Contents (Elt F)),
    nullary main_c_13 (constantI S_ 32 0#32),
    unary main_c_13 main_v55 (broadcastInDim S2000000 ![] bcast_S_S2000000 : (⟨S_, .i32⟩ : BufTy).Contents (Elt F) → (⟨S2000000, .i32⟩ : BufTy).Contents (Elt F)),
    binary main_v21 main_v55 main_v56 (cmpi .slt : (⟨S2000000, .i32⟩ : BufTy).Contents (Elt F) → (⟨S2000000, .i32⟩ : BufTy).Contents (Elt F) → (⟨S2000000, .i1⟩ : BufTy).Contents (Elt F)),
    nullary main_c_14 (constantI S_ 32 192#32),
    unary main_c_14 main_v57 (broadcastInDim S2000000 ![] bcast_S_S2000000 : (⟨S_, .i32⟩ : BufTy).Contents (Elt F) → (⟨S2000000, .i32⟩ : BufTy).Contents (Elt F)),
    binary main_v21 main_v57 main_v58 (addi : (⟨S2000000, .i32⟩ : BufTy).Contents (Elt F) → (⟨S2000000, .i32⟩ : BufTy).Contents (Elt F) → (⟨S2000000, .i32⟩ : BufTy).Contents (Elt F)),
    ternary main_v56 main_v58 main_v21 main_v59 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_15 (constantI S_ 32 0#32),
    unary main_c_15 main_v60 (broadcastInDim S2000000 ![] bcast_S_S2000000 : (⟨S_, .i32⟩ : BufTy).Contents (Elt F) → (⟨S2000000, .i32⟩ : BufTy).Contents (Elt F)),
    binary main_v19 main_v60 main_v61 (cmpi .slt : (⟨S2000000, .i32⟩ : BufTy).Contents (Elt F) → (⟨S2000000, .i32⟩ : BufTy).Contents (Elt F) → (⟨S2000000, .i1⟩ : BufTy).Contents (Elt F)),
    nullary main_c_16 (constantI S_ 32 192#32),
    unary main_c_16 main_v62 (broadcastInDim S2000000 ![] bcast_S_S2000000 : (⟨S_, .i32⟩ : BufTy).Contents (Elt F) → (⟨S2000000, .i32⟩ : BufTy).Contents (Elt F)),
    binary main_v19 main_v62 main_v63 (addi : (⟨S2000000, .i32⟩ : BufTy).Contents (Elt F) → (⟨S2000000, .i32⟩ : BufTy).Contents (Elt F) → (⟨S2000000, .i32⟩ : BufTy).Contents (Elt F)),
    ternary main_v61 main_v63 main_v19 main_v64 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_17 (constantI S_ 32 0#32),
    unary main_c_17 main_v65 (broadcastInDim S2000000 ![] bcast_S_S2000000 : (⟨S_, .i32⟩ : BufTy).Contents (Elt F) → (⟨S2000000, .i32⟩ : BufTy).Contents (Elt F)),
    binary main_v23 main_v65 main_v66 (cmpi .slt : (⟨S2000000, .i32⟩ : BufTy).Contents (Elt F) → (⟨S2000000, .i32⟩ : BufTy).Contents (Elt F) → (⟨S2000000, .i1⟩ : BufTy).Contents (Elt F)),
    nullary main_c_18 (constantI S_ 32 192#32),
    unary main_c_18 main_v67 (broadcastInDim S2000000 ![] bcast_S_S2000000 : (⟨S_, .i32⟩ : BufTy).Contents (Elt F) → (⟨S2000000, .i32⟩ : BufTy).Contents (Elt F)),
    binary main_v23 main_v67 main_v68 (addi : (⟨S2000000, .i32⟩ : BufTy).Contents (Elt F) → (⟨S2000000, .i32⟩ : BufTy).Contents (Elt F) → (⟨S2000000, .i32⟩ : BufTy).Contents (Elt F)),
    ternary main_v66 main_v68 main_v23 main_v69 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v59 main_v70 (broadcastInDim S2000000x1 ![0] bcast_S2000000_S2000000x1_0 : (⟨S2000000, .i32⟩ : BufTy).Contents (Elt F) → (⟨S2000000x1, .i32⟩ : BufTy).Contents (Elt F)),
    unary main_v64 main_v71 (broadcastInDim S2000000x1 ![0] bcast_S2000000_S2000000x1_0 : (⟨S2000000, .i32⟩ : BufTy).Contents (Elt F) → (⟨S2000000x1, .i32⟩ : BufTy).Contents (Elt F)),
    unary main_v69 main_v72 (broadcastInDim S2000000x1 ![0] bcast_S2000000_S2000000x1_0 : (⟨S2000000, .i32⟩ : BufTy).Contents (Elt F) → (⟨S2000000x1, .i32⟩ : BufTy).Contents (Elt F)) ]

set_option maxHeartbeats 4000000 in
/-- Operations 100 … 125 of the line. -/
abbrev ops4 : List (HloOp τ sig (Elt F)) :=
  [ nary ![main_v70, main_v71, main_v72] main_v73 (fun u => concatenate S2000000x3 1 [⟨S2000000x1, u 0⟩, ⟨S2000000x1, u 1⟩, ⟨S2000000x1, u 2⟩] concatenates_S2000000x1_S2000000x1_S2000000x1_S2000000x3_d1),
    binary main_arg1 main_v73 main_v74 ((fun x i => Host.gather gather_S192x192x192x28_S2000000x3_S2000000x28_1_012_n_n_012_1_11128 x i) : (⟨S192x192x192x28, .f32⟩ : BufTy).Contents (Elt F) → (⟨S2000000x3, .i32⟩ : BufTy).Contents (Elt F) → (⟨S2000000x28, .f32⟩ : BufTy).Contents (Elt F)),
    unary main_v28 main_v75 (broadcastInDim S2000000x28 ![0, 1] bcast_S2000000x1_S2000000x28_0_1 : (⟨S2000000x1, .f32⟩ : BufTy).Contents (Elt F) → (⟨S2000000x28, .f32⟩ : BufTy).Contents (Elt F)),
    binary main_v74 main_v75 main_v76 (mulf : (⟨S2000000x28, .f32⟩ : BufTy).Contents (Elt F) → (⟨S2000000x28, .f32⟩ : BufTy).Contents (Elt F) → (⟨S2000000x28, .f32⟩ : BufTy).Contents (Elt F)),
    binary main_v54 main_v76 main_v77 (addf : (⟨S2000000x28, .f32⟩ : BufTy).Contents (Elt F) → (⟨S2000000x28, .f32⟩ : BufTy).Contents (Elt F) → (⟨S2000000x28, .f32⟩ : BufTy).Contents (Elt F)),
    nullary main_c_19 (constantI S_ 32 0#32),
    unary main_c_19 main_v78 (broadcastInDim S2000000 ![] bcast_S_S2000000 : (⟨S_, .i32⟩ : BufTy).Contents (Elt F) → (⟨S2000000, .i32⟩ : BufTy).Contents (Elt F)),
    binary main_v21 main_v78 main_v79 (cmpi .slt : (⟨S2000000, .i32⟩ : BufTy).Contents (Elt F) → (⟨S2000000, .i32⟩ : BufTy).Contents (Elt F) → (⟨S2000000, .i1⟩ : BufTy).Contents (Elt F)),
    nullary main_c_20 (constantI S_ 32 192#32),
    unary main_c_20 main_v80 (broadcastInDim S2000000 ![] bcast_S_S2000000 : (⟨S_, .i32⟩ : BufTy).Contents (Elt F) → (⟨S2000000, .i32⟩ : BufTy).Contents (Elt F)),
    binary main_v21 main_v80 main_v81 (addi : (⟨S2000000, .i32⟩ : BufTy).Contents (Elt F) → (⟨S2000000, .i32⟩ : BufTy).Contents (Elt F) → (⟨S2000000, .i32⟩ : BufTy).Contents (Elt F)),
    ternary main_v79 main_v81 main_v21 main_v82 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_21 (constantI S_ 32 0#32),
    unary main_c_21 main_v83 (broadcastInDim S2000000 ![] bcast_S_S2000000 : (⟨S_, .i32⟩ : BufTy).Contents (Elt F) → (⟨S2000000, .i32⟩ : BufTy).Contents (Elt F)),
    binary main_v25 main_v83 main_v84 (cmpi .slt : (⟨S2000000, .i32⟩ : BufTy).Contents (Elt F) → (⟨S2000000, .i32⟩ : BufTy).Contents (Elt F) → (⟨S2000000, .i1⟩ : BufTy).Contents (Elt F)),
    nullary main_c_22 (constantI S_ 32 192#32),
    unary main_c_22 main_v85 (broadcastInDim S2000000 ![] bcast_S_S2000000 : (⟨S_, .i32⟩ : BufTy).Contents (Elt F) → (⟨S2000000, .i32⟩ : BufTy).Contents (Elt F)),
    binary main_v25 main_v85 main_v86 (addi : (⟨S2000000, .i32⟩ : BufTy).Contents (Elt F) → (⟨S2000000, .i32⟩ : BufTy).Contents (Elt F) → (⟨S2000000, .i32⟩ : BufTy).Contents (Elt F)),
    ternary main_v84 main_v86 main_v25 main_v87 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_23 (constantI S_ 32 0#32),
    unary main_c_23 main_v88 (broadcastInDim S2000000 ![] bcast_S_S2000000 : (⟨S_, .i32⟩ : BufTy).Contents (Elt F) → (⟨S2000000, .i32⟩ : BufTy).Contents (Elt F)),
    binary main_v17 main_v88 main_v89 (cmpi .slt : (⟨S2000000, .i32⟩ : BufTy).Contents (Elt F) → (⟨S2000000, .i32⟩ : BufTy).Contents (Elt F) → (⟨S2000000, .i1⟩ : BufTy).Contents (Elt F)),
    nullary main_c_24 (constantI S_ 32 192#32),
    unary main_c_24 main_v90 (broadcastInDim S2000000 ![] bcast_S_S2000000 : (⟨S_, .i32⟩ : BufTy).Contents (Elt F) → (⟨S2000000, .i32⟩ : BufTy).Contents (Elt F)),
    binary main_v17 main_v90 main_v91 (addi : (⟨S2000000, .i32⟩ : BufTy).Contents (Elt F) → (⟨S2000000, .i32⟩ : BufTy).Contents (Elt F) → (⟨S2000000, .i32⟩ : BufTy).Contents (Elt F)),
    ternary main_v89 main_v91 main_v17 main_v92 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)) ]

set_option maxHeartbeats 4000000 in
/-- Operations 126 … 128 of the line. -/
abbrev ops5 : List (HloOp τ sig (Elt F)) :=
  [ unary main_v82 main_v93 (broadcastInDim S2000000x1 ![0] bcast_S2000000_S2000000x1_0 : (⟨S2000000, .i32⟩ : BufTy).Contents (Elt F) → (⟨S2000000x1, .i32⟩ : BufTy).Contents (Elt F)),
    unary main_v87 main_v94 (broadcastInDim S2000000x1 ![0] bcast_S2000000_S2000000x1_0 : (⟨S2000000, .i32⟩ : BufTy).Contents (Elt F) → (⟨S2000000x1, .i32⟩ : BufTy).Contents (Elt F)),
    unary main_v92 main_v95 (broadcastInDim S2000000x1 ![0] bcast_S2000000_S2000000x1_0 : (⟨S2000000, .i32⟩ : BufTy).Contents (Elt F) → (⟨S2000000x1, .i32⟩ : BufTy).Contents (Elt F)) ]

set_option maxHeartbeats 4000000 in
/-- Operations 129 … 159 of the line. -/
abbrev ops6 : List (HloOp τ sig (Elt F)) :=
  [ nary ![main_v93, main_v94, main_v95] main_v96 (fun u => concatenate S2000000x3 1 [⟨S2000000x1, u 0⟩, ⟨S2000000x1, u 1⟩, ⟨S2000000x1, u 2⟩] concatenates_S2000000x1_S2000000x1_S2000000x1_S2000000x3_d1),
    binary main_arg1 main_v96 main_v97 ((fun x i => Host.gather gather_S192x192x192x28_S2000000x3_S2000000x28_1_012_n_n_012_1_11128 x i) : (⟨S192x192x192x28, .f32⟩ : BufTy).Contents (Elt F) → (⟨S2000000x3, .i32⟩ : BufTy).Contents (Elt F) → (⟨S2000000x28, .f32⟩ : BufTy).Contents (Elt F)),
    nullary main_cst_25 (constant S_ .f32 0x3F800000#32),
    unary main_cst_25 main_v98 (broadcastInDim S2000000x1 ![] bcast_S_S2000000x1 : (⟨S_, .f32⟩ : BufTy).Contents (Elt F) → (⟨S2000000x1, .f32⟩ : BufTy).Contents (Elt F)),
    binary main_v98 main_v28 main_v99 (subf : (⟨S2000000x1, .f32⟩ : BufTy).Contents (Elt F) → (⟨S2000000x1, .f32⟩ : BufTy).Contents (Elt F) → (⟨S2000000x1, .f32⟩ : BufTy).Contents (Elt F)),
    unary main_v99 main_v100 (broadcastInDim S2000000x28 ![0, 1] bcast_S2000000x1_S2000000x28_0_1 : (⟨S2000000x1, .f32⟩ : BufTy).Contents (Elt F) → (⟨S2000000x28, .f32⟩ : BufTy).Contents (Elt F)),
    binary main_v97 main_v100 main_v101 (mulf : (⟨S2000000x28, .f32⟩ : BufTy).Contents (Elt F) → (⟨S2000000x28, .f32⟩ : BufTy).Contents (Elt F) → (⟨S2000000x28, .f32⟩ : BufTy).Contents (Elt F)),
    nullary main_c_26 (constantI S_ 32 0#32),
    unary main_c_26 main_v102 (broadcastInDim S2000000 ![] bcast_S_S2000000 : (⟨S_, .i32⟩ : BufTy).Contents (Elt F) → (⟨S2000000, .i32⟩ : BufTy).Contents (Elt F)),
    binary main_v21 main_v102 main_v103 (cmpi .slt : (⟨S2000000, .i32⟩ : BufTy).Contents (Elt F) → (⟨S2000000, .i32⟩ : BufTy).Contents (Elt F) → (⟨S2000000, .i1⟩ : BufTy).Contents (Elt F)),
    nullary main_c_27 (constantI S_ 32 192#32),
    unary main_c_27 main_v104 (broadcastInDim S2000000 ![] bcast_S_S2000000 : (⟨S_, .i32⟩ : BufTy).Contents (Elt F) → (⟨S2000000, .i32⟩ : BufTy).Contents (Elt F)),
    binary main_v21 main_v104 main_v105 (addi : (⟨S2000000, .i32⟩ : BufTy).Contents (Elt F) → (⟨S2000000, .i32⟩ : BufTy).Contents (Elt F) → (⟨S2000000, .i32⟩ : BufTy).Contents (Elt F)),
    ternary main_v103 main_v105 main_v21 main_v106 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_28 (constantI S_ 32 0#32),
    unary main_c_28 main_v107 (broadcastInDim S2000000 ![] bcast_S_S2000000 : (⟨S_, .i32⟩ : BufTy).Contents (Elt F) → (⟨S2000000, .i32⟩ : BufTy).Contents (Elt F)),
    binary main_v25 main_v107 main_v108 (cmpi .slt : (⟨S2000000, .i32⟩ : BufTy).Contents (Elt F) → (⟨S2000000, .i32⟩ : BufTy).Contents (Elt F) → (⟨S2000000, .i1⟩ : BufTy).Contents (Elt F)),
    nullary main_c_29 (constantI S_ 32 192#32),
    unary main_c_29 main_v109 (broadcastInDim S2000000 ![] bcast_S_S2000000 : (⟨S_, .i32⟩ : BufTy).Contents (Elt F) → (⟨S2000000, .i32⟩ : BufTy).Contents (Elt F)),
    binary main_v25 main_v109 main_v110 (addi : (⟨S2000000, .i32⟩ : BufTy).Contents (Elt F) → (⟨S2000000, .i32⟩ : BufTy).Contents (Elt F) → (⟨S2000000, .i32⟩ : BufTy).Contents (Elt F)),
    ternary main_v108 main_v110 main_v25 main_v111 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_30 (constantI S_ 32 0#32),
    unary main_c_30 main_v112 (broadcastInDim S2000000 ![] bcast_S_S2000000 : (⟨S_, .i32⟩ : BufTy).Contents (Elt F) → (⟨S2000000, .i32⟩ : BufTy).Contents (Elt F)),
    binary main_v23 main_v112 main_v113 (cmpi .slt : (⟨S2000000, .i32⟩ : BufTy).Contents (Elt F) → (⟨S2000000, .i32⟩ : BufTy).Contents (Elt F) → (⟨S2000000, .i1⟩ : BufTy).Contents (Elt F)),
    nullary main_c_31 (constantI S_ 32 192#32),
    unary main_c_31 main_v114 (broadcastInDim S2000000 ![] bcast_S_S2000000 : (⟨S_, .i32⟩ : BufTy).Contents (Elt F) → (⟨S2000000, .i32⟩ : BufTy).Contents (Elt F)),
    binary main_v23 main_v114 main_v115 (addi : (⟨S2000000, .i32⟩ : BufTy).Contents (Elt F) → (⟨S2000000, .i32⟩ : BufTy).Contents (Elt F) → (⟨S2000000, .i32⟩ : BufTy).Contents (Elt F)),
    ternary main_v113 main_v115 main_v23 main_v116 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v106 main_v117 (broadcastInDim S2000000x1 ![0] bcast_S2000000_S2000000x1_0 : (⟨S2000000, .i32⟩ : BufTy).Contents (Elt F) → (⟨S2000000x1, .i32⟩ : BufTy).Contents (Elt F)),
    unary main_v111 main_v118 (broadcastInDim S2000000x1 ![0] bcast_S2000000_S2000000x1_0 : (⟨S2000000, .i32⟩ : BufTy).Contents (Elt F) → (⟨S2000000x1, .i32⟩ : BufTy).Contents (Elt F)),
    unary main_v116 main_v119 (broadcastInDim S2000000x1 ![0] bcast_S2000000_S2000000x1_0 : (⟨S2000000, .i32⟩ : BufTy).Contents (Elt F) → (⟨S2000000x1, .i32⟩ : BufTy).Contents (Elt F)) ]

set_option maxHeartbeats 4000000 in
/-- Operations 160 … 185 of the line. -/
abbrev ops7 : List (HloOp τ sig (Elt F)) :=
  [ nary ![main_v117, main_v118, main_v119] main_v120 (fun u => concatenate S2000000x3 1 [⟨S2000000x1, u 0⟩, ⟨S2000000x1, u 1⟩, ⟨S2000000x1, u 2⟩] concatenates_S2000000x1_S2000000x1_S2000000x1_S2000000x3_d1),
    binary main_arg1 main_v120 main_v121 ((fun x i => Host.gather gather_S192x192x192x28_S2000000x3_S2000000x28_1_012_n_n_012_1_11128 x i) : (⟨S192x192x192x28, .f32⟩ : BufTy).Contents (Elt F) → (⟨S2000000x3, .i32⟩ : BufTy).Contents (Elt F) → (⟨S2000000x28, .f32⟩ : BufTy).Contents (Elt F)),
    unary main_v28 main_v122 (broadcastInDim S2000000x28 ![0, 1] bcast_S2000000x1_S2000000x28_0_1 : (⟨S2000000x1, .f32⟩ : BufTy).Contents (Elt F) → (⟨S2000000x28, .f32⟩ : BufTy).Contents (Elt F)),
    binary main_v121 main_v122 main_v123 (mulf : (⟨S2000000x28, .f32⟩ : BufTy).Contents (Elt F) → (⟨S2000000x28, .f32⟩ : BufTy).Contents (Elt F) → (⟨S2000000x28, .f32⟩ : BufTy).Contents (Elt F)),
    binary main_v101 main_v123 main_v124 (addf : (⟨S2000000x28, .f32⟩ : BufTy).Contents (Elt F) → (⟨S2000000x28, .f32⟩ : BufTy).Contents (Elt F) → (⟨S2000000x28, .f32⟩ : BufTy).Contents (Elt F)),
    nullary main_c_32 (constantI S_ 32 0#32),
    unary main_c_32 main_v125 (broadcastInDim S2000000 ![] bcast_S_S2000000 : (⟨S_, .i32⟩ : BufTy).Contents (Elt F) → (⟨S2000000, .i32⟩ : BufTy).Contents (Elt F)),
    binary main_v27 main_v125 main_v126 (cmpi .slt : (⟨S2000000, .i32⟩ : BufTy).Contents (Elt F) → (⟨S2000000, .i32⟩ : BufTy).Contents (Elt F) → (⟨S2000000, .i1⟩ : BufTy).Contents (Elt F)),
    nullary main_c_33 (constantI S_ 32 192#32),
    unary main_c_33 main_v127 (broadcastInDim S2000000 ![] bcast_S_S2000000 : (⟨S_, .i32⟩ : BufTy).Contents (Elt F) → (⟨S2000000, .i32⟩ : BufTy).Contents (Elt F)),
    binary main_v27 main_v127 main_v128 (addi : (⟨S2000000, .i32⟩ : BufTy).Contents (Elt F) → (⟨S2000000, .i32⟩ : BufTy).Contents (Elt F) → (⟨S2000000, .i32⟩ : BufTy).Contents (Elt F)),
    ternary main_v126 main_v128 main_v27 main_v129 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_34 (constantI S_ 32 0#32),
    unary main_c_34 main_v130 (broadcastInDim S2000000 ![] bcast_S_S2000000 : (⟨S_, .i32⟩ : BufTy).Contents (Elt F) → (⟨S2000000, .i32⟩ : BufTy).Contents (Elt F)),
    binary main_v19 main_v130 main_v131 (cmpi .slt : (⟨S2000000, .i32⟩ : BufTy).Contents (Elt F) → (⟨S2000000, .i32⟩ : BufTy).Contents (Elt F) → (⟨S2000000, .i1⟩ : BufTy).Contents (Elt F)),
    nullary main_c_35 (constantI S_ 32 192#32),
    unary main_c_35 main_v132 (broadcastInDim S2000000 ![] bcast_S_S2000000 : (⟨S_, .i32⟩ : BufTy).Contents (Elt F) → (⟨S2000000, .i32⟩ : BufTy).Contents (Elt F)),
    binary main_v19 main_v132 main_v133 (addi : (⟨S2000000, .i32⟩ : BufTy).Contents (Elt F) → (⟨S2000000, .i32⟩ : BufTy).Contents (Elt F) → (⟨S2000000, .i32⟩ : BufTy).Contents (Elt F)),
    ternary main_v131 main_v133 main_v19 main_v134 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_36 (constantI S_ 32 0#32),
    unary main_c_36 main_v135 (broadcastInDim S2000000 ![] bcast_S_S2000000 : (⟨S_, .i32⟩ : BufTy).Contents (Elt F) → (⟨S2000000, .i32⟩ : BufTy).Contents (Elt F)),
    binary main_v17 main_v135 main_v136 (cmpi .slt : (⟨S2000000, .i32⟩ : BufTy).Contents (Elt F) → (⟨S2000000, .i32⟩ : BufTy).Contents (Elt F) → (⟨S2000000, .i1⟩ : BufTy).Contents (Elt F)),
    nullary main_c_37 (constantI S_ 32 192#32),
    unary main_c_37 main_v137 (broadcastInDim S2000000 ![] bcast_S_S2000000 : (⟨S_, .i32⟩ : BufTy).Contents (Elt F) → (⟨S2000000, .i32⟩ : BufTy).Contents (Elt F)),
    binary main_v17 main_v137 main_v138 (addi : (⟨S2000000, .i32⟩ : BufTy).Contents (Elt F) → (⟨S2000000, .i32⟩ : BufTy).Contents (Elt F) → (⟨S2000000, .i32⟩ : BufTy).Contents (Elt F)),
    ternary main_v136 main_v138 main_v17 main_v139 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)) ]

set_option maxHeartbeats 4000000 in
/-- Operations 186 … 188 of the line. -/
abbrev ops8 : List (HloOp τ sig (Elt F)) :=
  [ unary main_v129 main_v140 (broadcastInDim S2000000x1 ![0] bcast_S2000000_S2000000x1_0 : (⟨S2000000, .i32⟩ : BufTy).Contents (Elt F) → (⟨S2000000x1, .i32⟩ : BufTy).Contents (Elt F)),
    unary main_v134 main_v141 (broadcastInDim S2000000x1 ![0] bcast_S2000000_S2000000x1_0 : (⟨S2000000, .i32⟩ : BufTy).Contents (Elt F) → (⟨S2000000x1, .i32⟩ : BufTy).Contents (Elt F)),
    unary main_v139 main_v142 (broadcastInDim S2000000x1 ![0] bcast_S2000000_S2000000x1_0 : (⟨S2000000, .i32⟩ : BufTy).Contents (Elt F) → (⟨S2000000x1, .i32⟩ : BufTy).Contents (Elt F)) ]

set_option maxHeartbeats 4000000 in
/-- Operations 189 … 219 of the line. -/
abbrev ops9 : List (HloOp τ sig (Elt F)) :=
  [ nary ![main_v140, main_v141, main_v142] main_v143 (fun u => concatenate S2000000x3 1 [⟨S2000000x1, u 0⟩, ⟨S2000000x1, u 1⟩, ⟨S2000000x1, u 2⟩] concatenates_S2000000x1_S2000000x1_S2000000x1_S2000000x3_d1),
    binary main_arg1 main_v143 main_v144 ((fun x i => Host.gather gather_S192x192x192x28_S2000000x3_S2000000x28_1_012_n_n_012_1_11128 x i) : (⟨S192x192x192x28, .f32⟩ : BufTy).Contents (Elt F) → (⟨S2000000x3, .i32⟩ : BufTy).Contents (Elt F) → (⟨S2000000x28, .f32⟩ : BufTy).Contents (Elt F)),
    nullary main_cst_38 (constant S_ .f32 0x3F800000#32),
    unary main_cst_38 main_v145 (broadcastInDim S2000000x1 ![] bcast_S_S2000000x1 : (⟨S_, .f32⟩ : BufTy).Contents (Elt F) → (⟨S2000000x1, .f32⟩ : BufTy).Contents (Elt F)),
    binary main_v145 main_v28 main_v146 (subf : (⟨S2000000x1, .f32⟩ : BufTy).Contents (Elt F) → (⟨S2000000x1, .f32⟩ : BufTy).Contents (Elt F) → (⟨S2000000x1, .f32⟩ : BufTy).Contents (Elt F)),
    unary main_v146 main_v147 (broadcastInDim S2000000x28 ![0, 1] bcast_S2000000x1_S2000000x28_0_1 : (⟨S2000000x1, .f32⟩ : BufTy).Contents (Elt F) → (⟨S2000000x28, .f32⟩ : BufTy).Contents (Elt F)),
    binary main_v144 main_v147 main_v148 (mulf : (⟨S2000000x28, .f32⟩ : BufTy).Contents (Elt F) → (⟨S2000000x28, .f32⟩ : BufTy).Contents (Elt F) → (⟨S2000000x28, .f32⟩ : BufTy).Contents (Elt F)),
    nullary main_c_39 (constantI S_ 32 0#32),
    unary main_c_39 main_v149 (broadcastInDim S2000000 ![] bcast_S_S2000000 : (⟨S_, .i32⟩ : BufTy).Contents (Elt F) → (⟨S2000000, .i32⟩ : BufTy).Contents (Elt F)),
    binary main_v27 main_v149 main_v150 (cmpi .slt : (⟨S2000000, .i32⟩ : BufTy).Contents (Elt F) → (⟨S2000000, .i32⟩ : BufTy).Contents (Elt F) → (⟨S2000000, .i1⟩ : BufTy).Contents (Elt F)),
    nullary main_c_40 (constantI S_ 32 192#32),
    unary main_c_40 main_v151 (broadcastInDim S2000000 ![] bcast_S_S2000000 : (⟨S_, .i32⟩ : BufTy).Contents (Elt F) → (⟨S2000000, .i32⟩ : BufTy).Contents (Elt F)),
    binary main_v27 main_v151 main_v152 (addi : (⟨S2000000, .i32⟩ : BufTy).Contents (Elt F) → (⟨S2000000, .i32⟩ : BufTy).Contents (Elt F) → (⟨S2000000, .i32⟩ : BufTy).Contents (Elt F)),
    ternary main_v150 main_v152 main_v27 main_v153 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_41 (constantI S_ 32 0#32),
    unary main_c_41 main_v154 (broadcastInDim S2000000 ![] bcast_S_S2000000 : (⟨S_, .i32⟩ : BufTy).Contents (Elt F) → (⟨S2000000, .i32⟩ : BufTy).Contents (Elt F)),
    binary main_v19 main_v154 main_v155 (cmpi .slt : (⟨S2000000, .i32⟩ : BufTy).Contents (Elt F) → (⟨S2000000, .i32⟩ : BufTy).Contents (Elt F) → (⟨S2000000, .i1⟩ : BufTy).Contents (Elt F)),
    nullary main_c_42 (constantI S_ 32 192#32),
    unary main_c_42 main_v156 (broadcastInDim S2000000 ![] bcast_S_S2000000 : (⟨S_, .i32⟩ : BufTy).Contents (Elt F) → (⟨S2000000, .i32⟩ : BufTy).Contents (Elt F)),
    binary main_v19 main_v156 main_v157 (addi : (⟨S2000000, .i32⟩ : BufTy).Contents (Elt F) → (⟨S2000000, .i32⟩ : BufTy).Contents (Elt F) → (⟨S2000000, .i32⟩ : BufTy).Contents (Elt F)),
    ternary main_v155 main_v157 main_v19 main_v158 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_43 (constantI S_ 32 0#32),
    unary main_c_43 main_v159 (broadcastInDim S2000000 ![] bcast_S_S2000000 : (⟨S_, .i32⟩ : BufTy).Contents (Elt F) → (⟨S2000000, .i32⟩ : BufTy).Contents (Elt F)),
    binary main_v23 main_v159 main_v160 (cmpi .slt : (⟨S2000000, .i32⟩ : BufTy).Contents (Elt F) → (⟨S2000000, .i32⟩ : BufTy).Contents (Elt F) → (⟨S2000000, .i1⟩ : BufTy).Contents (Elt F)),
    nullary main_c_44 (constantI S_ 32 192#32),
    unary main_c_44 main_v161 (broadcastInDim S2000000 ![] bcast_S_S2000000 : (⟨S_, .i32⟩ : BufTy).Contents (Elt F) → (⟨S2000000, .i32⟩ : BufTy).Contents (Elt F)),
    binary main_v23 main_v161 main_v162 (addi : (⟨S2000000, .i32⟩ : BufTy).Contents (Elt F) → (⟨S2000000, .i32⟩ : BufTy).Contents (Elt F) → (⟨S2000000, .i32⟩ : BufTy).Contents (Elt F)),
    ternary main_v160 main_v162 main_v23 main_v163 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v153 main_v164 (broadcastInDim S2000000x1 ![0] bcast_S2000000_S2000000x1_0 : (⟨S2000000, .i32⟩ : BufTy).Contents (Elt F) → (⟨S2000000x1, .i32⟩ : BufTy).Contents (Elt F)),
    unary main_v158 main_v165 (broadcastInDim S2000000x1 ![0] bcast_S2000000_S2000000x1_0 : (⟨S2000000, .i32⟩ : BufTy).Contents (Elt F) → (⟨S2000000x1, .i32⟩ : BufTy).Contents (Elt F)),
    unary main_v163 main_v166 (broadcastInDim S2000000x1 ![0] bcast_S2000000_S2000000x1_0 : (⟨S2000000, .i32⟩ : BufTy).Contents (Elt F) → (⟨S2000000x1, .i32⟩ : BufTy).Contents (Elt F)) ]

set_option maxHeartbeats 4000000 in
/-- Operations 220 … 245 of the line. -/
abbrev ops10 : List (HloOp τ sig (Elt F)) :=
  [ nary ![main_v164, main_v165, main_v166] main_v167 (fun u => concatenate S2000000x3 1 [⟨S2000000x1, u 0⟩, ⟨S2000000x1, u 1⟩, ⟨S2000000x1, u 2⟩] concatenates_S2000000x1_S2000000x1_S2000000x1_S2000000x3_d1),
    binary main_arg1 main_v167 main_v168 ((fun x i => Host.gather gather_S192x192x192x28_S2000000x3_S2000000x28_1_012_n_n_012_1_11128 x i) : (⟨S192x192x192x28, .f32⟩ : BufTy).Contents (Elt F) → (⟨S2000000x3, .i32⟩ : BufTy).Contents (Elt F) → (⟨S2000000x28, .f32⟩ : BufTy).Contents (Elt F)),
    unary main_v28 main_v169 (broadcastInDim S2000000x28 ![0, 1] bcast_S2000000x1_S2000000x28_0_1 : (⟨S2000000x1, .f32⟩ : BufTy).Contents (Elt F) → (⟨S2000000x28, .f32⟩ : BufTy).Contents (Elt F)),
    binary main_v168 main_v169 main_v170 (mulf : (⟨S2000000x28, .f32⟩ : BufTy).Contents (Elt F) → (⟨S2000000x28, .f32⟩ : BufTy).Contents (Elt F) → (⟨S2000000x28, .f32⟩ : BufTy).Contents (Elt F)),
    binary main_v148 main_v170 main_v171 (addf : (⟨S2000000x28, .f32⟩ : BufTy).Contents (Elt F) → (⟨S2000000x28, .f32⟩ : BufTy).Contents (Elt F) → (⟨S2000000x28, .f32⟩ : BufTy).Contents (Elt F)),
    nullary main_c_45 (constantI S_ 32 0#32),
    unary main_c_45 main_v172 (broadcastInDim S2000000 ![] bcast_S_S2000000 : (⟨S_, .i32⟩ : BufTy).Contents (Elt F) → (⟨S2000000, .i32⟩ : BufTy).Contents (Elt F)),
    binary main_v27 main_v172 main_v173 (cmpi .slt : (⟨S2000000, .i32⟩ : BufTy).Contents (Elt F) → (⟨S2000000, .i32⟩ : BufTy).Contents (Elt F) → (⟨S2000000, .i1⟩ : BufTy).Contents (Elt F)),
    nullary main_c_46 (constantI S_ 32 192#32),
    unary main_c_46 main_v174 (broadcastInDim S2000000 ![] bcast_S_S2000000 : (⟨S_, .i32⟩ : BufTy).Contents (Elt F) → (⟨S2000000, .i32⟩ : BufTy).Contents (Elt F)),
    binary main_v27 main_v174 main_v175 (addi : (⟨S2000000, .i32⟩ : BufTy).Contents (Elt F) → (⟨S2000000, .i32⟩ : BufTy).Contents (Elt F) → (⟨S2000000, .i32⟩ : BufTy).Contents (Elt F)),
    ternary main_v173 main_v175 main_v27 main_v176 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_47 (constantI S_ 32 0#32),
    unary main_c_47 main_v177 (broadcastInDim S2000000 ![] bcast_S_S2000000 : (⟨S_, .i32⟩ : BufTy).Contents (Elt F) → (⟨S2000000, .i32⟩ : BufTy).Contents (Elt F)),
    binary main_v25 main_v177 main_v178 (cmpi .slt : (⟨S2000000, .i32⟩ : BufTy).Contents (Elt F) → (⟨S2000000, .i32⟩ : BufTy).Contents (Elt F) → (⟨S2000000, .i1⟩ : BufTy).Contents (Elt F)),
    nullary main_c_48 (constantI S_ 32 192#32),
    unary main_c_48 main_v179 (broadcastInDim S2000000 ![] bcast_S_S2000000 : (⟨S_, .i32⟩ : BufTy).Contents (Elt F) → (⟨S2000000, .i32⟩ : BufTy).Contents (Elt F)),
    binary main_v25 main_v179 main_v180 (addi : (⟨S2000000, .i32⟩ : BufTy).Contents (Elt F) → (⟨S2000000, .i32⟩ : BufTy).Contents (Elt F) → (⟨S2000000, .i32⟩ : BufTy).Contents (Elt F)),
    ternary main_v178 main_v180 main_v25 main_v181 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_49 (constantI S_ 32 0#32),
    unary main_c_49 main_v182 (broadcastInDim S2000000 ![] bcast_S_S2000000 : (⟨S_, .i32⟩ : BufTy).Contents (Elt F) → (⟨S2000000, .i32⟩ : BufTy).Contents (Elt F)),
    binary main_v17 main_v182 main_v183 (cmpi .slt : (⟨S2000000, .i32⟩ : BufTy).Contents (Elt F) → (⟨S2000000, .i32⟩ : BufTy).Contents (Elt F) → (⟨S2000000, .i1⟩ : BufTy).Contents (Elt F)),
    nullary main_c_50 (constantI S_ 32 192#32),
    unary main_c_50 main_v184 (broadcastInDim S2000000 ![] bcast_S_S2000000 : (⟨S_, .i32⟩ : BufTy).Contents (Elt F) → (⟨S2000000, .i32⟩ : BufTy).Contents (Elt F)),
    binary main_v17 main_v184 main_v185 (addi : (⟨S2000000, .i32⟩ : BufTy).Contents (Elt F) → (⟨S2000000, .i32⟩ : BufTy).Contents (Elt F) → (⟨S2000000, .i32⟩ : BufTy).Contents (Elt F)),
    ternary main_v183 main_v185 main_v17 main_v186 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)) ]

set_option maxHeartbeats 4000000 in
/-- Operations 246 … 248 of the line. -/
abbrev ops11 : List (HloOp τ sig (Elt F)) :=
  [ unary main_v176 main_v187 (broadcastInDim S2000000x1 ![0] bcast_S2000000_S2000000x1_0 : (⟨S2000000, .i32⟩ : BufTy).Contents (Elt F) → (⟨S2000000x1, .i32⟩ : BufTy).Contents (Elt F)),
    unary main_v181 main_v188 (broadcastInDim S2000000x1 ![0] bcast_S2000000_S2000000x1_0 : (⟨S2000000, .i32⟩ : BufTy).Contents (Elt F) → (⟨S2000000x1, .i32⟩ : BufTy).Contents (Elt F)),
    unary main_v186 main_v189 (broadcastInDim S2000000x1 ![0] bcast_S2000000_S2000000x1_0 : (⟨S2000000, .i32⟩ : BufTy).Contents (Elt F) → (⟨S2000000x1, .i32⟩ : BufTy).Contents (Elt F)) ]

set_option maxHeartbeats 4000000 in
/-- Operations 249 … 279 of the line. -/
abbrev ops12 : List (HloOp τ sig (Elt F)) :=
  [ nary ![main_v187, main_v188, main_v189] main_v190 (fun u => concatenate S2000000x3 1 [⟨S2000000x1, u 0⟩, ⟨S2000000x1, u 1⟩, ⟨S2000000x1, u 2⟩] concatenates_S2000000x1_S2000000x1_S2000000x1_S2000000x3_d1),
    binary main_arg1 main_v190 main_v191 ((fun x i => Host.gather gather_S192x192x192x28_S2000000x3_S2000000x28_1_012_n_n_012_1_11128 x i) : (⟨S192x192x192x28, .f32⟩ : BufTy).Contents (Elt F) → (⟨S2000000x3, .i32⟩ : BufTy).Contents (Elt F) → (⟨S2000000x28, .f32⟩ : BufTy).Contents (Elt F)),
    nullary main_cst_51 (constant S_ .f32 0x3F800000#32),
    unary main_cst_51 main_v192 (broadcastInDim S2000000x1 ![] bcast_S_S2000000x1 : (⟨S_, .f32⟩ : BufTy).Contents (Elt F) → (⟨S2000000x1, .f32⟩ : BufTy).Contents (Elt F)),
    binary main_v192 main_v28 main_v193 (subf : (⟨S2000000x1, .f32⟩ : BufTy).Contents (Elt F) → (⟨S2000000x1, .f32⟩ : BufTy).Contents (Elt F) → (⟨S2000000x1, .f32⟩ : BufTy).Contents (Elt F)),
    unary main_v193 main_v194 (broadcastInDim S2000000x28 ![0, 1] bcast_S2000000x1_S2000000x28_0_1 : (⟨S2000000x1, .f32⟩ : BufTy).Contents (Elt F) → (⟨S2000000x28, .f32⟩ : BufTy).Contents (Elt F)),
    binary main_v191 main_v194 main_v195 (mulf : (⟨S2000000x28, .f32⟩ : BufTy).Contents (Elt F) → (⟨S2000000x28, .f32⟩ : BufTy).Contents (Elt F) → (⟨S2000000x28, .f32⟩ : BufTy).Contents (Elt F)),
    nullary main_c_52 (constantI S_ 32 0#32),
    unary main_c_52 main_v196 (broadcastInDim S2000000 ![] bcast_S_S2000000 : (⟨S_, .i32⟩ : BufTy).Contents (Elt F) → (⟨S2000000, .i32⟩ : BufTy).Contents (Elt F)),
    binary main_v27 main_v196 main_v197 (cmpi .slt : (⟨S2000000, .i32⟩ : BufTy).Contents (Elt F) → (⟨S2000000, .i32⟩ : BufTy).Contents (Elt F) → (⟨S2000000, .i1⟩ : BufTy).Contents (Elt F)),
    nullary main_c_53 (constantI S_ 32 192#32),
    unary main_c_53 main_v198 (broadcastInDim S2000000 ![] bcast_S_S2000000 : (⟨S_, .i32⟩ : BufTy).Contents (Elt F) → (⟨S2000000, .i32⟩ : BufTy).Contents (Elt F)),
    binary main_v27 main_v198 main_v199 (addi : (⟨S2000000, .i32⟩ : BufTy).Contents (Elt F) → (⟨S2000000, .i32⟩ : BufTy).Contents (Elt F) → (⟨S2000000, .i32⟩ : BufTy).Contents (Elt F)),
    ternary main_v197 main_v199 main_v27 main_v200 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_54 (constantI S_ 32 0#32),
    unary main_c_54 main_v201 (broadcastInDim S2000000 ![] bcast_S_S2000000 : (⟨S_, .i32⟩ : BufTy).Contents (Elt F) → (⟨S2000000, .i32⟩ : BufTy).Contents (Elt F)),
    binary main_v25 main_v201 main_v202 (cmpi .slt : (⟨S2000000, .i32⟩ : BufTy).Contents (Elt F) → (⟨S2000000, .i32⟩ : BufTy).Contents (Elt F) → (⟨S2000000, .i1⟩ : BufTy).Contents (Elt F)),
    nullary main_c_55 (constantI S_ 32 192#32),
    unary main_c_55 main_v203 (broadcastInDim S2000000 ![] bcast_S_S2000000 : (⟨S_, .i32⟩ : BufTy).Contents (Elt F) → (⟨S2000000, .i32⟩ : BufTy).Contents (Elt F)),
    binary main_v25 main_v203 main_v204 (addi : (⟨S2000000, .i32⟩ : BufTy).Contents (Elt F) → (⟨S2000000, .i32⟩ : BufTy).Contents (Elt F) → (⟨S2000000, .i32⟩ : BufTy).Contents (Elt F)),
    ternary main_v202 main_v204 main_v25 main_v205 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_56 (constantI S_ 32 0#32),
    unary main_c_56 main_v206 (broadcastInDim S2000000 ![] bcast_S_S2000000 : (⟨S_, .i32⟩ : BufTy).Contents (Elt F) → (⟨S2000000, .i32⟩ : BufTy).Contents (Elt F)),
    binary main_v23 main_v206 main_v207 (cmpi .slt : (⟨S2000000, .i32⟩ : BufTy).Contents (Elt F) → (⟨S2000000, .i32⟩ : BufTy).Contents (Elt F) → (⟨S2000000, .i1⟩ : BufTy).Contents (Elt F)),
    nullary main_c_57 (constantI S_ 32 192#32),
    unary main_c_57 main_v208 (broadcastInDim S2000000 ![] bcast_S_S2000000 : (⟨S_, .i32⟩ : BufTy).Contents (Elt F) → (⟨S2000000, .i32⟩ : BufTy).Contents (Elt F)),
    binary main_v23 main_v208 main_v209 (addi : (⟨S2000000, .i32⟩ : BufTy).Contents (Elt F) → (⟨S2000000, .i32⟩ : BufTy).Contents (Elt F) → (⟨S2000000, .i32⟩ : BufTy).Contents (Elt F)),
    ternary main_v207 main_v209 main_v23 main_v210 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v200 main_v211 (broadcastInDim S2000000x1 ![0] bcast_S2000000_S2000000x1_0 : (⟨S2000000, .i32⟩ : BufTy).Contents (Elt F) → (⟨S2000000x1, .i32⟩ : BufTy).Contents (Elt F)),
    unary main_v205 main_v212 (broadcastInDim S2000000x1 ![0] bcast_S2000000_S2000000x1_0 : (⟨S2000000, .i32⟩ : BufTy).Contents (Elt F) → (⟨S2000000x1, .i32⟩ : BufTy).Contents (Elt F)),
    unary main_v210 main_v213 (broadcastInDim S2000000x1 ![0] bcast_S2000000_S2000000x1_0 : (⟨S2000000, .i32⟩ : BufTy).Contents (Elt F) → (⟨S2000000x1, .i32⟩ : BufTy).Contents (Elt F)) ]

set_option maxHeartbeats 4000000 in
/-- Operations 280 … 305 of the line. -/
abbrev ops13 : List (HloOp τ sig (Elt F)) :=
  [ nary ![main_v211, main_v212, main_v213] main_v214 (fun u => concatenate S2000000x3 1 [⟨S2000000x1, u 0⟩, ⟨S2000000x1, u 1⟩, ⟨S2000000x1, u 2⟩] concatenates_S2000000x1_S2000000x1_S2000000x1_S2000000x3_d1),
    binary main_arg1 main_v214 main_v215 ((fun x i => Host.gather gather_S192x192x192x28_S2000000x3_S2000000x28_1_012_n_n_012_1_11128 x i) : (⟨S192x192x192x28, .f32⟩ : BufTy).Contents (Elt F) → (⟨S2000000x3, .i32⟩ : BufTy).Contents (Elt F) → (⟨S2000000x28, .f32⟩ : BufTy).Contents (Elt F)),
    unary main_v28 main_v216 (broadcastInDim S2000000x28 ![0, 1] bcast_S2000000x1_S2000000x28_0_1 : (⟨S2000000x1, .f32⟩ : BufTy).Contents (Elt F) → (⟨S2000000x28, .f32⟩ : BufTy).Contents (Elt F)),
    binary main_v215 main_v216 main_v217 (mulf : (⟨S2000000x28, .f32⟩ : BufTy).Contents (Elt F) → (⟨S2000000x28, .f32⟩ : BufTy).Contents (Elt F) → (⟨S2000000x28, .f32⟩ : BufTy).Contents (Elt F)),
    binary main_v195 main_v217 main_v218 (addf : (⟨S2000000x28, .f32⟩ : BufTy).Contents (Elt F) → (⟨S2000000x28, .f32⟩ : BufTy).Contents (Elt F) → (⟨S2000000x28, .f32⟩ : BufTy).Contents (Elt F)),
    nullary main_cst_58 (constant S_ .f32 0x3F800000#32),
    unary main_cst_58 main_v219 (broadcastInDim S2000000x1 ![] bcast_S_S2000000x1 : (⟨S_, .f32⟩ : BufTy).Contents (Elt F) → (⟨S2000000x1, .f32⟩ : BufTy).Contents (Elt F)),
    binary main_v219 main_v29 main_v220 (subf : (⟨S2000000x1, .f32⟩ : BufTy).Contents (Elt F) → (⟨S2000000x1, .f32⟩ : BufTy).Contents (Elt F) → (⟨S2000000x1, .f32⟩ : BufTy).Contents (Elt F)),
    unary main_v220 main_v221 (broadcastInDim S2000000x28 ![0, 1] bcast_S2000000x1_S2000000x28_0_1 : (⟨S2000000x1, .f32⟩ : BufTy).Contents (Elt F) → (⟨S2000000x28, .f32⟩ : BufTy).Contents (Elt F)),
    binary main_v77 main_v221 main_v222 (mulf : (⟨S2000000x28, .f32⟩ : BufTy).Contents (Elt F) → (⟨S2000000x28, .f32⟩ : BufTy).Contents (Elt F) → (⟨S2000000x28, .f32⟩ : BufTy).Contents (Elt F)),
    unary main_v29 main_v223 (broadcastInDim S2000000x28 ![0, 1] bcast_S2000000x1_S2000000x28_0_1 : (⟨S2000000x1, .f32⟩ : BufTy).Contents (Elt F) → (⟨S2000000x28, .f32⟩ : BufTy).Contents (Elt F)),
    binary main_v124 main_v223 main_v224 (mulf : (⟨S2000000x28, .f32⟩ : BufTy).Contents (Elt F) → (⟨S2000000x28, .f32⟩ : BufTy).Contents (Elt F) → (⟨S2000000x28, .f32⟩ : BufTy).Contents (Elt F)),
    binary main_v222 main_v224 main_v225 (addf : (⟨S2000000x28, .f32⟩ : BufTy).Contents (Elt F) → (⟨S2000000x28, .f32⟩ : BufTy).Contents (Elt F) → (⟨S2000000x28, .f32⟩ : BufTy).Contents (Elt F)),
    nullary main_cst_59 (constant S_ .f32 0x3F800000#32),
    unary main_cst_59 main_v226 (broadcastInDim S2000000x1 ![] bcast_S_S2000000x1 : (⟨S_, .f32⟩ : BufTy).Contents (Elt F) → (⟨S2000000x1, .f32⟩ : BufTy).Contents (Elt F)),
    binary main_v226 main_v29 main_v227 (subf : (⟨S2000000x1, .f32⟩ : BufTy).Contents (Elt F) → (⟨S2000000x1, .f32⟩ : BufTy).Contents (Elt F) → (⟨S2000000x1, .f32⟩ : BufTy).Contents (Elt F)),
    unary main_v227 main_v228 (broadcastInDim S2000000x28 ![0, 1] bcast_S2000000x1_S2000000x28_0_1 : (⟨S2000000x1, .f32⟩ : BufTy).Contents (Elt F) → (⟨S2000000x28, .f32⟩ : BufTy).Contents (Elt F)),
    binary main_v171 main_v228 main_v229 (mulf : (⟨S2000000x28, .f32⟩ : BufTy).Contents (Elt F) → (⟨S2000000x28, .f32⟩ : BufTy).Contents (Elt F) → (⟨S2000000x28, .f32⟩ : BufTy).Contents (Elt F)),
    unary main_v29 main_v230 (broadcastInDim S2000000x28 ![0, 1] bcast_S2000000x1_S2000000x28_0_1 : (⟨S2000000x1, .f32⟩ : BufTy).Contents (Elt F) → (⟨S2000000x28, .f32⟩ : BufTy).Contents (Elt F)),
    binary main_v218 main_v230 main_v231 (mulf : (⟨S2000000x28, .f32⟩ : BufTy).Contents (Elt F) → (⟨S2000000x28, .f32⟩ : BufTy).Contents (Elt F) → (⟨S2000000x28, .f32⟩ : BufTy).Contents (Elt F)),
    binary main_v229 main_v231 main_v232 (addf : (⟨S2000000x28, .f32⟩ : BufTy).Contents (Elt F) → (⟨S2000000x28, .f32⟩ : BufTy).Contents (Elt F) → (⟨S2000000x28, .f32⟩ : BufTy).Contents (Elt F)),
    nullary main_cst_60 (constant S_ .f32 0x3F800000#32),
    unary main_cst_60 main_v233 (broadcastInDim S2000000x1 ![] bcast_S_S2000000x1 : (⟨S_, .f32⟩ : BufTy).Contents (Elt F) → (⟨S2000000x1, .f32⟩ : BufTy).Contents (Elt F)),
    binary main_v233 main_v30 main_v234 (subf : (⟨S2000000x1, .f32⟩ : BufTy).Contents (Elt F) → (⟨S2000000x1, .f32⟩ : BufTy).Contents (Elt F) → (⟨S2000000x1, .f32⟩ : BufTy).Contents (Elt F)),
    unary main_v234 main_v235 (broadcastInDim S2000000x28 ![0, 1] bcast_S2000000x1_S2000000x28_0_1 : (⟨S2000000x1, .f32⟩ : BufTy).Contents (Elt F) → (⟨S2000000x28, .f32⟩ : BufTy).Contents (Elt F)),
    binary main_v225 main_v235 main_v236 (mulf : (⟨S2000000x28, .f32⟩ : BufTy).Contents (Elt F) → (⟨S2000000x28, .f32⟩ : BufTy).Contents (Elt F) → (⟨S2000000x28, .f32⟩ : BufTy).Contents (Elt F)) ]

set_option maxHeartbeats 4000000 in
/-- Operations 306 … 369 of the line. -/
abbrev ops14 : List (HloOp τ sig (Elt F)) :=
  [ unary main_v30 main_v237 (broadcastInDim S2000000x28 ![0, 1] bcast_S2000000x1_S2000000x28_0_1 : (⟨S2000000x1, .f32⟩ : BufTy).Contents (Elt F) → (⟨S2000000x28, .f32⟩ : BufTy).Contents (Elt F)),
    binary main_v232 main_v237 main_v238 (mulf : (⟨S2000000x28, .f32⟩ : BufTy).Contents (Elt F) → (⟨S2000000x28, .f32⟩ : BufTy).Contents (Elt F) → (⟨S2000000x28, .f32⟩ : BufTy).Contents (Elt F)),
    binary main_v236 main_v238 main_v239 (addf : (⟨S2000000x28, .f32⟩ : BufTy).Contents (Elt F) → (⟨S2000000x28, .f32⟩ : BufTy).Contents (Elt F) → (⟨S2000000x28, .f32⟩ : BufTy).Contents (Elt F)),
    unary main_v239 main_v240 ((extractStridedSlice S2000000x1 ![0, 0] · slices_S2000000x28_S2000000x1_0_0) : (⟨S2000000x28, .f32⟩ : BufTy).Contents (Elt F) → (⟨S2000000x1, .f32⟩ : BufTy).Contents (Elt F)),
    reshape main_v240 main_v241 rfl shapeCasts_S2000000x1_S2000000,
    unary main_v239 main_v242 ((extractStridedSlice S2000000x27 ![0, 1] · slices_S2000000x28_S2000000x27_0_1) : (⟨S2000000x28, .f32⟩ : BufTy).Contents (Elt F) → (⟨S2000000x27, .f32⟩ : BufTy).Contents (Elt F)),
    reshape main_v242 main_v243 rfl shapeCasts_S2000000x27_S2000000x3x9,
    TRef.binary (TRef.of (T := ⟨S2000000x3, .f32⟩) main_arg0) (TRef.of (T := ⟨S2000000x3, .f32⟩) main_arg0) (TRef.of (T := ⟨S2000000x3, .f32⟩) main_call1_v0) mulf,
    TRef.nullary (TRef.of (T := ⟨S_, .f32⟩) main_call1_cst) (constant S_ .f32 0x00000000#32),
    TRef.binary (TRef.of (T := ⟨S2000000x3, .f32⟩) main_call1_v0) (TRef.of (T := ⟨S_, .f32⟩) main_call1_cst) (TRef.of (T := ⟨S2000000, .f32⟩) main_call1_v1) (fun x v => Host.reduceAdd x v reducesTo_S2000000x3_S2000000_d1 h_S_),
    TRef.unary (TRef.of (T := ⟨S2000000, .f32⟩) main_call1_v1) (TRef.of (T := ⟨S2000000x1, .f32⟩) main_call1_v2) (broadcastInDim S2000000x1 ![0] bcast_S2000000_S2000000x1_0),
    TRef.unary (TRef.of (T := ⟨S2000000x1, .f32⟩) main_call1_v2) (TRef.of (T := ⟨S2000000x1, .f32⟩) main_v244) Host.sqrt,
    unary main_v244 main_v245 (broadcastInDim S2000000x3 ![0, 1] bcast_S2000000x1_S2000000x3_0_1 : (⟨S2000000x1, .f32⟩ : BufTy).Contents (Elt F) → (⟨S2000000x3, .f32⟩ : BufTy).Contents (Elt F)),
    binary main_arg0 main_v245 main_v246 (Host.divf : (⟨S2000000x3, .f32⟩ : BufTy).Contents (Elt F) → (⟨S2000000x3, .f32⟩ : BufTy).Contents (Elt F) → (⟨S2000000x3, .f32⟩ : BufTy).Contents (Elt F)),
    unary main_v246 main_v247 ((extractStridedSlice S2000000x1 ![0, 0] · slices_S2000000x3_S2000000x1_0_0) : (⟨S2000000x3, .f32⟩ : BufTy).Contents (Elt F) → (⟨S2000000x1, .f32⟩ : BufTy).Contents (Elt F)),
    reshape main_v247 main_v248 rfl shapeCasts_S2000000x1_S2000000,
    unary main_v246 main_v249 ((extractStridedSlice S2000000x1 ![0, 1] · slices_S2000000x3_S2000000x1_0_1) : (⟨S2000000x3, .f32⟩ : BufTy).Contents (Elt F) → (⟨S2000000x1, .f32⟩ : BufTy).Contents (Elt F)),
    reshape main_v249 main_v250 rfl shapeCasts_S2000000x1_S2000000,
    unary main_v246 main_v251 ((extractStridedSlice S2000000x1 ![0, 2] · slices_S2000000x3_S2000000x1_0_2) : (⟨S2000000x3, .f32⟩ : BufTy).Contents (Elt F) → (⟨S2000000x1, .f32⟩ : BufTy).Contents (Elt F)),
    reshape main_v251 main_v252 rfl shapeCasts_S2000000x1_S2000000,
    nullary main_cst_61 (constant S_ .f32 0x3F800000#32),
    unary main_cst_61 main_v253 (broadcastInDim S2000000 ![] bcast_S_S2000000 : (⟨S_, .f32⟩ : BufTy).Contents (Elt F) → (⟨S2000000, .f32⟩ : BufTy).Contents (Elt F)),
    nullary main_cst_62 (constant S_ .f32 0x3E906EBB#32),
    unary main_cst_62 main_v254 (broadcastInDim S2000000 ![] bcast_S_S2000000 : (⟨S_, .f32⟩ : BufTy).Contents (Elt F) → (⟨S2000000, .f32⟩ : BufTy).Contents (Elt F)),
    binary main_v254 main_v253 main_v255 (mulf : (⟨S2000000, .f32⟩ : BufTy).Contents (Elt F) → (⟨S2000000, .f32⟩ : BufTy).Contents (Elt F) → (⟨S2000000, .f32⟩ : BufTy).Contents (Elt F)),
    nullary main_cst_63 (constant S_ .f32 0x3EFA2A1C#32),
    unary main_cst_63 main_v256 (broadcastInDim S2000000 ![] bcast_S_S2000000 : (⟨S_, .f32⟩ : BufTy).Contents (Elt F) → (⟨S2000000, .f32⟩ : BufTy).Contents (Elt F)),
    binary main_v256 main_v250 main_v257 (mulf : (⟨S2000000, .f32⟩ : BufTy).Contents (Elt F) → (⟨S2000000, .f32⟩ : BufTy).Contents (Elt F) → (⟨S2000000, .f32⟩ : BufTy).Contents (Elt F)),
    nullary main_cst_64 (constant S_ .f32 0x3EFA2A1C#32),
    unary main_cst_64 main_v258 (broadcastInDim S2000000 ![] bcast_S_S2000000 : (⟨S_, .f32⟩ : BufTy).Contents (Elt F) → (⟨S2000000, .f32⟩ : BufTy).Contents (Elt F)),
    binary main_v258 main_v252 main_v259 (mulf : (⟨S2000000, .f32⟩ : BufTy).Contents (Elt F) → (⟨S2000000, .f32⟩ : BufTy).Contents (Elt F) → (⟨S2000000, .f32⟩ : BufTy).Contents (Elt F)),
    nullary main_cst_65 (constant S_ .f32 0x3EFA2A1C#32),
    unary main_cst_65 main_v260 (broadcastInDim S2000000 ![] bcast_S_S2000000 : (⟨S_, .f32⟩ : BufTy).Contents (Elt F) → (⟨S2000000, .f32⟩ : BufTy).Contents (Elt F)),
    binary main_v260 main_v248 main_v261 (mulf : (⟨S2000000, .f32⟩ : BufTy).Contents (Elt F) → (⟨S2000000, .f32⟩ : BufTy).Contents (Elt F) → (⟨S2000000, .f32⟩ : BufTy).Contents (Elt F)),
    nullary main_cst_66 (constant S_ .f32 0x3F0BD8A1#32),
    unary main_cst_66 main_v262 (broadcastInDim S2000000 ![] bcast_S_S2000000 : (⟨S_, .f32⟩ : BufTy).Contents (Elt F) → (⟨S2000000, .f32⟩ : BufTy).Contents (Elt F)),
    binary main_v262 main_v248 main_v263 (mulf : (⟨S2000000, .f32⟩ : BufTy).Contents (Elt F) → (⟨S2000000, .f32⟩ : BufTy).Contents (Elt F) → (⟨S2000000, .f32⟩ : BufTy).Contents (Elt F)),
    binary main_v263 main_v250 main_v264 (mulf : (⟨S2000000, .f32⟩ : BufTy).Contents (Elt F) → (⟨S2000000, .f32⟩ : BufTy).Contents (Elt F) → (⟨S2000000, .f32⟩ : BufTy).Contents (Elt F)),
    nullary main_cst_67 (constant S_ .f32 0x3F0BD8A1#32),
    unary main_cst_67 main_v265 (broadcastInDim S2000000 ![] bcast_S_S2000000 : (⟨S_, .f32⟩ : BufTy).Contents (Elt F) → (⟨S2000000, .f32⟩ : BufTy).Contents (Elt F)),
    binary main_v265 main_v250 main_v266 (mulf : (⟨S2000000, .f32⟩ : BufTy).Contents (Elt F) → (⟨S2000000, .f32⟩ : BufTy).Contents (Elt F) → (⟨S2000000, .f32⟩ : BufTy).Contents (Elt F)),
    binary main_v266 main_v252 main_v267 (mulf : (⟨S2000000, .f32⟩ : BufTy).Contents (Elt F) → (⟨S2000000, .f32⟩ : BufTy).Contents (Elt F) → (⟨S2000000, .f32⟩ : BufTy).Contents (Elt F)),
    nullary main_cst_68 (constant S_ .f32 0x40400000#32),
    unary main_cst_68 main_v268 (broadcastInDim S2000000 ![] bcast_S_S2000000 : (⟨S_, .f32⟩ : BufTy).Contents (Elt F) → (⟨S2000000, .f32⟩ : BufTy).Contents (Elt F)),
    binary main_v268 main_v252 main_v269 (mulf : (⟨S2000000, .f32⟩ : BufTy).Contents (Elt F) → (⟨S2000000, .f32⟩ : BufTy).Contents (Elt F) → (⟨S2000000, .f32⟩ : BufTy).Contents (Elt F)),
    binary main_v269 main_v252 main_v270 (mulf : (⟨S2000000, .f32⟩ : BufTy).Contents (Elt F) → (⟨S2000000, .f32⟩ : BufTy).Contents (Elt F) → (⟨S2000000, .f32⟩ : BufTy).Contents (Elt F)),
    nullary main_cst_69 (constant S_ .f32 0x3F800000#32),
    unary main_cst_69 main_v271 (broadcastInDim S2000000 ![] bcast_S_S2000000 : (⟨S_, .f32⟩ : BufTy).Contents (Elt F) → (⟨S2000000, .f32⟩ : BufTy).Contents (Elt F)),
    binary main_v270 main_v271 main_v272 (subf : (⟨S2000000, .f32⟩ : BufTy).Contents (Elt F) → (⟨S2000000, .f32⟩ : BufTy).Contents (Elt F) → (⟨S2000000, .f32⟩ : BufTy).Contents (Elt F)),
    nullary main_cst_70 (constant S_ .f32 0x3E217B01#32),
    unary main_cst_70 main_v273 (broadcastInDim S2000000 ![] bcast_S_S2000000 : (⟨S_, .f32⟩ : BufTy).Contents (Elt F) → (⟨S2000000, .f32⟩ : BufTy).Contents (Elt F)),
    binary main_v273 main_v272 main_v274 (mulf : (⟨S2000000, .f32⟩ : BufTy).Contents (Elt F) → (⟨S2000000, .f32⟩ : BufTy).Contents (Elt F) → (⟨S2000000, .f32⟩ : BufTy).Contents (Elt F)),
    nullary main_cst_71 (constant S_ .f32 0x3F0BD8A1#32),
    unary main_cst_71 main_v275 (broadcastInDim S2000000 ![] bcast_S_S2000000 : (⟨S_, .f32⟩ : BufTy).Contents (Elt F) → (⟨S2000000, .f32⟩ : BufTy).Contents (Elt F)),
    binary main_v275 main_v248 main_v276 (mulf : (⟨S2000000, .f32⟩ : BufTy).Contents (Elt F) → (⟨S2000000, .f32⟩ : BufTy).Contents (Elt F) → (⟨S2000000, .f32⟩ : BufTy).Contents (Elt F)),
    binary main_v276 main_v252 main_v277 (mulf : (⟨S2000000, .f32⟩ : BufTy).Contents (Elt F) → (⟨S2000000, .f32⟩ : BufTy).Contents (Elt F) → (⟨S2000000, .f32⟩ : BufTy).Contents (Elt F)),
    binary main_v248 main_v248 main_v278 (mulf : (⟨S2000000, .f32⟩ : BufTy).Contents (Elt F) → (⟨S2000000, .f32⟩ : BufTy).Contents (Elt F) → (⟨S2000000, .f32⟩ : BufTy).Contents (Elt F)),
    binary main_v250 main_v250 main_v279 (mulf : (⟨S2000000, .f32⟩ : BufTy).Contents (Elt F) → (⟨S2000000, .f32⟩ : BufTy).Contents (Elt F) → (⟨S2000000, .f32⟩ : BufTy).Contents (Elt F)),
    binary main_v278 main_v279 main_v280 (subf : (⟨S2000000, .f32⟩ : BufTy).Contents (Elt F) → (⟨S2000000, .f32⟩ : BufTy).Contents (Elt F) → (⟨S2000000, .f32⟩ : BufTy).Contents (Elt F)),
    nullary main_cst_72 (constant S_ .f32 0x3E8BD8A1#32),
    unary main_cst_72 main_v281 (broadcastInDim S2000000 ![] bcast_S_S2000000 : (⟨S_, .f32⟩ : BufTy).Contents (Elt F) → (⟨S2000000, .f32⟩ : BufTy).Contents (Elt F)),
    binary main_v281 main_v280 main_v282 (mulf : (⟨S2000000, .f32⟩ : BufTy).Contents (Elt F) → (⟨S2000000, .f32⟩ : BufTy).Contents (Elt F) → (⟨S2000000, .f32⟩ : BufTy).Contents (Elt F)),
    unary main_v255 main_v283 (broadcastInDim S2000000x1 ![0] bcast_S2000000_S2000000x1_0 : (⟨S2000000, .f32⟩ : BufTy).Contents (Elt F) → (⟨S2000000x1, .f32⟩ : BufTy).Contents (Elt F)),
    unary main_v257 main_v284 (broadcastInDim S2000000x1 ![0] bcast_S2000000_S2000000x1_0 : (⟨S2000000, .f32⟩ : BufTy).Contents (Elt F) → (⟨S2000000x1, .f32⟩ : BufTy).Contents (Elt F)) ]

set_option maxHeartbeats 4000000 in
/-- Operations 370 … 376 of the line. -/
abbrev ops15 : List (HloOp τ sig (Elt F)) :=
  [ unary main_v259 main_v285 (broadcastInDim S2000000x1 ![0] bcast_S2000000_S2000000x1_0 : (⟨S2000000, .f32⟩ : BufTy).Contents (Elt F) → (⟨S2000000x1, .f32⟩ : BufTy).Contents (Elt F)),
    unary main_v261 main_v286 (broadcastInDim S2000000x1 ![0] bcast_S2000000_S2000000x1_0 : (⟨S2000000, .f32⟩ : BufTy).Contents (Elt F) → (⟨S2000000x1, .f32⟩ : BufTy).Contents (Elt F)),
    unary main_v264 main_v287 (broadcastInDim S2000000x1 ![0] bcast_S2000000_S2000000x1_0 : (⟨S2000000, .f32⟩ : BufTy).Contents (Elt F) → (⟨S2000000x1, .f32⟩ : BufTy).Contents (Elt F)),
    unary main_v267 main_v288 (broadcastInDim S2000000x1 ![0] bcast_S2000000_S2000000x1_0 : (⟨S2000000, .f32⟩ : BufTy).Contents (Elt F) → (⟨S2000000x1, .f32⟩ : BufTy).Contents (Elt F)),
    unary main_v274 main_v289 (broadcastInDim S2000000x1 ![0] bcast_S2000000_S2000000x1_0 : (⟨S2000000, .f32⟩ : BufTy).Contents (Elt F) → (⟨S2000000x1, .f32⟩ : BufTy).Contents (Elt F)),
    unary main_v277 main_v290 (broadcastInDim S2000000x1 ![0] bcast_S2000000_S2000000x1_0 : (⟨S2000000, .f32⟩ : BufTy).Contents (Elt F) → (⟨S2000000x1, .f32⟩ : BufTy).Contents (Elt F)),
    unary main_v282 main_v291 (broadcastInDim S2000000x1 ![0] bcast_S2000000_S2000000x1_0 : (⟨S2000000, .f32⟩ : BufTy).Contents (Elt F) → (⟨S2000000x1, .f32⟩ : BufTy).Contents (Elt F)) ]

set_option maxHeartbeats 4000000 in
/-- Operations 377 … 405 of the line. -/
abbrev ops16 : List (HloOp τ sig (Elt F)) :=
  [ nary ![main_v283, main_v284, main_v285, main_v286, main_v287, main_v288, main_v289, main_v290, main_v291] main_v292 (fun u => concatenate S2000000x9 1 [⟨S2000000x1, u 0⟩, ⟨S2000000x1, u 1⟩, ⟨S2000000x1, u 2⟩, ⟨S2000000x1, u 3⟩, ⟨S2000000x1, u 4⟩, ⟨S2000000x1, u 5⟩, ⟨S2000000x1, u 6⟩, ⟨S2000000x1, u 7⟩, ⟨S2000000x1, u 8⟩] concatenates_S2000000x1_S2000000x1_S2000000x1_S2000000x1_S2000000x1_S2000000x1_S2000000x1_S2000000x1_S2000000x1_S2000000x9_d1),
    unary main_v292 main_v293 (broadcastInDim S2000000x1x9 ![0, 2] bcast_S2000000x9_S2000000x1x9_0_2 : (⟨S2000000x9, .f32⟩ : BufTy).Contents (Elt F) → (⟨S2000000x1x9, .f32⟩ : BufTy).Contents (Elt F)),
    unary main_v293 main_v294 (broadcastInDim S2000000x3x9 ![0, 1, 2] bcast_S2000000x1x9_S2000000x3x9_0_1_2 : (⟨S2000000x1x9, .f32⟩ : BufTy).Contents (Elt F) → (⟨S2000000x3x9, .f32⟩ : BufTy).Contents (Elt F)),
    binary main_v243 main_v294 main_v295 (mulf : (⟨S2000000x3x9, .f32⟩ : BufTy).Contents (Elt F) → (⟨S2000000x3x9, .f32⟩ : BufTy).Contents (Elt F) → (⟨S2000000x3x9, .f32⟩ : BufTy).Contents (Elt F)),
    nullary main_cst_73 (constant S_ .f32 0x00000000#32),
    binary main_v295 main_cst_73 main_v296 ((fun x v => Host.reduceAdd x v reducesTo_S2000000x3x9_S2000000x3_d2 h_S_) : (⟨S2000000x3x9, .f32⟩ : BufTy).Contents (Elt F) → (⟨S_, .f32⟩ : BufTy).Contents (Elt F) → (⟨S2000000x3, .f32⟩ : BufTy).Contents (Elt F)),
    unary main_v296 main_v297 (Host.negf : (⟨S2000000x3, .f32⟩ : BufTy).Contents (Elt F) → (⟨S2000000x3, .f32⟩ : BufTy).Contents (Elt F)),
    unary main_v297 main_v298 (Host.exp : (⟨S2000000x3, .f32⟩ : BufTy).Contents (Elt F) → (⟨S2000000x3, .f32⟩ : BufTy).Contents (Elt F)),
    nullary main_cst_74 (constant S_ .f32 0x3F800000#32),
    unary main_cst_74 main_v299 (broadcastInDim S2000000x3 ![] bcast_S_S2000000x3 : (⟨S_, .f32⟩ : BufTy).Contents (Elt F) → (⟨S2000000x3, .f32⟩ : BufTy).Contents (Elt F)),
    binary main_v299 main_v298 main_v300 (addf : (⟨S2000000x3, .f32⟩ : BufTy).Contents (Elt F) → (⟨S2000000x3, .f32⟩ : BufTy).Contents (Elt F) → (⟨S2000000x3, .f32⟩ : BufTy).Contents (Elt F)),
    nullary main_cst_75 (constant S_ .f32 0x3F800000#32),
    unary main_cst_75 main_v301 (broadcastInDim S2000000x3 ![] bcast_S_S2000000x3 : (⟨S_, .f32⟩ : BufTy).Contents (Elt F) → (⟨S2000000x3, .f32⟩ : BufTy).Contents (Elt F)),
    binary main_v301 main_v300 main_v302 (Host.divf : (⟨S2000000x3, .f32⟩ : BufTy).Contents (Elt F) → (⟨S2000000x3, .f32⟩ : BufTy).Contents (Elt F) → (⟨S2000000x3, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S2000000, .f32⟩) main_call2_v0) (broadcastInDim S2000000 ![] bcast_S_S2000000),
    TRef.binary (TRef.of (T := ⟨S2000000, .f32⟩) main_v241) (TRef.of (T := ⟨S2000000, .f32⟩) main_call2_v0) (TRef.of (T := ⟨S2000000, .f32⟩) main_call2_v1) maximumf,
    TRef.unary (TRef.of (T := ⟨S_, .f32⟩) main_call2_cst) (TRef.of (T := ⟨S2000000, .f32⟩) main_call2_v2) (broadcastInDim S2000000 ![] bcast_S_S2000000),
    TRef.binary (TRef.of (T := ⟨S2000000, .f32⟩) main_v241) (TRef.of (T := ⟨S2000000, .f32⟩) main_call2_v2) (TRef.of (T := ⟨S2000000, .f32⟩) main_call2_v3) subf,
    TRef.binary (TRef.of (T := ⟨S2000000, .f32⟩) main_call2_v3) (TRef.of (T := ⟨S2000000, .f32⟩) main_call2_v3) (TRef.of (T := ⟨S2000000, .i1⟩) main_call2_v4) (cmpf .une),
    TRef.unary (TRef.of (T := ⟨S_, .f32⟩) main_call2_cst) (TRef.of (T := ⟨S2000000, .f32⟩) main_call2_v5) (broadcastInDim S2000000 ![] bcast_S_S2000000),
    TRef.binary (TRef.of (T := ⟨S2000000, .f32⟩) main_v241) (TRef.of (T := ⟨S2000000, .f32⟩) main_call2_v5) (TRef.of (T := ⟨S2000000, .f32⟩) main_call2_v6) addf,
    TRef.unary (TRef.of (T := ⟨S2000000, .f32⟩) main_call2_v3) (TRef.of (T := ⟨S2000000, .f32⟩) main_call2_v7) Host.absf,
    TRef.unary (TRef.of (T := ⟨S2000000, .f32⟩) main_call2_v7) (TRef.of (T := ⟨S2000000, .f32⟩) main_call2_v8) Host.negf,
    TRef.unary (TRef.of (T := ⟨S2000000, .f32⟩) main_call2_v8) (TRef.of (T := ⟨S2000000, .f32⟩) main_call2_v9) Host.exp,
    TRef.unary (TRef.of (T := ⟨S2000000, .f32⟩) main_call2_v9) (TRef.of (T := ⟨S2000000, .f32⟩) main_call2_v10) Host.log1p,
    TRef.binary (TRef.of (T := ⟨S2000000, .f32⟩) main_call2_v1) (TRef.of (T := ⟨S2000000, .f32⟩) main_call2_v10) (TRef.of (T := ⟨S2000000, .f32⟩) main_call2_v11) addf,
    TRef.ternary (TRef.of (T := ⟨S2000000, .i1⟩) main_call2_v4) (TRef.of (T := ⟨S2000000, .f32⟩) main_call2_v6) (TRef.of (T := ⟨S2000000, .f32⟩) main_call2_v11) (TRef.of (T := ⟨S2000000, .f32⟩) main_v303) select,
    unary main_v303 main_v304 (broadcastInDim S2000000x1 ![0] bcast_S2000000_S2000000x1_0 : (⟨S2000000, .f32⟩ : BufTy).Contents (Elt F) → (⟨S2000000x1, .f32⟩ : BufTy).Contents (Elt F)) ]

/-- Part 0 of the program, as a line. -/
def win0 : List (HloOp τ sig (Elt F)) := ops1

/-- Part 1 of the program, as a line. -/
def win1 : List (HloOp τ sig (Elt F)) := ops2 ++ (ops3 ++ (ops4))

/-- Part 2 of the program, as a line. -/
def win2 : List (HloOp τ sig (Elt F)) := ops5 ++ (ops6 ++ (ops7))

/-- Part 3 of the program, as a line. -/
def win3 : List (HloOp τ sig (Elt F)) := ops8 ++ (ops9 ++ (ops10))

/-- Part 4 of the program, as a line. -/
def win4 : List (HloOp τ sig (Elt F)) := ops11 ++ (ops12 ++ (ops13))

/-- Part 5 of the program, as a line. -/
def win5 : List (HloOp τ sig (Elt F)) := ops14

/-- Part 6 of the program, as a line. -/
def win6 : List (HloOp τ sig (Elt F)) := ops15 ++ (ops16)

/-- The whole line. -/
def ops : List (HloOp τ sig (Elt F)) := win0 ++ (win1 ++ (win2 ++ (win3 ++ (win4 ++ (win5 ++ (win6))))))

set_option maxHeartbeats 4000000 in
theorem main_part0_eq (c : Dev nD) : main_part0 (F := F) c = seq win0 := rfl

set_option maxHeartbeats 4000000 in
theorem main_part1_eq (c : Dev nD) : main_part1 (F := F) c = seq win1 := rfl

set_option maxHeartbeats 4000000 in
theorem main_part2_eq (c : Dev nD) : main_part2 (F := F) c = seq win2 := rfl

set_option maxHeartbeats 4000000 in
theorem main_part3_eq (c : Dev nD) : main_part3 (F := F) c = seq win3 := rfl

set_option maxHeartbeats 4000000 in
theorem main_part4_eq (c : Dev nD) : main_part4 (F := F) c = seq win4 := rfl

set_option maxHeartbeats 4000000 in
theorem main_part5_eq (c : Dev nD) : main_part5 (F := F) c = seq win5 := rfl

set_option maxHeartbeats 4000000 in
theorem main_part6_eq (c : Dev nD) : main_part6 (F := F) c = seq win6 := rfl

/-- The program is the line. -/
theorem main_eq (c : Dev nD) : main (F := F) c = seq ops := by
  simp only [ops, seq_append, ← main_part0_eq c, ← main_part1_eq c, ← main_part2_eq c, ← main_part3_eq c, ← main_part4_eq c, ← main_part5_eq c, ← main_part6_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops1_sub : (ops1 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., binary_bufs_sub .., unary_bufs_sub .., nullary_bufs_sub .., unary_bufs_sub .., binary_bufs_sub .., nullary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., unary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub ..⟩
set_option maxHeartbeats 4000000 in
theorem ops1_fresh : (ops1 : List (HloOp τ sig (Elt F))).Forall fun op => op.fresh = ∅ := by
  simp only [List.Forall]; repeat' constructor

theorem ops2_sub : (ops2 : List (HloOp τ sig (Elt F))).Forall fun op => op.bufs ⊆ tcRefs τ sig :=
  ⟨unary_bufs_sub .., unary_bufs_sub .., unary_bufs_sub ..⟩
set_option maxHeartbeats 4000000 in
theorem ops2_fresh : (ops2 : List (HloOp τ sig (Elt F))).Forall fun op => op.fresh = ∅ := by
  simp only [List.Forall]; repeat' constructor

theorem ops3_sub : (ops3 : List (HloOp τ sig (Elt F))).Forall fun op => op.bufs ⊆ tcRefs τ sig :=
  ⟨nary_bufs_sub .., binary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub ..⟩
set_option maxHeartbeats 4000000 in
theorem ops3_fresh : (ops3 : List (HloOp τ sig (Elt F))).Forall fun op => op.fresh = ∅ := by
  simp only [List.Forall]; repeat' constructor

theorem ops4_sub : (ops4 : List (HloOp τ sig (Elt F))).Forall fun op => op.bufs ⊆ tcRefs τ sig :=
  ⟨nary_bufs_sub .., binary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub ..⟩
set_option maxHeartbeats 4000000 in
theorem ops4_fresh : (ops4 : List (HloOp τ sig (Elt F))).Forall fun op => op.fresh = ∅ := by
  simp only [List.Forall]; repeat' constructor

theorem ops5_sub : (ops5 : List (HloOp τ sig (Elt F))).Forall fun op => op.bufs ⊆ tcRefs τ sig :=
  ⟨unary_bufs_sub .., unary_bufs_sub .., unary_bufs_sub ..⟩
set_option maxHeartbeats 4000000 in
theorem ops5_fresh : (ops5 : List (HloOp τ sig (Elt F))).Forall fun op => op.fresh = ∅ := by
  simp only [List.Forall]; repeat' constructor

theorem ops6_sub : (ops6 : List (HloOp τ sig (Elt F))).Forall fun op => op.bufs ⊆ tcRefs τ sig :=
  ⟨nary_bufs_sub .., binary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub ..⟩
set_option maxHeartbeats 4000000 in
theorem ops6_fresh : (ops6 : List (HloOp τ sig (Elt F))).Forall fun op => op.fresh = ∅ := by
  simp only [List.Forall]; repeat' constructor

theorem ops7_sub : (ops7 : List (HloOp τ sig (Elt F))).Forall fun op => op.bufs ⊆ tcRefs τ sig :=
  ⟨nary_bufs_sub .., binary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub ..⟩
set_option maxHeartbeats 4000000 in
theorem ops7_fresh : (ops7 : List (HloOp τ sig (Elt F))).Forall fun op => op.fresh = ∅ := by
  simp only [List.Forall]; repeat' constructor

theorem ops8_sub : (ops8 : List (HloOp τ sig (Elt F))).Forall fun op => op.bufs ⊆ tcRefs τ sig :=
  ⟨unary_bufs_sub .., unary_bufs_sub .., unary_bufs_sub ..⟩
set_option maxHeartbeats 4000000 in
theorem ops8_fresh : (ops8 : List (HloOp τ sig (Elt F))).Forall fun op => op.fresh = ∅ := by
  simp only [List.Forall]; repeat' constructor

theorem ops9_sub : (ops9 : List (HloOp τ sig (Elt F))).Forall fun op => op.bufs ⊆ tcRefs τ sig :=
  ⟨nary_bufs_sub .., binary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub ..⟩
set_option maxHeartbeats 4000000 in
theorem ops9_fresh : (ops9 : List (HloOp τ sig (Elt F))).Forall fun op => op.fresh = ∅ := by
  simp only [List.Forall]; repeat' constructor

theorem ops10_sub : (ops10 : List (HloOp τ sig (Elt F))).Forall fun op => op.bufs ⊆ tcRefs τ sig :=
  ⟨nary_bufs_sub .., binary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub ..⟩
set_option maxHeartbeats 4000000 in
theorem ops10_fresh : (ops10 : List (HloOp τ sig (Elt F))).Forall fun op => op.fresh = ∅ := by
  simp only [List.Forall]; repeat' constructor

theorem ops11_sub : (ops11 : List (HloOp τ sig (Elt F))).Forall fun op => op.bufs ⊆ tcRefs τ sig :=
  ⟨unary_bufs_sub .., unary_bufs_sub .., unary_bufs_sub ..⟩
set_option maxHeartbeats 4000000 in
theorem ops11_fresh : (ops11 : List (HloOp τ sig (Elt F))).Forall fun op => op.fresh = ∅ := by
  simp only [List.Forall]; repeat' constructor

theorem ops12_sub : (ops12 : List (HloOp τ sig (Elt F))).Forall fun op => op.bufs ⊆ tcRefs τ sig :=
  ⟨nary_bufs_sub .., binary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub ..⟩
set_option maxHeartbeats 4000000 in
theorem ops12_fresh : (ops12 : List (HloOp τ sig (Elt F))).Forall fun op => op.fresh = ∅ := by
  simp only [List.Forall]; repeat' constructor

theorem ops13_sub : (ops13 : List (HloOp τ sig (Elt F))).Forall fun op => op.bufs ⊆ tcRefs τ sig :=
  ⟨nary_bufs_sub .., binary_bufs_sub .., unary_bufs_sub .., binary_bufs_sub .., binary_bufs_sub .., nullary_bufs_sub .., unary_bufs_sub .., binary_bufs_sub .., unary_bufs_sub .., binary_bufs_sub .., unary_bufs_sub .., binary_bufs_sub .., binary_bufs_sub .., nullary_bufs_sub .., unary_bufs_sub .., binary_bufs_sub .., unary_bufs_sub .., binary_bufs_sub .., unary_bufs_sub .., binary_bufs_sub .., binary_bufs_sub .., nullary_bufs_sub .., unary_bufs_sub .., binary_bufs_sub .., unary_bufs_sub .., binary_bufs_sub ..⟩
set_option maxHeartbeats 4000000 in
theorem ops13_fresh : (ops13 : List (HloOp τ sig (Elt F))).Forall fun op => op.fresh = ∅ := by
  simp only [List.Forall]; repeat' constructor

theorem ops14_sub : (ops14 : List (HloOp τ sig (Elt F))).Forall fun op => op.bufs ⊆ tcRefs τ sig :=
  ⟨unary_bufs_sub .., binary_bufs_sub .., binary_bufs_sub .., unary_bufs_sub .., reshape_bufs_sub .., unary_bufs_sub .., reshape_bufs_sub .., binary_bufs_sub .., nullary_bufs_sub .., binary_bufs_sub .., unary_bufs_sub .., unary_bufs_sub .., unary_bufs_sub .., binary_bufs_sub .., unary_bufs_sub .., reshape_bufs_sub .., unary_bufs_sub .., reshape_bufs_sub .., unary_bufs_sub .., reshape_bufs_sub .., nullary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub .., binary_bufs_sub .., binary_bufs_sub .., nullary_bufs_sub .., unary_bufs_sub .., binary_bufs_sub .., unary_bufs_sub .., unary_bufs_sub ..⟩
set_option maxHeartbeats 4000000 in
theorem ops14_fresh : (ops14 : List (HloOp τ sig (Elt F))).Forall fun op => op.fresh = ∅ := by
  simp only [List.Forall]; repeat' constructor

theorem ops15_sub : (ops15 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub ..⟩
set_option maxHeartbeats 4000000 in
theorem ops15_fresh : (ops15 : List (HloOp τ sig (Elt F))).Forall fun op => op.fresh = ∅ := by
  simp only [List.Forall]; repeat' constructor

theorem ops16_sub : (ops16 : List (HloOp τ sig (Elt F))).Forall fun op => op.bufs ⊆ tcRefs τ sig :=
  ⟨nary_bufs_sub .., unary_bufs_sub .., unary_bufs_sub .., binary_bufs_sub .., nullary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub ..⟩
set_option maxHeartbeats 4000000 in
theorem ops16_fresh : (ops16 : List (HloOp τ sig (Elt F))).Forall fun op => op.fresh = ∅ := by
  simp only [List.Forall]; repeat' constructor

theorem win0_sub : (win0 : List (HloOp τ sig (Elt F))).Forall fun op => op.bufs ⊆ tcRefs τ sig :=
  ops1_sub

theorem win1_sub : (win1 : List (HloOp τ sig (Elt F))).Forall fun op => op.bufs ⊆ tcRefs τ sig :=
  forall_app ops2_sub (forall_app ops3_sub (ops4_sub))

theorem win2_sub : (win2 : List (HloOp τ sig (Elt F))).Forall fun op => op.bufs ⊆ tcRefs τ sig :=
  forall_app ops5_sub (forall_app ops6_sub (ops7_sub))

theorem win3_sub : (win3 : List (HloOp τ sig (Elt F))).Forall fun op => op.bufs ⊆ tcRefs τ sig :=
  forall_app ops8_sub (forall_app ops9_sub (ops10_sub))

theorem win4_sub : (win4 : List (HloOp τ sig (Elt F))).Forall fun op => op.bufs ⊆ tcRefs τ sig :=
  forall_app ops11_sub (forall_app ops12_sub (ops13_sub))

theorem win5_sub : (win5 : List (HloOp τ sig (Elt F))).Forall fun op => op.bufs ⊆ tcRefs τ sig :=
  ops14_sub

theorem win6_sub : (win6 : List (HloOp τ sig (Elt F))).Forall fun op => op.bufs ⊆ tcRefs τ sig :=
  forall_app ops15_sub (ops16_sub)

theorem ops_sub : (ops : List (HloOp τ sig (Elt F))).Forall fun op => op.bufs ⊆ tcRefs τ sig :=
  forall_app win0_sub (forall_app win1_sub (forall_app win2_sub (forall_app win3_sub (forall_app win4_sub (forall_app win5_sub (win6_sub))))))

theorem win0_fresh : (win0 : List (HloOp τ sig (Elt F))).Forall fun op => op.fresh = ∅ :=
  ops1_fresh

theorem win1_fresh : (win1 : List (HloOp τ sig (Elt F))).Forall fun op => op.fresh = ∅ :=
  forall_app ops2_fresh (forall_app ops3_fresh (ops4_fresh))

theorem win2_fresh : (win2 : List (HloOp τ sig (Elt F))).Forall fun op => op.fresh = ∅ :=
  forall_app ops5_fresh (forall_app ops6_fresh (ops7_fresh))

theorem win3_fresh : (win3 : List (HloOp τ sig (Elt F))).Forall fun op => op.fresh = ∅ :=
  forall_app ops8_fresh (forall_app ops9_fresh (ops10_fresh))

theorem win4_fresh : (win4 : List (HloOp τ sig (Elt F))).Forall fun op => op.fresh = ∅ :=
  forall_app ops11_fresh (forall_app ops12_fresh (ops13_fresh))

theorem win5_fresh : (win5 : List (HloOp τ sig (Elt F))).Forall fun op => op.fresh = ∅ :=
  ops14_fresh

theorem win6_fresh : (win6 : List (HloOp τ sig (Elt F))).Forall fun op => op.fresh = ∅ :=
  forall_app ops15_fresh (ops16_fresh)

theorem ops_fresh : (ops : List (HloOp τ sig (Elt F))).Forall fun op => op.fresh = ∅ :=
  forall_app win0_fresh (forall_app win1_fresh (forall_app win2_fresh (forall_app win3_fresh (forall_app win4_fresh (forall_app win5_fresh (win6_fresh))))))

/-- On every device, for any float values, from any memory with zero counters: every weakly fair execution of the
    program terminates, and then every buffer of a core holds the fold of the line over the core's buffers at the start. -/
theorem run_raw (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after (ops (F := F)) (launchContents m d) (Proc.devRef .tc b) :=
  run_seq scopedRefs_eq scopedSems_eq defs main (fun _ => ops) main_eq (fun _ => ops_sub) m ρ
    (fun _ => List.forall_iff_forall_mem.mp ops_fresh)

end Cert.ReferenceIdeal.HandRun

end
-- ==== Proof.RefRun.lean ====
/-
  The reference program runs to its end: every weakly fair execution terminates, its two results are the last stages
  of its operations applied to the two arguments, and the arguments are unchanged.

  The program's line of operations is read stretch by stretch. After the first k stretches a core's buffers hold
  `valK`; for every buffer written by then and still read later (or returned) the lemma `valK_‹buffer›` says it holds
  the buffer's stage applied to the two argument arrays as they were at the start: for a buffer the k-th stretch writes,
  by folding that stretch's operations over the facts of the stretch before; for an older buffer, because the stretch
  does not write it. After the last stretch the two results stand at their stages and the arguments as they were.
-/
import proofs.«144185_j57191784513782_1_alg».proof.Proof.RefRead
import proofs.«144185_j57191784513782_1_alg».proof.Proof.LibNary3
import proofs.«144185_j57191784513782_1_alg».proof.Proof.RefRunOps
import Idealize.ShloMosaic.Lib.StableHlo.Run
import Idealize.ShloMosaic.Lib.Pipeline.Frame

set_option maxRecDepth 16384

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- What a core's buffers hold before the first stretch. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl

/-- What a core's buffers hold after the first 1 stretch. -/
def val1 (V0 : Valuation τ sig (Elt F)) : Valuation τ sig (Elt F) := after ops1 (val0 V0)
/-- The buffers stretch 1 writes. -/
abbrev ops1_W : List (Ref sig .tc) := [main_cst, main_v0, main_v1, main_cst_0, main_v2, main_v3, main_cst_1, main_v4, main_v5, main_cst_2, main_v6, main_v7, main_cst_3, main_c, main_call0_v0, main_call0_v1, main_call0_v2, main_call0_v3, main_call0_v4, main_v8, main_v9, main_v10, main_v11, main_c_4, main_v12, main_v13, main_c_5, main_v14, main_v15, main_v16, main_v17, main_v18, main_v19, main_v20, main_v21, main_v22, main_v23, main_v24, main_v25, main_v26, main_v27, main_v28, main_v29, main_v30, main_c_6, main_v31, main_v32, main_c_7, main_v33, main_v34, main_v35, main_c_8, main_v36, main_v37, main_c_9, main_v38, main_v39, main_v40, main_c_10, main_v41, main_v42, main_c_11, main_v43, main_v44, main_v45]
set_option maxHeartbeats 4000000 in
theorem ops1_writes : (ops1 : List (HloOp τ sig (Elt F))).Forall fun op => op.writes ⊆ (ops1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 1 does not write keeps its contents through it. -/
theorem val1_keep (V0 : Valuation τ sig (Elt F)) (r : Ref sig .tc) (h : r ∉ ops1_W) :
    val1 V0 (Proc.devRef .tc r) = val0 V0 (Proc.devRef .tc r) :=
  after_of_writes_sub ops1 _ ops1_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
set_option maxHeartbeats 4000000 in
theorem val1_main_v17 (V0 : Valuation τ sig (Elt F)) : val1 V0 (no_index (Proc.devRef .tc main_v17)) = Cert.ReferenceIdeal.ReadP.val_main_v17 (F := F) (V0 (Proc.devRef .tc main_arg0)) := by
  unfold val1
  simp only [ops1]
  after_results_simp9
  simp only [val0_main_arg0]
  all_goals (try simp only [StableHlo.TRef.ofBuf, StableHlo.TRef.toBuf, cast_eq])
  all_goals rfl
set_option maxHeartbeats 4000000 in
theorem val1_main_v19 (V0 : Valuation τ sig (Elt F)) : val1 V0 (no_index (Proc.devRef .tc main_v19)) = Cert.ReferenceIdeal.ReadP.val_main_v19 (F := F) (V0 (Proc.devRef .tc main_arg0)) := by
  unfold val1
  simp only [ops1]
  after_results_simp9
  simp only [val0_main_arg0]
  all_goals (try simp only [StableHlo.TRef.ofBuf, StableHlo.TRef.toBuf, cast_eq])
  all_goals rfl
set_option maxHeartbeats 4000000 in
theorem val1_main_v21 (V0 : Valuation τ sig (Elt F)) : val1 V0 (no_index (Proc.devRef .tc main_v21)) = Cert.ReferenceIdeal.ReadP.val_main_v21 (F := F) (V0 (Proc.devRef .tc main_arg0)) := by
  unfold val1
  simp only [ops1]
  after_results_simp9
  simp only [val0_main_arg0]
  all_goals (try simp only [StableHlo.TRef.ofBuf, StableHlo.TRef.toBuf, cast_eq])
  all_goals rfl
set_option maxHeartbeats 4000000 in
theorem val1_main_v23 (V0 : Valuation τ sig (Elt F)) : val1 V0 (no_index (Proc.devRef .tc main_v23)) = Cert.ReferenceIdeal.ReadP.val_main_v23 (F := F) (V0 (Proc.devRef .tc main_arg0)) := by
  unfold val1
  simp only [ops1]
  after_results_simp9
  simp only [val0_main_arg0]
  all_goals (try simp only [StableHlo.TRef.ofBuf, StableHlo.TRef.toBuf, cast_eq])
  all_goals rfl
set_option maxHeartbeats 4000000 in
theorem val1_main_v25 (V0 : Valuation τ sig (Elt F)) : val1 V0 (no_index (Proc.devRef .tc main_v25)) = Cert.ReferenceIdeal.ReadP.val_main_v25 (F := F) (V0 (Proc.devRef .tc main_arg0)) := by
  unfold val1
  simp only [ops1]
  after_results_simp9
  simp only [val0_main_arg0]
  all_goals (try simp only [StableHlo.TRef.ofBuf, StableHlo.TRef.toBuf, cast_eq])
  all_goals rfl
set_option maxHeartbeats 4000000 in
theorem val1_main_v27 (V0 : Valuation τ sig (Elt F)) : val1 V0 (no_index (Proc.devRef .tc main_v27)) = Cert.ReferenceIdeal.ReadP.val_main_v27 (F := F) (V0 (Proc.devRef .tc main_arg0)) := by
  unfold val1
  simp only [ops1]
  after_results_simp9
  simp only [val0_main_arg0]
  all_goals (try simp only [StableHlo.TRef.ofBuf, StableHlo.TRef.toBuf, cast_eq])
  all_goals rfl
set_option maxHeartbeats 4000000 in
theorem val1_main_v28 (V0 : Valuation τ sig (Elt F)) : val1 V0 (no_index (Proc.devRef .tc main_v28)) = Cert.ReferenceIdeal.ReadP.val_main_v28 (F := F) (V0 (Proc.devRef .tc main_arg0)) := by
  unfold val1
  simp only [ops1]
  after_results_simp9
  simp only [val0_main_arg0]
  all_goals (try simp only [StableHlo.TRef.ofBuf, StableHlo.TRef.toBuf, cast_eq])
  all_goals rfl
set_option maxHeartbeats 4000000 in
theorem val1_main_v29 (V0 : Valuation τ sig (Elt F)) : val1 V0 (no_index (Proc.devRef .tc main_v29)) = Cert.ReferenceIdeal.ReadP.val_main_v29 (F := F) (V0 (Proc.devRef .tc main_arg0)) := by
  unfold val1
  simp only [ops1]
  after_results_simp9
  simp only [val0_main_arg0]
  all_goals (try simp only [StableHlo.TRef.ofBuf, StableHlo.TRef.toBuf, cast_eq])
  all_goals rfl
set_option maxHeartbeats 4000000 in
theorem val1_main_v30 (V0 : Valuation τ sig (Elt F)) : val1 V0 (no_index (Proc.devRef .tc main_v30)) = Cert.ReferenceIdeal.ReadP.val_main_v30 (F := F) (V0 (Proc.devRef .tc main_arg0)) := by
  unfold val1
  simp only [ops1]
  after_results_simp9
  simp only [val0_main_arg0]
  all_goals (try simp only [StableHlo.TRef.ofBuf, StableHlo.TRef.toBuf, cast_eq])
  all_goals rfl
set_option maxHeartbeats 4000000 in
theorem val1_main_v35 (V0 : Valuation τ sig (Elt F)) : val1 V0 (no_index (Proc.devRef .tc main_v35)) = Cert.ReferenceIdeal.ReadP.val_main_v35 (F := F) (V0 (Proc.devRef .tc main_arg0)) := by
  unfold val1
  simp only [ops1]
  after_results_simp9
  simp only [val0_main_arg0]
  all_goals (try simp only [StableHlo.TRef.ofBuf, StableHlo.TRef.toBuf, cast_eq])
  all_goals rfl
set_option maxHeartbeats 4000000 in
theorem val1_main_v40 (V0 : Valuation τ sig (Elt F)) : val1 V0 (no_index (Proc.devRef .tc main_v40)) = Cert.ReferenceIdeal.ReadP.val_main_v40 (F := F) (V0 (Proc.devRef .tc main_arg0)) := by
  unfold val1
  simp only [ops1]
  after_results_simp9
  simp only [val0_main_arg0]
  all_goals (try simp only [StableHlo.TRef.ofBuf, StableHlo.TRef.toBuf, cast_eq])
  all_goals rfl
set_option maxHeartbeats 4000000 in
theorem val1_main_v45 (V0 : Valuation τ sig (Elt F)) : val1 V0 (no_index (Proc.devRef .tc main_v45)) = Cert.ReferenceIdeal.ReadP.val_main_v45 (F := F) (V0 (Proc.devRef .tc main_arg0)) := by
  unfold val1
  simp only [ops1]
  after_results_simp9
  simp only [val0_main_arg0]
  all_goals (try simp only [StableHlo.TRef.ofBuf, StableHlo.TRef.toBuf, cast_eq])
  all_goals rfl

/-- What a core's buffers hold after the first 2 stretches. -/
def val2 (V0 : Valuation τ sig (Elt F)) : Valuation τ sig (Elt F) := after ops2 (val1 V0)
/-- The buffers stretch 2 writes. -/
abbrev ops2_W : List (Ref sig .tc) := [main_v46, main_v47, main_v48]
set_option maxHeartbeats 4000000 in
theorem ops2_writes : (ops2 : List (HloOp τ sig (Elt F))).Forall fun op => op.writes ⊆ (ops2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 2 does not write keeps its contents through it. -/
theorem val2_keep (V0 : Valuation τ sig (Elt F)) (r : Ref sig .tc) (h : r ∉ ops2_W) :
    val2 V0 (Proc.devRef .tc r) = val1 V0 (Proc.devRef .tc r) :=
  after_of_writes_sub ops2 _ ops2_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_v17 (V0 : Valuation τ sig (Elt F)) : val2 V0 (no_index (Proc.devRef .tc main_v17)) = Cert.ReferenceIdeal.ReadP.val_main_v17 (F := F) (V0 (Proc.devRef .tc main_arg0)) :=
  (val2_keep V0 main_v17 (by decide)).trans (val1_main_v17 V0)
theorem val2_main_v19 (V0 : Valuation τ sig (Elt F)) : val2 V0 (no_index (Proc.devRef .tc main_v19)) = Cert.ReferenceIdeal.ReadP.val_main_v19 (F := F) (V0 (Proc.devRef .tc main_arg0)) :=
  (val2_keep V0 main_v19 (by decide)).trans (val1_main_v19 V0)
theorem val2_main_v21 (V0 : Valuation τ sig (Elt F)) : val2 V0 (no_index (Proc.devRef .tc main_v21)) = Cert.ReferenceIdeal.ReadP.val_main_v21 (F := F) (V0 (Proc.devRef .tc main_arg0)) :=
  (val2_keep V0 main_v21 (by decide)).trans (val1_main_v21 V0)
theorem val2_main_v23 (V0 : Valuation τ sig (Elt F)) : val2 V0 (no_index (Proc.devRef .tc main_v23)) = Cert.ReferenceIdeal.ReadP.val_main_v23 (F := F) (V0 (Proc.devRef .tc main_arg0)) :=
  (val2_keep V0 main_v23 (by decide)).trans (val1_main_v23 V0)
theorem val2_main_v25 (V0 : Valuation τ sig (Elt F)) : val2 V0 (no_index (Proc.devRef .tc main_v25)) = Cert.ReferenceIdeal.ReadP.val_main_v25 (F := F) (V0 (Proc.devRef .tc main_arg0)) :=
  (val2_keep V0 main_v25 (by decide)).trans (val1_main_v25 V0)
theorem val2_main_v27 (V0 : Valuation τ sig (Elt F)) : val2 V0 (no_index (Proc.devRef .tc main_v27)) = Cert.ReferenceIdeal.ReadP.val_main_v27 (F := F) (V0 (Proc.devRef .tc main_arg0)) :=
  (val2_keep V0 main_v27 (by decide)).trans (val1_main_v27 V0)
theorem val2_main_v28 (V0 : Valuation τ sig (Elt F)) : val2 V0 (no_index (Proc.devRef .tc main_v28)) = Cert.ReferenceIdeal.ReadP.val_main_v28 (F := F) (V0 (Proc.devRef .tc main_arg0)) :=
  (val2_keep V0 main_v28 (by decide)).trans (val1_main_v28 V0)
theorem val2_main_v29 (V0 : Valuation τ sig (Elt F)) : val2 V0 (no_index (Proc.devRef .tc main_v29)) = Cert.ReferenceIdeal.ReadP.val_main_v29 (F := F) (V0 (Proc.devRef .tc main_arg0)) :=
  (val2_keep V0 main_v29 (by decide)).trans (val1_main_v29 V0)
theorem val2_main_v30 (V0 : Valuation τ sig (Elt F)) : val2 V0 (no_index (Proc.devRef .tc main_v30)) = Cert.ReferenceIdeal.ReadP.val_main_v30 (F := F) (V0 (Proc.devRef .tc main_arg0)) :=
  (val2_keep V0 main_v30 (by decide)).trans (val1_main_v30 V0)
set_option maxHeartbeats 4000000 in
theorem val2_main_v46 (V0 : Valuation τ sig (Elt F)) : val2 V0 (no_index (Proc.devRef .tc main_v46)) = Cert.ReferenceIdeal.ReadP.val_main_v46 (F := F) (V0 (Proc.devRef .tc main_arg0)) := by
  unfold val2
  simp only [ops2]
  after_results_simp9
  simp only [val1_main_v35]
  all_goals rfl
set_option maxHeartbeats 4000000 in
theorem val2_main_v47 (V0 : Valuation τ sig (Elt F)) : val2 V0 (no_index (Proc.devRef .tc main_v47)) = Cert.ReferenceIdeal.ReadP.val_main_v47 (F := F) (V0 (Proc.devRef .tc main_arg0)) := by
  unfold val2
  simp only [ops2]
  after_results_simp9
  simp only [val1_main_v40]
  all_goals rfl
set_option maxHeartbeats 4000000 in
theorem val2_main_v48 (V0 : Valuation τ sig (Elt F)) : val2 V0 (no_index (Proc.devRef .tc main_v48)) = Cert.ReferenceIdeal.ReadP.val_main_v48 (F := F) (V0 (Proc.devRef .tc main_arg0)) := by
  unfold val2
  simp only [ops2]
  after_results_simp9
  simp only [val1_main_v45]
  all_goals rfl

/-- What a core's buffers hold after the first 3 stretches. -/
def val3 (V0 : Valuation τ sig (Elt F)) : Valuation τ sig (Elt F) := after ops3 (val2 V0)
/-- The buffers stretch 3 writes. -/
abbrev ops3_W : List (Ref sig .tc) := [main_v49, main_v50, main_cst_12, main_v51, main_v52, main_v53, main_v54, main_c_13, main_v55, main_v56, main_c_14, main_v57, main_v58, main_v59, main_c_15, main_v60, main_v61, main_c_16, main_v62, main_v63, main_v64, main_c_17, main_v65, main_v66, main_c_18, main_v67, main_v68, main_v69, main_v70, main_v71, main_v72]
set_option maxHeartbeats 4000000 in
theorem ops3_writes : (ops3 : List (HloOp τ sig (Elt F))).Forall fun op => op.writes ⊆ (ops3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 3 does not write keeps its contents through it. -/
theorem val3_keep (V0 : Valuation τ sig (Elt F)) (r : Ref sig .tc) (h : r ∉ ops3_W) :
    val3 V0 (Proc.devRef .tc r) = val2 V0 (Proc.devRef .tc r) :=
  after_of_writes_sub ops3 _ ops3_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_v17 (V0 : Valuation τ sig (Elt F)) : val3 V0 (no_index (Proc.devRef .tc main_v17)) = Cert.ReferenceIdeal.ReadP.val_main_v17 (F := F) (V0 (Proc.devRef .tc main_arg0)) :=
  (val3_keep V0 main_v17 (by decide)).trans (val2_main_v17 V0)
theorem val3_main_v19 (V0 : Valuation τ sig (Elt F)) : val3 V0 (no_index (Proc.devRef .tc main_v19)) = Cert.ReferenceIdeal.ReadP.val_main_v19 (F := F) (V0 (Proc.devRef .tc main_arg0)) :=
  (val3_keep V0 main_v19 (by decide)).trans (val2_main_v19 V0)
theorem val3_main_v21 (V0 : Valuation τ sig (Elt F)) : val3 V0 (no_index (Proc.devRef .tc main_v21)) = Cert.ReferenceIdeal.ReadP.val_main_v21 (F := F) (V0 (Proc.devRef .tc main_arg0)) :=
  (val3_keep V0 main_v21 (by decide)).trans (val2_main_v21 V0)
theorem val3_main_v23 (V0 : Valuation τ sig (Elt F)) : val3 V0 (no_index (Proc.devRef .tc main_v23)) = Cert.ReferenceIdeal.ReadP.val_main_v23 (F := F) (V0 (Proc.devRef .tc main_arg0)) :=
  (val3_keep V0 main_v23 (by decide)).trans (val2_main_v23 V0)
theorem val3_main_v25 (V0 : Valuation τ sig (Elt F)) : val3 V0 (no_index (Proc.devRef .tc main_v25)) = Cert.ReferenceIdeal.ReadP.val_main_v25 (F := F) (V0 (Proc.devRef .tc main_arg0)) :=
  (val3_keep V0 main_v25 (by decide)).trans (val2_main_v25 V0)
theorem val3_main_v27 (V0 : Valuation τ sig (Elt F)) : val3 V0 (no_index (Proc.devRef .tc main_v27)) = Cert.ReferenceIdeal.ReadP.val_main_v27 (F := F) (V0 (Proc.devRef .tc main_arg0)) :=
  (val3_keep V0 main_v27 (by decide)).trans (val2_main_v27 V0)
theorem val3_main_v28 (V0 : Valuation τ sig (Elt F)) : val3 V0 (no_index (Proc.devRef .tc main_v28)) = Cert.ReferenceIdeal.ReadP.val_main_v28 (F := F) (V0 (Proc.devRef .tc main_arg0)) :=
  (val3_keep V0 main_v28 (by decide)).trans (val2_main_v28 V0)
theorem val3_main_v29 (V0 : Valuation τ sig (Elt F)) : val3 V0 (no_index (Proc.devRef .tc main_v29)) = Cert.ReferenceIdeal.ReadP.val_main_v29 (F := F) (V0 (Proc.devRef .tc main_arg0)) :=
  (val3_keep V0 main_v29 (by decide)).trans (val2_main_v29 V0)
theorem val3_main_v30 (V0 : Valuation τ sig (Elt F)) : val3 V0 (no_index (Proc.devRef .tc main_v30)) = Cert.ReferenceIdeal.ReadP.val_main_v30 (F := F) (V0 (Proc.devRef .tc main_arg0)) :=
  (val3_keep V0 main_v30 (by decide)).trans (val2_main_v30 V0)
set_option maxHeartbeats 4000000 in
theorem val3_main_v54 (V0 : Valuation τ sig (Elt F)) : val3 V0 (no_index (Proc.devRef .tc main_v54)) = Cert.ReferenceIdeal.ReadP.val_main_v54 (F := F) (V0 (Proc.devRef .tc main_arg0)) (V0 (Proc.devRef .tc main_arg1)) := by
  unfold val3
  simp only [ops3]
  after_results_simp9
  simp only [val2_main_v28, val2_main_v48, val2_main_v47, val2_main_v46, val2_main_arg1]
  all_goals rfl
set_option maxHeartbeats 4000000 in
theorem val3_main_v70 (V0 : Valuation τ sig (Elt F)) : val3 V0 (no_index (Proc.devRef .tc main_v70)) = Cert.ReferenceIdeal.ReadP.val_main_v70 (F := F) (V0 (Proc.devRef .tc main_arg0)) := by
  unfold val3
  simp only [ops3]
  after_results_simp9
  simp only [val2_main_v21]
  all_goals rfl
set_option maxHeartbeats 4000000 in
theorem val3_main_v71 (V0 : Valuation τ sig (Elt F)) : val3 V0 (no_index (Proc.devRef .tc main_v71)) = Cert.ReferenceIdeal.ReadP.val_main_v71 (F := F) (V0 (Proc.devRef .tc main_arg0)) := by
  unfold val3
  simp only [ops3]
  after_results_simp9
  simp only [val2_main_v19]
  all_goals rfl
set_option maxHeartbeats 4000000 in
theorem val3_main_v72 (V0 : Valuation τ sig (Elt F)) : val3 V0 (no_index (Proc.devRef .tc main_v72)) = Cert.ReferenceIdeal.ReadP.val_main_v72 (F := F) (V0 (Proc.devRef .tc main_arg0)) := by
  unfold val3
  simp only [ops3]
  after_results_simp9
  simp only [val2_main_v23]
  all_goals rfl

/-- What a core's buffers hold after the first 4 stretches. -/
def val4 (V0 : Valuation τ sig (Elt F)) : Valuation τ sig (Elt F) := after ops4 (val3 V0)
/-- The buffers stretch 4 writes. -/
abbrev ops4_W : List (Ref sig .tc) := [main_v73, main_v74, main_v75, main_v76, main_v77, main_c_19, main_v78, main_v79, main_c_20, main_v80, main_v81, main_v82, main_c_21, main_v83, main_v84, main_c_22, main_v85, main_v86, main_v87, main_c_23, main_v88, main_v89, main_c_24, main_v90, main_v91, main_v92]
set_option maxHeartbeats 4000000 in
theorem ops4_writes : (ops4 : List (HloOp τ sig (Elt F))).Forall fun op => op.writes ⊆ (ops4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 4 does not write keeps its contents through it. -/
theorem val4_keep (V0 : Valuation τ sig (Elt F)) (r : Ref sig .tc) (h : r ∉ ops4_W) :
    val4 V0 (Proc.devRef .tc r) = val3 V0 (Proc.devRef .tc r) :=
  after_of_writes_sub ops4 _ ops4_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_v17 (V0 : Valuation τ sig (Elt F)) : val4 V0 (no_index (Proc.devRef .tc main_v17)) = Cert.ReferenceIdeal.ReadP.val_main_v17 (F := F) (V0 (Proc.devRef .tc main_arg0)) :=
  (val4_keep V0 main_v17 (by decide)).trans (val3_main_v17 V0)
theorem val4_main_v19 (V0 : Valuation τ sig (Elt F)) : val4 V0 (no_index (Proc.devRef .tc main_v19)) = Cert.ReferenceIdeal.ReadP.val_main_v19 (F := F) (V0 (Proc.devRef .tc main_arg0)) :=
  (val4_keep V0 main_v19 (by decide)).trans (val3_main_v19 V0)
theorem val4_main_v21 (V0 : Valuation τ sig (Elt F)) : val4 V0 (no_index (Proc.devRef .tc main_v21)) = Cert.ReferenceIdeal.ReadP.val_main_v21 (F := F) (V0 (Proc.devRef .tc main_arg0)) :=
  (val4_keep V0 main_v21 (by decide)).trans (val3_main_v21 V0)
theorem val4_main_v23 (V0 : Valuation τ sig (Elt F)) : val4 V0 (no_index (Proc.devRef .tc main_v23)) = Cert.ReferenceIdeal.ReadP.val_main_v23 (F := F) (V0 (Proc.devRef .tc main_arg0)) :=
  (val4_keep V0 main_v23 (by decide)).trans (val3_main_v23 V0)
theorem val4_main_v25 (V0 : Valuation τ sig (Elt F)) : val4 V0 (no_index (Proc.devRef .tc main_v25)) = Cert.ReferenceIdeal.ReadP.val_main_v25 (F := F) (V0 (Proc.devRef .tc main_arg0)) :=
  (val4_keep V0 main_v25 (by decide)).trans (val3_main_v25 V0)
theorem val4_main_v27 (V0 : Valuation τ sig (Elt F)) : val4 V0 (no_index (Proc.devRef .tc main_v27)) = Cert.ReferenceIdeal.ReadP.val_main_v27 (F := F) (V0 (Proc.devRef .tc main_arg0)) :=
  (val4_keep V0 main_v27 (by decide)).trans (val3_main_v27 V0)
theorem val4_main_v28 (V0 : Valuation τ sig (Elt F)) : val4 V0 (no_index (Proc.devRef .tc main_v28)) = Cert.ReferenceIdeal.ReadP.val_main_v28 (F := F) (V0 (Proc.devRef .tc main_arg0)) :=
  (val4_keep V0 main_v28 (by decide)).trans (val3_main_v28 V0)
theorem val4_main_v29 (V0 : Valuation τ sig (Elt F)) : val4 V0 (no_index (Proc.devRef .tc main_v29)) = Cert.ReferenceIdeal.ReadP.val_main_v29 (F := F) (V0 (Proc.devRef .tc main_arg0)) :=
  (val4_keep V0 main_v29 (by decide)).trans (val3_main_v29 V0)
theorem val4_main_v30 (V0 : Valuation τ sig (Elt F)) : val4 V0 (no_index (Proc.devRef .tc main_v30)) = Cert.ReferenceIdeal.ReadP.val_main_v30 (F := F) (V0 (Proc.devRef .tc main_arg0)) :=
  (val4_keep V0 main_v30 (by decide)).trans (val3_main_v30 V0)
set_option maxHeartbeats 4000000 in
theorem val4_main_v77 (V0 : Valuation τ sig (Elt F)) : val4 V0 (no_index (Proc.devRef .tc main_v77)) = Cert.ReferenceIdeal.ReadP.val_main_v77 (F := F) (V0 (Proc.devRef .tc main_arg0)) (V0 (Proc.devRef .tc main_arg1)) := by
  unfold val4
  simp only [ops4]
  after_results_simp9
  simp only [val3_main_v28, val3_main_v72, val3_main_v71, val3_main_v70, val3_main_arg1, val3_main_v54]
  all_goals rfl
set_option maxHeartbeats 4000000 in
theorem val4_main_v82 (V0 : Valuation τ sig (Elt F)) : val4 V0 (no_index (Proc.devRef .tc main_v82)) = Cert.ReferenceIdeal.ReadP.val_main_v82 (F := F) (V0 (Proc.devRef .tc main_arg0)) := by
  unfold val4
  simp only [ops4]
  after_results_simp9
  simp only [val3_main_v21]
  all_goals rfl
set_option maxHeartbeats 4000000 in
theorem val4_main_v87 (V0 : Valuation τ sig (Elt F)) : val4 V0 (no_index (Proc.devRef .tc main_v87)) = Cert.ReferenceIdeal.ReadP.val_main_v87 (F := F) (V0 (Proc.devRef .tc main_arg0)) := by
  unfold val4
  simp only [ops4]
  after_results_simp9
  simp only [val3_main_v25]
  all_goals rfl
set_option maxHeartbeats 4000000 in
theorem val4_main_v92 (V0 : Valuation τ sig (Elt F)) : val4 V0 (no_index (Proc.devRef .tc main_v92)) = Cert.ReferenceIdeal.ReadP.val_main_v92 (F := F) (V0 (Proc.devRef .tc main_arg0)) := by
  unfold val4
  simp only [ops4]
  after_results_simp9
  simp only [val3_main_v17]
  all_goals rfl

/-- What a core's buffers hold after the first 5 stretches. -/
def val5 (V0 : Valuation τ sig (Elt F)) : Valuation τ sig (Elt F) := after ops5 (val4 V0)
/-- The buffers stretch 5 writes. -/
abbrev ops5_W : List (Ref sig .tc) := [main_v93, main_v94, main_v95]
set_option maxHeartbeats 4000000 in
theorem ops5_writes : (ops5 : List (HloOp τ sig (Elt F))).Forall fun op => op.writes ⊆ (ops5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 5 does not write keeps its contents through it. -/
theorem val5_keep (V0 : Valuation τ sig (Elt F)) (r : Ref sig .tc) (h : r ∉ ops5_W) :
    val5 V0 (Proc.devRef .tc r) = val4 V0 (Proc.devRef .tc r) :=
  after_of_writes_sub ops5 _ ops5_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_v17 (V0 : Valuation τ sig (Elt F)) : val5 V0 (no_index (Proc.devRef .tc main_v17)) = Cert.ReferenceIdeal.ReadP.val_main_v17 (F := F) (V0 (Proc.devRef .tc main_arg0)) :=
  (val5_keep V0 main_v17 (by decide)).trans (val4_main_v17 V0)
theorem val5_main_v19 (V0 : Valuation τ sig (Elt F)) : val5 V0 (no_index (Proc.devRef .tc main_v19)) = Cert.ReferenceIdeal.ReadP.val_main_v19 (F := F) (V0 (Proc.devRef .tc main_arg0)) :=
  (val5_keep V0 main_v19 (by decide)).trans (val4_main_v19 V0)
theorem val5_main_v21 (V0 : Valuation τ sig (Elt F)) : val5 V0 (no_index (Proc.devRef .tc main_v21)) = Cert.ReferenceIdeal.ReadP.val_main_v21 (F := F) (V0 (Proc.devRef .tc main_arg0)) :=
  (val5_keep V0 main_v21 (by decide)).trans (val4_main_v21 V0)
theorem val5_main_v23 (V0 : Valuation τ sig (Elt F)) : val5 V0 (no_index (Proc.devRef .tc main_v23)) = Cert.ReferenceIdeal.ReadP.val_main_v23 (F := F) (V0 (Proc.devRef .tc main_arg0)) :=
  (val5_keep V0 main_v23 (by decide)).trans (val4_main_v23 V0)
theorem val5_main_v25 (V0 : Valuation τ sig (Elt F)) : val5 V0 (no_index (Proc.devRef .tc main_v25)) = Cert.ReferenceIdeal.ReadP.val_main_v25 (F := F) (V0 (Proc.devRef .tc main_arg0)) :=
  (val5_keep V0 main_v25 (by decide)).trans (val4_main_v25 V0)
theorem val5_main_v27 (V0 : Valuation τ sig (Elt F)) : val5 V0 (no_index (Proc.devRef .tc main_v27)) = Cert.ReferenceIdeal.ReadP.val_main_v27 (F := F) (V0 (Proc.devRef .tc main_arg0)) :=
  (val5_keep V0 main_v27 (by decide)).trans (val4_main_v27 V0)
theorem val5_main_v28 (V0 : Valuation τ sig (Elt F)) : val5 V0 (no_index (Proc.devRef .tc main_v28)) = Cert.ReferenceIdeal.ReadP.val_main_v28 (F := F) (V0 (Proc.devRef .tc main_arg0)) :=
  (val5_keep V0 main_v28 (by decide)).trans (val4_main_v28 V0)
theorem val5_main_v29 (V0 : Valuation τ sig (Elt F)) : val5 V0 (no_index (Proc.devRef .tc main_v29)) = Cert.ReferenceIdeal.ReadP.val_main_v29 (F := F) (V0 (Proc.devRef .tc main_arg0)) :=
  (val5_keep V0 main_v29 (by decide)).trans (val4_main_v29 V0)
theorem val5_main_v30 (V0 : Valuation τ sig (Elt F)) : val5 V0 (no_index (Proc.devRef .tc main_v30)) = Cert.ReferenceIdeal.ReadP.val_main_v30 (F := F) (V0 (Proc.devRef .tc main_arg0)) :=
  (val5_keep V0 main_v30 (by decide)).trans (val4_main_v30 V0)
theorem val5_main_v77 (V0 : Valuation τ sig (Elt F)) : val5 V0 (no_index (Proc.devRef .tc main_v77)) = Cert.ReferenceIdeal.ReadP.val_main_v77 (F := F) (V0 (Proc.devRef .tc main_arg0)) (V0 (Proc.devRef .tc main_arg1)) :=
  (val5_keep V0 main_v77 (by decide)).trans (val4_main_v77 V0)
set_option maxHeartbeats 4000000 in
theorem val5_main_v93 (V0 : Valuation τ sig (Elt F)) : val5 V0 (no_index (Proc.devRef .tc main_v93)) = Cert.ReferenceIdeal.ReadP.val_main_v93 (F := F) (V0 (Proc.devRef .tc main_arg0)) := by
  unfold val5
  simp only [ops5]
  after_results_simp9
  simp only [val4_main_v82]
  all_goals rfl
set_option maxHeartbeats 4000000 in
theorem val5_main_v94 (V0 : Valuation τ sig (Elt F)) : val5 V0 (no_index (Proc.devRef .tc main_v94)) = Cert.ReferenceIdeal.ReadP.val_main_v94 (F := F) (V0 (Proc.devRef .tc main_arg0)) := by
  unfold val5
  simp only [ops5]
  after_results_simp9
  simp only [val4_main_v87]
  all_goals rfl
set_option maxHeartbeats 4000000 in
theorem val5_main_v95 (V0 : Valuation τ sig (Elt F)) : val5 V0 (no_index (Proc.devRef .tc main_v95)) = Cert.ReferenceIdeal.ReadP.val_main_v95 (F := F) (V0 (Proc.devRef .tc main_arg0)) := by
  unfold val5
  simp only [ops5]
  after_results_simp9
  simp only [val4_main_v92]
  all_goals rfl

/-- What a core's buffers hold after the first 6 stretches. -/
def val6 (V0 : Valuation τ sig (Elt F)) : Valuation τ sig (Elt F) := after ops6 (val5 V0)
/-- The buffers stretch 6 writes. -/
abbrev ops6_W : List (Ref sig .tc) := [main_v96, main_v97, main_cst_25, main_v98, main_v99, main_v100, main_v101, main_c_26, main_v102, main_v103, main_c_27, main_v104, main_v105, main_v106, main_c_28, main_v107, main_v108, main_c_29, main_v109, main_v110, main_v111, main_c_30, main_v112, main_v113, main_c_31, main_v114, main_v115, main_v116, main_v117, main_v118, main_v119]
set_option maxHeartbeats 4000000 in
theorem ops6_writes : (ops6 : List (HloOp τ sig (Elt F))).Forall fun op => op.writes ⊆ (ops6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 6 does not write keeps its contents through it. -/
theorem val6_keep (V0 : Valuation τ sig (Elt F)) (r : Ref sig .tc) (h : r ∉ ops6_W) :
    val6 V0 (Proc.devRef .tc r) = val5 V0 (Proc.devRef .tc r) :=
  after_of_writes_sub ops6 _ ops6_writes h
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_v17 (V0 : Valuation τ sig (Elt F)) : val6 V0 (no_index (Proc.devRef .tc main_v17)) = Cert.ReferenceIdeal.ReadP.val_main_v17 (F := F) (V0 (Proc.devRef .tc main_arg0)) :=
  (val6_keep V0 main_v17 (by decide)).trans (val5_main_v17 V0)
theorem val6_main_v19 (V0 : Valuation τ sig (Elt F)) : val6 V0 (no_index (Proc.devRef .tc main_v19)) = Cert.ReferenceIdeal.ReadP.val_main_v19 (F := F) (V0 (Proc.devRef .tc main_arg0)) :=
  (val6_keep V0 main_v19 (by decide)).trans (val5_main_v19 V0)
theorem val6_main_v23 (V0 : Valuation τ sig (Elt F)) : val6 V0 (no_index (Proc.devRef .tc main_v23)) = Cert.ReferenceIdeal.ReadP.val_main_v23 (F := F) (V0 (Proc.devRef .tc main_arg0)) :=
  (val6_keep V0 main_v23 (by decide)).trans (val5_main_v23 V0)
theorem val6_main_v25 (V0 : Valuation τ sig (Elt F)) : val6 V0 (no_index (Proc.devRef .tc main_v25)) = Cert.ReferenceIdeal.ReadP.val_main_v25 (F := F) (V0 (Proc.devRef .tc main_arg0)) :=
  (val6_keep V0 main_v25 (by decide)).trans (val5_main_v25 V0)
theorem val6_main_v27 (V0 : Valuation τ sig (Elt F)) : val6 V0 (no_index (Proc.devRef .tc main_v27)) = Cert.ReferenceIdeal.ReadP.val_main_v27 (F := F) (V0 (Proc.devRef .tc main_arg0)) :=
  (val6_keep V0 main_v27 (by decide)).trans (val5_main_v27 V0)
theorem val6_main_v28 (V0 : Valuation τ sig (Elt F)) : val6 V0 (no_index (Proc.devRef .tc main_v28)) = Cert.ReferenceIdeal.ReadP.val_main_v28 (F := F) (V0 (Proc.devRef .tc main_arg0)) :=
  (val6_keep V0 main_v28 (by decide)).trans (val5_main_v28 V0)
theorem val6_main_v29 (V0 : Valuation τ sig (Elt F)) : val6 V0 (no_index (Proc.devRef .tc main_v29)) = Cert.ReferenceIdeal.ReadP.val_main_v29 (F := F) (V0 (Proc.devRef .tc main_arg0)) :=
  (val6_keep V0 main_v29 (by decide)).trans (val5_main_v29 V0)
theorem val6_main_v30 (V0 : Valuation τ sig (Elt F)) : val6 V0 (no_index (Proc.devRef .tc main_v30)) = Cert.ReferenceIdeal.ReadP.val_main_v30 (F := F) (V0 (Proc.devRef .tc main_arg0)) :=
  (val6_keep V0 main_v30 (by decide)).trans (val5_main_v30 V0)
theorem val6_main_v77 (V0 : Valuation τ sig (Elt F)) : val6 V0 (no_index (Proc.devRef .tc main_v77)) = Cert.ReferenceIdeal.ReadP.val_main_v77 (F := F) (V0 (Proc.devRef .tc main_arg0)) (V0 (Proc.devRef .tc main_arg1)) :=
  (val6_keep V0 main_v77 (by decide)).trans (val5_main_v77 V0)
set_option maxHeartbeats 4000000 in
theorem val6_main_v101 (V0 : Valuation τ sig (Elt F)) : val6 V0 (no_index (Proc.devRef .tc main_v101)) = Cert.ReferenceIdeal.ReadP.val_main_v101 (F := F) (V0 (Proc.devRef .tc main_arg0)) (V0 (Proc.devRef .tc main_arg1)) := by
  unfold val6
  simp only [ops6]
  after_results_simp9
  simp only [val5_main_v28, val5_main_v95, val5_main_v94, val5_main_v93, val5_main_arg1]
  all_goals rfl
set_option maxHeartbeats 4000000 in
theorem val6_main_v117 (V0 : Valuation τ sig (Elt F)) : val6 V0 (no_index (Proc.devRef .tc main_v117)) = Cert.ReferenceIdeal.ReadP.val_main_v117 (F := F) (V0 (Proc.devRef .tc main_arg0)) := by
  unfold val6
  simp only [ops6]
  after_results_simp9
  simp only [val5_main_v21]
  all_goals rfl
set_option maxHeartbeats 4000000 in
theorem val6_main_v118 (V0 : Valuation τ sig (Elt F)) : val6 V0 (no_index (Proc.devRef .tc main_v118)) = Cert.ReferenceIdeal.ReadP.val_main_v118 (F := F) (V0 (Proc.devRef .tc main_arg0)) := by
  unfold val6
  simp only [ops6]
  after_results_simp9
  simp only [val5_main_v25]
  all_goals rfl
set_option maxHeartbeats 4000000 in
theorem val6_main_v119 (V0 : Valuation τ sig (Elt F)) : val6 V0 (no_index (Proc.devRef .tc main_v119)) = Cert.ReferenceIdeal.ReadP.val_main_v119 (F := F) (V0 (Proc.devRef .tc main_arg0)) := by
  unfold val6
  simp only [ops6]
  after_results_simp9
  simp only [val5_main_v23]
  all_goals rfl

/-- What a core's buffers hold after the first 7 stretches. -/
def val7 (V0 : Valuation τ sig (Elt F)) : Valuation τ sig (Elt F) := after ops7 (val6 V0)
/-- The buffers stretch 7 writes. -/
abbrev ops7_W : List (Ref sig .tc) := [main_v120, main_v121, main_v122, main_v123, main_v124, main_c_32, main_v125, main_v126, main_c_33, main_v127, main_v128, main_v129, main_c_34, main_v130, main_v131, main_c_35, main_v132, main_v133, main_v134, main_c_36, main_v135, main_v136, main_c_37, main_v137, main_v138, main_v139]
set_option maxHeartbeats 4000000 in
theorem ops7_writes : (ops7 : List (HloOp τ sig (Elt F))).Forall fun op => op.writes ⊆ (ops7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 7 does not write keeps its contents through it. -/
theorem val7_keep (V0 : Valuation τ sig (Elt F)) (r : Ref sig .tc) (h : r ∉ ops7_W) :
    val7 V0 (Proc.devRef .tc r) = val6 V0 (Proc.devRef .tc r) :=
  after_of_writes_sub ops7 _ ops7_writes h
theorem val7_main_arg0 (V0 : Valuation τ sig (Elt F)) : val7 V0 (no_index (Proc.devRef .tc main_arg0)) = V0 (Proc.devRef .tc main_arg0) :=
  (val7_keep V0 main_arg0 (by decide)).trans (val6_main_arg0 V0)
theorem val7_main_arg1 (V0 : Valuation τ sig (Elt F)) : val7 V0 (no_index (Proc.devRef .tc main_arg1)) = V0 (Proc.devRef .tc main_arg1) :=
  (val7_keep V0 main_arg1 (by decide)).trans (val6_main_arg1 V0)
theorem val7_main_v17 (V0 : Valuation τ sig (Elt F)) : val7 V0 (no_index (Proc.devRef .tc main_v17)) = Cert.ReferenceIdeal.ReadP.val_main_v17 (F := F) (V0 (Proc.devRef .tc main_arg0)) :=
  (val7_keep V0 main_v17 (by decide)).trans (val6_main_v17 V0)
theorem val7_main_v19 (V0 : Valuation τ sig (Elt F)) : val7 V0 (no_index (Proc.devRef .tc main_v19)) = Cert.ReferenceIdeal.ReadP.val_main_v19 (F := F) (V0 (Proc.devRef .tc main_arg0)) :=
  (val7_keep V0 main_v19 (by decide)).trans (val6_main_v19 V0)
theorem val7_main_v23 (V0 : Valuation τ sig (Elt F)) : val7 V0 (no_index (Proc.devRef .tc main_v23)) = Cert.ReferenceIdeal.ReadP.val_main_v23 (F := F) (V0 (Proc.devRef .tc main_arg0)) :=
  (val7_keep V0 main_v23 (by decide)).trans (val6_main_v23 V0)
theorem val7_main_v25 (V0 : Valuation τ sig (Elt F)) : val7 V0 (no_index (Proc.devRef .tc main_v25)) = Cert.ReferenceIdeal.ReadP.val_main_v25 (F := F) (V0 (Proc.devRef .tc main_arg0)) :=
  (val7_keep V0 main_v25 (by decide)).trans (val6_main_v25 V0)
theorem val7_main_v27 (V0 : Valuation τ sig (Elt F)) : val7 V0 (no_index (Proc.devRef .tc main_v27)) = Cert.ReferenceIdeal.ReadP.val_main_v27 (F := F) (V0 (Proc.devRef .tc main_arg0)) :=
  (val7_keep V0 main_v27 (by decide)).trans (val6_main_v27 V0)
theorem val7_main_v28 (V0 : Valuation τ sig (Elt F)) : val7 V0 (no_index (Proc.devRef .tc main_v28)) = Cert.ReferenceIdeal.ReadP.val_main_v28 (F := F) (V0 (Proc.devRef .tc main_arg0)) :=
  (val7_keep V0 main_v28 (by decide)).trans (val6_main_v28 V0)
theorem val7_main_v29 (V0 : Valuation τ sig (Elt F)) : val7 V0 (no_index (Proc.devRef .tc main_v29)) = Cert.ReferenceIdeal.ReadP.val_main_v29 (F := F) (V0 (Proc.devRef .tc main_arg0)) :=
  (val7_keep V0 main_v29 (by decide)).trans (val6_main_v29 V0)
theorem val7_main_v30 (V0 : Valuation τ sig (Elt F)) : val7 V0 (no_index (Proc.devRef .tc main_v30)) = Cert.ReferenceIdeal.ReadP.val_main_v30 (F := F) (V0 (Proc.devRef .tc main_arg0)) :=
  (val7_keep V0 main_v30 (by decide)).trans (val6_main_v30 V0)
theorem val7_main_v77 (V0 : Valuation τ sig (Elt F)) : val7 V0 (no_index (Proc.devRef .tc main_v77)) = Cert.ReferenceIdeal.ReadP.val_main_v77 (F := F) (V0 (Proc.devRef .tc main_arg0)) (V0 (Proc.devRef .tc main_arg1)) :=
  (val7_keep V0 main_v77 (by decide)).trans (val6_main_v77 V0)
set_option maxHeartbeats 4000000 in
theorem val7_main_v124 (V0 : Valuation τ sig (Elt F)) : val7 V0 (no_index (Proc.devRef .tc main_v124)) = Cert.ReferenceIdeal.ReadP.val_main_v124 (F := F) (V0 (Proc.devRef .tc main_arg0)) (V0 (Proc.devRef .tc main_arg1)) := by
  unfold val7
  simp only [ops7]
  after_results_simp9
  simp only [val6_main_v28, val6_main_v119, val6_main_v118, val6_main_v117, val6_main_arg1, val6_main_v101]
  all_goals rfl
set_option maxHeartbeats 4000000 in
theorem val7_main_v129 (V0 : Valuation τ sig (Elt F)) : val7 V0 (no_index (Proc.devRef .tc main_v129)) = Cert.ReferenceIdeal.ReadP.val_main_v129 (F := F) (V0 (Proc.devRef .tc main_arg0)) := by
  unfold val7
  simp only [ops7]
  after_results_simp9
  simp only [val6_main_v27]
  all_goals rfl
set_option maxHeartbeats 4000000 in
theorem val7_main_v134 (V0 : Valuation τ sig (Elt F)) : val7 V0 (no_index (Proc.devRef .tc main_v134)) = Cert.ReferenceIdeal.ReadP.val_main_v134 (F := F) (V0 (Proc.devRef .tc main_arg0)) := by
  unfold val7
  simp only [ops7]
  after_results_simp9
  simp only [val6_main_v19]
  all_goals rfl
set_option maxHeartbeats 4000000 in
theorem val7_main_v139 (V0 : Valuation τ sig (Elt F)) : val7 V0 (no_index (Proc.devRef .tc main_v139)) = Cert.ReferenceIdeal.ReadP.val_main_v139 (F := F) (V0 (Proc.devRef .tc main_arg0)) := by
  unfold val7
  simp only [ops7]
  after_results_simp9
  simp only [val6_main_v17]
  all_goals rfl

/-- What a core's buffers hold after the first 8 stretches. -/
def val8 (V0 : Valuation τ sig (Elt F)) : Valuation τ sig (Elt F) := after ops8 (val7 V0)
/-- The buffers stretch 8 writes. -/
abbrev ops8_W : List (Ref sig .tc) := [main_v140, main_v141, main_v142]
set_option maxHeartbeats 4000000 in
theorem ops8_writes : (ops8 : List (HloOp τ sig (Elt F))).Forall fun op => op.writes ⊆ (ops8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 8 does not write keeps its contents through it. -/
theorem val8_keep (V0 : Valuation τ sig (Elt F)) (r : Ref sig .tc) (h : r ∉ ops8_W) :
    val8 V0 (Proc.devRef .tc r) = val7 V0 (Proc.devRef .tc r) :=
  after_of_writes_sub ops8 _ ops8_writes h
theorem val8_main_arg0 (V0 : Valuation τ sig (Elt F)) : val8 V0 (no_index (Proc.devRef .tc main_arg0)) = V0 (Proc.devRef .tc main_arg0) :=
  (val8_keep V0 main_arg0 (by decide)).trans (val7_main_arg0 V0)
theorem val8_main_arg1 (V0 : Valuation τ sig (Elt F)) : val8 V0 (no_index (Proc.devRef .tc main_arg1)) = V0 (Proc.devRef .tc main_arg1) :=
  (val8_keep V0 main_arg1 (by decide)).trans (val7_main_arg1 V0)
theorem val8_main_v17 (V0 : Valuation τ sig (Elt F)) : val8 V0 (no_index (Proc.devRef .tc main_v17)) = Cert.ReferenceIdeal.ReadP.val_main_v17 (F := F) (V0 (Proc.devRef .tc main_arg0)) :=
  (val8_keep V0 main_v17 (by decide)).trans (val7_main_v17 V0)
theorem val8_main_v19 (V0 : Valuation τ sig (Elt F)) : val8 V0 (no_index (Proc.devRef .tc main_v19)) = Cert.ReferenceIdeal.ReadP.val_main_v19 (F := F) (V0 (Proc.devRef .tc main_arg0)) :=
  (val8_keep V0 main_v19 (by decide)).trans (val7_main_v19 V0)
theorem val8_main_v23 (V0 : Valuation τ sig (Elt F)) : val8 V0 (no_index (Proc.devRef .tc main_v23)) = Cert.ReferenceIdeal.ReadP.val_main_v23 (F := F) (V0 (Proc.devRef .tc main_arg0)) :=
  (val8_keep V0 main_v23 (by decide)).trans (val7_main_v23 V0)
theorem val8_main_v25 (V0 : Valuation τ sig (Elt F)) : val8 V0 (no_index (Proc.devRef .tc main_v25)) = Cert.ReferenceIdeal.ReadP.val_main_v25 (F := F) (V0 (Proc.devRef .tc main_arg0)) :=
  (val8_keep V0 main_v25 (by decide)).trans (val7_main_v25 V0)
theorem val8_main_v27 (V0 : Valuation τ sig (Elt F)) : val8 V0 (no_index (Proc.devRef .tc main_v27)) = Cert.ReferenceIdeal.ReadP.val_main_v27 (F := F) (V0 (Proc.devRef .tc main_arg0)) :=
  (val8_keep V0 main_v27 (by decide)).trans (val7_main_v27 V0)
theorem val8_main_v28 (V0 : Valuation τ sig (Elt F)) : val8 V0 (no_index (Proc.devRef .tc main_v28)) = Cert.ReferenceIdeal.ReadP.val_main_v28 (F := F) (V0 (Proc.devRef .tc main_arg0)) :=
  (val8_keep V0 main_v28 (by decide)).trans (val7_main_v28 V0)
theorem val8_main_v29 (V0 : Valuation τ sig (Elt F)) : val8 V0 (no_index (Proc.devRef .tc main_v29)) = Cert.ReferenceIdeal.ReadP.val_main_v29 (F := F) (V0 (Proc.devRef .tc main_arg0)) :=
  (val8_keep V0 main_v29 (by decide)).trans (val7_main_v29 V0)
theorem val8_main_v30 (V0 : Valuation τ sig (Elt F)) : val8 V0 (no_index (Proc.devRef .tc main_v30)) = Cert.ReferenceIdeal.ReadP.val_main_v30 (F := F) (V0 (Proc.devRef .tc main_arg0)) :=
  (val8_keep V0 main_v30 (by decide)).trans (val7_main_v30 V0)
theorem val8_main_v77 (V0 : Valuation τ sig (Elt F)) : val8 V0 (no_index (Proc.devRef .tc main_v77)) = Cert.ReferenceIdeal.ReadP.val_main_v77 (F := F) (V0 (Proc.devRef .tc main_arg0)) (V0 (Proc.devRef .tc main_arg1)) :=
  (val8_keep V0 main_v77 (by decide)).trans (val7_main_v77 V0)
theorem val8_main_v124 (V0 : Valuation τ sig (Elt F)) : val8 V0 (no_index (Proc.devRef .tc main_v124)) = Cert.ReferenceIdeal.ReadP.val_main_v124 (F := F) (V0 (Proc.devRef .tc main_arg0)) (V0 (Proc.devRef .tc main_arg1)) :=
  (val8_keep V0 main_v124 (by decide)).trans (val7_main_v124 V0)
set_option maxHeartbeats 4000000 in
theorem val8_main_v140 (V0 : Valuation τ sig (Elt F)) : val8 V0 (no_index (Proc.devRef .tc main_v140)) = Cert.ReferenceIdeal.ReadP.val_main_v140 (F := F) (V0 (Proc.devRef .tc main_arg0)) := by
  unfold val8
  simp only [ops8]
  after_results_simp9
  simp only [val7_main_v129]
  all_goals rfl
set_option maxHeartbeats 4000000 in
theorem val8_main_v141 (V0 : Valuation τ sig (Elt F)) : val8 V0 (no_index (Proc.devRef .tc main_v141)) = Cert.ReferenceIdeal.ReadP.val_main_v141 (F := F) (V0 (Proc.devRef .tc main_arg0)) := by
  unfold val8
  simp only [ops8]
  after_results_simp9
  simp only [val7_main_v134]
  all_goals rfl
set_option maxHeartbeats 4000000 in
theorem val8_main_v142 (V0 : Valuation τ sig (Elt F)) : val8 V0 (no_index (Proc.devRef .tc main_v142)) = Cert.ReferenceIdeal.ReadP.val_main_v142 (F := F) (V0 (Proc.devRef .tc main_arg0)) := by
  unfold val8
  simp only [ops8]
  after_results_simp9
  simp only [val7_main_v139]
  all_goals rfl

/-- What a core's buffers hold after the first 9 stretches. -/
def val9 (V0 : Valuation τ sig (Elt F)) : Valuation τ sig (Elt F) := after ops9 (val8 V0)
/-- The buffers stretch 9 writes. -/
abbrev ops9_W : List (Ref sig .tc) := [main_v143, main_v144, main_cst_38, main_v145, main_v146, main_v147, main_v148, main_c_39, main_v149, main_v150, main_c_40, main_v151, main_v152, main_v153, main_c_41, main_v154, main_v155, main_c_42, main_v156, main_v157, main_v158, main_c_43, main_v159, main_v160, main_c_44, main_v161, main_v162, main_v163, main_v164, main_v165, main_v166]
set_option maxHeartbeats 4000000 in
theorem ops9_writes : (ops9 : List (HloOp τ sig (Elt F))).Forall fun op => op.writes ⊆ (ops9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 9 does not write keeps its contents through it. -/
theorem val9_keep (V0 : Valuation τ sig (Elt F)) (r : Ref sig .tc) (h : r ∉ ops9_W) :
    val9 V0 (Proc.devRef .tc r) = val8 V0 (Proc.devRef .tc r) :=
  after_of_writes_sub ops9 _ ops9_writes h
theorem val9_main_arg0 (V0 : Valuation τ sig (Elt F)) : val9 V0 (no_index (Proc.devRef .tc main_arg0)) = V0 (Proc.devRef .tc main_arg0) :=
  (val9_keep V0 main_arg0 (by decide)).trans (val8_main_arg0 V0)
theorem val9_main_arg1 (V0 : Valuation τ sig (Elt F)) : val9 V0 (no_index (Proc.devRef .tc main_arg1)) = V0 (Proc.devRef .tc main_arg1) :=
  (val9_keep V0 main_arg1 (by decide)).trans (val8_main_arg1 V0)
theorem val9_main_v17 (V0 : Valuation τ sig (Elt F)) : val9 V0 (no_index (Proc.devRef .tc main_v17)) = Cert.ReferenceIdeal.ReadP.val_main_v17 (F := F) (V0 (Proc.devRef .tc main_arg0)) :=
  (val9_keep V0 main_v17 (by decide)).trans (val8_main_v17 V0)
theorem val9_main_v23 (V0 : Valuation τ sig (Elt F)) : val9 V0 (no_index (Proc.devRef .tc main_v23)) = Cert.ReferenceIdeal.ReadP.val_main_v23 (F := F) (V0 (Proc.devRef .tc main_arg0)) :=
  (val9_keep V0 main_v23 (by decide)).trans (val8_main_v23 V0)
theorem val9_main_v25 (V0 : Valuation τ sig (Elt F)) : val9 V0 (no_index (Proc.devRef .tc main_v25)) = Cert.ReferenceIdeal.ReadP.val_main_v25 (F := F) (V0 (Proc.devRef .tc main_arg0)) :=
  (val9_keep V0 main_v25 (by decide)).trans (val8_main_v25 V0)
theorem val9_main_v27 (V0 : Valuation τ sig (Elt F)) : val9 V0 (no_index (Proc.devRef .tc main_v27)) = Cert.ReferenceIdeal.ReadP.val_main_v27 (F := F) (V0 (Proc.devRef .tc main_arg0)) :=
  (val9_keep V0 main_v27 (by decide)).trans (val8_main_v27 V0)
theorem val9_main_v28 (V0 : Valuation τ sig (Elt F)) : val9 V0 (no_index (Proc.devRef .tc main_v28)) = Cert.ReferenceIdeal.ReadP.val_main_v28 (F := F) (V0 (Proc.devRef .tc main_arg0)) :=
  (val9_keep V0 main_v28 (by decide)).trans (val8_main_v28 V0)
theorem val9_main_v29 (V0 : Valuation τ sig (Elt F)) : val9 V0 (no_index (Proc.devRef .tc main_v29)) = Cert.ReferenceIdeal.ReadP.val_main_v29 (F := F) (V0 (Proc.devRef .tc main_arg0)) :=
  (val9_keep V0 main_v29 (by decide)).trans (val8_main_v29 V0)
theorem val9_main_v30 (V0 : Valuation τ sig (Elt F)) : val9 V0 (no_index (Proc.devRef .tc main_v30)) = Cert.ReferenceIdeal.ReadP.val_main_v30 (F := F) (V0 (Proc.devRef .tc main_arg0)) :=
  (val9_keep V0 main_v30 (by decide)).trans (val8_main_v30 V0)
theorem val9_main_v77 (V0 : Valuation τ sig (Elt F)) : val9 V0 (no_index (Proc.devRef .tc main_v77)) = Cert.ReferenceIdeal.ReadP.val_main_v77 (F := F) (V0 (Proc.devRef .tc main_arg0)) (V0 (Proc.devRef .tc main_arg1)) :=
  (val9_keep V0 main_v77 (by decide)).trans (val8_main_v77 V0)
theorem val9_main_v124 (V0 : Valuation τ sig (Elt F)) : val9 V0 (no_index (Proc.devRef .tc main_v124)) = Cert.ReferenceIdeal.ReadP.val_main_v124 (F := F) (V0 (Proc.devRef .tc main_arg0)) (V0 (Proc.devRef .tc main_arg1)) :=
  (val9_keep V0 main_v124 (by decide)).trans (val8_main_v124 V0)
set_option maxHeartbeats 4000000 in
theorem val9_main_v148 (V0 : Valuation τ sig (Elt F)) : val9 V0 (no_index (Proc.devRef .tc main_v148)) = Cert.ReferenceIdeal.ReadP.val_main_v148 (F := F) (V0 (Proc.devRef .tc main_arg0)) (V0 (Proc.devRef .tc main_arg1)) := by
  unfold val9
  simp only [ops9]
  after_results_simp9
  simp only [val8_main_v28, val8_main_v142, val8_main_v141, val8_main_v140, val8_main_arg1]
  all_goals rfl
set_option maxHeartbeats 4000000 in
theorem val9_main_v164 (V0 : Valuation τ sig (Elt F)) : val9 V0 (no_index (Proc.devRef .tc main_v164)) = Cert.ReferenceIdeal.ReadP.val_main_v164 (F := F) (V0 (Proc.devRef .tc main_arg0)) := by
  unfold val9
  simp only [ops9]
  after_results_simp9
  simp only [val8_main_v27]
  all_goals rfl
set_option maxHeartbeats 4000000 in
theorem val9_main_v165 (V0 : Valuation τ sig (Elt F)) : val9 V0 (no_index (Proc.devRef .tc main_v165)) = Cert.ReferenceIdeal.ReadP.val_main_v165 (F := F) (V0 (Proc.devRef .tc main_arg0)) := by
  unfold val9
  simp only [ops9]
  after_results_simp9
  simp only [val8_main_v19]
  all_goals rfl
set_option maxHeartbeats 4000000 in
theorem val9_main_v166 (V0 : Valuation τ sig (Elt F)) : val9 V0 (no_index (Proc.devRef .tc main_v166)) = Cert.ReferenceIdeal.ReadP.val_main_v166 (F := F) (V0 (Proc.devRef .tc main_arg0)) := by
  unfold val9
  simp only [ops9]
  after_results_simp9
  simp only [val8_main_v23]
  all_goals rfl

/-- What a core's buffers hold after the first 10 stretches. -/
def val10 (V0 : Valuation τ sig (Elt F)) : Valuation τ sig (Elt F) := after ops10 (val9 V0)
/-- The buffers stretch 10 writes. -/
abbrev ops10_W : List (Ref sig .tc) := [main_v167, main_v168, main_v169, main_v170, main_v171, main_c_45, main_v172, main_v173, main_c_46, main_v174, main_v175, main_v176, main_c_47, main_v177, main_v178, main_c_48, main_v179, main_v180, main_v181, main_c_49, main_v182, main_v183, main_c_50, main_v184, main_v185, main_v186]
set_option maxHeartbeats 4000000 in
theorem ops10_writes : (ops10 : List (HloOp τ sig (Elt F))).Forall fun op => op.writes ⊆ (ops10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 10 does not write keeps its contents through it. -/
theorem val10_keep (V0 : Valuation τ sig (Elt F)) (r : Ref sig .tc) (h : r ∉ ops10_W) :
    val10 V0 (Proc.devRef .tc r) = val9 V0 (Proc.devRef .tc r) :=
  after_of_writes_sub ops10 _ ops10_writes h
theorem val10_main_arg0 (V0 : Valuation τ sig (Elt F)) : val10 V0 (no_index (Proc.devRef .tc main_arg0)) = V0 (Proc.devRef .tc main_arg0) :=
  (val10_keep V0 main_arg0 (by decide)).trans (val9_main_arg0 V0)
theorem val10_main_arg1 (V0 : Valuation τ sig (Elt F)) : val10 V0 (no_index (Proc.devRef .tc main_arg1)) = V0 (Proc.devRef .tc main_arg1) :=
  (val10_keep V0 main_arg1 (by decide)).trans (val9_main_arg1 V0)
theorem val10_main_v23 (V0 : Valuation τ sig (Elt F)) : val10 V0 (no_index (Proc.devRef .tc main_v23)) = Cert.ReferenceIdeal.ReadP.val_main_v23 (F := F) (V0 (Proc.devRef .tc main_arg0)) :=
  (val10_keep V0 main_v23 (by decide)).trans (val9_main_v23 V0)
theorem val10_main_v25 (V0 : Valuation τ sig (Elt F)) : val10 V0 (no_index (Proc.devRef .tc main_v25)) = Cert.ReferenceIdeal.ReadP.val_main_v25 (F := F) (V0 (Proc.devRef .tc main_arg0)) :=
  (val10_keep V0 main_v25 (by decide)).trans (val9_main_v25 V0)
theorem val10_main_v27 (V0 : Valuation τ sig (Elt F)) : val10 V0 (no_index (Proc.devRef .tc main_v27)) = Cert.ReferenceIdeal.ReadP.val_main_v27 (F := F) (V0 (Proc.devRef .tc main_arg0)) :=
  (val10_keep V0 main_v27 (by decide)).trans (val9_main_v27 V0)
theorem val10_main_v28 (V0 : Valuation τ sig (Elt F)) : val10 V0 (no_index (Proc.devRef .tc main_v28)) = Cert.ReferenceIdeal.ReadP.val_main_v28 (F := F) (V0 (Proc.devRef .tc main_arg0)) :=
  (val10_keep V0 main_v28 (by decide)).trans (val9_main_v28 V0)
theorem val10_main_v29 (V0 : Valuation τ sig (Elt F)) : val10 V0 (no_index (Proc.devRef .tc main_v29)) = Cert.ReferenceIdeal.ReadP.val_main_v29 (F := F) (V0 (Proc.devRef .tc main_arg0)) :=
  (val10_keep V0 main_v29 (by decide)).trans (val9_main_v29 V0)
theorem val10_main_v30 (V0 : Valuation τ sig (Elt F)) : val10 V0 (no_index (Proc.devRef .tc main_v30)) = Cert.ReferenceIdeal.ReadP.val_main_v30 (F := F) (V0 (Proc.devRef .tc main_arg0)) :=
  (val10_keep V0 main_v30 (by decide)).trans (val9_main_v30 V0)
theorem val10_main_v77 (V0 : Valuation τ sig (Elt F)) : val10 V0 (no_index (Proc.devRef .tc main_v77)) = Cert.ReferenceIdeal.ReadP.val_main_v77 (F := F) (V0 (Proc.devRef .tc main_arg0)) (V0 (Proc.devRef .tc main_arg1)) :=
  (val10_keep V0 main_v77 (by decide)).trans (val9_main_v77 V0)
theorem val10_main_v124 (V0 : Valuation τ sig (Elt F)) : val10 V0 (no_index (Proc.devRef .tc main_v124)) = Cert.ReferenceIdeal.ReadP.val_main_v124 (F := F) (V0 (Proc.devRef .tc main_arg0)) (V0 (Proc.devRef .tc main_arg1)) :=
  (val10_keep V0 main_v124 (by decide)).trans (val9_main_v124 V0)
set_option maxHeartbeats 4000000 in
theorem val10_main_v171 (V0 : Valuation τ sig (Elt F)) : val10 V0 (no_index (Proc.devRef .tc main_v171)) = Cert.ReferenceIdeal.ReadP.val_main_v171 (F := F) (V0 (Proc.devRef .tc main_arg0)) (V0 (Proc.devRef .tc main_arg1)) := by
  unfold val10
  simp only [ops10]
  after_results_simp9
  simp only [val9_main_v28, val9_main_v166, val9_main_v165, val9_main_v164, val9_main_arg1, val9_main_v148]
  all_goals rfl
set_option maxHeartbeats 4000000 in
theorem val10_main_v176 (V0 : Valuation τ sig (Elt F)) : val10 V0 (no_index (Proc.devRef .tc main_v176)) = Cert.ReferenceIdeal.ReadP.val_main_v176 (F := F) (V0 (Proc.devRef .tc main_arg0)) := by
  unfold val10
  simp only [ops10]
  after_results_simp9
  simp only [val9_main_v27]
  all_goals rfl
set_option maxHeartbeats 4000000 in
theorem val10_main_v181 (V0 : Valuation τ sig (Elt F)) : val10 V0 (no_index (Proc.devRef .tc main_v181)) = Cert.ReferenceIdeal.ReadP.val_main_v181 (F := F) (V0 (Proc.devRef .tc main_arg0)) := by
  unfold val10
  simp only [ops10]
  after_results_simp9
  simp only [val9_main_v25]
  all_goals rfl
set_option maxHeartbeats 4000000 in
theorem val10_main_v186 (V0 : Valuation τ sig (Elt F)) : val10 V0 (no_index (Proc.devRef .tc main_v186)) = Cert.ReferenceIdeal.ReadP.val_main_v186 (F := F) (V0 (Proc.devRef .tc main_arg0)) := by
  unfold val10
  simp only [ops10]
  after_results_simp9
  simp only [val9_main_v17]
  all_goals rfl

/-- What a core's buffers hold after the first 11 stretches. -/
def val11 (V0 : Valuation τ sig (Elt F)) : Valuation τ sig (Elt F) := after ops11 (val10 V0)
/-- The buffers stretch 11 writes. -/
abbrev ops11_W : List (Ref sig .tc) := [main_v187, main_v188, main_v189]
set_option maxHeartbeats 4000000 in
theorem ops11_writes : (ops11 : List (HloOp τ sig (Elt F))).Forall fun op => op.writes ⊆ (ops11_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 11 does not write keeps its contents through it. -/
theorem val11_keep (V0 : Valuation τ sig (Elt F)) (r : Ref sig .tc) (h : r ∉ ops11_W) :
    val11 V0 (Proc.devRef .tc r) = val10 V0 (Proc.devRef .tc r) :=
  after_of_writes_sub ops11 _ ops11_writes h
theorem val11_main_arg0 (V0 : Valuation τ sig (Elt F)) : val11 V0 (no_index (Proc.devRef .tc main_arg0)) = V0 (Proc.devRef .tc main_arg0) :=
  (val11_keep V0 main_arg0 (by decide)).trans (val10_main_arg0 V0)
theorem val11_main_arg1 (V0 : Valuation τ sig (Elt F)) : val11 V0 (no_index (Proc.devRef .tc main_arg1)) = V0 (Proc.devRef .tc main_arg1) :=
  (val11_keep V0 main_arg1 (by decide)).trans (val10_main_arg1 V0)
theorem val11_main_v23 (V0 : Valuation τ sig (Elt F)) : val11 V0 (no_index (Proc.devRef .tc main_v23)) = Cert.ReferenceIdeal.ReadP.val_main_v23 (F := F) (V0 (Proc.devRef .tc main_arg0)) :=
  (val11_keep V0 main_v23 (by decide)).trans (val10_main_v23 V0)
theorem val11_main_v25 (V0 : Valuation τ sig (Elt F)) : val11 V0 (no_index (Proc.devRef .tc main_v25)) = Cert.ReferenceIdeal.ReadP.val_main_v25 (F := F) (V0 (Proc.devRef .tc main_arg0)) :=
  (val11_keep V0 main_v25 (by decide)).trans (val10_main_v25 V0)
theorem val11_main_v27 (V0 : Valuation τ sig (Elt F)) : val11 V0 (no_index (Proc.devRef .tc main_v27)) = Cert.ReferenceIdeal.ReadP.val_main_v27 (F := F) (V0 (Proc.devRef .tc main_arg0)) :=
  (val11_keep V0 main_v27 (by decide)).trans (val10_main_v27 V0)
theorem val11_main_v28 (V0 : Valuation τ sig (Elt F)) : val11 V0 (no_index (Proc.devRef .tc main_v28)) = Cert.ReferenceIdeal.ReadP.val_main_v28 (F := F) (V0 (Proc.devRef .tc main_arg0)) :=
  (val11_keep V0 main_v28 (by decide)).trans (val10_main_v28 V0)
theorem val11_main_v29 (V0 : Valuation τ sig (Elt F)) : val11 V0 (no_index (Proc.devRef .tc main_v29)) = Cert.ReferenceIdeal.ReadP.val_main_v29 (F := F) (V0 (Proc.devRef .tc main_arg0)) :=
  (val11_keep V0 main_v29 (by decide)).trans (val10_main_v29 V0)
theorem val11_main_v30 (V0 : Valuation τ sig (Elt F)) : val11 V0 (no_index (Proc.devRef .tc main_v30)) = Cert.ReferenceIdeal.ReadP.val_main_v30 (F := F) (V0 (Proc.devRef .tc main_arg0)) :=
  (val11_keep V0 main_v30 (by decide)).trans (val10_main_v30 V0)
theorem val11_main_v77 (V0 : Valuation τ sig (Elt F)) : val11 V0 (no_index (Proc.devRef .tc main_v77)) = Cert.ReferenceIdeal.ReadP.val_main_v77 (F := F) (V0 (Proc.devRef .tc main_arg0)) (V0 (Proc.devRef .tc main_arg1)) :=
  (val11_keep V0 main_v77 (by decide)).trans (val10_main_v77 V0)
theorem val11_main_v124 (V0 : Valuation τ sig (Elt F)) : val11 V0 (no_index (Proc.devRef .tc main_v124)) = Cert.ReferenceIdeal.ReadP.val_main_v124 (F := F) (V0 (Proc.devRef .tc main_arg0)) (V0 (Proc.devRef .tc main_arg1)) :=
  (val11_keep V0 main_v124 (by decide)).trans (val10_main_v124 V0)
theorem val11_main_v171 (V0 : Valuation τ sig (Elt F)) : val11 V0 (no_index (Proc.devRef .tc main_v171)) = Cert.ReferenceIdeal.ReadP.val_main_v171 (F := F) (V0 (Proc.devRef .tc main_arg0)) (V0 (Proc.devRef .tc main_arg1)) :=
  (val11_keep V0 main_v171 (by decide)).trans (val10_main_v171 V0)
set_option maxHeartbeats 4000000 in
theorem val11_main_v187 (V0 : Valuation τ sig (Elt F)) : val11 V0 (no_index (Proc.devRef .tc main_v187)) = Cert.ReferenceIdeal.ReadP.val_main_v187 (F := F) (V0 (Proc.devRef .tc main_arg0)) := by
  unfold val11
  simp only [ops11]
  after_results_simp9
  simp only [val10_main_v176]
  all_goals rfl
set_option maxHeartbeats 4000000 in
theorem val11_main_v188 (V0 : Valuation τ sig (Elt F)) : val11 V0 (no_index (Proc.devRef .tc main_v188)) = Cert.ReferenceIdeal.ReadP.val_main_v188 (F := F) (V0 (Proc.devRef .tc main_arg0)) := by
  unfold val11
  simp only [ops11]
  after_results_simp9
  simp only [val10_main_v181]
  all_goals rfl
set_option maxHeartbeats 4000000 in
theorem val11_main_v189 (V0 : Valuation τ sig (Elt F)) : val11 V0 (no_index (Proc.devRef .tc main_v189)) = Cert.ReferenceIdeal.ReadP.val_main_v189 (F := F) (V0 (Proc.devRef .tc main_arg0)) := by
  unfold val11
  simp only [ops11]
  after_results_simp9
  simp only [val10_main_v186]
  all_goals rfl

/-- What a core's buffers hold after the first 12 stretches. -/
def val12 (V0 : Valuation τ sig (Elt F)) : Valuation τ sig (Elt F) := after ops12 (val11 V0)
/-- The buffers stretch 12 writes. -/
abbrev ops12_W : List (Ref sig .tc) := [main_v190, main_v191, main_cst_51, main_v192, main_v193, main_v194, main_v195, main_c_52, main_v196, main_v197, main_c_53, main_v198, main_v199, main_v200, main_c_54, main_v201, main_v202, main_c_55, main_v203, main_v204, main_v205, main_c_56, main_v206, main_v207, main_c_57, main_v208, main_v209, main_v210, main_v211, main_v212, main_v213]
set_option maxHeartbeats 4000000 in
theorem ops12_writes : (ops12 : List (HloOp τ sig (Elt F))).Forall fun op => op.writes ⊆ (ops12_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 12 does not write keeps its contents through it. -/
theorem val12_keep (V0 : Valuation τ sig (Elt F)) (r : Ref sig .tc) (h : r ∉ ops12_W) :
    val12 V0 (Proc.devRef .tc r) = val11 V0 (Proc.devRef .tc r) :=
  after_of_writes_sub ops12 _ ops12_writes h
theorem val12_main_arg0 (V0 : Valuation τ sig (Elt F)) : val12 V0 (no_index (Proc.devRef .tc main_arg0)) = V0 (Proc.devRef .tc main_arg0) :=
  (val12_keep V0 main_arg0 (by decide)).trans (val11_main_arg0 V0)
theorem val12_main_arg1 (V0 : Valuation τ sig (Elt F)) : val12 V0 (no_index (Proc.devRef .tc main_arg1)) = V0 (Proc.devRef .tc main_arg1) :=
  (val12_keep V0 main_arg1 (by decide)).trans (val11_main_arg1 V0)
theorem val12_main_v28 (V0 : Valuation τ sig (Elt F)) : val12 V0 (no_index (Proc.devRef .tc main_v28)) = Cert.ReferenceIdeal.ReadP.val_main_v28 (F := F) (V0 (Proc.devRef .tc main_arg0)) :=
  (val12_keep V0 main_v28 (by decide)).trans (val11_main_v28 V0)
theorem val12_main_v29 (V0 : Valuation τ sig (Elt F)) : val12 V0 (no_index (Proc.devRef .tc main_v29)) = Cert.ReferenceIdeal.ReadP.val_main_v29 (F := F) (V0 (Proc.devRef .tc main_arg0)) :=
  (val12_keep V0 main_v29 (by decide)).trans (val11_main_v29 V0)
theorem val12_main_v30 (V0 : Valuation τ sig (Elt F)) : val12 V0 (no_index (Proc.devRef .tc main_v30)) = Cert.ReferenceIdeal.ReadP.val_main_v30 (F := F) (V0 (Proc.devRef .tc main_arg0)) :=
  (val12_keep V0 main_v30 (by decide)).trans (val11_main_v30 V0)
theorem val12_main_v77 (V0 : Valuation τ sig (Elt F)) : val12 V0 (no_index (Proc.devRef .tc main_v77)) = Cert.ReferenceIdeal.ReadP.val_main_v77 (F := F) (V0 (Proc.devRef .tc main_arg0)) (V0 (Proc.devRef .tc main_arg1)) :=
  (val12_keep V0 main_v77 (by decide)).trans (val11_main_v77 V0)
theorem val12_main_v124 (V0 : Valuation τ sig (Elt F)) : val12 V0 (no_index (Proc.devRef .tc main_v124)) = Cert.ReferenceIdeal.ReadP.val_main_v124 (F := F) (V0 (Proc.devRef .tc main_arg0)) (V0 (Proc.devRef .tc main_arg1)) :=
  (val12_keep V0 main_v124 (by decide)).trans (val11_main_v124 V0)
theorem val12_main_v171 (V0 : Valuation τ sig (Elt F)) : val12 V0 (no_index (Proc.devRef .tc main_v171)) = Cert.ReferenceIdeal.ReadP.val_main_v171 (F := F) (V0 (Proc.devRef .tc main_arg0)) (V0 (Proc.devRef .tc main_arg1)) :=
  (val12_keep V0 main_v171 (by decide)).trans (val11_main_v171 V0)
set_option maxHeartbeats 4000000 in
theorem val12_main_v195 (V0 : Valuation τ sig (Elt F)) : val12 V0 (no_index (Proc.devRef .tc main_v195)) = Cert.ReferenceIdeal.ReadP.val_main_v195 (F := F) (V0 (Proc.devRef .tc main_arg0)) (V0 (Proc.devRef .tc main_arg1)) := by
  unfold val12
  simp only [ops12]
  after_results_simp9
  simp only [val11_main_v28, val11_main_v189, val11_main_v188, val11_main_v187, val11_main_arg1]
  all_goals rfl
set_option maxHeartbeats 4000000 in
theorem val12_main_v211 (V0 : Valuation τ sig (Elt F)) : val12 V0 (no_index (Proc.devRef .tc main_v211)) = Cert.ReferenceIdeal.ReadP.val_main_v211 (F := F) (V0 (Proc.devRef .tc main_arg0)) := by
  unfold val12
  simp only [ops12]
  after_results_simp9
  simp only [val11_main_v27]
  all_goals rfl
set_option maxHeartbeats 4000000 in
theorem val12_main_v212 (V0 : Valuation τ sig (Elt F)) : val12 V0 (no_index (Proc.devRef .tc main_v212)) = Cert.ReferenceIdeal.ReadP.val_main_v212 (F := F) (V0 (Proc.devRef .tc main_arg0)) := by
  unfold val12
  simp only [ops12]
  after_results_simp9
  simp only [val11_main_v25]
  all_goals rfl
set_option maxHeartbeats 4000000 in
theorem val12_main_v213 (V0 : Valuation τ sig (Elt F)) : val12 V0 (no_index (Proc.devRef .tc main_v213)) = Cert.ReferenceIdeal.ReadP.val_main_v213 (F := F) (V0 (Proc.devRef .tc main_arg0)) := by
  unfold val12
  simp only [ops12]
  after_results_simp9
  simp only [val11_main_v23]
  all_goals rfl

/-- What a core's buffers hold after the first 13 stretches. -/
def val13 (V0 : Valuation τ sig (Elt F)) : Valuation τ sig (Elt F) := after ops13 (val12 V0)
/-- The buffers stretch 13 writes. -/
abbrev ops13_W : List (Ref sig .tc) := [main_v214, main_v215, main_v216, main_v217, main_v218, main_cst_58, main_v219, main_v220, main_v221, main_v222, main_v223, main_v224, main_v225, main_cst_59, main_v226, main_v227, main_v228, main_v229, main_v230, main_v231, main_v232, main_cst_60, main_v233, main_v234, main_v235, main_v236]
set_option maxHeartbeats 4000000 in
theorem ops13_writes : (ops13 : List (HloOp τ sig (Elt F))).Forall fun op => op.writes ⊆ (ops13_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 13 does not write keeps its contents through it. -/
theorem val13_keep (V0 : Valuation τ sig (Elt F)) (r : Ref sig .tc) (h : r ∉ ops13_W) :
    val13 V0 (Proc.devRef .tc r) = val12 V0 (Proc.devRef .tc r) :=
  after_of_writes_sub ops13 _ ops13_writes h
theorem val13_main_arg0 (V0 : Valuation τ sig (Elt F)) : val13 V0 (no_index (Proc.devRef .tc main_arg0)) = V0 (Proc.devRef .tc main_arg0) :=
  (val13_keep V0 main_arg0 (by decide)).trans (val12_main_arg0 V0)
theorem val13_main_arg1 (V0 : Valuation τ sig (Elt F)) : val13 V0 (no_index (Proc.devRef .tc main_arg1)) = V0 (Proc.devRef .tc main_arg1) :=
  (val13_keep V0 main_arg1 (by decide)).trans (val12_main_arg1 V0)
theorem val13_main_v30 (V0 : Valuation τ sig (Elt F)) : val13 V0 (no_index (Proc.devRef .tc main_v30)) = Cert.ReferenceIdeal.ReadP.val_main_v30 (F := F) (V0 (Proc.devRef .tc main_arg0)) :=
  (val13_keep V0 main_v30 (by decide)).trans (val12_main_v30 V0)
set_option maxHeartbeats 4000000 in
theorem val13_main_v232 (V0 : Valuation τ sig (Elt F)) : val13 V0 (no_index (Proc.devRef .tc main_v232)) = Cert.ReferenceIdeal.ReadP.val_main_v232 (F := F) (V0 (Proc.devRef .tc main_arg0)) (V0 (Proc.devRef .tc main_arg1)) := by
  unfold val13
  simp only [ops13]
  after_results_simp9
  simp only [val12_main_v29, val12_main_v28, val12_main_v213, val12_main_v212, val12_main_v211, val12_main_arg1, val12_main_v195, val12_main_v171]
  all_goals rfl
set_option maxHeartbeats 4000000 in
theorem val13_main_v236 (V0 : Valuation τ sig (Elt F)) : val13 V0 (no_index (Proc.devRef .tc main_v236)) = Cert.ReferenceIdeal.ReadP.val_main_v236 (F := F) (V0 (Proc.devRef .tc main_arg0)) (V0 (Proc.devRef .tc main_arg1)) := by
  unfold val13
  simp only [ops13]
  after_results_simp9
  simp only [val12_main_v30, val12_main_v29, val12_main_v124, val12_main_v77]
  all_goals rfl

/-- What a core's buffers hold after the first 14 stretches. -/
def val14 (V0 : Valuation τ sig (Elt F)) : Valuation τ sig (Elt F) := after ops14 (val13 V0)
/-- The buffers stretch 14 writes. -/
abbrev ops14_W : List (Ref sig .tc) := [main_v237, main_v238, main_v239, main_v240, main_v241, main_v242, main_v243, main_call1_v0, main_call1_cst, main_call1_v1, main_call1_v2, main_v244, main_v245, main_v246, main_v247, main_v248, main_v249, main_v250, main_v251, main_v252, main_cst_61, main_v253, main_cst_62, main_v254, main_v255, main_cst_63, main_v256, main_v257, main_cst_64, main_v258, main_v259, main_cst_65, main_v260, main_v261, main_cst_66, main_v262, main_v263, main_v264, main_cst_67, main_v265, main_v266, main_v267, main_cst_68, main_v268, main_v269, main_v270, main_cst_69, main_v271, main_v272, main_cst_70, main_v273, main_v274, main_cst_71, main_v275, main_v276, main_v277, main_v278, main_v279, main_v280, main_cst_72, main_v281, main_v282, main_v283, main_v284]
set_option maxHeartbeats 4000000 in
theorem ops14_writes : (ops14 : List (HloOp τ sig (Elt F))).Forall fun op => op.writes ⊆ (ops14_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 14 does not write keeps its contents through it. -/
theorem val14_keep (V0 : Valuation τ sig (Elt F)) (r : Ref sig .tc) (h : r ∉ ops14_W) :
    val14 V0 (Proc.devRef .tc r) = val13 V0 (Proc.devRef .tc r) :=
  after_of_writes_sub ops14 _ ops14_writes h
theorem val14_main_arg0 (V0 : Valuation τ sig (Elt F)) : val14 V0 (no_index (Proc.devRef .tc main_arg0)) = V0 (Proc.devRef .tc main_arg0) :=
  (val14_keep V0 main_arg0 (by decide)).trans (val13_main_arg0 V0)
theorem val14_main_arg1 (V0 : Valuation τ sig (Elt F)) : val14 V0 (no_index (Proc.devRef .tc main_arg1)) = V0 (Proc.devRef .tc main_arg1) :=
  (val14_keep V0 main_arg1 (by decide)).trans (val13_main_arg1 V0)
set_option maxHeartbeats 4000000 in
theorem val14_main_v241 (V0 : Valuation τ sig (Elt F)) : val14 V0 (no_index (Proc.devRef .tc main_v241)) = Cert.ReferenceIdeal.ReadP.val_main_v241 (F := F) (V0 (Proc.devRef .tc main_arg0)) (V0 (Proc.devRef .tc main_arg1)) := by
  unfold val14
  simp only [ops14]
  after_results_simp9
  simp only [val13_main_v30, val13_main_v232, val13_main_v236]
  all_goals rfl
set_option maxHeartbeats 4000000 in
theorem val14_main_v243 (V0 : Valuation τ sig (Elt F)) : val14 V0 (no_index (Proc.devRef .tc main_v243)) = Cert.ReferenceIdeal.ReadP.val_main_v243 (F := F) (V0 (Proc.devRef .tc main_arg0)) (V0 (Proc.devRef .tc main_arg1)) := by
  unfold val14
  simp only [ops14]
  after_results_simp9
  simp only [val13_main_v30, val13_main_v232, val13_main_v236]
  all_goals rfl
set_option maxHeartbeats 4000000 in
theorem val14_main_v259 (V0 : Valuation τ sig (Elt F)) : val14 V0 (no_index (Proc.devRef .tc main_v259)) = Cert.ReferenceIdeal.ReadP.val_main_v259 (F := F) (V0 (Proc.devRef .tc main_arg0)) := by
  unfold val14
  simp only [ops14]
  after_results_simp9
  simp only [val13_main_arg0]
  all_goals (try simp only [StableHlo.TRef.ofBuf, StableHlo.TRef.toBuf, cast_eq])
  all_goals rfl
set_option maxHeartbeats 4000000 in
theorem val14_main_v261 (V0 : Valuation τ sig (Elt F)) : val14 V0 (no_index (Proc.devRef .tc main_v261)) = Cert.ReferenceIdeal.ReadP.val_main_v261 (F := F) (V0 (Proc.devRef .tc main_arg0)) := by
  unfold val14
  simp only [ops14]
  after_results_simp9
  simp only [val13_main_arg0]
  all_goals (try simp only [StableHlo.TRef.ofBuf, StableHlo.TRef.toBuf, cast_eq])
  all_goals rfl
set_option maxHeartbeats 4000000 in
theorem val14_main_v264 (V0 : Valuation τ sig (Elt F)) : val14 V0 (no_index (Proc.devRef .tc main_v264)) = Cert.ReferenceIdeal.ReadP.val_main_v264 (F := F) (V0 (Proc.devRef .tc main_arg0)) := by
  unfold val14
  simp only [ops14]
  after_results_simp9
  simp only [val13_main_arg0]
  all_goals (try simp only [StableHlo.TRef.ofBuf, StableHlo.TRef.toBuf, cast_eq])
  all_goals rfl
set_option maxHeartbeats 4000000 in
theorem val14_main_v267 (V0 : Valuation τ sig (Elt F)) : val14 V0 (no_index (Proc.devRef .tc main_v267)) = Cert.ReferenceIdeal.ReadP.val_main_v267 (F := F) (V0 (Proc.devRef .tc main_arg0)) := by
  unfold val14
  simp only [ops14]
  after_results_simp9
  simp only [val13_main_arg0]
  all_goals (try simp only [StableHlo.TRef.ofBuf, StableHlo.TRef.toBuf, cast_eq])
  all_goals rfl
set_option maxHeartbeats 4000000 in
theorem val14_main_v274 (V0 : Valuation τ sig (Elt F)) : val14 V0 (no_index (Proc.devRef .tc main_v274)) = Cert.ReferenceIdeal.ReadP.val_main_v274 (F := F) (V0 (Proc.devRef .tc main_arg0)) := by
  unfold val14
  simp only [ops14]
  after_results_simp9
  simp only [val13_main_arg0]
  all_goals (try simp only [StableHlo.TRef.ofBuf, StableHlo.TRef.toBuf, cast_eq])
  all_goals rfl
set_option maxHeartbeats 4000000 in
theorem val14_main_v277 (V0 : Valuation τ sig (Elt F)) : val14 V0 (no_index (Proc.devRef .tc main_v277)) = Cert.ReferenceIdeal.ReadP.val_main_v277 (F := F) (V0 (Proc.devRef .tc main_arg0)) := by
  unfold val14
  simp only [ops14]
  after_results_simp9
  simp only [val13_main_arg0]
  all_goals (try simp only [StableHlo.TRef.ofBuf, StableHlo.TRef.toBuf, cast_eq])
  all_goals rfl
set_option maxHeartbeats 4000000 in
theorem val14_main_v282 (V0 : Valuation τ sig (Elt F)) : val14 V0 (no_index (Proc.devRef .tc main_v282)) = Cert.ReferenceIdeal.ReadP.val_main_v282 (F := F) (V0 (Proc.devRef .tc main_arg0)) := by
  unfold val14
  simp only [ops14]
  after_results_simp9
  simp only [val13_main_arg0]
  all_goals (try simp only [StableHlo.TRef.ofBuf, StableHlo.TRef.toBuf, cast_eq])
  all_goals rfl
set_option maxHeartbeats 4000000 in
theorem val14_main_v283 (V0 : Valuation τ sig (Elt F)) : val14 V0 (no_index (Proc.devRef .tc main_v283)) = Cert.ReferenceIdeal.ReadP.val_main_v283 (F := F) := by
  unfold val14
  simp only [ops14]
  after_results_simp9
  all_goals rfl
set_option maxHeartbeats 4000000 in
theorem val14_main_v284 (V0 : Valuation τ sig (Elt F)) : val14 V0 (no_index (Proc.devRef .tc main_v284)) = Cert.ReferenceIdeal.ReadP.val_main_v284 (F := F) (V0 (Proc.devRef .tc main_arg0)) := by
  unfold val14
  simp only [ops14]
  after_results_simp9
  simp only [val13_main_arg0]
  all_goals (try simp only [StableHlo.TRef.ofBuf, StableHlo.TRef.toBuf, cast_eq])
  all_goals rfl

/-- What a core's buffers hold after the first 15 stretches. -/
def val15 (V0 : Valuation τ sig (Elt F)) : Valuation τ sig (Elt F) := after ops15 (val14 V0)
/-- The buffers stretch 15 writes. -/
abbrev ops15_W : List (Ref sig .tc) := [main_v285, main_v286, main_v287, main_v288, main_v289, main_v290, main_v291]
set_option maxHeartbeats 4000000 in
theorem ops15_writes : (ops15 : List (HloOp τ sig (Elt F))).Forall fun op => op.writes ⊆ (ops15_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 15 does not write keeps its contents through it. -/
theorem val15_keep (V0 : Valuation τ sig (Elt F)) (r : Ref sig .tc) (h : r ∉ ops15_W) :
    val15 V0 (Proc.devRef .tc r) = val14 V0 (Proc.devRef .tc r) :=
  after_of_writes_sub ops15 _ ops15_writes h
theorem val15_main_arg0 (V0 : Valuation τ sig (Elt F)) : val15 V0 (no_index (Proc.devRef .tc main_arg0)) = V0 (Proc.devRef .tc main_arg0) :=
  (val15_keep V0 main_arg0 (by decide)).trans (val14_main_arg0 V0)
theorem val15_main_arg1 (V0 : Valuation τ sig (Elt F)) : val15 V0 (no_index (Proc.devRef .tc main_arg1)) = V0 (Proc.devRef .tc main_arg1) :=
  (val15_keep V0 main_arg1 (by decide)).trans (val14_main_arg1 V0)
theorem val15_main_v241 (V0 : Valuation τ sig (Elt F)) : val15 V0 (no_index (Proc.devRef .tc main_v241)) = Cert.ReferenceIdeal.ReadP.val_main_v241 (F := F) (V0 (Proc.devRef .tc main_arg0)) (V0 (Proc.devRef .tc main_arg1)) :=
  (val15_keep V0 main_v241 (by decide)).trans (val14_main_v241 V0)
theorem val15_main_v243 (V0 : Valuation τ sig (Elt F)) : val15 V0 (no_index (Proc.devRef .tc main_v243)) = Cert.ReferenceIdeal.ReadP.val_main_v243 (F := F) (V0 (Proc.devRef .tc main_arg0)) (V0 (Proc.devRef .tc main_arg1)) :=
  (val15_keep V0 main_v243 (by decide)).trans (val14_main_v243 V0)
theorem val15_main_v283 (V0 : Valuation τ sig (Elt F)) : val15 V0 (no_index (Proc.devRef .tc main_v283)) = Cert.ReferenceIdeal.ReadP.val_main_v283 (F := F) :=
  (val15_keep V0 main_v283 (by decide)).trans (val14_main_v283 V0)
theorem val15_main_v284 (V0 : Valuation τ sig (Elt F)) : val15 V0 (no_index (Proc.devRef .tc main_v284)) = Cert.ReferenceIdeal.ReadP.val_main_v284 (F := F) (V0 (Proc.devRef .tc main_arg0)) :=
  (val15_keep V0 main_v284 (by decide)).trans (val14_main_v284 V0)
set_option maxHeartbeats 4000000 in
theorem val15_main_v285 (V0 : Valuation τ sig (Elt F)) : val15 V0 (no_index (Proc.devRef .tc main_v285)) = Cert.ReferenceIdeal.ReadP.val_main_v285 (F := F) (V0 (Proc.devRef .tc main_arg0)) := by
  unfold val15
  simp only [ops15]
  after_results_simp9
  simp only [val14_main_v259]
  all_goals rfl
set_option maxHeartbeats 4000000 in
theorem val15_main_v286 (V0 : Valuation τ sig (Elt F)) : val15 V0 (no_index (Proc.devRef .tc main_v286)) = Cert.ReferenceIdeal.ReadP.val_main_v286 (F := F) (V0 (Proc.devRef .tc main_arg0)) := by
  unfold val15
  simp only [ops15]
  after_results_simp9
  simp only [val14_main_v261]
  all_goals rfl
set_option maxHeartbeats 4000000 in
theorem val15_main_v287 (V0 : Valuation τ sig (Elt F)) : val15 V0 (no_index (Proc.devRef .tc main_v287)) = Cert.ReferenceIdeal.ReadP.val_main_v287 (F := F) (V0 (Proc.devRef .tc main_arg0)) := by
  unfold val15
  simp only [ops15]
  after_results_simp9
  simp only [val14_main_v264]
  all_goals rfl
set_option maxHeartbeats 4000000 in
theorem val15_main_v288 (V0 : Valuation τ sig (Elt F)) : val15 V0 (no_index (Proc.devRef .tc main_v288)) = Cert.ReferenceIdeal.ReadP.val_main_v288 (F := F) (V0 (Proc.devRef .tc main_arg0)) := by
  unfold val15
  simp only [ops15]
  after_results_simp9
  simp only [val14_main_v267]
  all_goals rfl
set_option maxHeartbeats 4000000 in
theorem val15_main_v289 (V0 : Valuation τ sig (Elt F)) : val15 V0 (no_index (Proc.devRef .tc main_v289)) = Cert.ReferenceIdeal.ReadP.val_main_v289 (F := F) (V0 (Proc.devRef .tc main_arg0)) := by
  unfold val15
  simp only [ops15]
  after_results_simp9
  simp only [val14_main_v274]
  all_goals rfl
set_option maxHeartbeats 4000000 in
theorem val15_main_v290 (V0 : Valuation τ sig (Elt F)) : val15 V0 (no_index (Proc.devRef .tc main_v290)) = Cert.ReferenceIdeal.ReadP.val_main_v290 (F := F) (V0 (Proc.devRef .tc main_arg0)) := by
  unfold val15
  simp only [ops15]
  after_results_simp9
  simp only [val14_main_v277]
  all_goals rfl
set_option maxHeartbeats 4000000 in
theorem val15_main_v291 (V0 : Valuation τ sig (Elt F)) : val15 V0 (no_index (Proc.devRef .tc main_v291)) = Cert.ReferenceIdeal.ReadP.val_main_v291 (F := F) (V0 (Proc.devRef .tc main_arg0)) := by
  unfold val15
  simp only [ops15]
  after_results_simp9
  simp only [val14_main_v282]
  all_goals rfl

/-- What a core's buffers hold after the first 16 stretches. -/
def val16 (V0 : Valuation τ sig (Elt F)) : Valuation τ sig (Elt F) := after ops16 (val15 V0)
/-- The buffers stretch 16 writes. -/
abbrev ops16_W : List (Ref sig .tc) := [main_v292, main_v293, main_v294, main_v295, main_cst_73, main_v296, main_v297, main_v298, main_cst_74, main_v299, main_v300, main_cst_75, main_v301, main_v302, main_call2_cst, main_call2_v0, main_call2_v1, main_call2_v2, main_call2_v3, main_call2_v4, main_call2_v5, main_call2_v6, main_call2_v7, main_call2_v8, main_call2_v9, main_call2_v10, main_call2_v11, main_v303, main_v304]
set_option maxHeartbeats 4000000 in
theorem ops16_writes : (ops16 : List (HloOp τ sig (Elt F))).Forall fun op => op.writes ⊆ (ops16_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 16 does not write keeps its contents through it. -/
theorem val16_keep (V0 : Valuation τ sig (Elt F)) (r : Ref sig .tc) (h : r ∉ ops16_W) :
    val16 V0 (Proc.devRef .tc r) = val15 V0 (Proc.devRef .tc r) :=
  after_of_writes_sub ops16 _ ops16_writes h
theorem val16_main_arg0 (V0 : Valuation τ sig (Elt F)) : val16 V0 (no_index (Proc.devRef .tc main_arg0)) = V0 (Proc.devRef .tc main_arg0) :=
  (val16_keep V0 main_arg0 (by decide)).trans (val15_main_arg0 V0)
theorem val16_main_arg1 (V0 : Valuation τ sig (Elt F)) : val16 V0 (no_index (Proc.devRef .tc main_arg1)) = V0 (Proc.devRef .tc main_arg1) :=
  (val16_keep V0 main_arg1 (by decide)).trans (val15_main_arg1 V0)
set_option maxHeartbeats 4000000 in
theorem val16_main_v302 (V0 : Valuation τ sig (Elt F)) : val16 V0 (no_index (Proc.devRef .tc main_v302)) = Cert.ReferenceIdeal.ReadP.val_main_v302 (F := F) (V0 (Proc.devRef .tc main_arg0)) (V0 (Proc.devRef .tc main_arg1)) := by
  unfold val16
  simp only [ops16]
  after_results_simp9
  simp only [val15_main_v291, val15_main_v290, val15_main_v289, val15_main_v288, val15_main_v287, val15_main_v286, val15_main_v285, val15_main_v284, val15_main_v283, val15_main_v243]
  all_goals rfl
set_option maxHeartbeats 4000000 in
theorem val16_main_v304 (V0 : Valuation τ sig (Elt F)) : val16 V0 (no_index (Proc.devRef .tc main_v304)) = Cert.ReferenceIdeal.ReadP.val_main_v304 (F := F) (V0 (Proc.devRef .tc main_arg0)) (V0 (Proc.devRef .tc main_arg1)) := by
  unfold val16
  simp only [ops16]
  after_results_simp9
  simp only [val15_main_v241]
  all_goals (try simp only [StableHlo.TRef.ofBuf, StableHlo.TRef.toBuf, cast_eq])
  all_goals rfl

/-- The fold of the whole line is the contents after the last stretch. -/
theorem after_ops (V0 : Valuation τ sig (Elt F)) : after (ops (F := F)) V0 = val16 V0 := by
  simp only [ops, win0, win1, win2, win3, win4, win5, win6, after_append]
  rfl

theorem read_main_v302 (V0 : Valuation τ sig (Elt F)) :
    after (ops (F := F)) V0 (Proc.devRef .tc main_v302) = Cert.ReferenceIdeal.ReadP.val_main_v302 (F := F) (V0 (Proc.devRef .tc main_arg0)) (V0 (Proc.devRef .tc main_arg1)) := by
  rw [after_ops]; exact val16_main_v302 V0

theorem read_main_v304 (V0 : Valuation τ sig (Elt F)) :
    after (ops (F := F)) V0 (Proc.devRef .tc main_v304) = Cert.ReferenceIdeal.ReadP.val_main_v304 (F := F) (V0 (Proc.devRef .tc main_arg0)) (V0 (Proc.devRef .tc main_arg1)) := by
  rw [after_ops]; exact val16_main_v304 V0

theorem read_main_arg0 (V0 : Valuation τ sig (Elt F)) :
    after (ops (F := F)) V0 (Proc.devRef .tc main_arg0) = V0 (Proc.devRef .tc main_arg0) := by
  rw [after_ops]; exact val16_main_arg0 V0

theorem read_main_arg1 (V0 : Valuation τ sig (Elt F)) :
    after (ops (F := F)) V0 (Proc.devRef .tc main_arg1) = V0 (Proc.devRef .tc main_arg1) := by
  rw [after_ops]; exact val16_main_arg1 V0

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v302) = Cert.ReferenceIdeal.ReadP.val_main_v302 (F := F) (m ((c.tc : Thread nD τ).loc main_arg0)) (m ((c.tc : Thread nD τ).loc main_arg1))
      ∧ r.2.mem ((c.tc : Thread nD τ).loc main_v304) = Cert.ReferenceIdeal.ReadP.val_main_v304 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v302).trans (read_main_v302 (launchContents m c)),
      (h c main_v304).trans (read_main_v304 (launchContents m c)),
      (h c main_arg0).trans (read_main_arg0 (launchContents m c)),
      (h c main_arg1).trans (read_main_arg1 (launchContents m c))⟩)
    (run_raw m ρ)

end Cert.ReferenceIdeal.HandRun

end
-- ==== Proof.RefRows.lean ====
/-
  One query point of the reference: its colour and density, read at a point, are the colour and density model of that
  point's rows of the eight gathered corner arrays, the offsets and the directions.
-/
import proofs.«144185_j57191784513782_1_alg».proof.Proof.RefRead
import proofs.«144185_j57191784513782_1_alg».proof.Proof.Spec
import proofs.«144185_j57191784513782_1_alg».proof.Proof.LibRowOps
import Idealize.ShloMosaic.Lib.ValueIdx

set_option maxRecDepth 16384

noncomputable section

namespace Cert.ReferenceIdeal.RefValue

open Cert.ReferenceIdeal Cert.ReferenceIdeal.ReadP
open Idealize.ShloMosaic Idealize.ShloMosaic.TcCoe Idealize.ShloMosaic.ValueIdx

/-- Row `n` of the eight gathered corner arrays: corner `a`'s feature `j` (the gathers in the program's order: z0y0x0,
    z0y0x1, z0y1x0, z0y1x1, z1y0x0, z1y0x1, z1y1x0, z1y1x1). -/
abbrev cornerRows (a0 : Vec Ideal S2000000x3 .f32) (a1 : Vec Ideal S192x192x192x28 .f32) (n : Fin 2000000) : Fin 8 → Fin 28 → EReal :=
  fun a j => (![val_main_v50 (F := Ideal) a0 a1, val_main_v74 (F := Ideal) a0 a1, val_main_v97 (F := Ideal) a0 a1, val_main_v121 (F := Ideal) a0 a1,
    val_main_v144 (F := Ideal) a0 a1, val_main_v168 (F := Ideal) a0 a1, val_main_v191 (F := Ideal) a0 a1, val_main_v215 (F := Ideal) a0 a1] a) (ix2 n j)

/-! ## The float one -/

/-- The float `1.0` (sign 0, biased exponent 127, mantissa 0) is the extended real one: `2 ^ 23 * (2 ^ 23)⁻¹`. -/
theorem one_f32 : Ideal.ofBits .f32 0x3F800000#32 = (1 : EReal) := by
  simp [Ideal.ofBits, Ideal.ieee]
  rw [← EReal.coe_mul, ← EReal.coe_one]
  exact congrArg _ (by norm_num)

/-! ## The seven blends

Each blend is `a * (1 - t) + b * t` with `t` one column of the offsets, broadcast along the 28 features: at `(n, j)`
the broadcasts read the offsets' row `n`, whatever `j` is. -/

section Blends
variable (a0 : Vec Ideal S2000000x3 .f32) (a1 : Vec Ideal S192x192x192x28 .f32) (n : Fin 2000000) (j : Fin 28)

/-- Along x, corners z0y0x0 and z0y0x1. -/
theorem v77_at : val_main_v77 (F := Ideal) a0 a1 (ix2 n j)
    = Cert.Spec.lerp (val_main_v50 (F := Ideal) a0 a1 (ix2 n j)) (val_main_v74 (F := Ideal) a0 a1 (ix2 n j))
        (val_main_v10 (F := Ideal) a0 (ix2 n 0)) := by
  rw [val_main_v77_apply, val_main_v54_apply, val_main_v76_apply, val_main_v53_apply, val_main_v52_apply,
    val_main_v51_apply, val_main_cst_12_apply, val_main_v28_apply, val_main_v75_apply, val_main_v28_apply]
  have e : idx_main_v28 (idx_main_v53 (ix2 n j)) = ix2 n 0 :=
    funext fun a => Fin.ext (by match a with | ⟨0, _⟩ => rfl | ⟨1, _⟩ => rfl)
  rw [e]
  rfl

/-- Along x, corners z0y1x0 and z0y1x1. -/
theorem v124_at : val_main_v124 (F := Ideal) a0 a1 (ix2 n j)
    = Cert.Spec.lerp (val_main_v97 (F := Ideal) a0 a1 (ix2 n j)) (val_main_v121 (F := Ideal) a0 a1 (ix2 n j))
        (val_main_v10 (F := Ideal) a0 (ix2 n 0)) := by
  rw [val_main_v124_apply, val_main_v101_apply, val_main_v123_apply, val_main_v100_apply, val_main_v99_apply,
    val_main_v98_apply, val_main_cst_25_apply, val_main_v28_apply, val_main_v122_apply, val_main_v28_apply]
  have e : idx_main_v28 (idx_main_v100 (ix2 n j)) = ix2 n 0 :=
    funext fun a => Fin.ext (by match a with | ⟨0, _⟩ => rfl | ⟨1, _⟩ => rfl)
  rw [e]
  rfl

/-- Along x, corners z1y0x0 and z1y0x1. -/
theorem v171_at : val_main_v171 (F := Ideal) a0 a1 (ix2 n j)
    = Cert.Spec.lerp (val_main_v144 (F := Ideal) a0 a1 (ix2 n j)) (val_main_v168 (F := Ideal) a0 a1 (ix2 n j))
        (val_main_v10 (F := Ideal) a0 (ix2 n 0)) := by
  rw [val_main_v171_apply, val_main_v148_apply, val_main_v170_apply, val_main_v147_apply, val_main_v146_apply,
    val_main_v145_apply, val_main_cst_38_apply, val_main_v28_apply, val_main_v169_apply, val_main_v28_apply]
  have e : idx_main_v28 (idx_main_v147 (ix2 n j)) = ix2 n 0 :=
    funext fun a => Fin.ext (by match a with | ⟨0, _⟩ => rfl | ⟨1, _⟩ => rfl)
  rw [e]
  rfl

/-- Along x, corners z1y1x0 and z1y1x1. -/
theorem v218_at : val_main_v218 (F := Ideal) a0 a1 (ix2 n j)
    = Cert.Spec.lerp (val_main_v191 (F := Ideal) a0 a1 (ix2 n j)) (val_main_v215 (F := Ideal) a0 a1 (ix2 n j))
        (val_main_v10 (F := Ideal) a0 (ix2 n 0)) := by
  rw [val_main_v218_apply, val_main_v195_apply, val_main_v217_apply, val_main_v194_apply, val_main_v193_apply,
    val_main_v192_apply, val_main_cst_51_apply, val_main_v28_apply, val_main_v216_apply, val_main_v28_apply]
  have e : idx_main_v28 (idx_main_v194 (ix2 n j)) = ix2 n 0 :=
    funext fun a => Fin.ext (by match a with | ⟨0, _⟩ => rfl | ⟨1, _⟩ => rfl)
  rw [e]
  rfl

/-- Along y, the two blends at z0. -/
theorem v225_at : val_main_v225 (F := Ideal) a0 a1 (ix2 n j)
    = Cert.Spec.lerp (val_main_v77 (F := Ideal) a0 a1 (ix2 n j)) (val_main_v124 (F := Ideal) a0 a1 (ix2 n j))
        (val_main_v10 (F := Ideal) a0 (ix2 n 1)) := by
  rw [val_main_v225_apply, val_main_v222_apply, val_main_v224_apply, val_main_v221_apply, val_main_v220_apply,
    val_main_v219_apply, val_main_cst_58_apply, val_main_v29_apply, val_main_v223_apply, val_main_v29_apply]
  have e : idx_main_v29 (idx_main_v221 (ix2 n j)) = ix2 n 1 :=
    funext fun a => Fin.ext (by match a with | ⟨0, _⟩ => rfl | ⟨1, _⟩ => rfl)
  rw [e]
  rfl

/-- Along y, the two blends at z1. -/
theorem v232_at : val_main_v232 (F := Ideal) a0 a1 (ix2 n j)
    = Cert.Spec.lerp (val_main_v171 (F := Ideal) a0 a1 (ix2 n j)) (val_main_v218 (F := Ideal) a0 a1 (ix2 n j))
        (val_main_v10 (F := Ideal) a0 (ix2 n 1)) := by
  rw [val_main_v232_apply, val_main_v229_apply, val_main_v231_apply, val_main_v228_apply, val_main_v227_apply,
    val_main_v226_apply, val_main_cst_59_apply, val_main_v29_apply, val_main_v230_apply, val_main_v29_apply]
  have e : idx_main_v29 (idx_main_v228 (ix2 n j)) = ix2 n 1 :=
    funext fun a => Fin.ext (by match a with | ⟨0, _⟩ => rfl | ⟨1, _⟩ => rfl)
  rw [e]
  rfl

/-- Along z. -/
theorem v239_at : val_main_v239 (F := Ideal) a0 a1 (ix2 n j)
    = Cert.Spec.lerp (val_main_v225 (F := Ideal) a0 a1 (ix2 n j)) (val_main_v232 (F := Ideal) a0 a1 (ix2 n j))
        (val_main_v10 (F := Ideal) a0 (ix2 n 2)) := by
  rw [val_main_v239_apply, val_main_v236_apply, val_main_v238_apply, val_main_v235_apply, val_main_v234_apply,
    val_main_v233_apply, val_main_cst_60_apply, val_main_v30_apply, val_main_v237_apply, val_main_v30_apply]
  have e : idx_main_v30 (idx_main_v235 (ix2 n j)) = ix2 n 2 :=
    funext fun a => Fin.ext (by match a with | ⟨0, _⟩ => rfl | ⟨1, _⟩ => rfl)
  rw [e]
  rfl

/-- The 28 blended features at `(n, j)`: the trilinear blend of the eight corners' feature `j`. -/
theorem feat_at : val_main_v239 (F := Ideal) a0 a1 (ix2 n j)
    = Cert.Spec.feat (fun a => cornerRows a0 a1 n a j) (fun k => val_main_v10 (F := Ideal) a0 (ix2 n k)) := by
  rw [v239_at, v225_at, v232_at, v77_at, v124_at, v171_at, v218_at]
  rfl

end Blends

/-! ## The direction's three columns -/

section Direction
variable (a0 : Vec Ideal S2000000x3 .f32) (n : Fin 2000000)

theorem v248_at : val_main_v248 (F := Ideal) a0 (ix1 n) = val_main_v246 (F := Ideal) a0 (ix2 n 0) := by
  rw [val_main_v248_apply, val_main_v247_apply]
  exact congrArg _ (funext fun a => Fin.ext (by match a with | ⟨0, _⟩ => exact Nat.div_one _ | ⟨1, _⟩ => rfl))

theorem v250_at : val_main_v250 (F := Ideal) a0 (ix1 n) = val_main_v246 (F := Ideal) a0 (ix2 n 1) := by
  rw [val_main_v250_apply, val_main_v249_apply]
  exact congrArg _ (funext fun a => Fin.ext (by match a with | ⟨0, _⟩ => exact Nat.div_one _ | ⟨1, _⟩ => rfl))

theorem v252_at : val_main_v252 (F := Ideal) a0 (ix1 n) = val_main_v246 (F := Ideal) a0 (ix2 n 2) := by
  rw [val_main_v252_apply, val_main_v251_apply]
  exact congrArg _ (funext fun a => Fin.ext (by match a with | ⟨0, _⟩ => exact Nat.div_one _ | ⟨1, _⟩ => rfl))

end Direction

/-! The nine entries of the model's basis, one by one. -/

section BasisEntries
variable (d : Fin 3 → EReal)
theorem basis_0 (h : 0 < 9) : Cert.Spec.basis d ⟨0, h⟩ = Cert.Spec.k0 * Cert.Spec.one := rfl
theorem basis_1 (h : 1 < 9) : Cert.Spec.basis d ⟨1, h⟩ = Cert.Spec.k1 * d 1 := rfl
theorem basis_2 (h : 2 < 9) : Cert.Spec.basis d ⟨2, h⟩ = Cert.Spec.k1 * d 2 := rfl
theorem basis_3 (h : 3 < 9) : Cert.Spec.basis d ⟨3, h⟩ = Cert.Spec.k1 * d 0 := rfl
theorem basis_4 (h : 4 < 9) : Cert.Spec.basis d ⟨4, h⟩ = Cert.Spec.k2 * d 0 * d 1 := rfl
theorem basis_5 (h : 5 < 9) : Cert.Spec.basis d ⟨5, h⟩ = Cert.Spec.k2 * d 1 * d 2 := rfl
theorem basis_6 (h : 6 < 9) : Cert.Spec.basis d ⟨6, h⟩ = Cert.Spec.k20 * (Cert.Spec.three * d 2 * d 2 - Cert.Spec.one) := rfl
theorem basis_7 (h : 7 < 9) : Cert.Spec.basis d ⟨7, h⟩ = Cert.Spec.k2 * d 0 * d 2 := rfl
theorem basis_8 (h : 8 < 9) : Cert.Spec.basis d ⟨8, h⟩ = Cert.Spec.k22 * (d 0 * d 0 - d 1 * d 1) := rfl
end BasisEntries

/-! ## The nine basis values

Column `k` of the concatenation is piece `k`, a rank-1 array broadcast to one column; each piece is a product of a
constant and the direction's columns, grouped as the model groups it. -/

section Basis
variable (a0 : Vec Ideal S2000000x3 .f32) (n : Fin 2000000)

/-- A one-column broadcast of a rank-1 array reads, at `(n, 0)`, entry `n`. -/
theorem col0_idx : idx_main_v283 (ix2 n 0) = ix1 n :=
  funext fun a => Fin.ext (by match a with | ⟨0, _⟩ => rfl)

theorem v292_c0 (h : 0 < 9) : val_main_v292 (F := Ideal) a0 (ix2 n (⟨0, h⟩ : Fin 9)) = val_main_v283 (F := Ideal) (ix2 n 0) := by
  unfold val_main_v292
  exact Cert.LibRowOps.catUnits_apply n (⟨0, h⟩ : Fin 9) (by show (0 : ℕ) < 9; omega) (val_main_v283 (F := Ideal)) rfl rfl

theorem v292_c1 (h : 1 < 9) : val_main_v292 (F := Ideal) a0 (ix2 n (⟨1, h⟩ : Fin 9)) = val_main_v284 (F := Ideal) a0 (ix2 n 0) := by
  unfold val_main_v292
  exact Cert.LibRowOps.catUnits_apply n (⟨1, h⟩ : Fin 9) (by show (1 : ℕ) < 9; omega) (val_main_v284 (F := Ideal) a0) rfl rfl

theorem v292_c2 (h : 2 < 9) : val_main_v292 (F := Ideal) a0 (ix2 n (⟨2, h⟩ : Fin 9)) = val_main_v285 (F := Ideal) a0 (ix2 n 0) := by
  unfold val_main_v292
  exact Cert.LibRowOps.catUnits_apply n (⟨2, h⟩ : Fin 9) (by show (2 : ℕ) < 9; omega) (val_main_v285 (F := Ideal) a0) rfl rfl

theorem v292_c3 (h : 3 < 9) : val_main_v292 (F := Ideal) a0 (ix2 n (⟨3, h⟩ : Fin 9)) = val_main_v286 (F := Ideal) a0 (ix2 n 0) := by
  unfold val_main_v292
  exact Cert.LibRowOps.catUnits_apply n (⟨3, h⟩ : Fin 9) (by show (3 : ℕ) < 9; omega) (val_main_v286 (F := Ideal) a0) rfl rfl

theorem v292_c4 (h : 4 < 9) : val_main_v292 (F := Ideal) a0 (ix2 n (⟨4, h⟩ : Fin 9)) = val_main_v287 (F := Ideal) a0 (ix2 n 0) := by
  unfold val_main_v292
  exact Cert.LibRowOps.catUnits_apply n (⟨4, h⟩ : Fin 9) (by show (4 : ℕ) < 9; omega) (val_main_v287 (F := Ideal) a0) rfl rfl

theorem v292_c5 (h : 5 < 9) : val_main_v292 (F := Ideal) a0 (ix2 n (⟨5, h⟩ : Fin 9)) = val_main_v288 (F := Ideal) a0 (ix2 n 0) := by
  unfold val_main_v292
  exact Cert.LibRowOps.catUnits_apply n (⟨5, h⟩ : Fin 9) (by show (5 : ℕ) < 9; omega) (val_main_v288 (F := Ideal) a0) rfl rfl

theorem v292_c6 (h : 6 < 9) : val_main_v292 (F := Ideal) a0 (ix2 n (⟨6, h⟩ : Fin 9)) = val_main_v289 (F := Ideal) a0 (ix2 n 0) := by
  unfold val_main_v292
  exact Cert.LibRowOps.catUnits_apply n (⟨6, h⟩ : Fin 9) (by show (6 : ℕ) < 9; omega) (val_main_v289 (F := Ideal) a0) rfl rfl

theorem v292_c7 (h : 7 < 9) : val_main_v292 (F := Ideal) a0 (ix2 n (⟨7, h⟩ : Fin 9)) = val_main_v290 (F := Ideal) a0 (ix2 n 0) := by
  unfold val_main_v292
  exact Cert.LibRowOps.catUnits_apply n (⟨7, h⟩ : Fin 9) (by show (7 : ℕ) < 9; omega) (val_main_v290 (F := Ideal) a0) rfl rfl

theorem v292_c8 (h : 8 < 9) : val_main_v292 (F := Ideal) a0 (ix2 n (⟨8, h⟩ : Fin 9)) = val_main_v291 (F := Ideal) a0 (ix2 n 0) := by
  unfold val_main_v292
  exact Cert.LibRowOps.catUnits_apply n (⟨8, h⟩ : Fin 9) (by show (8 : ℕ) < 9; omega) (val_main_v291 (F := Ideal) a0) rfl rfl

theorem b0 : val_main_v283 (F := Ideal) (ix2 n 0) = Cert.Spec.k0 * Cert.Spec.one := by
  rw [val_main_v283_apply, val_main_v255_apply, val_main_v254_apply, val_main_v253_apply, val_main_cst_62_apply,
    val_main_cst_61_apply]
  rfl

theorem b1 : val_main_v284 (F := Ideal) a0 (ix2 n 0) = Cert.Spec.k1 * val_main_v246 (F := Ideal) a0 (ix2 n 1) := by
  rw [val_main_v284_apply, val_main_v257_apply, val_main_v256_apply, val_main_cst_63_apply]
  have e : idx_main_v284 (ix2 n 0) = ix1 n := col0_idx n
  rw [e, v250_at]
  rfl

theorem b2 : val_main_v285 (F := Ideal) a0 (ix2 n 0) = Cert.Spec.k1 * val_main_v246 (F := Ideal) a0 (ix2 n 2) := by
  rw [val_main_v285_apply, val_main_v259_apply, val_main_v258_apply, val_main_cst_64_apply]
  have e : idx_main_v285 (ix2 n 0) = ix1 n := col0_idx n
  rw [e, v252_at]
  rfl

theorem b3 : val_main_v286 (F := Ideal) a0 (ix2 n 0) = Cert.Spec.k1 * val_main_v246 (F := Ideal) a0 (ix2 n 0) := by
  rw [val_main_v286_apply, val_main_v261_apply, val_main_v260_apply, val_main_cst_65_apply]
  have e : idx_main_v286 (ix2 n 0) = ix1 n := col0_idx n
  rw [e, v248_at]
  rfl

theorem b4 : val_main_v287 (F := Ideal) a0 (ix2 n 0)
    = Cert.Spec.k2 * val_main_v246 (F := Ideal) a0 (ix2 n 0) * val_main_v246 (F := Ideal) a0 (ix2 n 1) := by
  rw [val_main_v287_apply, val_main_v264_apply, val_main_v263_apply, val_main_v262_apply, val_main_cst_66_apply]
  have e : idx_main_v287 (ix2 n 0) = ix1 n := col0_idx n
  rw [e, v248_at, v250_at]
  rfl

theorem b5 : val_main_v288 (F := Ideal) a0 (ix2 n 0)
    = Cert.Spec.k2 * val_main_v246 (F := Ideal) a0 (ix2 n 1) * val_main_v246 (F := Ideal) a0 (ix2 n 2) := by
  rw [val_main_v288_apply, val_main_v267_apply, val_main_v266_apply, val_main_v265_apply, val_main_cst_67_apply]
  have e : idx_main_v288 (ix2 n 0) = ix1 n := col0_idx n
  rw [e, v250_at, v252_at]
  rfl

theorem b6 : val_main_v289 (F := Ideal) a0 (ix2 n 0)
    = Cert.Spec.k20 * (Cert.Spec.three * val_main_v246 (F := Ideal) a0 (ix2 n 2) * val_main_v246 (F := Ideal) a0 (ix2 n 2)
        - Cert.Spec.one) := by
  rw [val_main_v289_apply, val_main_v274_apply, val_main_v273_apply, val_main_cst_70_apply, val_main_v272_apply,
    val_main_v270_apply, val_main_v269_apply, val_main_v268_apply, val_main_cst_68_apply, val_main_v271_apply,
    val_main_cst_69_apply]
  have e : idx_main_v289 (ix2 n 0) = ix1 n := col0_idx n
  rw [e, v252_at]
  rfl

theorem b7 : val_main_v290 (F := Ideal) a0 (ix2 n 0)
    = Cert.Spec.k2 * val_main_v246 (F := Ideal) a0 (ix2 n 0) * val_main_v246 (F := Ideal) a0 (ix2 n 2) := by
  rw [val_main_v290_apply, val_main_v277_apply, val_main_v276_apply, val_main_v275_apply, val_main_cst_71_apply]
  have e : idx_main_v290 (ix2 n 0) = ix1 n := col0_idx n
  rw [e, v248_at, v252_at]
  rfl

theorem b8 : val_main_v291 (F := Ideal) a0 (ix2 n 0)
    = Cert.Spec.k22 * (val_main_v246 (F := Ideal) a0 (ix2 n 0) * val_main_v246 (F := Ideal) a0 (ix2 n 0)
        - val_main_v246 (F := Ideal) a0 (ix2 n 1) * val_main_v246 (F := Ideal) a0 (ix2 n 1)) := by
  rw [val_main_v291_apply, val_main_v282_apply, val_main_v281_apply, val_main_cst_72_apply, val_main_v280_apply,
    val_main_v278_apply, val_main_v279_apply]
  have e : idx_main_v291 (ix2 n 0) = ix1 n := col0_idx n
  rw [e, v248_at, v250_at]
  rfl

/-- The basis row of point `n`. -/
theorem v292_at (k : Fin 9) : val_main_v292 (F := Ideal) a0 (ix2 n k)
    = Cert.Spec.basis (fun c => val_main_v246 (F := Ideal) a0 (ix2 n c)) k := by
  match k with
  | ⟨0, h⟩ => exact ((v292_c0 a0 n h).trans (b0 n)).trans (basis_0 (fun c => val_main_v246 (F := Ideal) a0 (ix2 n c)) h).symm
  | ⟨1, h⟩ => exact ((v292_c1 a0 n h).trans (b1 a0 n)).trans (basis_1 (fun c => val_main_v246 (F := Ideal) a0 (ix2 n c)) h).symm
  | ⟨2, h⟩ => exact ((v292_c2 a0 n h).trans (b2 a0 n)).trans (basis_2 (fun c => val_main_v246 (F := Ideal) a0 (ix2 n c)) h).symm
  | ⟨3, h⟩ => exact ((v292_c3 a0 n h).trans (b3 a0 n)).trans (basis_3 (fun c => val_main_v246 (F := Ideal) a0 (ix2 n c)) h).symm
  | ⟨4, h⟩ => exact ((v292_c4 a0 n h).trans (b4 a0 n)).trans (basis_4 (fun c => val_main_v246 (F := Ideal) a0 (ix2 n c)) h).symm
  | ⟨5, h⟩ => exact ((v292_c5 a0 n h).trans (b5 a0 n)).trans (basis_5 (fun c => val_main_v246 (F := Ideal) a0 (ix2 n c)) h).symm
  | ⟨6, h⟩ => exact ((v292_c6 a0 n h).trans (b6 a0 n)).trans (basis_6 (fun c => val_main_v246 (F := Ideal) a0 (ix2 n c)) h).symm
  | ⟨7, h⟩ => exact ((v292_c7 a0 n h).trans (b7 a0 n)).trans (basis_7 (fun c => val_main_v246 (F := Ideal) a0 (ix2 n c)) h).symm
  | ⟨8, h⟩ => exact ((v292_c8 a0 n h).trans (b8 a0 n)).trans (basis_8 (fun c => val_main_v246 (F := Ideal) a0 (ix2 n c)) h).symm

end Basis

/-! ## One product of the colour's inner product, and the density's feature -/

section Point
variable (a0 : Vec Ideal S2000000x3 .f32) (a1 : Vec Ideal S192x192x192x28 .f32) (n : Fin 2000000)

/-- Term `k` of channel `q`'s sum: the reshape `[N, 27] → [N, 3, 9]` is row-major, so entry `(n, q, k)` is column
    `9 q + k` of the 27, which is feature `1 + 9 q + k`; the basis row is broadcast along the channels. -/
theorem v295_at (q : Fin 3) (k : Fin 9) : val_main_v295 (F := Ideal) a0 a1 (idx_main_v296 (ix2 n q) k)
    = Cert.Spec.feat (fun a => cornerRows a0 a1 n a (Cert.Spec.coef q k)) (fun c => val_main_v10 (F := Ideal) a0 (ix2 n c))
      * Cert.Spec.basis (fun c => val_main_v246 (F := Ideal) a0 (ix2 n c)) k := by
  have e0 : idx_main_v296 (ix2 n q) k = ix3 n q k :=
    funext fun a => Fin.ext (by match a with | ⟨0, _⟩ => rfl | ⟨1, _⟩ => rfl | ⟨2, _⟩ => rfl)
  rw [e0, val_main_v295_apply, val_main_v243_apply, val_main_v242_apply, val_main_v294_apply, val_main_v293_apply]
  have e1 : idx_main_v242 (idx_main_v243 (ix3 n q k)) = ix2 n (Cert.Spec.coef q k) :=
    funext fun a => Fin.ext (by
      have hq : q.val < 3 := q.isLt
      have hk : k.val < 9 := k.isLt
      match a with
      | ⟨0, _⟩ => show ((n.val * 3 + q.val) * 9 + k.val) / 27 = n.val; omega
      | ⟨1, _⟩ => show 1 + ((n.val * 3 + q.val) * 9 + k.val) % 27 = 1 + 9 * q.val + k.val; omega)
  have e2 : idx_main_v293 (idx_main_v294 (ix3 n q k)) = ix2 n k :=
    funext fun a => Fin.ext (by match a with | ⟨0, _⟩ => rfl | ⟨1, _⟩ => rfl)
  rw [e1, e2, feat_at, v292_at]
  rfl

/-- The density's feature: column 0 of the 28, as a rank-1 array. -/
theorem v241_at : val_main_v241 (F := Ideal) a0 a1 (ix1 n)
    = Cert.Spec.feat (fun a => cornerRows a0 a1 n a 0) (fun c => val_main_v10 (F := Ideal) a0 (ix2 n c)) := by
  rw [val_main_v241_apply, val_main_v240_apply]
  have e : idx_main_v240 (idx_main_v241 (ix1 n)) = ix2 n 0 :=
    funext fun a => Fin.ext (by match a with | ⟨0, _⟩ => exact Nat.div_one _ | ⟨1, _⟩ => rfl)
  rw [e, feat_at]

end Point

/-- The reference's colours at point `n`, channel `q`. -/
theorem rgb_apply (a0 : Vec Ideal S2000000x3 .f32) (a1 : Vec Ideal S192x192x192x28 .f32) (n : Fin 2000000) (q : Fin 3) :
    val_main_v302 (F := Ideal) a0 a1 (ix2 n q)
      = Cert.Spec.rgb (cornerRows a0 a1 n) (fun k => val_main_v10 (F := Ideal) a0 (ix2 n k)) (fun k => val_main_v246 (F := Ideal) a0 (ix2 n k)) q := by
  rw [val_main_v302_apply, val_main_v301_apply, val_main_cst_75_apply, val_main_v300_apply, val_main_v299_apply,
    val_main_cst_74_apply, val_main_v298_apply, val_main_v297_apply, val_main_v296_apply, val_main_cst_73_apply,
    Finset.sum_congr rfl (fun k _ => v295_at a0 a1 n q k)]
  simp only [Ideal.hostDivf_def, Ideal.addf_def, Ideal.hostNegf_def, Ideal.negf_def, Ideal.hostUnary_exp_def,
    Ideal.ofBits_def, one_f32, Ideal.ofBits_zero_f32, zero_add]
  rfl

/-- The reference's density at point `n`. -/
theorem sigma_apply (a0 : Vec Ideal S2000000x3 .f32) (a1 : Vec Ideal S192x192x192x28 .f32) (n : Fin 2000000) :
    val_main_v304 (F := Ideal) a0 a1 (ix2 n 0)
      = Cert.Spec.sigma (cornerRows a0 a1 n) (fun k => val_main_v10 (F := Ideal) a0 (ix2 n k)) := by
  have e : idx_main_v304 (ix2 n 0) = ix1 n :=
    funext fun a => Fin.ext (by match a with | ⟨0, _⟩ => rfl)
  have hne : ∀ x : EReal, Ideal.cmp .une x x = 0#1 := fun x => by simp [Ideal.cmp]
  rw [val_main_v304_apply, e, val_main_v303_apply, val_main_call2_v4_apply, Ideal.cmpf_def, hne, select_zero,
    val_main_call2_v11_apply, val_main_call2_v1_apply, val_main_call2_v10_apply, val_main_call2_v9_apply,
    val_main_call2_v8_apply, val_main_call2_v7_apply, val_main_call2_v3_apply, val_main_call2_v0_apply,
    val_main_call2_v2_apply, val_main_call2_cst_apply, v241_at]
  simp only [Ideal.addf_def, Ideal.subf_def, Ideal.maximumf_def, Ideal.hostNegf_def, Ideal.negf_def, Ideal.hostAbsf_def,
    Ideal.absf_def, Ideal.hostUnary_exp_def, Ideal.hostUnary_log1p_def, Ideal.ofBits_def, Ideal.ofBits_zero_f32, sub_zero]
  rfl

end Cert.ReferenceIdeal.RefValue

end
-- ==== Proof.lean ====
/-
  A voxel-grid colour and density model, as a tiled kernel and as plain array code: the two are one function.

  Both programs scale and clip each of two million query points to grid coordinates, gather the 28 features of the
  eight corners of the cell the point falls in, and normalise the point to a direction — by the same host operations.
  The reference then blends the corners trilinearly, reads the density through softplus and each colour channel through
  the logistic function of nine harmonic coefficients' inner product with the direction's basis values, all on whole
  arrays; the kernel does the same arithmetic on blocks of 16000 points, one block a grid point, the gathered arrays
  staged block by block. Read at a query point, both are the per-point model of `Cert.Spec` of that point's rows of the
  gathered arrays (the kernel: a block's row, and the 125 blocks tile the arrays; the reference: the operations read
  at an index), and the gathered arrays are the same functions of the two arguments. No law of arithmetic is needed
  beyond the definitions: the two programs group every sum and product alike, and the kernel's logistic is the
  reference's `1 / (1 + e^(-x))` by definition on the extended reals. The idealization rewrote nothing, so the kernel
  at words and at extended reals is one text and its frame is proved once for both.
-/
import proofs.«144185_j57191784513782_1_alg».proof.Defs
import proofs.«144185_j57191784513782_1_alg».proof.Proof.Gen.Kernel
import proofs.«144185_j57191784513782_1_alg».proof.Proof.Gen.KernelIdeal
import proofs.«144185_j57191784513782_1_alg».proof.Proof.Gen.ReferenceIdeal
import proofs.«144185_j57191784513782_1_alg».proof.Proof.Gen.Pre_finite_inputs
import proofs.«144185_j57191784513782_1_alg».proof.Proof.FrameBits
import proofs.«144185_j57191784513782_1_alg».proof.Proof.FrameIdeal
import proofs.«144185_j57191784513782_1_alg».proof.Proof.KernelValue
import proofs.«144185_j57191784513782_1_alg».proof.Proof.KernelPrefix
import proofs.«144185_j57191784513782_1_alg».proof.Proof.RefRun
import proofs.«144185_j57191784513782_1_alg».proof.Proof.RefRows
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-! ## The reference's results are the kernel's functions of the reference's own gathered arrays -/

/-- The reference's colours are `Grgb` of its eight gathered corner arrays, its offsets and its directions. -/
theorem ref_rgb (a0 : Vec Ideal Cert.ReferenceIdeal.S2000000x3 .f32) (a1 : Vec Ideal Cert.ReferenceIdeal.S192x192x192x28 .f32) :
    Cert.ReferenceIdeal.ReadP.val_main_v302 (F := Ideal) a0 a1
      = Cert.KernelIdeal.Hand.Grgb (Cert.ReferenceIdeal.ReadP.val_main_v50 (F := Ideal) a0 a1) (Cert.ReferenceIdeal.ReadP.val_main_v74 (F := Ideal) a0 a1) (Cert.ReferenceIdeal.ReadP.val_main_v97 (F := Ideal) a0 a1) (Cert.ReferenceIdeal.ReadP.val_main_v121 (F := Ideal) a0 a1) (Cert.ReferenceIdeal.ReadP.val_main_v144 (F := Ideal) a0 a1) (Cert.ReferenceIdeal.ReadP.val_main_v168 (F := Ideal) a0 a1) (Cert.ReferenceIdeal.ReadP.val_main_v191 (F := Ideal) a0 a1) (Cert.ReferenceIdeal.ReadP.val_main_v215 (F := Ideal) a0 a1) (Cert.ReferenceIdeal.ReadP.val_main_v10 (F := Ideal) a0) (Cert.ReferenceIdeal.ReadP.val_main_v246 (F := Ideal) a0) := by
  funext i
  obtain ⟨n, q, rfl⟩ : ∃ (n : Fin 2000000) (q : Fin 3), i = ix2 n q := ⟨i 0, i 1, eq_ix2 i⟩
  rw [Cert.ReferenceIdeal.RefValue.rgb_apply]
  rfl

/-- The reference's densities are `Gsigma` of its eight gathered corner arrays and its offsets. -/
theorem ref_sigma (a0 : Vec Ideal Cert.ReferenceIdeal.S2000000x3 .f32) (a1 : Vec Ideal Cert.ReferenceIdeal.S192x192x192x28 .f32) :
    Cert.ReferenceIdeal.ReadP.val_main_v304 (F := Ideal) a0 a1
      = Cert.KernelIdeal.Hand.Gsigma (Cert.ReferenceIdeal.ReadP.val_main_v50 (F := Ideal) a0 a1) (Cert.ReferenceIdeal.ReadP.val_main_v74 (F := Ideal) a0 a1) (Cert.ReferenceIdeal.ReadP.val_main_v97 (F := Ideal) a0 a1) (Cert.ReferenceIdeal.ReadP.val_main_v121 (F := Ideal) a0 a1) (Cert.ReferenceIdeal.ReadP.val_main_v144 (F := Ideal) a0 a1) (Cert.ReferenceIdeal.ReadP.val_main_v168 (F := Ideal) a0 a1) (Cert.ReferenceIdeal.ReadP.val_main_v191 (F := Ideal) a0 a1) (Cert.ReferenceIdeal.ReadP.val_main_v215 (F := Ideal) a0 a1) (Cert.ReferenceIdeal.ReadP.val_main_v10 (F := Ideal) a0) := by
  funext i
  obtain ⟨n, q, rfl⟩ : ∃ (n : Fin 2000000) (q : Fin 1), i = ix2 n q := ⟨i 0, i 1, eq_ix2 i⟩
  obtain rfl : q = 0 := Subsingleton.elim _ _
  rw [Cert.ReferenceIdeal.RefValue.sigma_apply]
  rfl

/-! ## The claims -/

theorem frame_p : Cert.frame_Kernel := fun m ρ _ => Cert.Kernel.Hand.frame m ρ
theorem frame_pi : Cert.frame_KernelIdeal := fun m ρ _ => Cert.KernelIdeal.Hand.frame m ρ
theorem frame_ri : Cert.frame_ReferenceIdeal := fun m ρ _ =>
  (θ_run Cert.ReferenceIdeal.defs _ _).mono (fun _ h c => ⟨(h c).2.2.1, (h c).2.2.2⟩) (Cert.ReferenceIdeal.HandRun.run (F := Ideal) m ρ)

/-- The idealization rewrote no operation. -/
theorem preserves : Cert.preserves_Kernel_KernelIdeal := trivial

/-- Run from memories agreeing on the two arguments, both programs end with the colours at `Grgb` and the densities at
    `Gsigma` of the same ten arrays: the kernel's as its launch finds them, the reference's as its stages compute them. -/
theorem algebraic : Cert.algebraic_KernelIdeal_ReferenceIdeal := by
  intro m ρ m' ρ' _ hagree
  refine ⟨_, _, Cert.KernelIdeal.Hand.run_value m ρ, ?_⟩
  refine (θ_run Cert.ReferenceIdeal.defs _ _).mono (fun _ h c => ⟨(h c).1.trans ?_, (h c).2.1.trans ?_, (h c).2.2.1, (h c).2.2.2⟩)
    (Cert.ReferenceIdeal.HandRun.run (F := Ideal) m' ρ')
  · rw [(hagree c).1, (hagree c).2, ref_rgb,
      Cert.KernelIdeal.Hand.V_corner0 m c, Cert.KernelIdeal.Hand.V_corner1 m c, Cert.KernelIdeal.Hand.V_corner2 m c, Cert.KernelIdeal.Hand.V_corner3 m c,
      Cert.KernelIdeal.Hand.V_corner4 m c, Cert.KernelIdeal.Hand.V_corner5 m c, Cert.KernelIdeal.Hand.V_corner6 m c, Cert.KernelIdeal.Hand.V_corner7 m c,
      Cert.KernelIdeal.Hand.V_frac m c, Cert.KernelIdeal.Hand.V_dir m c]
  · rw [(hagree c).1, (hagree c).2, ref_sigma,
      Cert.KernelIdeal.Hand.V_corner0 m c, Cert.KernelIdeal.Hand.V_corner1 m c, Cert.KernelIdeal.Hand.V_corner2 m c, Cert.KernelIdeal.Hand.V_corner3 m c,
      Cert.KernelIdeal.Hand.V_corner4 m c, Cert.KernelIdeal.Hand.V_corner5 m c, Cert.KernelIdeal.Hand.V_corner6 m c, Cert.KernelIdeal.Hand.V_corner7 m c,
      Cert.KernelIdeal.Hand.V_frac m c]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
